-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v14)) (v1 : (c : Dev Cert.KernelIdeal.nD) → Buf (Elt Ideal) ((c.tc : Thread Cert.KernelIdeal.nD Cert.KernelIdeal.τ).loc Cert.KernelIdeal.main_arg1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S21x21 : Shape := ⟨2, ![21, 21]⟩
abbrev S16x1444x128 : Shape := ⟨3, ![16, 1444, 128]⟩
abbrev S16x1444 : Shape := ⟨2, ![16, 1444]⟩
abbrev S_ : Shape := ⟨0, ![]⟩

class Facts : Prop where
  bcast_S_S21x21 : S_.BroadcastsInDim S21x21 (![] : Fin 0 → Fin S21x21.rank)
  reducesTo_S21x21_S_d0_1 : S21x21.ReducesTo [0, 1] S_
  h_S_ : 0 < S_.numel
  bcast_S_S16x1444x128 : S_.BroadcastsInDim S16x1444x128 (![] : Fin 0 → Fin S16x1444x128.rank)
  reducesTo_S16x1444x128_S_d0_1_2 : S16x1444x128.ReducesTo [0, 1, 2] S_
  bcast_S_S16x1444 : S_.BroadcastsInDim S16x1444 (![] : Fin 0 → Fin S16x1444.rank)
  reducesTo_S16x1444_S_d0_1 : S16x1444.ReducesTo [0, 1] S_

variable [Facts]

def fn_part1 {F : FTy → Type} [FloatOps F] (main_v12 : IVec S_ 1) (main_v15 : IVec S_ 1) : IVec S_ 1 :=
  let main_v16 : IVec S_ 1 := andi main_v12 main_v15
  main_v16

def fn {F : FTy → Type} [FloatOps F] (main_arg0 : FVec F S21x21 .f32) (main_arg1 : FVec F S16x1444x128 .f32) (main_arg2 : IVec S16x1444 32) : IVec S_ 1 :=
  let main_v0 : FVec F S21x21 .f32 := Host.absf main_arg0
  let main_cst : FVec F S_ .f32 := constant S_ .f32 0x7F800000#32
  let main_v1 : FVec F S21x21 .f32 := broadcastInDim S21x21 ![] bcast_S_S21x21 main_cst
  let main_v2 : IVec S21x21 1 := cmpf .olt main_v0 main_v1
  let main_c : IVec S_ 1 := constantI S_ 1 1#1
  let main_v3 : IVec S_ 1 := (fun x v => Host.reduce IntOp.andi x v reducesTo_S21x21_S_d0_1 h_S_) main_v2 main_c
  let main_v4 : FVec F S16x1444x128 .f32 := Host.absf main_arg1
  let main_cst_0 : FVec F S_ .f32 := constant S_ .f32 0x7F800000#32
  let main_v5 : FVec F S16x1444x128 .f32 := broadcastInDim S16x1444x128 ![] bcast_S_S16x1444x128 main_cst_0
  let main_v6 : IVec S16x1444x128 1 := cmpf .olt main_v4 main_v5
  let main_c_1 : IVec S_ 1 := constantI S_ 1 1#1
  let main_v7 : IVec S_ 1 := (fun x v => Host.reduce IntOp.andi x v reducesTo_S16x1444x128_S_d0_1_2 h_S_) main_v6 main_c_1
  let main_v8 : IVec S_ 1 := andi main_v3 main_v7
  let main_c_2 : IVec S_ 32 := constantI S_ 32 0#32
  let main_v9 : IVec S16x1444 32 := broadcastInDim S16x1444 ![] bcast_S_S16x1444 main_c_2
  let main_v10 : IVec S16x1444 1 := cmpi .sge main_arg2 main_v9
  let main_c_3 : IVec S_ 1 := constantI S_ 1 1#1
  let main_v11 : IVec S_ 1 := (fun x v => Host.reduce IntOp.andi x v reducesTo_S16x1444_S_d0_1 h_S_) main_v10 main_c_3
  let main_v12 : IVec S_ 1 := andi main_v8 main_v11
  let main_c_4 : IVec S_ 32 := constantI S_ 32 21#32
  let main_v13 : IVec S16x1444 32 := broadcastInDim S16x1444 ![] bcast_S_S16x1444 main_c_4
  let main_v14 : IVec S16x1444 1 := cmpi .slt main_arg2 main_v13
  let main_c_5 : IVec S_ 1 := constantI S_ 1 1#1
  let main_v15 : IVec S_ 1 := (fun x v => Host.reduce IntOp.andi x v reducesTo_S16x1444_S_d0_1 h_S_) main_v14 main_c_5
  fn_part1 (F := F) main_v12 main_v15
-- ==== Kernel.lean ====
abbrev S21x21 : Shape := ⟨2, ![21, 21]⟩
abbrev S16x1444x128 : Shape := ⟨3, ![16, 1444, 128]⟩
abbrev S16x1444 : Shape := ⟨2, ![16, 1444]⟩
abbrev S_ : Shape := ⟨0, ![]⟩
abbrev S128x128 : Shape := ⟨2, ![128, 128]⟩
abbrev S1 : Shape := ⟨1, ![1]⟩
abbrev S2 : Shape := ⟨1, ![2]⟩
abbrev S16x1536 : Shape := ⟨2, ![16, 1536]⟩
abbrev S16x1x1536 : Shape := ⟨3, ![16, 1, 1536]⟩
abbrev S16x1536x128 : Shape := ⟨3, ![16, 1536, 128]⟩
abbrev S1x768x128 : Shape := ⟨3, ![1, 768, 128]⟩
abbrev S1x1x768 : Shape := ⟨3, ![1, 1, 768]⟩
abbrev S768x128 : Shape := ⟨2, ![768, 128]⟩
abbrev S768 : Shape := ⟨1, ![768]⟩
abbrev S1x128 : Shape := ⟨2, ![1, 128]⟩
abbrev S768x1 : Shape := ⟨2, ![768, 1]⟩
abbrev S768x768 : Shape := ⟨2, ![768, 768]⟩

abbrev nBuf : Space → Nat
  | .hbm => 32
  | .vmem => 12
  | .smem => 0
  | _ => 0

abbrev bufTy : (tb : Table) → Fin (tcTables nBuf tb) → BufTy
  | .hbm, ⟨0, _⟩ => ⟨S21x21, .f32⟩
  | .hbm, ⟨1, _⟩ => ⟨S16x1444x128, .f32⟩
  | .hbm, ⟨2, _⟩ => ⟨S16x1444, .i32⟩
  | .hbm, ⟨3, _⟩ => ⟨S_, .f32⟩
  | .hbm, ⟨4, _⟩ => ⟨S128x128, .f32⟩
  | .hbm, ⟨5, _⟩ => ⟨S_, .i32⟩
  | .hbm, ⟨6, _⟩ => ⟨S1, .i32⟩
  | .hbm, ⟨7, _⟩ => ⟨S_, .i32⟩
  | .hbm, ⟨8, _⟩ => ⟨S1, .i32⟩
  | .hbm, ⟨9, _⟩ => ⟨S2, .i32⟩
  | .hbm, ⟨10, _⟩ => ⟨S128x128, .f32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S16x1444, .i32⟩
  | .hbm, ⟨15, _⟩ => ⟨S16x1444, .i32⟩
  | .hbm, ⟨16, _⟩ => ⟨S_, .i32⟩
  | .hbm, ⟨17, _⟩ => ⟨S16x1444, .i32⟩
  | .hbm, ⟨18, _⟩ => ⟨S16x1444, .i32⟩
  | .hbm, ⟨19, _⟩ => ⟨S_, .i32⟩
  | .hbm, ⟨20, _⟩ => ⟨S16x1536, .i32⟩
  | .hbm, ⟨21, _⟩ => ⟨S_, .i32⟩
  | .hbm, ⟨22, _⟩ => ⟨S1, .i32⟩
  | .hbm, ⟨23, _⟩ => ⟨S16x1536, .i32⟩
  | .hbm, ⟨24, _⟩ => ⟨S16x1x1536, .i32⟩
  | .hbm, ⟨25, _⟩ => ⟨S_, .f32⟩
  | .hbm, ⟨26, _⟩ => ⟨S16x1536x128, .f32⟩
  | .hbm, ⟨27, _⟩ => ⟨S_, .i32⟩
  | .hbm, ⟨28, _⟩ => ⟨S1, .i32⟩
  | .hbm, ⟨29, _⟩ => ⟨S16x1536x128, .f32⟩
  | .hbm, ⟨30, _⟩ => ⟨S16x1536x128, .f32⟩
  | .hbm, ⟨31, _⟩ => ⟨S16x1444x128, .f32⟩
  | .local _ .vmem, ⟨0, _⟩ => ⟨S1x768x128, .f32⟩
  | .local _ .vmem, ⟨1, _⟩ => ⟨S1x768x128, .f32⟩
  | .local _ .vmem, ⟨2, _⟩ => ⟨S1x1x768, .i32⟩
  | .local _ .vmem, ⟨3, _⟩ => ⟨S1x1x768, .i32⟩
  | .local _ .vmem, ⟨4, _⟩ => ⟨S1x1x768, .i32⟩
  | .local _ .vmem, ⟨5, _⟩ => ⟨S1x1x768, .i32⟩
  | .local _ .vmem, ⟨6, _⟩ => ⟨S128x128, .f32⟩
  | .local _ .vmem, ⟨7, _⟩ => ⟨S1x768x128, .f32⟩
  | .local _ .vmem, ⟨8, _⟩ => ⟨S1x768x128, .f32⟩
  | .local _ .vmem, ⟨9, _⟩ => ⟨S768x128, .f32⟩
  | .local _ .vmem, ⟨10, _⟩ => ⟨S128x128, .f32⟩
  | .local _ .vmem, ⟨11, _⟩ => ⟨S128x128, .f32⟩
  | _, _ => ⟨S21x21, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c_1 : Ref sig .tc := ⟨.hbm, 11, rfl⟩
abbrev main_c_2 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_v5 : Ref sig .tc := ⟨.hbm, 18, rfl⟩
abbrev main_c_3 : Ref sig .tc := ⟨.hbm, 19, rfl⟩
abbrev main_v6 : Ref sig .tc := ⟨.hbm, 20, rfl⟩
abbrev main_c_4 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_cst_5 : Ref sig .tc := ⟨.hbm, 25, rfl⟩
abbrev main_v10 : Ref sig .tc := ⟨.hbm, 26, rfl⟩
abbrev main_c_6 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨3, ![16, 2, 2], ![false, false, false]⟩

def k0_cond5 (i : grid0.Coords) : BitVec 1 :=
  let arg2 : BitVec 32 := BitVec.ofNat 32 (i 2).val
  let c1_i32 : BitVec 32 := 1#32
  let v37 : BitVec 1 := Scalar.cmpi .eq arg2 c1_i32
  let v38 : BitVec 32 := Scalar.extui v37
  let c0_i32_14 : BitVec 32 := 0#32
  let v39 : BitVec 1 := Scalar.cmpi .ne v38 c0_i32_14
  v39

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x768x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x768 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x768 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1x768x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

class Facts₀ : Prop where
  bcast_S_S128x128 : S_.BroadcastsInDim S128x128 (![] : Fin 0 → Fin S128x128.rank)
  bcast_S_S1 : S_.BroadcastsInDim S1 (![] : Fin 0 → Fin S1.rank)
  concatenates_S1_S1_S2_d0 : Shape.Concatenates [S1, S1] S2 0
  bcast_S_S16x1444 : S_.BroadcastsInDim S16x1444 (![] : Fin 0 → Fin S16x1444.rank)
  bcast_S_S16x1536 : S_.BroadcastsInDim S16x1536 (![] : Fin 0 → Fin S16x1536.rank)
  bcast_S16x1536_S16x1x1536_0_2 : S16x1536.BroadcastsInDim S16x1x1536 (![0, 2] : Fin 2 → Fin S16x1x1536.rank)
  bcast_S_S16x1536x128 : S_.BroadcastsInDim S16x1536x128 (![] : Fin 0 → Fin S16x1536x128.rank)
  inb_S768x128_S768x128_0_0 : ∀ a, (![0, 0] : Fin 2 → Nat) a + S768x128.size a ≤ S768x128.size a
  h_S768x128 : 0 < S768x128.numel
  shapeCasts_S768x128_S768x128 : S768x128.ShapeCasts S768x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x1x768_S1x1x768_0_0_0 : ∀ a, (![0, 0, 0] : Fin 3 → Nat) a + S1x1x768.size a ≤ S1x1x768.size a
  h_S1x1x768 : 0 < S1x1x768.numel
  shapeCasts_S1x1x768_S768 : S1x1x768.ShapeCasts S768
  iota_S1x128_d1_w32 : S1x128.Iotas .tc 32 [1]
  shapeCasts_S768_S768x1 : S768.ShapeCasts S768x1
  broadcasts_S768x1_S768x128 : S768x1.Broadcasts S768x128
  broadcasts_S1x128_S768x128 : S1x128.Broadcasts S768x128
  natLt_1_32 : 1 < 32
  bitsLt_bf16_f32 : FTy.bits .bf16 < FTy.bits .f32
  inb_S1x768x128_S1x768x128_0_0_0 : ∀ a, (![0, 0, 0] : Fin 3 → Nat) a + S1x768x128.size a ≤ S1x768x128.size a
  h_S1x768x128 : 0 < S1x768x128.numel
  shapeCasts_S1x768x128_S768x128 : S1x768x128.ShapeCasts S768x128
  iota_S768x768_d0_w32 : S768x768.Iotas .tc 32 [0]
  iota_S768x768_d1_w32 : S768x768.Iotas .tc 32 [1]
  shapeCasts_S768x1_S768x1 : S768x1.ShapeCasts S768x1
  broadcasts_S768x1_S768x768 : S768x1.Broadcasts S768x768
  shapeCasts_S768x128_S1x768x128 : S768x128.ShapeCasts S1x768x128
  slices_S16x1536x128_S16x1444x128_0_0_0 : S16x1536x128.Slices ![0, 0, 0] S16x1444x128
  scatter_S128x128_S2_S21x21_01_n_01_0_wf : ScatterDims.WF S128x128 S2 S21x21 [0, 1] [] [0, 1] 0
  scatter_S16x1536_S1_S16x1444_01_n_1_0_wf : ScatterDims.WF S16x1536 S1 S16x1444 [0, 1] [] [1] 0
  scatter_S16x1536x128_S1_S16x1444x128_012_n_1_0_wf : ScatterDims.WF S16x1536x128 S1 S16x1444x128 [0, 1, 2] [] [1] 0
  dot_S768x128_S128x128_S768x128_1_0_0_1_n_n_wf : DotDims.WF S768x128 S128x128 S768x128 [1] [0] [0] [1] [] []
  dot_S768x128_S768x128_S768x768_1_1_0_0_n_n_wf : DotDims.WF S768x128 S768x128 S768x768 [1] [1] [0] [0] [] []
  dot_S768x768_S768x128_S768x128_1_0_0_1_n_n_wf : DotDims.WF S768x768 S768x128 S768x128 [1] [0] [0] [1] [] []
  dot_S768x128_S768x128_S128x128_0_0_1_1_n_n_wf : DotDims.WF S768x128 S768x128 S128x128 [0] [0] [1] [1] [] []
  dot_S768x128_S128x128_S768x128_1_1_0_0_n_n_wf : DotDims.WF S768x128 S128x128 S768x128 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x768x128.size a ≤ S16x1536x128.size a
  hwx0_0 : ∀ i : grid0.Coords, EltTy.bits .f32 = 32 ∨ (Rect.block (s := S16x1536x128) S1x768x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x768.size a ≤ S16x1x1536.size a
  hwx0_1 : ∀ i : grid0.Coords, EltTy.bits .i32 = 32 ∨ (Rect.block (s := S16x1x1536) S1x1x768.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x768.size a ≤ S16x1x1536.size a
  hwx0_2 : ∀ i : grid0.Coords, EltTy.bits .i32 = 32 ∨ (Rect.block (s := S16x1x1536) S1x1x768.size (cc0_transform_2 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x768x128.size a ≤ S16x1536x128.size a
  hwx0_4 : ∀ i : grid0.Coords, EltTy.bits .f32 = 32 ∨ (Rect.block (s := S16x1536x128) S1x768x128.size (cc0_transform_4 i) (hinb0_4 i)).WholeWords (EltTy.packing .f32)

variable [Facts₀]

def scatter_S128x128_S2_S21x21_01_n_01_0 : ScatterDims S128x128 S2 S21x21 where
  updateWindowDims := [0, 1]
  insertedWindowDims := []
  scatterDimsToOperandDims := [0, 1]
  indexVectorDim := 0
  wf := scatter_S128x128_S2_S21x21_01_n_01_0_wf
def scatter_S16x1536_S1_S16x1444_01_n_1_0 : ScatterDims S16x1536 S1 S16x1444 where
  updateWindowDims := [0, 1]
  insertedWindowDims := []
  scatterDimsToOperandDims := [1]
  indexVectorDim := 0
  wf := scatter_S16x1536_S1_S16x1444_01_n_1_0_wf
def scatter_S16x1536x128_S1_S16x1444x128_012_n_1_0 : ScatterDims S16x1536x128 S1 S16x1444x128 where
  updateWindowDims := [0, 1, 2]
  insertedWindowDims := []
  scatterDimsToOperandDims := [1]
  indexVectorDim := 0
  wf := scatter_S16x1536x128_S1_S16x1444x128_012_n_1_0_wf
def dot_S768x128_S128x128_S768x128_1_0_0_1_n_n : DotDims S768x128 S128x128 S768x128 where
  lhsContracting := [1]
  rhsContracting := [0]
  lhsNonContracting := [0]
  rhsNonContracting := [1]
  lhsBatch := []
  rhsBatch := []
  wf := dot_S768x128_S128x128_S768x128_1_0_0_1_n_n_wf
def dot_S768x128_S768x128_S768x768_1_1_0_0_n_n : DotDims S768x128 S768x128 S768x768 where
  lhsContracting := [1]
  rhsContracting := [1]
  lhsNonContracting := [0]
  rhsNonContracting := [0]
  lhsBatch := []
  rhsBatch := []
  wf := dot_S768x128_S768x128_S768x768_1_1_0_0_n_n_wf
def dot_S768x768_S768x128_S768x128_1_0_0_1_n_n : DotDims S768x768 S768x128 S768x128 where
  lhsContracting := [1]
  rhsContracting := [0]
  lhsNonContracting := [0]
  rhsNonContracting := [1]
  lhsBatch := []
  rhsBatch := []
  wf := dot_S768x768_S768x128_S768x128_1_0_0_1_n_n_wf
def dot_S768x128_S768x128_S128x128_0_0_1_1_n_n : DotDims S768x128 S768x128 S128x128 where
  lhsContracting := [0]
  rhsContracting := [0]
  lhsNonContracting := [1]
  rhsNonContracting := [1]
  lhsBatch := []
  rhsBatch := []
  wf := dot_S768x128_S768x128_S128x128_0_0_1_1_n_n_wf
def dot_S768x128_S128x128_S768x128_1_1_0_0_n_n : DotDims S768x128 S128x128 S768x128 where
  lhsContracting := [1]
  rhsContracting := [1]
  lhsNonContracting := [0]
  rhsNonContracting := [0]
  lhsBatch := []
  rhsBatch := []
  wf := dot_S768x128_S128x128_S768x128_1_1_0_0_n_n_wf

abbrev win0_0 : Pipeline.Window sig grid0 :=
  Pipeline.Window.ofSpec (Memref.whole main_v12) S1x768x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S1x1x768.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v9) S1x1x768.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v13) S1x768x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond5 i == 1#1) | ⟨_ + 5, h⟩ => absurd h (Nat.not_lt.2 (Nat.le_add_left _ _))

class Facts : Prop extends Facts₀ where

variable [Facts]
-- ==== ReferenceIdeal.lean ====
abbrev S21x21 : Shape := ⟨2, ![21, 21]⟩
abbrev S16x1444x128 : Shape := ⟨3, ![16, 1444, 128]⟩
abbrev S16x1444 : Shape := ⟨2, ![16, 1444]⟩
abbrev S16x1444x1 : Shape := ⟨3, ![16, 1444, 1]⟩
abbrev S16x1x1444 : Shape := ⟨3, ![16, 1, 1444]⟩
abbrev S_ : Shape := ⟨0, ![]⟩
abbrev S16x1444x1444 : Shape := ⟨3, ![16, 1444, 1444]⟩
abbrev S16x1444x1444x1 : Shape := ⟨4, ![16, 1444, 1444, 1]⟩
abbrev S16x1444x1444x2 : Shape := ⟨4, ![16, 1444, 1444, 2]⟩
abbrev S1444x1444 : Shape := ⟨2, ![1444, 1444]⟩
abbrev S1444 : Shape := ⟨1, ![1444]⟩
abbrev S1444x1 : Shape := ⟨2, ![1444, 1]⟩
abbrev S1444x2 : Shape := ⟨2, ![1444, 2]⟩

abbrev nBuf : Space → Nat
  | .hbm => 61
  | .vmem => 0
  | .smem => 0
  | _ => 0

abbrev bufTy : (tb : Table) → Fin (tcTables nBuf tb) → BufTy
  | .hbm, ⟨0, _⟩ => ⟨S21x21, .f32⟩
  | .hbm, ⟨1, _⟩ => ⟨S16x1444x128, .f32⟩
  | .hbm, ⟨2, _⟩ => ⟨S16x1444, .i32⟩
  | .hbm, ⟨3, _⟩ => ⟨S16x1444x1, .i32⟩
  | .hbm, ⟨4, _⟩ => ⟨S16x1x1444, .i32⟩
  | .hbm, ⟨5, _⟩ => ⟨S_, .i32⟩
  | .hbm, ⟨6, _⟩ => ⟨S16x1444x1, .i32⟩
  | .hbm, ⟨7, _⟩ => ⟨S16x1444x1, .i1⟩
  | .hbm, ⟨8, _⟩ => ⟨S_, .i32⟩
  | .hbm, ⟨9, _⟩ => ⟨S16x1444x1, .i32⟩
  | .hbm, ⟨10, _⟩ => ⟨S16x1444x1, .i32⟩
  | .hbm, ⟨11, _⟩ => ⟨S16x1444x1, .i32⟩
  | .hbm, ⟨12, _⟩ => ⟨S_, .i32⟩
  | .hbm, ⟨13, _⟩ => ⟨S16x1x1444, .i32⟩
  | .hbm, ⟨14, _⟩ => ⟨S16x1x1444, .i1⟩
  | .hbm, ⟨15, _⟩ => ⟨S_, .i32⟩
  | .hbm, ⟨16, _⟩ => ⟨S16x1x1444, .i32⟩
  | .hbm, ⟨17, _⟩ => ⟨S16x1x1444, .i32⟩
  | .hbm, ⟨18, _⟩ => ⟨S16x1x1444, .i32⟩
  | .hbm, ⟨19, _⟩ => ⟨S16x1444x1444, .i32⟩
  | .hbm, ⟨20, _⟩ => ⟨S16x1444x1444, .i32⟩
  | .hbm, ⟨21, _⟩ => ⟨S16x1444x1444x1, .i32⟩
  | .hbm, ⟨22, _⟩ => ⟨S16x1444x1444x1, .i32⟩
  | .hbm, ⟨23, _⟩ => ⟨S16x1444x1444x2, .i32⟩
  | .hbm, ⟨24, _⟩ => ⟨S16x1444x1444, .f32⟩
  | .hbm, ⟨25, _⟩ => ⟨S1444x1444, .i32⟩
  | .hbm, ⟨26, _⟩ => ⟨S_, .i32⟩
  | .hbm, ⟨27, _⟩ => ⟨S1444x1444, .i32⟩
  | .hbm, ⟨28, _⟩ => ⟨S1444x1444, .i32⟩
  | .hbm, ⟨29, _⟩ => ⟨S1444x1444, .i32⟩
  | .hbm, ⟨30, _⟩ => ⟨S1444x1444, .i1⟩
  | .hbm, ⟨31, _⟩ => ⟨S16x1444x1444, .i1⟩
  | .hbm, ⟨32, _⟩ => ⟨S_, .f32⟩
  | .hbm, ⟨33, _⟩ => ⟨S16x1444x1444, .f32⟩
  | .hbm, ⟨34, _⟩ => ⟨S16x1444x1444, .f32⟩
  | .hbm, ⟨35, _⟩ => ⟨S16x1444x1444, .f32⟩
  | .hbm, ⟨36, _⟩ => ⟨S16x1444x1444, .f32⟩
  | .hbm, ⟨37, _⟩ => ⟨S1444, .i32⟩
  | .hbm, ⟨38, _⟩ => ⟨S_, .i32⟩
  | .hbm, ⟨39, _⟩ => ⟨S16x1444, .i32⟩
  | .hbm, ⟨40, _⟩ => ⟨S16x1444, .i1⟩
  | .hbm, ⟨41, _⟩ => ⟨S16x1444, .f32⟩
  | .hbm, ⟨42, _⟩ => ⟨S_, .i32⟩
  | .hbm, ⟨43, _⟩ => ⟨S1444, .i32⟩
  | .hbm, ⟨44, _⟩ => ⟨S1444, .i1⟩
  | .hbm, ⟨45, _⟩ => ⟨S_, .i32⟩
  | .hbm, ⟨46, _⟩ => ⟨S1444, .i32⟩
  | .hbm, ⟨47, _⟩ => ⟨S1444, .i32⟩
  | .hbm, ⟨48, _⟩ => ⟨S1444, .i32⟩
  | .hbm, ⟨49, _⟩ => ⟨S_, .i32⟩
  | .hbm, ⟨50, _⟩ => ⟨S1444, .i32⟩
  | .hbm, ⟨51, _⟩ => ⟨S1444, .i1⟩
  | .hbm, ⟨52, _⟩ => ⟨S_, .i32⟩
  | .hbm, ⟨53, _⟩ => ⟨S1444, .i32⟩
  | .hbm, ⟨54, _⟩ => ⟨S1444, .i32⟩
  | .hbm, ⟨55, _⟩ => ⟨S1444, .i32⟩
  | .hbm, ⟨56, _⟩ => ⟨S1444x1, .i32⟩
  | .hbm, ⟨57, _⟩ => ⟨S1444x1, .i32⟩
  | .hbm, ⟨58, _⟩ => ⟨S1444x2, .i32⟩
  | .hbm, ⟨59, _⟩ => ⟨S16x1444x1444, .f32⟩
  | .hbm, ⟨60, _⟩ => ⟨S16x1444x128, .f32⟩
  | _, _ => ⟨S21x21, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_c_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c_1 : Ref sig .tc := ⟨.hbm, 12, rfl⟩
abbrev main_v7 : Ref sig .tc := ⟨.hbm, 13, rfl⟩
abbrev main_v8 : Ref sig .tc := ⟨.hbm, 14, rfl⟩
abbrev main_c_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_call0_v0 : Ref sig .tc := ⟨.hbm, 25, rfl⟩
abbrev main_call0_c : Ref sig .tc := ⟨.hbm, 26, rfl⟩
abbrev main_call0_v1 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_call0_v5 : Ref sig .tc := ⟨.hbm, 31, rfl⟩
abbrev main_call0_cst : Ref sig .tc := ⟨.hbm, 32, rfl⟩
abbrev main_call0_v6 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_3 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_c_4 : Ref sig .tc := ⟨.hbm, 42, rfl⟩
abbrev main_v25 : Ref sig .tc := ⟨.hbm, 43, rfl⟩
abbrev main_v26 : Ref sig .tc := ⟨.hbm, 44, rfl⟩
abbrev main_c_5 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_c_6 : Ref sig .tc := ⟨.hbm, 49, rfl⟩
abbrev main_v30 : Ref sig .tc := ⟨.hbm, 50, rfl⟩
abbrev main_v31 : Ref sig .tc := ⟨.hbm, 51, rfl⟩
abbrev main_c_7 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩

abbrev nD : Nat := 1
abbrev τ : Topo := Topo.v7x

variable {F : FTy → Type} [FloatOps F]

class Facts₀ : Prop where
  bcast_S16x1444_S16x1444x1_0_1 : S16x1444.BroadcastsInDim S16x1444x1 (![0, 1] : Fin 2 → Fin S16x1444x1.rank)
  bcast_S16x1444_S16x1x1444_0_2 : S16x1444.BroadcastsInDim S16x1x1444 (![0, 2] : Fin 2 → Fin S16x1x1444.rank)
  bcast_S_S16x1444x1 : S_.BroadcastsInDim S16x1444x1 (![] : Fin 0 → Fin S16x1444x1.rank)
  bcast_S_S16x1x1444 : S_.BroadcastsInDim S16x1x1444 (![] : Fin 0 → Fin S16x1x1444.rank)
  bcast_S16x1444x1_S16x1444x1444_0_1_2 : S16x1444x1.BroadcastsInDim S16x1444x1444 (![0, 1, 2] : Fin 3 → Fin S16x1444x1444.rank)
  bcast_S16x1x1444_S16x1444x1444_0_1_2 : S16x1x1444.BroadcastsInDim S16x1444x1444 (![0, 1, 2] : Fin 3 → Fin S16x1444x1444.rank)
  bcast_S16x1444x1444_S16x1444x1444x1_0_1_2 : S16x1444x1444.BroadcastsInDim S16x1444x1444x1 (![0, 1, 2] : Fin 3 → Fin S16x1444x1444x1.rank)
  concatenates_S16x1444x1444x1_S16x1444x1444x1_S16x1444x1444x2_d3 : Shape.Concatenates [S16x1444x1444x1, S16x1444x1444x1] S16x1444x1444x2 3
  bcast_S_S1444x1444 : S_.BroadcastsInDim S1444x1444 (![] : Fin 0 → Fin S1444x1444.rank)
  bcast_S1444x1444_S16x1444x1444_1_2 : S1444x1444.BroadcastsInDim S16x1444x1444 (![1, 2] : Fin 2 → Fin S16x1444x1444.rank)
  bcast_S_S16x1444x1444 : S_.BroadcastsInDim S16x1444x1444 (![] : Fin 0 → Fin S16x1444x1444.rank)
  transposes_S16x1444x1444_S16x1444x1444_0_2_1 : S16x1444x1444.Transposes [0, 2, 1] S16x1444x1444
  bcast_S_S16x1444 : S_.BroadcastsInDim S16x1444 (![] : Fin 0 → Fin S16x1444.rank)
  bcast_S_S1444 : S_.BroadcastsInDim S1444 (![] : Fin 0 → Fin S1444.rank)
  bcast_S1444_S1444x1_0 : S1444.BroadcastsInDim S1444x1 (![0] : Fin 1 → Fin S1444x1.rank)
  concatenates_S1444x1_S1444x1_S1444x2_d1 : Shape.Concatenates [S1444x1, S1444x1] S1444x2 1
  gather_S21x21_S16x1444x1444x2_S16x1444x1444_n_01_n_n_01_3_11_wf : GatherDims.WF S21x21 S16x1444x1444x2 S16x1444x1444 [] [0, 1] [] [0, 1] [] 3 ![1, 1]
  scatter_S16x1444x1444_S1444x2_S16x1444_0_12_12_1_wf : ScatterDims.WF S16x1444x1444 S1444x2 S16x1444 [0] [1, 2] [1, 2] 1
  dot_S16x1444x1444_S16x1444x128_S16x1444x128_2_1_1_2_0_0_wf : DotDims.WF S16x1444x1444 S16x1444x128 S16x1444x128 [2] [1] [1] [2] [0] [0]

variable [Facts₀]

def gather_S21x21_S16x1444x1444x2_S16x1444x1444_n_01_n_n_01_3_11 : GatherDims S21x21 S16x1444x1444x2 S16x1444x1444 where
  offsetDims := []
  collapsedSliceDims := [0, 1]
  operandBatchingDims := []
  startIndicesBatchingDims := []
  startIndexMap := [0, 1]
  indexVectorDim := 3
  sliceSizes := ![1, 1]
  wf := gather_S21x21_S16x1444x1444x2_S16x1444x1444_n_01_n_n_01_3_11_wf
def scatter_S16x1444x1444_S1444x2_S16x1444_0_12_12_1 : ScatterDims S16x1444x1444 S1444x2 S16x1444 where
  updateWindowDims := [0]
  insertedWindowDims := [1, 2]
  scatterDimsToOperandDims := [1, 2]
  indexVectorDim := 1
  wf := scatter_S16x1444x1444_S1444x2_S16x1444_0_12_12_1_wf
def dot_S16x1444x1444_S16x1444x128_S16x1444x128_2_1_1_2_0_0 : DotDims S16x1444x1444 S16x1444x128 S16x1444x128 where
  lhsContracting := [2]
  rhsContracting := [1]
  lhsNonContracting := [1]
  rhsNonContracting := [2]
  lhsBatch := [0]
  rhsBatch := [0]
  wf := dot_S16x1444x1444_S16x1444x128_S16x1444x128_2_1_1_2_0_0_wf

class Facts : Prop extends Facts₀ where

variable [Facts]
-- ==== Proof.BitsHostPrefix.lean ====
/-
  The TensorCore's buffers when the kernel region is entered: the launch contents after the three stretches of host
  operations that stand before the region (the table padded into a 128 x 128 square; the class words clipped; the
  class words and the features padded to 1536 nodes).
-/
import proofs.«408942_j68186900791974_3_alg».proof.Proof.Gen.Kernel.Launch
import Idealize.ShloMosaic.Lib.StableHlo.Run

noncomputable section

namespace Cert.Kernel.Hand

open Cert.Kernel Cert.Kernel.Gen
open Idealize.ShloMosaic Idealize.ShloMosaic.TcCoe
open Idealize.SL Idealize.SL.Sem

variable {F : FTy → Type} [FloatOps F]

variable (m : (ℓ : Loc nD τ sig) → Buf (Elt F) ℓ)

/-- Core `c`'s buffers at launch, as a valuation; -/
abbrev V₀ (c : Dev nD) : Valuation τ sig (Elt F) := fun b => m (c, b)
/-- after the first stretch (the padded table, the clip's bounds); -/
abbrev V₁ (c : Dev nD) : Valuation τ sig (Elt F) := StableHlo.after hostOps0 (V₀ m c)
/-- after the clip; -/
abbrev V₂ (c : Dev nD) : Valuation τ sig (Elt F) := StableHlo.after hostOps0_1 (V₁ m c)
/-- and when the region is entered (the padded class words and features). -/
abbrev V₃ (c : Dev nD) : Valuation τ sig (Elt F) := StableHlo.after hostOps0_2 (V₂ m c)
/-- The same read at a TensorCore reference. -/
abbrev V (c : Dev nD) (b : Ref sig .tc) : Buf (Elt F) ((c : Thread nD τ).loc b) := V₃ m c (Proc.devRef .tc b)

end Cert.Kernel.Hand

end
-- ==== Proof.BitsRuns.lean ====
/-
  What the four runs of the kernel body and the pipeline's proof data share.

  The grid is 16 x 2 x 2 (batch entry, row tile, column tile), a point's number is 4 b + 2 tr + tc. The body has five
  conditionals on the coordinates: column tile 0 (reset the three scratch accumulators), tr = tc (a diagonal block),
  tr > tc (below it), tr < tc (above it), column tile 1 (project the two folds back, add, and store the output block).
  Over the grid they take four assignments, by the point's number mod 4:
    0: reset, diagonal;   1: above, last;   2: reset, below;   3: diagonal, last.
-/
import proofs.«408942_j68186900791974_3_alg».proof.Proof.Gen.Kernel.Launch
import proofs.«408942_j68186900791974_3_alg».proof.Proof.Gen.Kernel.Skeleton
import proofs.«408942_j68186900791974_3_alg».proof.Proof.Gen.Kernel.Points
import proofs.«408942_j68186900791974_3_alg».proof.Proof.BitsHostPrefix
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The body's five conditions, from the grid coordinates -/

/-- Column tile 0: the scratch accumulators are reset. -/
abbrev cond1 (i : grid0.Coords) : Prop := (Scalar.cmpi .ne (Scalar.extui (Scalar.cmpi .eq (BitVec.ofNat 32 (i 2).val) 0#32)) 0#32) = 1#1
/-- Row tile = column tile: a diagonal block. -/
abbrev cond2 (i : grid0.Coords) : Prop := (Scalar.cmpi .ne (Scalar.extui (Scalar.cmpi .eq (BitVec.ofNat 32 (i 1).val) (BitVec.ofNat 32 (i 2).val))) 0#32) = 1#1
/-- Row tile > column tile: a block below the diagonal. -/
abbrev cond3 (i : grid0.Coords) : Prop := (Scalar.cmpi .ne (Scalar.extui (Scalar.cmpi .sgt (BitVec.ofNat 32 (i 1).val) (BitVec.ofNat 32 (i 2).val))) 0#32) = 1#1
/-- Row tile < column tile: a block above the diagonal. -/
abbrev cond4 (i : grid0.Coords) : Prop := (Scalar.cmpi .ne (Scalar.extui (Scalar.cmpi .slt (BitVec.ofNat 32 (i 1).val) (BitVec.ofNat 32 (i 2).val))) 0#32) = 1#1
/-- Column tile 1: the row tile's last point. -/
abbrev cond5 (i : grid0.Coords) : Prop := k0_cond5 i = 1#1

theorem hcond1 : ∀ t : Fin cfg0.N, cond1 (grid0.coords t) ↔ t.val % 2 = 0 :=
  (by decide +kernel : ∀ t : Fin grid0.N, cond1 (grid0.coords t) ↔ t.val % 2 = 0)
theorem hcond2 : ∀ t : Fin cfg0.N, cond2 (grid0.coords t) ↔ (t.val % 4 = 0 ∨ t.val % 4 = 3) :=
  (by decide +kernel : ∀ t : Fin grid0.N, cond2 (grid0.coords t) ↔ (t.val % 4 = 0 ∨ t.val % 4 = 3))
theorem hcond3 : ∀ t : Fin cfg0.N, cond3 (grid0.coords t) ↔ t.val % 4 = 2 :=
  (by decide +kernel : ∀ t : Fin grid0.N, cond3 (grid0.coords t) ↔ t.val % 4 = 2)
theorem hcond4 : ∀ t : Fin cfg0.N, cond4 (grid0.coords t) ↔ t.val % 4 = 1 :=
  (by decide +kernel : ∀ t : Fin grid0.N, cond4 (grid0.coords t) ↔ t.val % 4 = 1)
theorem hcond5 : ∀ t : Fin cfg0.N, cond5 (grid0.coords t) ↔ t.val % 2 = 1 :=
  (by decide +kernel : ∀ t : Fin grid0.N, cond5 (grid0.coords t) ↔ t.val % 2 = 1)

/-! ## Where the windows are idle -/

theorem liveAt0 : ∀ t : Fin cfg0.N, cfg0.idle 0 (grid0.coords t) = false := by decide +kernel
theorem liveAt1 : ∀ t : Fin cfg0.N, cfg0.idle 1 (grid0.coords t) = false := by decide +kernel
theorem liveAt2 : ∀ t : Fin cfg0.N, cfg0.idle 2 (grid0.coords t) = false := by decide +kernel
theorem liveAt3 : ∀ t : Fin cfg0.N, cfg0.idle 3 (grid0.coords t) = false := by decide +kernel
/-- Where the last condition fails the output window is idle, and the pipeline does not write it back there; -/
theorem idleAt4 : ∀ t : Fin cfg0.N, ¬cond5 (grid0.coords t) → cfg0.idle 4 (grid0.coords t) = true := by decide +kernel
theorem noFlush4 : ∀ t : Fin cfg0.N, ¬cond5 (grid0.coords t) → (cfg0.win 4).flush t = false := by decide +kernel
/-- where it holds the body stores the block. -/
theorem liveAt4 : ∀ t : Fin cfg0.N, cond5 (grid0.coords t) → cfg0.idle 4 (grid0.coords t) = false := by decide +kernel

/-! ## The memrefs the body is called with -/

abbrev ms0 (t : Fin cfg0.N) : Memref sig .tc .vmem S1x768x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x1x768 .i32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x1x768 .i32 := win0_2.stage (cfg0.slots t 2)
abbrev hs2 (t : Fin cfg0.N) : (ms2 t).IsWhole := hstage0_2 ((cfg0.slots t 2).cast nbuf0_2)
abbrev ms3 (t : Fin cfg0.N) : Memref sig .tc .vmem S128x128 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x768x128 .f32 := win0_4.stage (cfg0.slots t 4)
abbrev hs4 (t : Fin cfg0.N) : (ms4 t).IsWhole := hstage0_4 ((cfg0.slots t 4).cast nbuf0_4)
/-- The three scratch accumulators: the row tile's sum, the fold of the tiles below the diagonal, the fold of those above. -/
abbrev scAcc : Memref sig .tc .vmem S768x128 .f32 := Memref.whole cc0_scratch0
abbrev scLow : Memref sig .tc .vmem S128x128 .f32 := Memref.whole cc0_scratch1
abbrev scUp : Memref sig .tc .vmem S128x128 .f32 := Memref.whole cc0_scratch2
/-- Views through which the contents of the output's staging buffer and of the scratch are stated. -/
abbrev VO4 : View sig .tc .vmem S1x768x128 .f32 := (Memref.whole cc0_stg4_0 : Memref sig .tc .vmem S1x768x128 .f32).view
abbrev VSAcc : View sig .tc .vmem S768x128 .f32 := scAcc.view
abbrev VSLow : View sig .tc .vmem S128x128 .f32 := scLow.view
abbrev VSUp : View sig .tc .vmem S128x128 .f32 := scUp.view

/-- The region's invariant where nothing is tracked, with the three scratch accumulators as owned memrefs. -/
theorem PhiA0_eq (c : Dev nD) :
    (Pipeline.ΦA spec0 c : sProp 𝕄)
      = iprop(iprop((∃ d, owns (c : Thread nD τ) scAcc fullShare d) ∗ (∃ d, owns (c : Thread nD τ) scLow fullShare d) ∗ (∃ d, owns (c : Thread nD τ) scUp fullShare d)) ∗ (∃ r, prngReg c r)) := by
  unfold Pipeline.ΦA; rw [scopedRest0_eq]; simp only [scAcc, scLow, scUp, owns_whole]; try rfl

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not: the window is never
    idle and never cut, and where it is not fetched its block index has not moved. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

end Cert.Kernel.Hand

end
-- ==== Proof.BitsLaunch.lean ====
/-
  The launch: @main as five segments - three stretches of host operations, the kernel region, one host operation after
  it - composed by the library's theorem for a program given as a list of segments.

  Two of the kernel's windows read ONE array (the padded class words: the row tile's block and the column tile's), so
  the array's ownership is dealt between them, one half each, when the region is entered; every other window's array is
  held whole. The slice after the region needs only the kernel's result and its own result buffer, so the halves ride
  past it untouched. Everything is stated for ANY proof data of the pipeline with the arrays as the region finds them,
  those shares, nothing owed, a body obligation, and an invariant that starts from and returns to the plain one.
-/
import proofs.«408942_j68186900791974_3_alg».proof.Proof.BitsRuns
import Idealize.ShloMosaic.Lib.Pipeline.Regions
import Idealize.ShloMosaic.Lib.Pipeline.Frame

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev 𝒱₀ : Variants := Variants.none
/-- No core owes another anything: no level is assigned. -/
abbrev Lv : GSem nD τ sig → Finset Unit := fun _ => ∅
abbrev lv : GSem nD τ sig → Unit → ℕ := fun _ _ => 0
/-- No prefetched table. -/
abbrev adm : (p : Fin 1) → (pcfgs (F := F) p).Adm := fun p => (cfgs p).toPCfg_adm

/-- What rides beside the buffers through every segment: what the core owes (nothing) and its generator register. -/
abbrev Rd (c : Dev nD) : sProp 𝕄 :=
  iprop((∃ W, owes (c : Thread nD τ) (0 : CellTallies nD τ sig Unit) W) ∗ (∃ r, prngReg c r))

/-! ## The proof data this module is stated for -/

/-- What the launch needs of the pipeline's proof data. -/
structure DataOk (dats : (p : Fin 1) → (c : Dev nD) → Dat τ (Elt F) Unit ℕ (UR sig nD τ) ℕ cfg0 c) : Prop where
  hA : ∀ c w, (dats 0 c).A w = V m c (Pipeline.arrRef spec0 w)
  q0 : ∀ c, (dats 0 c).q 0 = fullShare
  q1 : ∀ c, (dats 0 c).q 1 = fullShare.left
  q2 : ∀ c, (dats 0 c).q 2 = fullShare.right
  q3 : ∀ c, (dats 0 c).q 3 = fullShare
  howed : ∀ c t, (dats 0 c).owed t = 0
  hbody : ∀ c, BodyObligation (dats 0 c) (defs₀ (F := F)) Variants.none () Set.univ
  hin : ∀ c, Pipeline.ΦA spec0 c ⊢ (dats 0 c).Φ 0
  hout : ∀ c, (dats 0 c).Φ (Fin.last cfg0.N) ⊢ Pipeline.ΦA spec0 c

variable (dats : (p : Fin 1) → (c : Dev nD) → Dat τ (Elt F) Unit ℕ (UR sig nD τ) ℕ cfg0 c)

/-- Before the region the core owes nothing and has recorded no wait. -/
abbrev RdE (c : Dev nD) : sProp 𝕄 :=
  iprop(owes (c : Thread nD τ) (0 : CellTallies nD τ sig Unit) ∅ ∗ (∃ r, prngReg c r))

/-! ## The windows' arrays out of the buffers behind them -/

/-- The buffers behind the windows' arrays are four; the array of the padded class words stands behind two windows. -/
theorem arrImage : (Finset.univ.image (Pipeline.arrRef spec0) : Finset (Ref sig .tc)) = [main_v12, main_v9, main_v4, main_v13].toFinset := by decide

variable {m dats} in
theorem share0 (hd : DataOk m dats) (c : Dev nD) : (dats 0 c).share 0 = fullShare := by
  unfold Pipeline.Dat.share; rw [if_neg (by decide)]; exact hd.q0 c
variable {m dats} in
theorem share1 (hd : DataOk m dats) (c : Dev nD) : (dats 0 c).share 1 = fullShare.left := by
  unfold Pipeline.Dat.share; rw [if_neg (by decide)]; exact hd.q1 c
variable {m dats} in
theorem share2 (hd : DataOk m dats) (c : Dev nD) : (dats 0 c).share 2 = fullShare.right := by
  unfold Pipeline.Dat.share; rw [if_neg (by decide)]; exact hd.q2 c
variable {m dats} in
theorem share3 (hd : DataOk m dats) (c : Dev nD) : (dats 0 c).share 3 = fullShare := by
  unfold Pipeline.Dat.share; rw [if_neg (by decide)]; exact hd.q3 c
theorem share4 (c : Dev nD) : (dats 0 c).share 4 = fullShare := by
  unfold Pipeline.Dat.share; rw [if_pos (by decide)]

/-- The windows' arrays at contents `G`, one by one: each a whole buffer, the class words' array at one half per window. -/
theorem arrays_eq5 (hd : DataOk m dats) (c : Dev nD) (G : (w : Fin cfg0.W) → Buf (Elt F) ((cfg0.win w).arr.view.loc (c : Thread nD τ))) :
    ((dats 0 c).arrays G : sProp 𝕄)
      = iprop((((c : Thread nD τ).loc main_v12) ↦{fullShare} G 0) ∗ (((c : Thread nD τ).loc main_v9) ↦{fullShare.left} G 1)
          ∗ (((c : Thread nD τ).loc main_v9) ↦{fullShare.right} G 2) ∗ (((c : Thread nD τ).loc main_v4) ↦{fullShare} G 3)
          ∗ (((c : Thread nD τ).loc main_v13) ↦{fullShare} G 4)) := by
  unfold Pipeline.Dat.arrays
  rw [bigSep_W0, share0 hd c, share1 hd c, share2 hd c, share3 hd c, share4 dats c,
    (arr_whole0 0).set_eq_univ, (arr_whole0 1).set_eq_univ, (arr_whole0 3).set_eq_univ, (arr_whole0 4).set_eq_univ]

/-- The four buffers behind the windows, one by one. -/
theorem arrBufs_eq4 (c : Dev nD) (W : (b : Ref sig .tc) → Buf (Elt F) ((c : Thread nD τ).loc b)) :
    (Pipeline.arrBufs spec0 c W : sProp 𝕄)
      = iprop((((c : Thread nD τ).loc main_v12) ↦{fullShare} W main_v12) ∗ (((c : Thread nD τ).loc main_v9) ↦{fullShare} W main_v9)
          ∗ (((c : Thread nD τ).loc main_v4) ↦{fullShare} W main_v4) ∗ (((c : Thread nD τ).loc main_v13) ↦{fullShare} W main_v13)) := by
  unfold Pipeline.arrBufs
  exact bigSep_eq_bigSepL_of_eq [main_v12, main_v9, main_v4, main_v13] arrImage (by decide) _

theorem arrays_of_arrBufs (hd : DataOk m dats) (c : Dev nD) :
    (Pipeline.arrBufs spec0 c (V m c) : sProp 𝕄) ⊢ (dats 0 c).arrays ((dats 0 c).arrAt · 0) := by
  rw [arrays_eq5 m dats hd c, arrBufs_eq4]
  rw [show (dats 0 c).arrAt 0 0 = V m c main_v12 from hd.hA c 0, show (dats 0 c).arrAt 1 0 = V m c main_v9 from hd.hA c 1,
    show (dats 0 c).arrAt 2 0 = V m c main_v9 from hd.hA c 2, show (dats 0 c).arrAt 3 0 = V m c main_v4 from hd.hA c 3,
    show (dats 0 c).arrAt 4 0 = V m c main_v13 from hd.hA c 4]
  iintro ⟨H12, H9, H4, H13⟩
  ihave H9' := (pointsTo_share (PosShare.mem_left_op_right fullShare)).1 $$ H9
  icases H9' with ⟨H9l, H9r⟩
  isplitl [H12]; · iexact H12
  isplitl [H9l]; · iexact H9l
  isplitl [H9r]; · iexact H9r
  isplitl [H4]; · iexact H4
  iexact H13

/-! ## The host stretches before the region -/

theorem fresh0 : ∀ op ∈ (hostOps0 : List (HloOp τ sig (Elt F))), op.fresh = ∅ := by
  intro _ h; (repeat (cases h with | head => rfl | tail _ h => ?_)); exact nomatch h
theorem fresh0_1 : ∀ op ∈ (hostOps0_1 : List (HloOp τ sig (Elt F))), op.fresh = ∅ := by
  intro _ h; (repeat (cases h with | head => rfl | tail _ h => ?_)); exact nomatch h
theorem fresh0_2 : ∀ op ∈ (hostOps0_2 : List (HloOp τ sig (Elt F))), op.fresh = ∅ := by
  intro _ h; (repeat (cases h with | head => rfl | tail _ h => ?_)); exact nomatch h
theorem fresh1 : ∀ op ∈ (hostOps1 : List (HloOp τ sig (Elt F))), op.fresh = ∅ := by
  intro _ h; (repeat (cases h with | head => rfl | tail _ h => ?_)); exact nomatch h

/-- The three stretches before the region, each over all the unscoped buffers. -/
def segA : Pipeline.HostSeg (Name := ℕ) (U := UR sig nD τ) (pcfgs (F := F)) defs₀ 𝒱₀ Lv lv :=
  Pipeline.HostSeg.ofOps _ _ _ _ _ (Pipeline.ucRefs τ sig) hostOps0
    (fun op h => Pipeline.sub_ucRefs op ((List.forall_iff_forall_mem.mp hostOps0_sub) op h)) fresh0 (V₀ m) RdE
def segB : Pipeline.HostSeg (Name := ℕ) (U := UR sig nD τ) (pcfgs (F := F)) defs₀ 𝒱₀ Lv lv :=
  Pipeline.HostSeg.ofOps _ _ _ _ _ (Pipeline.ucRefs τ sig) hostOps0_1
    (fun op h => Pipeline.sub_ucRefs op ((List.forall_iff_forall_mem.mp hostOps0_1_sub) op h)) fresh0_1 (V₁ m) RdE
def segC : Pipeline.HostSeg (Name := ℕ) (U := UR sig nD τ) (pcfgs (F := F)) defs₀ 𝒱₀ Lv lv :=
  Pipeline.HostSeg.ofOps _ _ _ _ _ (Pipeline.ucRefs τ sig) hostOps0_2
    (fun op h => Pipeline.sub_ucRefs op ((List.forall_iff_forall_mem.mp hostOps0_2_sub) op h)) fresh0_2 (V₂ m) RdE

/-! ## The host operation after the region -/

/-- The two buffers the slice touches: the kernel's result and its own. -/
def tailRefs2 : Finset (DevRef τ sig) := {Proc.devRef .tc main_v13, Proc.devRef .tc main_v14}

/-- The buffers when the slice runs: the kernel's result at what the pipeline left, the others as the region found them. -/
def Vx (c : Dev nD) : Valuation τ sig (Elt F) := fun b =>
  if h : b = Proc.devRef .tc main_v13 then h ▸ ((dats 0 c).arrAt 4 cfg0.N) else V₃ m c b

theorem Vx_result (c : Dev nD) : Vx m dats c (Proc.devRef .tc main_v13) = (dats 0 c).arrAt 4 cfg0.N := by
  unfold Vx; rw [dif_pos rfl]
theorem Vx_of_ne (c : Dev nD) (b : DevRef τ sig) (h : b ≠ Proc.devRef .tc main_v13) : Vx m dats c b = V₃ m c b := by
  unfold Vx; rw [dif_neg h]

/-- Those two buffers held at a valuation, one by one. -/
theorem held_tail (c : Dev nD) (W : Valuation τ sig (Elt F)) :
    (StableHlo.held (c : Thread nD τ) tailRefs2 W : sProp 𝕄)
      = iprop((((c : Thread nD τ).loc main_v13) ↦{fullShare} W (Proc.devRef .tc main_v13)) ∗ (((c : Thread nD τ).loc main_v14) ↦{fullShare} W (Proc.devRef .tc main_v14))) := by
  unfold StableHlo.held tailRefs2
  rw [bigSep_insert (by decide), bigSep_singleton]
  rfl

/-- The unscoped buffers that are no window's array and not the slice's result: they bypass everything. -/
def bypass : Finset (Ref sig .tc) :=
  ((Finset.univ.filter fun b : Ref sig .tc => ¬ b.isScoped) \ Finset.univ.image (Pipeline.arrRef spec0)).erase main_v14

/-- The buffers that are no window's array: the slice's result buffer and the bypassing ones. -/
theorem rest_eq (c : Dev nD) (W : (b : Ref sig .tc) → Buf (Elt F) ((c : Thread nD τ).loc b)) :
    (Pipeline.unscopedRest spec0 c W : sProp 𝕄)
      = iprop((((c : Thread nD τ).loc main_v14) ↦{fullShare} W main_v14) ∗ bigSep bypass fun b => ((c : Thread nD τ).loc b) ↦{fullShare} W b) := by
  unfold Pipeline.unscopedRest bypass
  exact bigSep_erase (by decide)

/-- What rides past the slice: the bypassing buffers at what the region found, and what rides everywhere. (The input
    windows' arrays are let go: nothing after the region reads them through the windows.) -/
def Rtail (c : Dev nD) : sProp 𝕄 :=
  iprop((bigSep bypass fun b => ((c : Thread nD τ).loc b) ↦{fullShare} V m c b) ∗ Rd c)

theorem tail_sub : ∀ op ∈ (hostOps1 : List (HloOp τ sig (Elt F))), op.bufs ⊆ tailRefs2 := by
  intro op h
  simp only [hostOps1, List.mem_cons, List.mem_nil_iff, or_false] at h
  subst h
  exact Finset.Subset.refl _

/-- The slice after the region, over its two buffers. -/
def segT : Pipeline.HostSeg (Name := ℕ) (U := UR sig nD τ) (pcfgs (F := F)) defs₀ 𝒱₀ Lv lv :=
  Pipeline.HostSeg.ofOps _ _ _ _ _ tailRefs2 hostOps1 tail_sub fresh1 (Vx m dats) (Rtail m)

/-! ## The region -/

set_option backward.isDefEq.respectTransparency.types false in
/-- The kernel region, entered from what the third stretch left and left for the slice. -/
def reg (hd : DataOk m dats) : Pipeline.RegionSeg (pcfgs (F := F)) adm dats () defs₀ 𝒱₀ Lv lv 0 where
  win := winFacts₀0
  block_pos := block_pos0
  stage_whole := stage_whole0
  K := PEmpty
  osem := fun k => k.elim
  ho := Pipeline.OwnSemFacts.none _
  hbody c := (hd.hbody c).loose
  hwaits := Pipeline.hwaits_of_owed_zero _ _ _ _ Lv lv 0 hd.howed
  pre c := iprop(StableHlo.held (c : Thread nD τ) (Pipeline.ucRefs τ sig) (V₃ m c) ∗ RdE c)
  post c := iprop(StableHlo.held (c : Thread nD τ) tailRefs2 (Vx m dats c) ∗ Rtail m c)
  X c := iprop(∃ r, prngReg c r)
  Y c := iprop(∃ r, prngReg c r)
  Z c := Pipeline.unscopedRest spec0 c (V m c)
  hentry c := by
    rw [show StableHlo.held (c : Thread nD τ) (Pipeline.ucRefs τ sig) (V₃ m c) = unscopedBufs c (V m c) from (Pipeline.unscopedBufs_held c _).symm,
      Pipeline.unscopedBufs_split₀ cfgs 0 winFacts₀0.arr_unscoped c (V m c)]
    iintro ⟨⟨⟨Ha, Hrest⟩, ⟨HO, Hp⟩⟩, -, -⟩
    imodintro
    isplitl [Ha]
    · iapply (arrays_of_arrBufs m dats hd c); iexact Ha
    isplitr; · unfold Pipeline.prefHeld; rw [show (Finset.univ : Finset (Fin 0)) = ∅ from rfl, BI.bigSep_empty]; iempintro
    isplitl [HO]
    · unfold Pipeline.Dat.owesAt Pipeline.owesWithin
      rw [hd.howed c 0]
      iexists ∅; isplitr; · ipureintro; rw [Finset.coe_empty]; exact Set.empty_subset _
      iexact HO
    isplitl [Hp]; · iexact Hp
    iexact Hrest
  hin c := by
    refine BIBase.Entails.trans ?_ (hd.hin c)
    unfold Pipeline.ΦA
    iintro ⟨Hp, -, Hr⟩
    isplitl [Hr] <;> iassumption
  hout c := by
    refine BIBase.Entails.trans (hd.hout c) ?_
    rw [Pipeline.ownSems0_none]; unfold Pipeline.ΦA
    iintro ⟨Hr, Hp⟩
    isplitl [Hp]; · iexact Hp
    isplitr; · iempintro
    iexact Hr
  hexit c := by
    rw [arrays_eq5 m dats hd c, rest_eq, held_tail, Vx_result, Vx_of_ne m dats c _ (by decide)]
    unfold Rtail Rd
    iintro ⟨⟨-, -, -, -, H13⟩, HO, HY, ⟨H14, Hby⟩⟩
    imodintro
    isplitl [H13 H14]
    · isplitl [H13]; · iexact H13
      iexact H14
    isplitl [Hby]; · iexact Hby
    isplitl [HO]
    · unfold Pipeline.Dat.owesAt Pipeline.owesWithin
      rw [hd.howed c (Fin.last _)]
      icases HO with ⟨%W, -, HO⟩; iexists W; iexact HO
    iexact HY

/-! ## The run -/

/-- @main as the list of its five segments. -/
abbrev segs (hd : DataOk m dats) : List (Pipeline.Seg (pcfgs (F := F)) adm dats () defs₀ 𝒱₀ Lv lv) :=
  [.host (segA m), .host (segB m), .host (segC m), .region (reg m dats hd), .host (segT m dats)]

/-- What is left at the end: the slice's two buffers after it, and the bypassing buffers. -/
abbrev Tend (c : Dev nD) : sProp 𝕄 :=
  iprop(StableHlo.held (c : Thread nD τ) tailRefs2 (StableHlo.after hostOps1 (Vx m dats c))
    ∗ (bigSep bypass fun b => ((c : Thread nD τ).loc b) ↦{fullShare} V m c b) ∗ (∃ r, prngReg c r))

/-- What the run says of a final state: the slice's result buffer holds what the slice computes from what the pipeline left
    in the kernel's result array, and every bypassing buffer is as the region found it. -/
def RunPost (r : PUnit × MemSt nD τ sig (Elt F)) : Prop :=
  ∀ c : Dev nD,
    r.2.mem ((c : Thread nD τ).loc main_v14) = StableHlo.after hostOps1 (Vx m dats c) (Proc.devRef .tc main_v14)
    ∧ ∀ b ∈ bypass, r.2.mem ((c : Thread nD τ).loc b) = V m c b

set_option backward.isDefEq.respectTransparency.types false in
/-- At the compiled mesh, from any memory with zero counters: every weakly fair execution of @main terminates, nothing
    faulting, in a state of which `RunPost` holds. -/
theorem run_main (hd : DataOk m dats) : θ_run defs (onTc (τ := τ) (main (F := F))) (s₀ m ρ) (RunPost m dats) :=
  Pipeline.θ_run_regions_kit (pcfgs (F := F)) adm dats () cellOf_inj emb₁ defs₀ 𝒱₀ Lv lv m ρ main (segs m dats hd)
    (fun c Q => by rw [main_chain, Pipeline.Seg.run_eq_chain]; exact .rfl)
    (by simp only [Pipeline.Seg.pipes_host, Pipeline.Seg.pipes_region, Pipeline.Seg.pipes_nil]; decide) (O₀ := 0) (hL := fun _ _ => rfl) (G := fun _ => iprop(emp))
    (u₀ := initOf (Pipeline.cells (Pipeline.pin (pcfgs (F := F)) adm) cellOf_inj) (Pipeline.launchToks (Pipeline.pin (pcfgs (F := F)) adm) cellOf_inj))
    (hu₀ := by
      iintro Hu; imodintro
      isplitl [Hu]; · iapply (show (ownU _ : sProp 𝕄) ⊢ BI.own (emb₁ (initOf (Pipeline.cells (Pipeline.pin (pcfgs (F := F)) adm) cellOf_inj) (Pipeline.launchToks (Pipeline.pin (pcfgs (F := F)) adm) cellOf_inj))) from .rfl); iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V₀ m c) ∗ RdE c)) (Tₙ := Tend m dats)
    (hch := ⟨fun _ => .rfl, fun _ => .rfl, fun _ => .rfl, fun _ => .rfl, fun _ => .rfl, fun c => by
      show iprop(StableHlo.held (c : Thread nD τ) tailRefs2 (StableHlo.after hostOps1 (Vx m dats c)) ∗ Rtail m c) ⊢ _
      unfold Rtail Rd
      iintro ⟨Hh, Hby, HO, Hp⟩
      isplitr [HO]
      · isplitl [Hh]; · iexact Hh
        isplitl [Hby] <;> iassumption
      · iexact HO⟩)
    (hinit := by
      refine Pipeline.initEach Lv lv fun c => ?_
      rw [show unscopedBufs c (fun b => m ((c : Thread nD τ).loc b)) = StableHlo.held (c : Thread nD τ) (Pipeline.ucRefs τ sig) (V₀ m c) from Pipeline.unscopedBufs_held c (V₀ m c)]
      iintro ⟨⟨Hh, -, HO, -, Hp, -⟩, -⟩
      imodintro
      isplitl [Hh]; · iexact Hh
      isplitl [HO]; · iexact HO
      iexists _; iexact Hp)
    (QY := fun c s => s.mem ((c : Thread nD τ).loc main_v14) = StableHlo.after hostOps1 (Vx m dats c) (Proc.devRef .tc main_v14)
      ∧ ∀ b ∈ bypass, s.mem ((c : Thread nD τ).loc b) = V m c b)
    (hfin := fun c s' => by
      dsimp only [Tend]
      rw [held_tail]
      iintro ⟨⟨⟨-, H14⟩, Hby, -⟩, HSI⟩
      icombine HSI H14 gives %h14
      ihave Hr := (pointsTo_read_all bypass (fun b => (c : Thread nD τ).loc b) (V m c) s') $$ [Hby HSI]
      · isplitl [Hby] <;> iassumption
      icases Hr with ⟨%hby, HSI⟩
      imodintro
      isplitr; · ipureintro; exact ⟨Buf.eq_of_forall_mem_univ h14, hby⟩
      iexact HSI)
    (hQ := fun _ h => h)

end Cert.Kernel.Hand

end
-- ==== Proof.BitsRunA.lean ====
/-
  The body at a point of the first kind (column tile 0 on the diagonal): the three scratch accumulators are reset and the
  diagonal block's product is added to the row tile's sum; nothing is stored into the output block.
-/
import proofs.«408942_j68186900791974_3_alg».proof.Proof.BitsRuns

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the stores leave in the three scratch accumulators, as pieces (last first), with the body's triple on whole memrefs:
    the four input blocks at their contents and the output's buffer at contents handed back untouched. -/
noncomputable def kernelRunA (c : Dev nD) (i : grid0.Coords) (arg3 : Memref sig .tc .vmem S1x768x128 .f32) (harg3 : arg3.IsWhole) (arg4 : Memref sig .tc .vmem S1x1x768 .i32) (harg4 : arg4.IsWhole) (arg5 : Memref sig .tc .vmem S1x1x768 .i32) (harg5 : arg5.IsWhole) (arg6 : Memref sig .tc .vmem S128x128 .f32) (harg6 : arg6.IsWhole) (arg7 : Memref sig .tc .vmem S1x768x128 .f32) (harg7 : arg7.IsWhole) (arg8 : Memref sig .tc .vmem S768x128 .f32) (harg8 : arg8.IsWhole) (arg9 : Memref sig .tc .vmem S128x128 .f32) (harg9 : arg9.IsWhole) (arg10 : Memref sig .tc .vmem S128x128 .f32) (harg10 : arg10.IsWhole) (hc1 : cond1 i) (hc2 : cond2 i) (hc3 : ¬cond3 i) (hc4 : ¬cond4 i) (hc5 : ¬cond5 i)
    (x0 : Vec F S1x768x128 .f32) (x1 : Vec F S1x1x768 .i32) (x2 : Vec F S1x1x768 .i32) (x3 : Vec F S128x128 .f32) :
    Σ' (LAcc : List (View.Piece (Elt F) S768x128 .f32)) (LLow : List (View.Piece (Elt F) S128x128 .f32)), { LUp : List (View.Piece (Elt F) S128x128 .f32) //
      ∀ (xi4 : Vec F S1x768x128 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4
            ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4
                ∗ (∃ f, arg8.view.loc (c : Thread nD τ) ↦[arg8.view.set]{fullShare} arg8.view.writes (Elt F) f LAcc) ∗ (∃ f, arg9.view.loc (c : Thread nD τ) ↦[arg9.view.set]{fullShare} arg9.view.writes (Elt F) f LLow) ∗ (∃ f, arg10.view.loc (c : Thread nD τ) ↦[arg10.view.set]{fullShare} arg10.view.writes (Elt F) f LUp)) -∗ K ⟨⟩))
          ⊢ wp frame (wpE (defs₀ (F := F)) Variants.none c none) E (cc0__kernel i arg3 harg3 arg4 harg4 arg5 harg5 arg6 harg6 arg7 harg7 arg8 harg8 arg9 harg9 arg10 harg10) K } :=
  by
  refine ⟨?_, ?_, ?_, fun xi4 E K => ?run⟩
  case run =>
    simp only [cc0__kernel_eq_skeleton]; unfold cc0__kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, ⟨%ds2, %fs2, -, HS2⟩, Hk⟩
    obtain rfl := harg3.eq_unread hf0; obtain rfl := harg4.eq_unread hf1; obtain rfl := harg5.eq_unread hf2; obtain rfl := harg6.eq_unread hf3; obtain rfl := harg7.eq_unread hf4
    sl_exec (disch := first | exact hc1 | exact hc2 | exact hc3 | exact hc4 | exact hc5)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [HS0]; · iexists _; iexact HS0
    isplitl [HS1]; · iexists _; iexact HS1
    iexists _; iexact HS2

end Cert.Kernel.Hand

end
-- ==== Proof.BitsRunB.lean ====
/-
  The body at a point of the second kind (column tile 1 above the diagonal): the column tile, folded by class, is added to
  the upper fold; then both folds are projected back through the row tile's classes, added to the row tile's sum, and the
  sum is stored as the output block. The lower fold is only read.
-/
import proofs.«408942_j68186900791974_3_alg».proof.Proof.BitsRunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the stores leave in the output's buffer, the row tile's sum and the upper fold, as pieces (last first), with the
    body's triple: the scratch enters at the contents the point before left. -/
noncomputable def kernelRunB (c : Dev nD) (i : grid0.Coords) (arg3 : Memref sig .tc .vmem S1x768x128 .f32) (harg3 : arg3.IsWhole) (arg4 : Memref sig .tc .vmem S1x1x768 .i32) (harg4 : arg4.IsWhole) (arg5 : Memref sig .tc .vmem S1x1x768 .i32) (harg5 : arg5.IsWhole) (arg6 : Memref sig .tc .vmem S128x128 .f32) (harg6 : arg6.IsWhole) (arg7 : Memref sig .tc .vmem S1x768x128 .f32) (harg7 : arg7.IsWhole) (arg8 : Memref sig .tc .vmem S768x128 .f32) (harg8 : arg8.IsWhole) (arg9 : Memref sig .tc .vmem S128x128 .f32) (harg9 : arg9.IsWhole) (arg10 : Memref sig .tc .vmem S128x128 .f32) (harg10 : arg10.IsWhole) (hc1 : ¬cond1 i) (hc2 : ¬cond2 i) (hc3 : ¬cond3 i) (hc4 : cond4 i) (hc5 : cond5 i)
    (x0 : Vec F S1x768x128 .f32) (x1 : Vec F S1x1x768 .i32) (x2 : Vec F S1x1x768 .i32) (x3 : Vec F S128x128 .f32) (xsAcc : Vec F S768x128 .f32) (xsLow : Vec F S128x128 .f32) (xsUp : Vec F S128x128 .f32) :
    Σ' (L4 : List (View.Piece (Elt F) S1x768x128 .f32)) (LAcc : List (View.Piece (Elt F) S768x128 .f32)), { LUp : List (View.Piece (Elt F) S128x128 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d)
            ∗ owns (c : Thread nD τ) arg8 fullShare xsAcc ∗ owns (c : Thread nD τ) arg9 fullShare xsLow ∗ owns (c : Thread nD τ) arg10 fullShare xsUp
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4)
                ∗ (∃ f, arg8.view.loc (c : Thread nD τ) ↦[arg8.view.set]{fullShare} arg8.view.writes (Elt F) f LAcc) ∗ owns (c : Thread nD τ) arg9 fullShare xsLow ∗ (∃ f, arg10.view.loc (c : Thread nD τ) ↦[arg10.view.set]{fullShare} arg10.view.writes (Elt F) f LUp)) -∗ K ⟨⟩))
          ⊢ wp frame (wpE (defs₀ (F := F)) Variants.none c none) E (cc0__kernel i arg3 harg3 arg4 harg4 arg5 harg5 arg6 harg6 arg7 harg7 arg8 harg8 arg9 harg9 arg10 harg10) K } :=
  by
  refine ⟨?_, ?_, ?_, fun E K => ?run⟩
  case run =>
    simp only [cc0__kernel_eq_skeleton]; unfold cc0__kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg6.eq_unread hf3
    obtain rfl := harg8.eq_unread hfs0; obtain rfl := harg9.eq_unread hfs1; obtain rfl := harg10.eq_unread hfs2
    sl_exec (disch := first | exact hc1 | exact hc2 | exact hc3 | exact hc4 | exact hc5)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    isplitl [HS0]; · iexists _; iexact HS0
    isplitl [HS1]
    · iexists _; isplitr; · ipureintro; exact harg9.read_unread _
      iexact HS1
    iexists _; iexact HS2

end Cert.Kernel.Hand

end
-- ==== Proof.BitsRunC.lean ====
/-
  The body at a point of the third kind (column tile 0 below the diagonal): the three scratch accumulators are reset and the
  column tile, folded by class, is added to the lower fold; nothing is stored into the output block.
-/
import proofs.«408942_j68186900791974_3_alg».proof.Proof.BitsRunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the stores leave in the three scratch accumulators, as pieces (last first), with the body's triple. -/
noncomputable def kernelRunC (c : Dev nD) (i : grid0.Coords) (arg3 : Memref sig .tc .vmem S1x768x128 .f32) (harg3 : arg3.IsWhole) (arg4 : Memref sig .tc .vmem S1x1x768 .i32) (harg4 : arg4.IsWhole) (arg5 : Memref sig .tc .vmem S1x1x768 .i32) (harg5 : arg5.IsWhole) (arg6 : Memref sig .tc .vmem S128x128 .f32) (harg6 : arg6.IsWhole) (arg7 : Memref sig .tc .vmem S1x768x128 .f32) (harg7 : arg7.IsWhole) (arg8 : Memref sig .tc .vmem S768x128 .f32) (harg8 : arg8.IsWhole) (arg9 : Memref sig .tc .vmem S128x128 .f32) (harg9 : arg9.IsWhole) (arg10 : Memref sig .tc .vmem S128x128 .f32) (harg10 : arg10.IsWhole) (hc1 : cond1 i) (hc2 : ¬cond2 i) (hc3 : cond3 i) (hc4 : ¬cond4 i) (hc5 : ¬cond5 i)
    (x0 : Vec F S1x768x128 .f32) (x1 : Vec F S1x1x768 .i32) (x2 : Vec F S1x1x768 .i32) (x3 : Vec F S128x128 .f32) :
    Σ' (LAcc : List (View.Piece (Elt F) S768x128 .f32)) (LLow : List (View.Piece (Elt F) S128x128 .f32)), { LUp : List (View.Piece (Elt F) S128x128 .f32) //
      ∀ (xi4 : Vec F S1x768x128 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4
            ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4
                ∗ (∃ f, arg8.view.loc (c : Thread nD τ) ↦[arg8.view.set]{fullShare} arg8.view.writes (Elt F) f LAcc) ∗ (∃ f, arg9.view.loc (c : Thread nD τ) ↦[arg9.view.set]{fullShare} arg9.view.writes (Elt F) f LLow) ∗ (∃ f, arg10.view.loc (c : Thread nD τ) ↦[arg10.view.set]{fullShare} arg10.view.writes (Elt F) f LUp)) -∗ K ⟨⟩))
          ⊢ wp frame (wpE (defs₀ (F := F)) Variants.none c none) E (cc0__kernel i arg3 harg3 arg4 harg4 arg5 harg5 arg6 harg6 arg7 harg7 arg8 harg8 arg9 harg9 arg10 harg10) K } :=
  by
  refine ⟨?_, ?_, ?_, fun xi4 E K => ?run⟩
  case run =>
    simp only [cc0__kernel_eq_skeleton]; unfold cc0__kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, ⟨%ds2, %fs2, -, HS2⟩, Hk⟩
    obtain rfl := harg3.eq_unread hf0; obtain rfl := harg4.eq_unread hf1; obtain rfl := harg5.eq_unread hf2; obtain rfl := harg6.eq_unread hf3; obtain rfl := harg7.eq_unread hf4
    sl_exec (disch := first | exact hc1 | exact hc2 | exact hc3 | exact hc4 | exact hc5)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [HS0]; · iexists _; iexact HS0
    isplitl [HS1]; · iexists _; iexact HS1
    iexists _; iexact HS2

end Cert.Kernel.Hand

end
-- ==== Proof.BitsRunD.lean ====
/-
  The body at a point of the fourth kind (column tile 1 on the diagonal): the diagonal block's product is added to the row
  tile's sum; then both folds are projected back, added, and the sum is stored as the output block. Both folds are only read.
-/
import proofs.«408942_j68186900791974_3_alg».proof.Proof.BitsRunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the stores leave in the output's buffer and the row tile's sum, as pieces (last first), with the body's triple. -/
noncomputable def kernelRunD (c : Dev nD) (i : grid0.Coords) (arg3 : Memref sig .tc .vmem S1x768x128 .f32) (harg3 : arg3.IsWhole) (arg4 : Memref sig .tc .vmem S1x1x768 .i32) (harg4 : arg4.IsWhole) (arg5 : Memref sig .tc .vmem S1x1x768 .i32) (harg5 : arg5.IsWhole) (arg6 : Memref sig .tc .vmem S128x128 .f32) (harg6 : arg6.IsWhole) (arg7 : Memref sig .tc .vmem S1x768x128 .f32) (harg7 : arg7.IsWhole) (arg8 : Memref sig .tc .vmem S768x128 .f32) (harg8 : arg8.IsWhole) (arg9 : Memref sig .tc .vmem S128x128 .f32) (harg9 : arg9.IsWhole) (arg10 : Memref sig .tc .vmem S128x128 .f32) (harg10 : arg10.IsWhole) (hc1 : ¬cond1 i) (hc2 : cond2 i) (hc3 : ¬cond3 i) (hc4 : ¬cond4 i) (hc5 : cond5 i)
    (x0 : Vec F S1x768x128 .f32) (x1 : Vec F S1x1x768 .i32) (x2 : Vec F S1x1x768 .i32) (x3 : Vec F S128x128 .f32) (xsAcc : Vec F S768x128 .f32) (xsLow : Vec F S128x128 .f32) (xsUp : Vec F S128x128 .f32) :
    Σ' (L4 : List (View.Piece (Elt F) S1x768x128 .f32)), { LAcc : List (View.Piece (Elt F) S768x128 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d)
            ∗ owns (c : Thread nD τ) arg8 fullShare xsAcc ∗ owns (c : Thread nD τ) arg9 fullShare xsLow ∗ owns (c : Thread nD τ) arg10 fullShare xsUp
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4)
                ∗ (∃ f, arg8.view.loc (c : Thread nD τ) ↦[arg8.view.set]{fullShare} arg8.view.writes (Elt F) f LAcc) ∗ owns (c : Thread nD τ) arg9 fullShare xsLow ∗ owns (c : Thread nD τ) arg10 fullShare xsUp) -∗ K ⟨⟩))
          ⊢ wp frame (wpE (defs₀ (F := F)) Variants.none c none) E (cc0__kernel i arg3 harg3 arg4 harg4 arg5 harg5 arg6 harg6 arg7 harg7 arg8 harg8 arg9 harg9 arg10 harg10) K } :=
  by
  refine ⟨?_, ?_, fun E K => ?run⟩
  case run =>
    simp only [cc0__kernel_eq_skeleton]; unfold cc0__kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg6.eq_unread hf3
    obtain rfl := harg8.eq_unread hfs0; obtain rfl := harg9.eq_unread hfs1; obtain rfl := harg10.eq_unread hfs2
    sl_exec (disch := first | exact hc1 | exact hc2 | exact hc3 | exact hc4 | exact hc5)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    isplitl [HS0]; · iexists _; iexact HS0
    isplitl [HS1]
    · iexists _; isplitr; · ipureintro; exact harg9.read_unread _
      iexact HS1
    iexists _; isplitr; · ipureintro; exact harg10.read_unread _
    iexact HS2

end Cert.Kernel.Hand

end
-- ==== Proof.BitsFrameData.lean ====
/-
  The pipeline's proof data and the body obligation.

  For each of the four kinds of point: what the body leaves in the output's staging buffer and in the three scratch
  accumulators, as the stored pieces read back. Then, point by point along the grid, what those four buffers hold after
  the body (the accumulators are carried from a point to the next inside a row tile: a point of column tile 1 starts from
  what the point before left); the region's invariant before each point (the three accumulators at those contents); the
  proof data of the pipeline; and the body obligation: at every point the body, called on the staging buffers at the
  windows' blocks, leaves every window and the invariant as the proof data say.
-/
import proofs.«408942_j68186900791974_3_alg».proof.Proof.BitsRunD

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## What each kind of point leaves

Stated on any whole memrefs the body may be called with: the stored pieces of a buffer, written over arbitrary contents
and read back. Where the pieces cover the buffer this does not depend on those contents. -/

section Cases

variable (c : Dev nD) (i : grid0.Coords)
  (a3 : Memref sig .tc .vmem S1x768x128 .f32) (h3 : a3.IsWhole) (a4 : Memref sig .tc .vmem S1x1x768 .i32) (h4 : a4.IsWhole)
  (a5 : Memref sig .tc .vmem S1x1x768 .i32) (h5 : a5.IsWhole) (a6 : Memref sig .tc .vmem S128x128 .f32) (h6 : a6.IsWhole)
  (a7 : Memref sig .tc .vmem S1x768x128 .f32) (h7 : a7.IsWhole) (a8 : Memref sig .tc .vmem S768x128 .f32) (h8 : a8.IsWhole)
  (a9 : Memref sig .tc .vmem S128x128 .f32) (h9 : a9.IsWhole) (a10 : Memref sig .tc .vmem S128x128 .f32) (h10 : a10.IsWhole)
  (x0 : Vec F S1x768x128 .f32) (x1 : Vec F S1x1x768 .i32) (x2 : Vec F S1x1x768 .i32) (x3 : Vec F S128x128 .f32)

/-- At a point of column tile 0 nothing is stored into the output's buffer, the pipeline does not write it back and no
    later point reads it: a placeholder, which nothing consults. -/
def outIdle : Vec F S1x768x128 .f32 := VO4.read (Elt F) VO4.junk

/-! ### First kind (column tile 0, diagonal) -/

/-- The first kind's pieces for the row tile's sum cover it. -/
theorem scoverAAcc (hc1 : cond1 i) (hc2 : cond2 i) (hc3 : ¬cond3 i) (hc4 : ¬cond4 i) (hc5 : ¬cond5 i) (y : S768x128.Idx) :
    ∃ pc ∈ (kernelRunA c i a3 h3 a4 h4 a5 h5 a6 h6 a7 h7 a8 h8 a9 h9 a10 h10 hc1 hc2 hc3 hc4 hc5 x0 x1 x2 x3).1, y ∈ pc.1.set :=
  View.cover_of_tiledL (kernelRunA c i a3 h3 a4 h4 a5 h5 a6 h6 a7 h7 a8 h8 a9 h9 a10 h10 hc1 hc2 hc3 hc4 hc5 x0 x1 x2 x3).1 S768x128.size (by sl_kernel_rfl) y

/-- What the first kind leaves in the row tile's sum. -/
def soutAAcc (hc1 : cond1 i) (hc2 : cond2 i) (hc3 : ¬cond3 i) (hc4 : ¬cond4 i) (hc5 : ¬cond5 i) : Vec F S768x128 .f32 :=
  VSAcc.read (Elt F) (VSAcc.writes (Elt F) VSAcc.junk (kernelRunA c i a3 h3 a4 h4 a5 h5 a6 h6 a7 h7 a8 h8 a9 h9 a10 h10 hc1 hc2 hc3 hc4 hc5 x0 x1 x2 x3).1)

/-- Its pieces for the lower fold cover it. -/
theorem scoverALow (hc1 : cond1 i) (hc2 : cond2 i) (hc3 : ¬cond3 i) (hc4 : ¬cond4 i) (hc5 : ¬cond5 i) (y : S128x128.Idx) :
    ∃ pc ∈ (kernelRunA c i a3 h3 a4 h4 a5 h5 a6 h6 a7 h7 a8 h8 a9 h9 a10 h10 hc1 hc2 hc3 hc4 hc5 x0 x1 x2 x3).2.1, y ∈ pc.1.set :=
  View.cover_of_tiledL (kernelRunA c i a3 h3 a4 h4 a5 h5 a6 h6 a7 h7 a8 h8 a9 h9 a10 h10 hc1 hc2 hc3 hc4 hc5 x0 x1 x2 x3).2.1 S128x128.size (by sl_kernel_rfl) y

/-- What the first kind leaves in the lower fold. -/
def soutALow (hc1 : cond1 i) (hc2 : cond2 i) (hc3 : ¬cond3 i) (hc4 : ¬cond4 i) (hc5 : ¬cond5 i) : Vec F S128x128 .f32 :=
  VSLow.read (Elt F) (VSLow.writes (Elt F) VSLow.junk (kernelRunA c i a3 h3 a4 h4 a5 h5 a6 h6 a7 h7 a8 h8 a9 h9 a10 h10 hc1 hc2 hc3 hc4 hc5 x0 x1 x2 x3).2.1)

/-- Its pieces for the upper fold cover it. -/
theorem scoverAUp (hc1 : cond1 i) (hc2 : cond2 i) (hc3 : ¬cond3 i) (hc4 : ¬cond4 i) (hc5 : ¬cond5 i) (y : S128x128.Idx) :
    ∃ pc ∈ (kernelRunA c i a3 h3 a4 h4 a5 h5 a6 h6 a7 h7 a8 h8 a9 h9 a10 h10 hc1 hc2 hc3 hc4 hc5 x0 x1 x2 x3).2.2.1, y ∈ pc.1.set :=
  View.cover_of_tiledL (kernelRunA c i a3 h3 a4 h4 a5 h5 a6 h6 a7 h7 a8 h8 a9 h9 a10 h10 hc1 hc2 hc3 hc4 hc5 x0 x1 x2 x3).2.2.1 S128x128.size (by sl_kernel_rfl) y

/-- What the first kind leaves in the upper fold. -/
def soutAUp (hc1 : cond1 i) (hc2 : cond2 i) (hc3 : ¬cond3 i) (hc4 : ¬cond4 i) (hc5 : ¬cond5 i) : Vec F S128x128 .f32 :=
  VSUp.read (Elt F) (VSUp.writes (Elt F) VSUp.junk (kernelRunA c i a3 h3 a4 h4 a5 h5 a6 h6 a7 h7 a8 h8 a9 h9 a10 h10 hc1 hc2 hc3 hc4 hc5 x0 x1 x2 x3).2.2.1)

/-- The four buffers after a point of the first kind. -/
def outsA (hc1 : cond1 i) (hc2 : cond2 i) (hc3 : ¬cond3 i) (hc4 : ¬cond4 i) (hc5 : ¬cond5 i) : Vec F S1x768x128 .f32 × Vec F S768x128 .f32 × Vec F S128x128 .f32 × Vec F S128x128 .f32 :=
  (outIdle, soutAAcc c i a3 h3 a4 h4 a5 h5 a6 h6 a7 h7 a8 h8 a9 h9 a10 h10 x0 x1 x2 x3 hc1 hc2 hc3 hc4 hc5, soutALow c i a3 h3 a4 h4 a5 h5 a6 h6 a7 h7 a8 h8 a9 h9 a10 h10 x0 x1 x2 x3 hc1 hc2 hc3 hc4 hc5, soutAUp c i a3 h3 a4 h4 a5 h5 a6 h6 a7 h7 a8 h8 a9 h9 a10 h10 x0 x1 x2 x3 hc1 hc2 hc3 hc4 hc5)

/-! ### Second kind (column tile 1, above the diagonal)

The accumulators enter at what the point before left; the lower fold is only read. -/

/-- The second kind's pieces for the output block cover it. -/
theorem coverB4 (hc1 : ¬cond1 i) (hc2 : ¬cond2 i) (hc3 : ¬cond3 i) (hc4 : cond4 i) (hc5 : cond5 i) (sAcc : Vec F S768x128 .f32) (sLow : Vec F S128x128 .f32) (sUp : Vec F S128x128 .f32) (y : S1x768x128.Idx) :
    ∃ pc ∈ (kernelRunB c i a3 h3 a4 h4 a5 h5 a6 h6 a7 h7 a8 h8 a9 h9 a10 h10 hc1 hc2 hc3 hc4 hc5 x0 x1 x2 x3 sAcc sLow sUp).1, y ∈ pc.1.set :=
  View.cover_of_tiledL (kernelRunB c i a3 h3 a4 h4 a5 h5 a6 h6 a7 h7 a8 h8 a9 h9 a10 h10 hc1 hc2 hc3 hc4 hc5 x0 x1 x2 x3 sAcc sLow sUp).1 S1x768x128.size (by sl_kernel_rfl) y

/-- What the second kind leaves in the output's buffer. -/
def outB4 (hc1 : ¬cond1 i) (hc2 : ¬cond2 i) (hc3 : ¬cond3 i) (hc4 : cond4 i) (hc5 : cond5 i) (sAcc : Vec F S768x128 .f32) (sLow : Vec F S128x128 .f32) (sUp : Vec F S128x128 .f32) : Vec F S1x768x128 .f32 :=
  VO4.read (Elt F) (VO4.writes (Elt F) VO4.junk (kernelRunB c i a3 h3 a4 h4 a5 h5 a6 h6 a7 h7 a8 h8 a9 h9 a10 h10 hc1 hc2 hc3 hc4 hc5 x0 x1 x2 x3 sAcc sLow sUp).1)

/-- Its pieces for the row tile's sum cover it. -/
theorem scoverBAcc (hc1 : ¬cond1 i) (hc2 : ¬cond2 i) (hc3 : ¬cond3 i) (hc4 : cond4 i) (hc5 : cond5 i) (sAcc : Vec F S768x128 .f32) (sLow : Vec F S128x128 .f32) (sUp : Vec F S128x128 .f32) (y : S768x128.Idx) :
    ∃ pc ∈ (kernelRunB c i a3 h3 a4 h4 a5 h5 a6 h6 a7 h7 a8 h8 a9 h9 a10 h10 hc1 hc2 hc3 hc4 hc5 x0 x1 x2 x3 sAcc sLow sUp).2.1, y ∈ pc.1.set :=
  View.cover_of_tiledL (kernelRunB c i a3 h3 a4 h4 a5 h5 a6 h6 a7 h7 a8 h8 a9 h9 a10 h10 hc1 hc2 hc3 hc4 hc5 x0 x1 x2 x3 sAcc sLow sUp).2.1 S768x128.size (by sl_kernel_rfl) y

/-- What the second kind leaves in the row tile's sum. -/
def soutBAcc (hc1 : ¬cond1 i) (hc2 : ¬cond2 i) (hc3 : ¬cond3 i) (hc4 : cond4 i) (hc5 : cond5 i) (sAcc : Vec F S768x128 .f32) (sLow : Vec F S128x128 .f32) (sUp : Vec F S128x128 .f32) : Vec F S768x128 .f32 :=
  VSAcc.read (Elt F) (VSAcc.writes (Elt F) VSAcc.junk (kernelRunB c i a3 h3 a4 h4 a5 h5 a6 h6 a7 h7 a8 h8 a9 h9 a10 h10 hc1 hc2 hc3 hc4 hc5 x0 x1 x2 x3 sAcc sLow sUp).2.1)

/-- Its pieces for the upper fold cover it. -/
theorem scoverBUp (hc1 : ¬cond1 i) (hc2 : ¬cond2 i) (hc3 : ¬cond3 i) (hc4 : cond4 i) (hc5 : cond5 i) (sAcc : Vec F S768x128 .f32) (sLow : Vec F S128x128 .f32) (sUp : Vec F S128x128 .f32) (y : S128x128.Idx) :
    ∃ pc ∈ (kernelRunB c i a3 h3 a4 h4 a5 h5 a6 h6 a7 h7 a8 h8 a9 h9 a10 h10 hc1 hc2 hc3 hc4 hc5 x0 x1 x2 x3 sAcc sLow sUp).2.2.1, y ∈ pc.1.set :=
  View.cover_of_tiledL (kernelRunB c i a3 h3 a4 h4 a5 h5 a6 h6 a7 h7 a8 h8 a9 h9 a10 h10 hc1 hc2 hc3 hc4 hc5 x0 x1 x2 x3 sAcc sLow sUp).2.2.1 S128x128.size (by sl_kernel_rfl) y

/-- What the second kind leaves in the upper fold. -/
def soutBUp (hc1 : ¬cond1 i) (hc2 : ¬cond2 i) (hc3 : ¬cond3 i) (hc4 : cond4 i) (hc5 : cond5 i) (sAcc : Vec F S768x128 .f32) (sLow : Vec F S128x128 .f32) (sUp : Vec F S128x128 .f32) : Vec F S128x128 .f32 :=
  VSUp.read (Elt F) (VSUp.writes (Elt F) VSUp.junk (kernelRunB c i a3 h3 a4 h4 a5 h5 a6 h6 a7 h7 a8 h8 a9 h9 a10 h10 hc1 hc2 hc3 hc4 hc5 x0 x1 x2 x3 sAcc sLow sUp).2.2.1)

/-- The four buffers after a point of the second kind. -/
def outsB (hc1 : ¬cond1 i) (hc2 : ¬cond2 i) (hc3 : ¬cond3 i) (hc4 : cond4 i) (hc5 : cond5 i) (sAcc : Vec F S768x128 .f32) (sLow : Vec F S128x128 .f32) (sUp : Vec F S128x128 .f32) : Vec F S1x768x128 .f32 × Vec F S768x128 .f32 × Vec F S128x128 .f32 × Vec F S128x128 .f32 :=
  (outB4 c i a3 h3 a4 h4 a5 h5 a6 h6 a7 h7 a8 h8 a9 h9 a10 h10 x0 x1 x2 x3 hc1 hc2 hc3 hc4 hc5 sAcc sLow sUp, soutBAcc c i a3 h3 a4 h4 a5 h5 a6 h6 a7 h7 a8 h8 a9 h9 a10 h10 x0 x1 x2 x3 hc1 hc2 hc3 hc4 hc5 sAcc sLow sUp, sLow, soutBUp c i a3 h3 a4 h4 a5 h5 a6 h6 a7 h7 a8 h8 a9 h9 a10 h10 x0 x1 x2 x3 hc1 hc2 hc3 hc4 hc5 sAcc sLow sUp)

/-! ### Third kind (column tile 0, below the diagonal) -/

/-- The third kind's pieces for the row tile's sum cover it. -/
theorem scoverCAcc (hc1 : cond1 i) (hc2 : ¬cond2 i) (hc3 : cond3 i) (hc4 : ¬cond4 i) (hc5 : ¬cond5 i) (y : S768x128.Idx) :
    ∃ pc ∈ (kernelRunC c i a3 h3 a4 h4 a5 h5 a6 h6 a7 h7 a8 h8 a9 h9 a10 h10 hc1 hc2 hc3 hc4 hc5 x0 x1 x2 x3).1, y ∈ pc.1.set :=
  View.cover_of_tiledL (kernelRunC c i a3 h3 a4 h4 a5 h5 a6 h6 a7 h7 a8 h8 a9 h9 a10 h10 hc1 hc2 hc3 hc4 hc5 x0 x1 x2 x3).1 S768x128.size (by sl_kernel_rfl) y

/-- What the third kind leaves in the row tile's sum. -/
def soutCAcc (hc1 : cond1 i) (hc2 : ¬cond2 i) (hc3 : cond3 i) (hc4 : ¬cond4 i) (hc5 : ¬cond5 i) : Vec F S768x128 .f32 :=
  VSAcc.read (Elt F) (VSAcc.writes (Elt F) VSAcc.junk (kernelRunC c i a3 h3 a4 h4 a5 h5 a6 h6 a7 h7 a8 h8 a9 h9 a10 h10 hc1 hc2 hc3 hc4 hc5 x0 x1 x2 x3).1)

/-- Its pieces for the lower fold cover it. -/
theorem scoverCLow (hc1 : cond1 i) (hc2 : ¬cond2 i) (hc3 : cond3 i) (hc4 : ¬cond4 i) (hc5 : ¬cond5 i) (y : S128x128.Idx) :
    ∃ pc ∈ (kernelRunC c i a3 h3 a4 h4 a5 h5 a6 h6 a7 h7 a8 h8 a9 h9 a10 h10 hc1 hc2 hc3 hc4 hc5 x0 x1 x2 x3).2.1, y ∈ pc.1.set :=
  View.cover_of_tiledL (kernelRunC c i a3 h3 a4 h4 a5 h5 a6 h6 a7 h7 a8 h8 a9 h9 a10 h10 hc1 hc2 hc3 hc4 hc5 x0 x1 x2 x3).2.1 S128x128.size (by sl_kernel_rfl) y

/-- What the third kind leaves in the lower fold. -/
def soutCLow (hc1 : cond1 i) (hc2 : ¬cond2 i) (hc3 : cond3 i) (hc4 : ¬cond4 i) (hc5 : ¬cond5 i) : Vec F S128x128 .f32 :=
  VSLow.read (Elt F) (VSLow.writes (Elt F) VSLow.junk (kernelRunC c i a3 h3 a4 h4 a5 h5 a6 h6 a7 h7 a8 h8 a9 h9 a10 h10 hc1 hc2 hc3 hc4 hc5 x0 x1 x2 x3).2.1)

/-- Its pieces for the upper fold cover it. -/
theorem scoverCUp (hc1 : cond1 i) (hc2 : ¬cond2 i) (hc3 : cond3 i) (hc4 : ¬cond4 i) (hc5 : ¬cond5 i) (y : S128x128.Idx) :
    ∃ pc ∈ (kernelRunC c i a3 h3 a4 h4 a5 h5 a6 h6 a7 h7 a8 h8 a9 h9 a10 h10 hc1 hc2 hc3 hc4 hc5 x0 x1 x2 x3).2.2.1, y ∈ pc.1.set :=
  View.cover_of_tiledL (kernelRunC c i a3 h3 a4 h4 a5 h5 a6 h6 a7 h7 a8 h8 a9 h9 a10 h10 hc1 hc2 hc3 hc4 hc5 x0 x1 x2 x3).2.2.1 S128x128.size (by sl_kernel_rfl) y

/-- What the third kind leaves in the upper fold. -/
def soutCUp (hc1 : cond1 i) (hc2 : ¬cond2 i) (hc3 : cond3 i) (hc4 : ¬cond4 i) (hc5 : ¬cond5 i) : Vec F S128x128 .f32 :=
  VSUp.read (Elt F) (VSUp.writes (Elt F) VSUp.junk (kernelRunC c i a3 h3 a4 h4 a5 h5 a6 h6 a7 h7 a8 h8 a9 h9 a10 h10 hc1 hc2 hc3 hc4 hc5 x0 x1 x2 x3).2.2.1)

/-- The four buffers after a point of the third kind. -/
def outsC (hc1 : cond1 i) (hc2 : ¬cond2 i) (hc3 : cond3 i) (hc4 : ¬cond4 i) (hc5 : ¬cond5 i) : Vec F S1x768x128 .f32 × Vec F S768x128 .f32 × Vec F S128x128 .f32 × Vec F S128x128 .f32 :=
  (outIdle, soutCAcc c i a3 h3 a4 h4 a5 h5 a6 h6 a7 h7 a8 h8 a9 h9 a10 h10 x0 x1 x2 x3 hc1 hc2 hc3 hc4 hc5, soutCLow c i a3 h3 a4 h4 a5 h5 a6 h6 a7 h7 a8 h8 a9 h9 a10 h10 x0 x1 x2 x3 hc1 hc2 hc3 hc4 hc5, soutCUp c i a3 h3 a4 h4 a5 h5 a6 h6 a7 h7 a8 h8 a9 h9 a10 h10 x0 x1 x2 x3 hc1 hc2 hc3 hc4 hc5)

/-! ### Fourth kind (column tile 1, diagonal)

The accumulators enter at what the point before left; both folds are only read. -/

/-- The fourth kind's pieces for the output block cover it. -/
theorem coverD4 (hc1 : ¬cond1 i) (hc2 : cond2 i) (hc3 : ¬cond3 i) (hc4 : ¬cond4 i) (hc5 : cond5 i) (sAcc : Vec F S768x128 .f32) (sLow : Vec F S128x128 .f32) (sUp : Vec F S128x128 .f32) (y : S1x768x128.Idx) :
    ∃ pc ∈ (kernelRunD c i a3 h3 a4 h4 a5 h5 a6 h6 a7 h7 a8 h8 a9 h9 a10 h10 hc1 hc2 hc3 hc4 hc5 x0 x1 x2 x3 sAcc sLow sUp).1, y ∈ pc.1.set :=
  View.cover_of_tiledL (kernelRunD c i a3 h3 a4 h4 a5 h5 a6 h6 a7 h7 a8 h8 a9 h9 a10 h10 hc1 hc2 hc3 hc4 hc5 x0 x1 x2 x3 sAcc sLow sUp).1 S1x768x128.size (by sl_kernel_rfl) y

/-- What the fourth kind leaves in the output's buffer. -/
def outD4 (hc1 : ¬cond1 i) (hc2 : cond2 i) (hc3 : ¬cond3 i) (hc4 : ¬cond4 i) (hc5 : cond5 i) (sAcc : Vec F S768x128 .f32) (sLow : Vec F S128x128 .f32) (sUp : Vec F S128x128 .f32) : Vec F S1x768x128 .f32 :=
  VO4.read (Elt F) (VO4.writes (Elt F) VO4.junk (kernelRunD c i a3 h3 a4 h4 a5 h5 a6 h6 a7 h7 a8 h8 a9 h9 a10 h10 hc1 hc2 hc3 hc4 hc5 x0 x1 x2 x3 sAcc sLow sUp).1)

/-- Its pieces for the row tile's sum cover it. -/
theorem scoverDAcc (hc1 : ¬cond1 i) (hc2 : cond2 i) (hc3 : ¬cond3 i) (hc4 : ¬cond4 i) (hc5 : cond5 i) (sAcc : Vec F S768x128 .f32) (sLow : Vec F S128x128 .f32) (sUp : Vec F S128x128 .f32) (y : S768x128.Idx) :
    ∃ pc ∈ (kernelRunD c i a3 h3 a4 h4 a5 h5 a6 h6 a7 h7 a8 h8 a9 h9 a10 h10 hc1 hc2 hc3 hc4 hc5 x0 x1 x2 x3 sAcc sLow sUp).2.1, y ∈ pc.1.set :=
  View.cover_of_tiledL (kernelRunD c i a3 h3 a4 h4 a5 h5 a6 h6 a7 h7 a8 h8 a9 h9 a10 h10 hc1 hc2 hc3 hc4 hc5 x0 x1 x2 x3 sAcc sLow sUp).2.1 S768x128.size (by sl_kernel_rfl) y

/-- What the fourth kind leaves in the row tile's sum. -/
def soutDAcc (hc1 : ¬cond1 i) (hc2 : cond2 i) (hc3 : ¬cond3 i) (hc4 : ¬cond4 i) (hc5 : cond5 i) (sAcc : Vec F S768x128 .f32) (sLow : Vec F S128x128 .f32) (sUp : Vec F S128x128 .f32) : Vec F S768x128 .f32 :=
  VSAcc.read (Elt F) (VSAcc.writes (Elt F) VSAcc.junk (kernelRunD c i a3 h3 a4 h4 a5 h5 a6 h6 a7 h7 a8 h8 a9 h9 a10 h10 hc1 hc2 hc3 hc4 hc5 x0 x1 x2 x3 sAcc sLow sUp).2.1)

/-- The four buffers after a point of the fourth kind. -/
def outsD (hc1 : ¬cond1 i) (hc2 : cond2 i) (hc3 : ¬cond3 i) (hc4 : ¬cond4 i) (hc5 : cond5 i) (sAcc : Vec F S768x128 .f32) (sLow : Vec F S128x128 .f32) (sUp : Vec F S128x128 .f32) : Vec F S1x768x128 .f32 × Vec F S768x128 .f32 × Vec F S128x128 .f32 × Vec F S128x128 .f32 :=
  (outD4 c i a3 h3 a4 h4 a5 h5 a6 h6 a7 h7 a8 h8 a9 h9 a10 h10 x0 x1 x2 x3 hc1 hc2 hc3 hc4 hc5 sAcc sLow sUp, soutDAcc c i a3 h3 a4 h4 a5 h5 a6 h6 a7 h7 a8 h8 a9 h9 a10 h10 x0 x1 x2 x3 hc1 hc2 hc3 hc4 hc5 sAcc sLow sUp, sLow, sUp)

end Cases

/-! ## What the four buffers hold after each point -/

/-- The four buffers after a point of the first kind, at the pipeline's memrefs and the windows' blocks there. -/
def ptA (c : Dev nD) (t : Fin cfg0.N) (h : t.val % 4 = 0) : Vec F S1x768x128 .f32 × Vec F S768x128 .f32 × Vec F S128x128 .f32 × Vec F S128x128 .f32 :=
  outsA c (grid0.coords t) (ms0 t) (hs0 t) (ms1 t) (hs1 t) (ms2 t) (hs2 t) (ms3 t) (hs3 t) (ms4 t) (hs4 t) scAcc (Memref.isWhole_whole _) scLow (Memref.isWhole_whole _) scUp (Memref.isWhole_whole _)
    (iblk m c 0 t) (iblk m c 1 t) (iblk m c 2 t) (iblk m c 3 t)
    ((hcond1 t).mpr (by omega)) ((hcond2 t).mpr (Or.inl h)) (fun h' => absurd ((hcond3 t).mp h') (by omega)) (fun h' => absurd ((hcond4 t).mp h') (by omega)) (fun h' => absurd ((hcond5 t).mp h') (by omega))
/-- After a point of the second kind, over what the point before left in the accumulators. -/
def ptB (c : Dev nD) (t : Fin cfg0.N) (h : t.val % 4 = 1) (sAcc : Vec F S768x128 .f32) (sLow : Vec F S128x128 .f32) (sUp : Vec F S128x128 .f32) : Vec F S1x768x128 .f32 × Vec F S768x128 .f32 × Vec F S128x128 .f32 × Vec F S128x128 .f32 :=
  outsB c (grid0.coords t) (ms0 t) (hs0 t) (ms1 t) (hs1 t) (ms2 t) (hs2 t) (ms3 t) (hs3 t) (ms4 t) (hs4 t) scAcc (Memref.isWhole_whole _) scLow (Memref.isWhole_whole _) scUp (Memref.isWhole_whole _)
    (iblk m c 0 t) (iblk m c 1 t) (iblk m c 2 t) (iblk m c 3 t)
    (fun h' => absurd ((hcond1 t).mp h') (by omega)) (fun h' => absurd ((hcond2 t).mp h') (by omega)) (fun h' => absurd ((hcond3 t).mp h') (by omega)) ((hcond4 t).mpr h) ((hcond5 t).mpr (by omega)) sAcc sLow sUp
/-- After a point of the third kind. -/
def ptC (c : Dev nD) (t : Fin cfg0.N) (h : t.val % 4 = 2) : Vec F S1x768x128 .f32 × Vec F S768x128 .f32 × Vec F S128x128 .f32 × Vec F S128x128 .f32 :=
  outsC c (grid0.coords t) (ms0 t) (hs0 t) (ms1 t) (hs1 t) (ms2 t) (hs2 t) (ms3 t) (hs3 t) (ms4 t) (hs4 t) scAcc (Memref.isWhole_whole _) scLow (Memref.isWhole_whole _) scUp (Memref.isWhole_whole _)
    (iblk m c 0 t) (iblk m c 1 t) (iblk m c 2 t) (iblk m c 3 t)
    ((hcond1 t).mpr (by omega)) (fun h' => absurd ((hcond2 t).mp h') (by omega)) ((hcond3 t).mpr h) (fun h' => absurd ((hcond4 t).mp h') (by omega)) (fun h' => absurd ((hcond5 t).mp h') (by omega))
/-- After a point of the fourth kind, over what the point before left in the accumulators. -/
def ptD (c : Dev nD) (t : Fin cfg0.N) (h : t.val % 4 = 3) (sAcc : Vec F S768x128 .f32) (sLow : Vec F S128x128 .f32) (sUp : Vec F S128x128 .f32) : Vec F S1x768x128 .f32 × Vec F S768x128 .f32 × Vec F S128x128 .f32 × Vec F S128x128 .f32 :=
  outsD c (grid0.coords t) (ms0 t) (hs0 t) (ms1 t) (hs1 t) (ms2 t) (hs2 t) (ms3 t) (hs3 t) (ms4 t) (hs4 t) scAcc (Memref.isWhole_whole _) scLow (Memref.isWhole_whole _) scUp (Memref.isWhole_whole _)
    (iblk m c 0 t) (iblk m c 1 t) (iblk m c 2 t) (iblk m c 3 t)
    (fun h' => absurd ((hcond1 t).mp h') (by omega)) ((hcond2 t).mpr (Or.inr h)) (fun h' => absurd ((hcond3 t).mp h') (by omega)) (fun h' => absurd ((hcond4 t).mp h') (by omega)) ((hcond5 t).mpr (by omega)) sAcc sLow sUp

/-- THE ACCUMULATION. What the output's staging buffer and the three accumulators (row tile's sum, lower fold, upper fold)
    hold after the body at position `n`: the kind is the position's residue mod 4; a point of column tile 1 (residues 1
    and 3) runs over what position `n - 1` left in the accumulators. -/
def outsAt0 (c : Dev nD) : (n : ℕ) → n < cfg0.N → Vec F S1x768x128 .f32 × Vec F S768x128 .f32 × Vec F S128x128 .f32 × Vec F S128x128 .f32
  | 0, hn => ptA m c ⟨0, hn⟩ (Nat.zero_mod 4)
  | n + 1, hn =>
    if h0 : (n + 1) % 4 = 0 then ptA m c ⟨n + 1, hn⟩ h0
    else if h1 : (n + 1) % 4 = 1 then
      ptB m c ⟨n + 1, hn⟩ h1 (outsAt0 c n (Nat.lt_of_succ_lt hn)).2.1 (outsAt0 c n (Nat.lt_of_succ_lt hn)).2.2.1 (outsAt0 c n (Nat.lt_of_succ_lt hn)).2.2.2
    else if h2 : (n + 1) % 4 = 2 then ptC m c ⟨n + 1, hn⟩ h2
    else
      ptD m c ⟨n + 1, hn⟩ (show (n + 1) % 4 = 3 by omega) (outsAt0 c n (Nat.lt_of_succ_lt hn)).2.1 (outsAt0 c n (Nat.lt_of_succ_lt hn)).2.2.1 (outsAt0 c n (Nat.lt_of_succ_lt hn)).2.2.2

/-- The position before a point's, inside the grid. -/
theorem pred_lt (t : Fin cfg0.N) : t.val - 1 < cfg0.N := Nat.lt_of_le_of_lt (Nat.sub_le _ _) t.isLt

/-- At a point of the first kind: that kind's contents. -/
theorem outsAt0_A (c : Dev nD) (t : Fin cfg0.N) (h : t.val % 4 = 0) : outsAt0 m c t.val t.isLt = ptA m c t h := by
  obtain ⟨n, hn⟩ := t
  cases n with
  | zero => rfl
  | succ n => exact dif_pos h

/-- At a point of the second kind: that kind's contents over what the point before left. -/
theorem outsAt0_B (c : Dev nD) (t : Fin cfg0.N) (h : t.val % 4 = 1) :
    outsAt0 m c t.val t.isLt = ptB m c t h (outsAt0 m c (t.val - 1) (pred_lt t)).2.1 (outsAt0 m c (t.val - 1) (pred_lt t)).2.2.1 (outsAt0 m c (t.val - 1) (pred_lt t)).2.2.2 := by
  obtain ⟨n, hn⟩ := t
  cases n with
  | zero => exact absurd (show 0 % 4 = 1 from h) (by decide)
  | succ n =>
    have h' : (n + 1) % 4 = 1 := h
    exact (dif_neg (by omega)).trans (dif_pos h)

/-- At a point of the third kind: that kind's contents. -/
theorem outsAt0_C (c : Dev nD) (t : Fin cfg0.N) (h : t.val % 4 = 2) : outsAt0 m c t.val t.isLt = ptC m c t h := by
  obtain ⟨n, hn⟩ := t
  cases n with
  | zero => exact absurd (show 0 % 4 = 2 from h) (by decide)
  | succ n =>
    have h' : (n + 1) % 4 = 2 := h
    exact (dif_neg (by omega)).trans ((dif_neg (by omega)).trans (dif_pos h))

/-- At a point of the fourth kind: that kind's contents over what the point before left. -/
theorem outsAt0_D (c : Dev nD) (t : Fin cfg0.N) (h : t.val % 4 = 3) :
    outsAt0 m c t.val t.isLt = ptD m c t h (outsAt0 m c (t.val - 1) (pred_lt t)).2.1 (outsAt0 m c (t.val - 1) (pred_lt t)).2.2.1 (outsAt0 m c (t.val - 1) (pred_lt t)).2.2.2 := by
  obtain ⟨n, hn⟩ := t
  cases n with
  | zero => exact absurd (show 0 % 4 = 3 from h) (by decide)
  | succ n =>
    have h' : (n + 1) % 4 = 3 := h
    exact (dif_neg (by omega)).trans ((dif_neg (by omega)).trans (dif_neg (by omega)))

/-! ## The region's invariant along the grid -/

/-- The invariant before position `n`: before the first point what the launch hands the region (the three accumulators
    at anything); afterwards the three accumulators at what the point before left in them, and the generator register at
    some state. -/
def PhiS (c : Dev nD) : (n : ℕ) → n ≤ cfg0.N → sProp 𝕄
  | 0, _ => Pipeline.ΦA spec0 c
  | n + 1, hn => iprop(iprop(owns (c : Thread nD τ) scAcc fullShare (outsAt0 m c n hn).2.1 ∗ owns (c : Thread nD τ) scLow fullShare (outsAt0 m c n hn).2.2.1 ∗ owns (c : Thread nD τ) scUp fullShare (outsAt0 m c n hn).2.2.2) ∗ (∃ r, prngReg c r))

theorem PhiS_zero (c : Dev nD) (n : ℕ) (h : n ≤ cfg0.N) (hz : n = 0) : PhiS m c n h = Pipeline.ΦA spec0 c := by
  subst hz; rfl

/-- After point `n`: the accumulators at that point's contents. -/
theorem PhiS_succ (c : Dev nD) (n : ℕ) (hn : n < cfg0.N) :
    PhiS m c (n + 1) hn = iprop(iprop(owns (c : Thread nD τ) scAcc fullShare (outsAt0 m c n hn).2.1 ∗ owns (c : Thread nD τ) scLow fullShare (outsAt0 m c n hn).2.2.1 ∗ owns (c : Thread nD τ) scUp fullShare (outsAt0 m c n hn).2.2.2) ∗ (∃ r, prngReg c r)) := rfl

/-- Before a point that is not the first: the accumulators at what the point before left. -/
theorem PhiS_pos (c : Dev nD) (n : ℕ) (h : n ≤ cfg0.N) (hz : n ≠ 0) :
    PhiS m c n h = iprop(iprop(owns (c : Thread nD τ) scAcc fullShare (outsAt0 m c (n - 1) (by omega)).2.1 ∗ owns (c : Thread nD τ) scLow fullShare (outsAt0 m c (n - 1) (by omega)).2.2.1 ∗ owns (c : Thread nD τ) scUp fullShare (outsAt0 m c (n - 1) (by omega)).2.2.2) ∗ (∃ r, prngReg c r)) := by
  cases n with
  | zero => exact absurd rfl hz
  | succ n => rfl

/-! ## The pipeline's proof data -/

/-- The proof data of the pipeline on core `c`: the arrays as the region finds them; after the body at a point each
    input's buffer still at its block and the output's at the first of the four buffers above; the invariant the one
    above; nothing owed. The two windows on the class words read one array, so each holds half of it. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t.val t.isLt).1
  Φ t := PhiS m c t.val (Nat.le_of_lt_succ t.isLt)
  q w := match w with
    | ⟨1, _⟩ => fullShare.left
    | ⟨2, _⟩ => fullShare.right
    | _ => fullShare
  owed _ := 0

/-- The proof data's arrays are the region-entry contents. -/
theorem A_eq (c : Dev nD) (w : Fin cfg0.W) : (dats m 0 c).A w = V m c (Pipeline.arrRef spec0 w) := by
  dsimp only [dats]

/-- The shares held of the arrays. -/
theorem q0 (c : Dev nD) : (dats m 0 c).q 0 = fullShare := rfl
theorem q1 (c : Dev nD) : (dats m 0 c).q 1 = fullShare.left := rfl
theorem q2 (c : Dev nD) : (dats m 0 c).q 2 = fullShare.right := rfl
theorem q3 (c : Dev nD) : (dats m 0 c).q 3 = fullShare := rfl
theorem q4 (c : Dev nD) : (dats m 0 c).q 4 = fullShare := rfl

/-- The invariant at a point's start, restated at the point's number. -/
theorem PhiS_castSucc (c : Dev nD) (t : Fin cfg0.N) :
    (dats m 0 c).Φ t.castSucc = PhiS m c t.val (Nat.le_of_lt t.isLt) := by
  dsimp only [dats]; simp only [Fin.coe_castSucc]

/-- What the body leaves, window by window. -/
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = (outsAt0 m c t.val t.isLt).1 := by dsimp only [dats]

/-- Each input's current staging buffer holds its block at every point, fetched there or not. -/
theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d

/-- At any position the invariant gives the three accumulators at some contents (their named contents forgotten) and
    the generator register at some state: what the launch handed the region. -/
theorem PhiS_forget (c : Dev nD) (n : ℕ) (h : n ≤ cfg0.N) :
    PhiS m c n h ⊢ iprop(iprop((∃ d, owns (c : Thread nD τ) scAcc fullShare d) ∗ (∃ d, owns (c : Thread nD τ) scLow fullShare d) ∗ (∃ d, owns (c : Thread nD τ) scUp fullShare d)) ∗ (∃ r, prngReg c r)) := by
  by_cases hz : n = 0
  · rw [PhiS_zero m c n h hz, PhiA0_eq]
  · rw [PhiS_pos m c n h hz]
    iintro ⟨⟨HSA, HSL, HSU⟩, Hg⟩
    isplitr [Hg]
    · isplitl [HSA]; · iexists _; iexact HSA
      isplitl [HSL]; · iexists _; iexact HSL
      iexists _; iexact HSU
    iexact Hg

/-- A buffer into which pieces covering it have been stored is owned at those pieces read back, whatever it held before
    and through whichever view of its shape they are read. -/
theorem owns_of_cover {s : Shape} {e : EltTy} (c : Dev nD) (a : Memref sig .tc .vmem s e) (v' : View sig .tc .vmem s e)
    (L : List (View.Piece (Elt F) s e)) (hL : ∀ y, ∃ p ∈ L, y ∈ p.1.set) :
    (iprop(∃ f, a.view.loc (c : Thread nD τ) ↦[a.view.set]{fullShare} a.view.writes (Elt F) f L) : sProp 𝕄)
      ⊢ owns (c : Thread nD τ) a fullShare (v'.read (Elt F) (v'.writes (Elt F) v'.junk L)) := by
  iintro ⟨%f, H⟩
  unfold owns; iexists _; isplitr
  swap; · iexact H
  ipureintro; exact View.read_writes_of_cover _ _ _ _ _ hL

/-! ## The body obligation, at a generic point -/

/-- What the body is called with at point `t`: the invariant, what the core owes, and the five windows' current buffers, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 4800000 in
/-- The body at any point. The four inputs' buffers hold their blocks; the point's number mod 4 says which kind it is, so
    that kind's run applies. At column tile 0 the invariant hands the accumulators over at anything and the output's
    buffer comes back untouched; at column tile 1 it hands them over at what the point before left and the output's
    buffer comes back at the stored block. Either way the accumulators return at this point's contents (their pieces cover
    them), and the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0 t) fullShare ((dats m 0 c).after 0 t) from by
    unfold Dat.leavesExact; rw [liveAt0 t], after0]
  rw [show (dats m 0 c).leavesExact 1 t = owns (c : Thread nD τ) (ms1 t) fullShare ((dats m 0 c).after 1 t) from by
    unfold Dat.leavesExact; rw [liveAt1 t], after1]
  rw [show (dats m 0 c).leavesExact 2 t = owns (c : Thread nD τ) (ms2 t) fullShare ((dats m 0 c).after 2 t) from by
    unfold Dat.leavesExact; rw [liveAt2 t], after2]
  rw [show (dats m 0 c).leavesExact 3 t = owns (c : Thread nD τ) (ms3 t) fullShare ((dats m 0 c).after 3 t) from by
    unfold Dat.leavesExact; rw [liveAt3 t], after3]
  have hN : t.val < 64 := lt_of_lt_of_eq t.isLt (show cfg0.N = 64 from N_0)
  by_cases h0 : t.val % 4 = 0
  · -- first kind: column tile 0, a diagonal block
    rw [Dat.leavesExact_idle (dats m 0 c) 4 t (idleAt4 t (fun h' => absurd ((hcond5 t).mp h') (by omega))) (noFlush4 t (fun h' => absurd ((hcond5 t).mp h') (by omega)))]
    rw [outsAt0_A m c t h0]
    unfold ptA outsA; dsimp only
    unfold soutAAcc soutALow soutAUp
    rw [PhiS_castSucc m c t]
    iintro ⟨HΦ, Ho, ⟨%d0, H0⟩, ⟨%d1, H1⟩, ⟨%d2, H2⟩, ⟨%d3, H3⟩, ⟨%d4, H4⟩⟩
    ihave HΦ' := (PhiS_forget m c _ _) $$ HΦ
    icases HΦ' with ⟨⟨HSA, HSL, HSU⟩, Hg⟩
    iapply ((kernelRunA c (grid0.coords t) (ms0 t) (hs0 t) (ms1 t) (hs1 t) (ms2 t) (hs2 t) (ms3 t) (hs3 t) (ms4 t) (hs4 t) scAcc (Memref.isWhole_whole _) scLow (Memref.isWhole_whole _) scUp (Memref.isWhole_whole _)
      ((hcond1 t).mpr (by omega)) ((hcond2 t).mpr (Or.inl h0)) (fun h' => absurd ((hcond3 t).mp h') (by omega)) (fun h' => absurd ((hcond4 t).mp h') (by omega)) (fun h' => absurd ((hcond5 t).mp h') (by omega))
      (iblk m c 0 t) (iblk m c 1 t) (iblk m c 2 t) (iblk m c 3 t)).2.2.2 _ Set.univ _)
    isplitl [H0]; · iexact H0
    isplitl [H1]; · iexact H1
    isplitl [H2]; · iexact H2
    isplitl [H3]; · iexact H3
    isplitl [H4]; · iexact H4
    isplitl [HSA]; · iexact HSA
    isplitl [HSL]; · iexact HSL
    isplitl [HSU]; · iexact HSU
    iintro ⟨H0, H1, H2, H3, H4, HSA, HSL, HSU⟩
    isplitl [HSA HSL HSU Hg]
    · isplitl [HSA HSL HSU]
      · isplitl [HSA]; · iapply (owns_of_cover c _ _ _ (scoverAAcc _ _ _ _ _ _ _ _ _ _ _ _ _ _ _ _ _ _ _ _ _ _ _ _ _ _ _)); iexact HSA
        isplitl [HSL]; · iapply (owns_of_cover c _ _ _ (scoverALow _ _ _ _ _ _ _ _ _ _ _ _ _ _ _ _ _ _ _ _ _ _ _ _ _ _ _)); iexact HSL
        iapply (owns_of_cover c _ _ _ (scoverAUp _ _ _ _ _ _ _ _ _ _ _ _ _ _ _ _ _ _ _ _ _ _ _ _ _ _ _)); iexact HSU
      iexact Hg
    isplitl [Ho]; · iexact Ho
    isplitl [H0]; · iexact H0
    isplitl [H1]; · iexact H1
    isplitl [H2]; · iexact H2
    isplitl [H3]; · iexact H3
    iexists _; iexact H4
  · by_cases h1 : t.val % 4 = 1
    · -- second kind: column tile 1, above the diagonal
      rw [show (dats m 0 c).leavesExact 4 t = owns (c : Thread nD τ) (ms4 t) fullShare ((dats m 0 c).after 4 t) from by
        unfold Dat.leavesExact; rw [liveAt4 t ((hcond5 t).mpr (by omega))], after4]
      rw [outsAt0_B m c t h1]
      unfold ptB outsB; dsimp only
      unfold outB4 soutBAcc soutBUp
      rw [PhiS_castSucc m c t, PhiS_pos m c _ _ (by omega)]
      iintro ⟨⟨⟨HSA, HSL, HSU⟩, Hg⟩, Ho, ⟨%d0, H0⟩, ⟨%d1, H1⟩, ⟨%d2, H2⟩, ⟨%d3, H3⟩, ⟨%d4, H4⟩⟩
      iapply ((kernelRunB c (grid0.coords t) (ms0 t) (hs0 t) (ms1 t) (hs1 t) (ms2 t) (hs2 t) (ms3 t) (hs3 t) (ms4 t) (hs4 t) scAcc (Memref.isWhole_whole _) scLow (Memref.isWhole_whole _) scUp (Memref.isWhole_whole _)
        (fun h' => absurd ((hcond1 t).mp h') (by omega)) (fun h' => absurd ((hcond2 t).mp h') (by omega)) (fun h' => absurd ((hcond3 t).mp h') (by omega)) ((hcond4 t).mpr h1) ((hcond5 t).mpr (by omega))
        (iblk m c 0 t) (iblk m c 1 t) (iblk m c 2 t) (iblk m c 3 t) _ _ _).2.2.2 Set.univ _)
      isplitl [H0]; · iexact H0
      isplitl [H1]; · iexact H1
      isplitl [H2]; · iexact H2
      isplitl [H3]; · iexact H3
      isplitl [H4]; · iexists _; iexact H4
      isplitl [HSA]; · iexact HSA
      isplitl [HSL]; · iexact HSL
      isplitl [HSU]; · iexact HSU
      iintro ⟨H0, H1, H2, H3, H4, HSA, HSL, HSU⟩
      isplitl [HSA HSL HSU Hg]
      · isplitl [HSA HSL HSU]
        · isplitl [HSA]; · iapply (owns_of_cover c _ _ _ (scoverBAcc _ _ _ _ _ _ _ _ _ _ _ _ _ _ _ _ _ _ _ _ _ _ _ _ _ _ _ _ _ _)); iexact HSA
          isplitl [HSL]; · iexact HSL
          iapply (owns_of_cover c _ _ _ (scoverBUp _ _ _ _ _ _ _ _ _ _ _ _ _ _ _ _ _ _ _ _ _ _ _ _ _ _ _ _ _ _)); iexact HSU
        iexact Hg
      isplitl [Ho]; · iexact Ho
      isplitl [H0]; · iexact H0
      isplitl [H1]; · iexact H1
      isplitl [H2]; · iexact H2
      isplitl [H3]; · iexact H3
      iapply (owns_of_cover c _ _ _ (coverB4 _ _ _ _ _ _ _ _ _ _ _ _ _ _ _ _ _ _ _ _ _ _ _ _ _ _ _ _ _ _)); iexact H4
    · by_cases h2 : t.val % 4 = 2
      · -- third kind: column tile 0, below the diagonal
        rw [Dat.leavesExact_idle (dats m 0 c) 4 t (idleAt4 t (fun h' => absurd ((hcond5 t).mp h') (by omega))) (noFlush4 t (fun h' => absurd ((hcond5 t).mp h') (by omega)))]
        rw [outsAt0_C m c t h2]
        unfold ptC outsC; dsimp only
        unfold soutCAcc soutCLow soutCUp
        rw [PhiS_castSucc m c t]
        iintro ⟨HΦ, Ho, ⟨%d0, H0⟩, ⟨%d1, H1⟩, ⟨%d2, H2⟩, ⟨%d3, H3⟩, ⟨%d4, H4⟩⟩
        ihave HΦ' := (PhiS_forget m c _ _) $$ HΦ
        icases HΦ' with ⟨⟨HSA, HSL, HSU⟩, Hg⟩
        iapply ((kernelRunC c (grid0.coords t) (ms0 t) (hs0 t) (ms1 t) (hs1 t) (ms2 t) (hs2 t) (ms3 t) (hs3 t) (ms4 t) (hs4 t) scAcc (Memref.isWhole_whole _) scLow (Memref.isWhole_whole _) scUp (Memref.isWhole_whole _)
          ((hcond1 t).mpr (by omega)) (fun h' => absurd ((hcond2 t).mp h') (by omega)) ((hcond3 t).mpr h2) (fun h' => absurd ((hcond4 t).mp h') (by omega)) (fun h' => absurd ((hcond5 t).mp h') (by omega))
          (iblk m c 0 t) (iblk m c 1 t) (iblk m c 2 t) (iblk m c 3 t)).2.2.2 _ Set.univ _)
        isplitl [H0]; · iexact H0
        isplitl [H1]; · iexact H1
        isplitl [H2]; · iexact H2
        isplitl [H3]; · iexact H3
        isplitl [H4]; · iexact H4
        isplitl [HSA]; · iexact HSA
        isplitl [HSL]; · iexact HSL
        isplitl [HSU]; · iexact HSU
        iintro ⟨H0, H1, H2, H3, H4, HSA, HSL, HSU⟩
        isplitl [HSA HSL HSU Hg]
        · isplitl [HSA HSL HSU]
          · isplitl [HSA]; · iapply (owns_of_cover c _ _ _ (scoverCAcc _ _ _ _ _ _ _ _ _ _ _ _ _ _ _ _ _ _ _ _ _ _ _ _ _ _ _)); iexact HSA
            isplitl [HSL]; · iapply (owns_of_cover c _ _ _ (scoverCLow _ _ _ _ _ _ _ _ _ _ _ _ _ _ _ _ _ _ _ _ _ _ _ _ _ _ _)); iexact HSL
            iapply (owns_of_cover c _ _ _ (scoverCUp _ _ _ _ _ _ _ _ _ _ _ _ _ _ _ _ _ _ _ _ _ _ _ _ _ _ _)); iexact HSU
          iexact Hg
        isplitl [Ho]; · iexact Ho
        isplitl [H0]; · iexact H0
        isplitl [H1]; · iexact H1
        isplitl [H2]; · iexact H2
        isplitl [H3]; · iexact H3
        iexists _; iexact H4
      · have h3 : t.val % 4 = 3 := by omega
        -- fourth kind: column tile 1, a diagonal block
        rw [show (dats m 0 c).leavesExact 4 t = owns (c : Thread nD τ) (ms4 t) fullShare ((dats m 0 c).after 4 t) from by
          unfold Dat.leavesExact; rw [liveAt4 t ((hcond5 t).mpr (by omega))], after4]
        rw [outsAt0_D m c t h3]
        unfold ptD outsD; dsimp only
        unfold outD4 soutDAcc
        rw [PhiS_castSucc m c t, PhiS_pos m c _ _ (by omega)]
        iintro ⟨⟨⟨HSA, HSL, HSU⟩, Hg⟩, Ho, ⟨%d0, H0⟩, ⟨%d1, H1⟩, ⟨%d2, H2⟩, ⟨%d3, H3⟩, ⟨%d4, H4⟩⟩
        iapply ((kernelRunD c (grid0.coords t) (ms0 t) (hs0 t) (ms1 t) (hs1 t) (ms2 t) (hs2 t) (ms3 t) (hs3 t) (ms4 t) (hs4 t) scAcc (Memref.isWhole_whole _) scLow (Memref.isWhole_whole _) scUp (Memref.isWhole_whole _)
          (fun h' => absurd ((hcond1 t).mp h') (by omega)) ((hcond2 t).mpr (Or.inr h3)) (fun h' => absurd ((hcond3 t).mp h') (by omega)) (fun h' => absurd ((hcond4 t).mp h') (by omega)) ((hcond5 t).mpr (by omega))
          (iblk m c 0 t) (iblk m c 1 t) (iblk m c 2 t) (iblk m c 3 t) _ _ _).2.2 Set.univ _)
        isplitl [H0]; · iexact H0
        isplitl [H1]; · iexact H1
        isplitl [H2]; · iexact H2
        isplitl [H3]; · iexact H3
        isplitl [H4]; · iexists _; iexact H4
        isplitl [HSA]; · iexact HSA
        isplitl [HSL]; · iexact HSL
        isplitl [HSU]; · iexact HSU
        iintro ⟨H0, H1, H2, H3, H4, HSA, HSL, HSU⟩
        isplitl [HSA HSL HSU Hg]
        · isplitl [HSA HSL HSU]
          · isplitl [HSA]; · iapply (owns_of_cover c _ _ _ (scoverDAcc _ _ _ _ _ _ _ _ _ _ _ _ _ _ _ _ _ _ _ _ _ _ _ _ _ _ _ _ _ _)); iexact HSA
            isplitl [HSL]; · iexact HSL
            iexact HSU
          iexact Hg
        isplitl [Ho]; · iexact Ho
        isplitl [H0]; · iexact H0
        isplitl [H1]; · iexact H1
        isplitl [H2]; · iexact H2
        isplitl [H3]; · iexact H3
        iapply (owns_of_cover c _ _ _ (coverD4 _ _ _ _ _ _ _ _ _ _ _ _ _ _ _ _ _ _ _ _ _ _ _ _ _ _ _ _ _ _)); iexact H4

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives it back. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl, PhiA0_eq]
  exact PhiS_forget m c _ _

end Cert.Kernel.Hand

end
-- ==== Proof.Spec.lean ====
/-
  What the two programs compute, stated once over plain index functions and independent of either program's text.

  The graph of one batch entry `b` over its 1444 nodes: for a pair `j < i` the relation table at the two nodes'
  classes, `P[c_i, c_j]`; for `i < j` the transposed entry `P[c_j, c_i]`; on the diagonal one unless the node's
  class is zero. The result is the graph applied to the node features, `∑ j, graph b i j * src b j d`.

  The kernel works on zero-padded copies — the table inside a 128 x 128 square, the 1444 nodes inside 1536 — so the
  same function is stated over the padded arrays too (`graphPad`, `aggPad`): a padded node has class word zero and a
  zero feature row, a class word outside the square reads a zero table entry.
-/
import Idealize.ShloMosaic.PureOps.Ideal
import Idealize.ShloMosaic.Lib.ValueIdx

noncomputable section

open scoped BigOperators

namespace Cert.Proof.Spec

open Idealize.ShloMosaic Idealize.ShloMosaic.ValueIdx

abbrev STab : Shape := ⟨2, ![21, 21]⟩
abbrev SFeat : Shape := ⟨3, ![16, 1444, 128]⟩
abbrev SCls : Shape := ⟨2, ![16, 1444]⟩
abbrev STabP : Shape := ⟨2, ![128, 128]⟩
abbrev SFeatP : Shape := ⟨3, ![16, 1536, 128]⟩
abbrev SClsP : Shape := ⟨3, ![16, 1, 1536]⟩

/-- The relation table at two class words; zero when a word is no row or column of it. -/
def tab (P : FVec Ideal STab .f32) (u v : BitVec 32) : EReal :=
  if h : u.toNat < 21 ∧ v.toNat < 21 then P (ix2 ⟨u.toNat, h.1⟩ ⟨v.toNat, h.2⟩) else 0

/-- One entry of the graph of batch entry `b`. -/
def graph (P : FVec Ideal STab .f32) (ci : IVec SCls 32) (b : Fin 16) (i j : Fin 1444) : EReal :=
  if j.val < i.val then tab P (ci (ix2 b i)) (ci (ix2 b j))
  else if i.val < j.val then tab P (ci (ix2 b j)) (ci (ix2 b i))
  else if ci (ix2 b i) = 0#32 then 0 else 1

/-- The aggregated features: the graph applied to the node features. -/
def agg (P : FVec Ideal STab .f32) (src : FVec Ideal SFeat .f32) (ci : IVec SCls 32) : FVec Ideal SFeat .f32 :=
  fun i => ∑ j : Fin 1444, graph P ci (i 0) (i 1) j * src (ix3 (i 0) j (i 2))

/-! ## The same over the padded arrays -/

/-- The padded table at two class words; zero when a word is outside the square. -/
def tabPad (Pp : FVec Ideal STabP .f32) (u v : BitVec 32) : EReal :=
  if h : u.toNat < 128 ∧ v.toNat < 128 then Pp (ix2 ⟨u.toNat, h.1⟩ ⟨v.toNat, h.2⟩) else 0

/-- One entry of the padded graph of batch entry `b`. -/
def graphPad (Pp : FVec Ideal STabP .f32) (cip : IVec SClsP 32) (b : Fin 16) (i j : Fin 1536) : EReal :=
  if j.val < i.val then tabPad Pp (cip (ix3 b 0 i)) (cip (ix3 b 0 j))
  else if i.val < j.val then tabPad Pp (cip (ix3 b 0 j)) (cip (ix3 b 0 i))
  else if cip (ix3 b 0 i) = 0#32 then 0 else 1

/-- The padded graph applied to the padded features. -/
def aggPad (Pp : FVec Ideal STabP .f32) (srcp : FVec Ideal SFeatP .f32) (cip : IVec SClsP 32) : FVec Ideal SFeatP .f32 :=
  fun i => ∑ j : Fin 1536, graphPad Pp cip (i 0) (i 1) j * srcp (ix3 (i 0) j (i 2))

/-- The table inside the 128 x 128 square, zero elsewhere. -/
def padTab (P : FVec Ideal STab .f32) : FVec Ideal STabP .f32 :=
  fun i => if h : (i 0).val < 21 ∧ (i 1).val < 21 then P (ix2 ⟨(i 0).val, h.1⟩ ⟨(i 1).val, h.2⟩) else 0

/-- The features of the 1444 nodes, zero rows after them. -/
def padFeat (src : FVec Ideal SFeat .f32) : FVec Ideal SFeatP .f32 :=
  fun i => if h : (i 1).val < 1444 then src (ix3 (i 0) ⟨(i 1).val, h⟩ (i 2)) else 0

/-- A class word clipped into `[0, 127]` as signed words. -/
def clipW (w : BitVec 32) : BitVec 32 := IntOp.minsi 127#32 (IntOp.maxsi 0#32 w)

/-- The clipped class words of the 1444 nodes, zero words after them. -/
def padCls (ci : IVec SCls 32) : IVec SClsP 32 :=
  fun i => if h : (i 2).val < 1444 then clipW (ci (ix2 (i 0) ⟨(i 2).val, h⟩)) else 0#32

/-- The first 1444 nodes of a padded result. -/
def cut (y : FVec Ideal SFeatP .f32) : FVec Ideal SFeat .f32 :=
  fun i => y (ix3 (i 0) ⟨(i 1).val, by have := (i 1).isLt; exact Nat.lt_of_lt_of_le this (by decide)⟩ (i 2))

end Cert.Proof.Spec

end
-- ==== Proof.LibScatterSet.lean ====
/-
  THE HOST'S REPLACING SCATTER READ AT AN INDEX.

  A scatter is the left fold, over the update indices in row-major order, of the step "the update index lands at an
  operand index (its start, read signed off the scatter indices, plus its window coordinate, when that is inside the
  operand) and the body's value of the element there and the update's element is put there". When the body returns
  the update's element the step overwrites. So at an operand index that no update lands at the result is the
  operand's element, and at an operand index that updates land at, all carrying one element, the result is that
  element. In particular, when the update indices land one to one (an injective map e), the result at e j is the
  update's element at j.

  The last part reads the scatter that PADS: every start zero and the update's axes the operand's axes in order, so
  that the updates fill the operand's corner at the origin; the result is the update inside that corner and the
  operand outside it (rank two and rank three).

  Nothing here evaluates a size or a dimension number: the shapes, the dimension numbers and the element type are
  variables.
-/
import Idealize.ShloMosaic.PureOps.ShapeOps
import Idealize.ShloMosaic.PureOps.Dims
import Idealize.ShloMosaic.Lib.ValueIdx

namespace Idealize.ShloMosaic.ScatterSet

open Idealize.ShloMosaic Idealize.ShloMosaic.ValueIdx

/-! ## A left fold that overwrites one place at a time -/

section Fold
variable {ι κ α : Type}

/-- Steps that leave place i alone leave the fold's value there alone. -/
theorem foldl_apply_of_untouched (st : (κ → α) → ι → (κ → α)) (i : κ) :
    ∀ (l : List ι) (x : κ → α), (∀ r, ∀ n ∈ l, st r n i = r i) → l.foldl st x i = x i
  | [], _, _ => rfl
  | a :: t, x, h => by
    rw [List.foldl_cons, foldl_apply_of_untouched st i t _ fun r n hn => h r n (List.mem_cons_of_mem _ hn)]
    exact h x a List.mem_cons_self

/-- If every step either leaves place i alone or puts the value w there, a fold that starts with w at i ends
    with w at i. -/
theorem foldl_apply_of_stays (st : (κ → α) → ι → (κ → α)) (i : κ) (w : α) :
    ∀ (l : List ι) (x : κ → α), (∀ r, ∀ n ∈ l, st r n i = r i ∨ st r n i = w) → x i = w → l.foldl st x i = w
  | [], _, _, hx => hx
  | a :: t, x, h, hx => by
    rw [List.foldl_cons]
    refine foldl_apply_of_stays st i w t _ (fun r n hn => h r n (List.mem_cons_of_mem _ hn)) ?_
    rcases h x a List.mem_cons_self with e | e
    · rw [e, hx]
    · exact e

/-- If some step of the list puts w at place i, and every step leaves i alone or puts w there, the fold ends with
    w at i. -/
theorem foldl_apply_of_written (st : (κ → α) → ι → (κ → α)) (i : κ) (w : α) (l : List ι) (x : κ → α)
    (n₀ : ι) (hn₀ : n₀ ∈ l) (hw : ∀ r, st r n₀ i = w) (h : ∀ r, ∀ n ∈ l, st r n i = r i ∨ st r n i = w) :
    l.foldl st x i = w := by
  obtain ⟨l₁, l₂, rfl⟩ := List.append_of_mem hn₀
  rw [List.foldl_append, List.foldl_cons]
  exact foldl_apply_of_stays st i w l₂ _
    (fun r n hn => h r n (List.mem_append_right _ (List.mem_cons_of_mem _ hn))) (hw _)

end Fold

/-! ## The scatter -/

section Scatter
variable {s si u : Shape} {w : Nat} {α : Type} (d : ScatterDims s si u)

/-- An update index whose start plus window coordinate is, on every axis, the coordinate of the operand index k
    lands at k. -/
theorem resultIdx?_eq_some_of_coords (j : u.Idx) (idx : IVec si w) (k : s.Idx)
    (h : ∀ a, d.start j idx a + (d.window j a : Int) = ((k a).val : Int)) : d.resultIdx? j idx = some k := by
  unfold ScatterDims.resultIdx?
  rw [dif_pos fun a => by have := h a; have := (k a).isLt; omega]
  refine congrArg some (funext fun a => Fin.ext ?_)
  show (d.start j idx a + (d.window j a : Int)).toNat = (k a).val
  have := h a
  omega

/-- Where every scatter index reads zero, every start is zero. -/
theorem start_eq_zero_of_zero (j : u.Idx) (idx : IVec si w) (hz : ∀ k, (idx k).toInt = 0) (a : Fin s.rank) :
    d.start j idx a = 0 := by
  unfold ScatterDims.start
  split
  · exact hz _
  · rfl

/-- On an operand axis that is not inserted, the window coordinate is the update index's coordinate on the window
    axis in that axis's position. -/
theorem window_of_mem (j : u.Idx) (a : Fin s.rank) (ha : a ∈ d.sKept) :
    d.window j a
      = (j (d.updateWindowDims[d.sKept.idxOf a]'(by rw [d.window_length]; exact List.idxOf_lt_length_iff.2 ha))).val := by
  unfold ScatterDims.window
  rw [dif_pos ha]

/-- One step of the scatter's fold. -/
abbrev step (f : α → α → α) (idx : IVec si w) (upd : u.Idx → α) (r : s.Idx → α) (n : Fin u.numel) : s.Idx → α :=
  match d.resultIdx? (u.rowMajor.symm n) idx with
  | some i => fun i' => if i' = i then f (r i) (upd (u.rowMajor.symm n)) else r i'
  | none => r

theorem scatter_eq_foldl (f : α → α → α) (x : s.Idx → α) (idx : IVec si w) (upd : u.Idx → α) :
    Host.scatter d f x idx upd = (List.finRange u.numel).foldl (step d f idx upd) x := rfl

/-- A step whose update does not land at i leaves i alone. -/
theorem step_apply_of_ne (f : α → α → α) (idx : IVec si w) (upd : u.Idx → α) (r : s.Idx → α) (n : Fin u.numel)
    (i : s.Idx) (h : d.resultIdx? (u.rowMajor.symm n) idx ≠ some i) : step d f idx upd r n i = r i := by
  unfold step
  generalize d.resultIdx? (u.rowMajor.symm n) idx = o at h
  cases o with
  | none => rfl
  | some k =>
    show (if i = k then f (r k) (upd (u.rowMajor.symm n)) else r i) = r i
    exact if_neg fun e => h (by rw [e])

/-- A replacing step whose update lands at i puts the update there. -/
theorem step_apply_of_eq (idx : IVec si w) (upd : u.Idx → α) (r : s.Idx → α) (n : Fin u.numel)
    (i : s.Idx) (h : d.resultIdx? (u.rowMajor.symm n) idx = some i) :
    step d (fun _ b => b) idx upd r n i = upd (u.rowMajor.symm n) := by
  unfold step
  rw [h]
  exact if_pos rfl

/-- THE SCATTER OFF THE UPDATES: an operand index no update lands at keeps the operand's element. -/
theorem scatter_apply_of_missed (f : α → α → α) (x : s.Idx → α) (idx : IVec si w) (upd : u.Idx → α) (i : s.Idx)
    (h : ∀ j, d.resultIdx? j idx ≠ some i) : Host.scatter d f x idx upd i = x i := by
  rw [scatter_eq_foldl]
  exact foldl_apply_of_untouched _ i _ x fun r n _ => step_apply_of_ne d f idx upd r n i (h _)

/-- THE REPLACING SCATTER ON AN UPDATE: if the update index j₀ lands at i, and every update index that lands at i
    carries the same element as j₀, the result at i is that element. -/
theorem scatter_set_apply_of_landed (x : s.Idx → α) (idx : IVec si w) (upd : u.Idx → α) (i : s.Idx) (j₀ : u.Idx)
    (h₀ : d.resultIdx? j₀ idx = some i) (hsame : ∀ j, d.resultIdx? j idx = some i → upd j = upd j₀) :
    Host.scatter d (fun _ b => b) x idx upd i = upd j₀ := by
  rw [scatter_eq_foldl]
  refine foldl_apply_of_written _ i (upd j₀) _ x (u.rowMajor j₀) (List.mem_finRange _) (fun r => ?_) (fun r n _ => ?_)
  · rw [step_apply_of_eq d idx upd r _ i (by rw [Equiv.symm_apply_apply]; exact h₀), Equiv.symm_apply_apply]
  · by_cases hn : d.resultIdx? (u.rowMajor.symm n) idx = some i
    · exact Or.inr (by rw [step_apply_of_eq d idx upd r n i hn]; exact hsame _ hn)
    · exact Or.inl (step_apply_of_ne d _ idx upd r n i hn)

/-- The same for updates that land one to one: where e says where each update index lands and e is injective, the
    result at e j is the update at j, and an operand index outside e's range keeps the operand's element. -/
theorem scatter_set_apply_emb (x : s.Idx → α) (idx : IVec si w) (upd : u.Idx → α) (e : u.Idx → s.Idx)
    (he : ∀ j, d.resultIdx? j idx = some (e j)) (hinj : Function.Injective e) (j : u.Idx) :
    Host.scatter d (fun _ b => b) x idx upd (e j) = upd j :=
  scatter_set_apply_of_landed d x idx upd (e j) j (he j) fun j' hj' =>
    congrArg upd (hinj (Option.some.inj ((he j').symm.trans hj')))

theorem scatter_apply_off_emb (f : α → α → α) (x : s.Idx → α) (idx : IVec si w) (upd : u.Idx → α) (e : u.Idx → s.Idx)
    (he : ∀ j, d.resultIdx? j idx = some (e j)) (i : s.Idx) (hi : ∀ j, e j ≠ i) :
    Host.scatter d f x idx upd i = x i :=
  scatter_apply_of_missed d f x idx upd i fun j hj => hi j (Option.some.inj ((he j).symm.trans hj))

end Scatter

/-! ## A window scatter at start zero pads

When every start is zero and the update's axes are the operand's axes in order (the window coordinate on operand axis
a is the update index's coordinate on axis a), the update index j lands at the operand index with j's coordinates:
the updates fill the corner of the operand at the origin, one to one. So the replacing scatter is the update there
and the operand elsewhere. Stated for operands of rank two and of rank three. -/

section Pad2
variable {P0 P1 N0 N1 : Nat} {si : Shape} {w : Nat} {α : Type}
  (d : ScatterDims (⟨2, ![P0, P1]⟩ : Shape) si (⟨2, ![N0, N1]⟩ : Shape))

/-- An index of the smaller rectangle as the index of the larger one with the same coordinates. -/
def emb2 (h0 : N0 ≤ P0) (h1 : N1 ≤ P1) (j : (⟨2, ![N0, N1]⟩ : Shape).Idx) : (⟨2, ![P0, P1]⟩ : Shape).Idx :=
  ix2 ⟨(j 0).val, Nat.lt_of_lt_of_le (j 0).isLt h0⟩ ⟨(j 1).val, Nat.lt_of_lt_of_le (j 1).isLt h1⟩

theorem emb2_injective (h0 : N0 ≤ P0) (h1 : N1 ≤ P1) : Function.Injective (emb2 h0 h1) := fun j j' h => by
  rw [eq_ix2 j, eq_ix2 j']
  have e0 : ((emb2 h0 h1 j) 0).val = ((emb2 h0 h1 j') 0).val := by rw [h]
  have e1 : ((emb2 h0 h1 j) 1).val = ((emb2 h0 h1 j') 1).val := by rw [h]
  rw [Fin.ext (show (j 0).val = (j' 0).val from e0), Fin.ext (show (j 1).val = (j' 1).val from e1)]

theorem lands2 (h0 : N0 ≤ P0) (h1 : N1 ≤ P1) (idx : IVec si w) (hst : ∀ j a, d.start j idx a = 0)
    (hw0 : ∀ j, d.window j 0 = (j 0).val) (hw1 : ∀ j, d.window j 1 = (j 1).val) (j : (⟨2, ![N0, N1]⟩ : Shape).Idx) :
    d.resultIdx? j idx = some (emb2 h0 h1 j) := by
  refine resultIdx?_eq_some_of_coords d j idx _ fun a => ?_
  rw [hst j a]
  match a with
  | ⟨0, _⟩ =>
    show (0 : Int) + ((d.window j 0 : ℕ) : Int) = _
    rw [hw0, Int.zero_add]; rfl
  | ⟨1, _⟩ =>
    show (0 : Int) + ((d.window j 1 : ℕ) : Int) = _
    rw [hw1, Int.zero_add]; rfl

/-- THE PADDING SCATTER OF RANK TWO READ AT AN INDEX: the update inside its rectangle, the operand outside. -/
theorem scatter_set_pad2 (h0 : N0 ≤ P0) (h1 : N1 ≤ P1) (x : (⟨2, ![P0, P1]⟩ : Shape).Idx → α) (idx : IVec si w)
    (upd : (⟨2, ![N0, N1]⟩ : Shape).Idx → α) (hst : ∀ j a, d.start j idx a = 0)
    (hw0 : ∀ j, d.window j 0 = (j 0).val) (hw1 : ∀ j, d.window j 1 = (j 1).val) (i : (⟨2, ![P0, P1]⟩ : Shape).Idx) :
    Host.scatter d (fun _ b => b) x idx upd i
      = if h : (i 0).val < N0 ∧ (i 1).val < N1 then upd (ix2 ⟨(i 0).val, h.1⟩ ⟨(i 1).val, h.2⟩) else x i := by
  by_cases h : (i 0).val < N0 ∧ (i 1).val < N1
  · rw [dif_pos h]
    have hi : i = emb2 h0 h1 (ix2 ⟨(i 0).val, h.1⟩ ⟨(i 1).val, h.2⟩) := (eq_ix2 i).trans rfl
    exact (congrArg (Host.scatter d (fun _ b => b) x idx upd) hi).trans
      (scatter_set_apply_emb d x idx upd (emb2 h0 h1) (lands2 d h0 h1 idx hst hw0 hw1) (emb2_injective h0 h1) _)
  · rw [dif_neg h]
    exact scatter_apply_off_emb d _ x idx upd (emb2 h0 h1) (lands2 d h0 h1 idx hst hw0 hw1) i fun j hj =>
      h (by rw [← hj]; exact ⟨(j 0).isLt, (j 1).isLt⟩)

end Pad2

section Pad3
variable {P0 P1 P2 N0 N1 N2 : Nat} {si : Shape} {w : Nat} {α : Type}
  (d : ScatterDims (⟨3, ![P0, P1, P2]⟩ : Shape) si (⟨3, ![N0, N1, N2]⟩ : Shape))

/-- An index of the smaller box as the index of the larger one with the same coordinates. -/
def emb3 (h0 : N0 ≤ P0) (h1 : N1 ≤ P1) (h2 : N2 ≤ P2) (j : (⟨3, ![N0, N1, N2]⟩ : Shape).Idx) :
    (⟨3, ![P0, P1, P2]⟩ : Shape).Idx :=
  ix3 ⟨(j 0).val, Nat.lt_of_lt_of_le (j 0).isLt h0⟩ ⟨(j 1).val, Nat.lt_of_lt_of_le (j 1).isLt h1⟩
    ⟨(j 2).val, Nat.lt_of_lt_of_le (j 2).isLt h2⟩

theorem emb3_injective (h0 : N0 ≤ P0) (h1 : N1 ≤ P1) (h2 : N2 ≤ P2) : Function.Injective (emb3 h0 h1 h2) :=
  fun j j' h => by
  rw [eq_ix3 j, eq_ix3 j']
  have e0 : ((emb3 h0 h1 h2 j) 0).val = ((emb3 h0 h1 h2 j') 0).val := by rw [h]
  have e1 : ((emb3 h0 h1 h2 j) 1).val = ((emb3 h0 h1 h2 j') 1).val := by rw [h]
  have e2 : ((emb3 h0 h1 h2 j) 2).val = ((emb3 h0 h1 h2 j') 2).val := by rw [h]
  rw [Fin.ext (show (j 0).val = (j' 0).val from e0), Fin.ext (show (j 1).val = (j' 1).val from e1),
    Fin.ext (show (j 2).val = (j' 2).val from e2)]

theorem lands3 (h0 : N0 ≤ P0) (h1 : N1 ≤ P1) (h2 : N2 ≤ P2) (idx : IVec si w) (hst : ∀ j a, d.start j idx a = 0)
    (hw0 : ∀ j, d.window j 0 = (j 0).val) (hw1 : ∀ j, d.window j 1 = (j 1).val)
    (hw2 : ∀ j, d.window j 2 = (j 2).val) (j : (⟨3, ![N0, N1, N2]⟩ : Shape).Idx) :
    d.resultIdx? j idx = some (emb3 h0 h1 h2 j) := by
  refine resultIdx?_eq_some_of_coords d j idx _ fun a => ?_
  rw [hst j a]
  match a with
  | ⟨0, _⟩ =>
    show (0 : Int) + ((d.window j 0 : ℕ) : Int) = _
    rw [hw0, Int.zero_add]; rfl
  | ⟨1, _⟩ =>
    show (0 : Int) + ((d.window j 1 : ℕ) : Int) = _
    rw [hw1, Int.zero_add]; rfl
  | ⟨2, _⟩ =>
    show (0 : Int) + ((d.window j 2 : ℕ) : Int) = _
    rw [hw2, Int.zero_add]; rfl

/-- THE PADDING SCATTER OF RANK THREE READ AT AN INDEX: the update inside its box, the operand outside. -/
theorem scatter_set_pad3 (h0 : N0 ≤ P0) (h1 : N1 ≤ P1) (h2 : N2 ≤ P2) (x : (⟨3, ![P0, P1, P2]⟩ : Shape).Idx → α)
    (idx : IVec si w) (upd : (⟨3, ![N0, N1, N2]⟩ : Shape).Idx → α) (hst : ∀ j a, d.start j idx a = 0)
    (hw0 : ∀ j, d.window j 0 = (j 0).val) (hw1 : ∀ j, d.window j 1 = (j 1).val)
    (hw2 : ∀ j, d.window j 2 = (j 2).val) (i : (⟨3, ![P0, P1, P2]⟩ : Shape).Idx) :
    Host.scatter d (fun _ b => b) x idx upd i
      = if h : (i 0).val < N0 ∧ (i 1).val < N1 ∧ (i 2).val < N2 then
          upd (ix3 ⟨(i 0).val, h.1⟩ ⟨(i 1).val, h.2.1⟩ ⟨(i 2).val, h.2.2⟩)
        else x i := by
  by_cases h : (i 0).val < N0 ∧ (i 1).val < N1 ∧ (i 2).val < N2
  · rw [dif_pos h]
    have hi : i = emb3 h0 h1 h2 (ix3 ⟨(i 0).val, h.1⟩ ⟨(i 1).val, h.2.1⟩ ⟨(i 2).val, h.2.2⟩) := (eq_ix3 i).trans rfl
    exact (congrArg (Host.scatter d (fun _ b => b) x idx upd) hi).trans
      (scatter_set_apply_emb d x idx upd (emb3 h0 h1 h2) (lands3 d h0 h1 h2 idx hst hw0 hw1 hw2)
        (emb3_injective h0 h1 h2) _)
  · rw [dif_neg h]
    exact scatter_apply_off_emb d _ x idx upd (emb3 h0 h1 h2) (lands3 d h0 h1 h2 idx hst hw0 hw1 hw2) i fun j hj =>
      h (by rw [← hj]; exact ⟨(j 0).isLt, (j 1).isLt, (j 2).isLt⟩)

end Pad3

end Idealize.ShloMosaic.ScatterSet
-- ==== Proof.BitsHostValues.lean ====
/-
  What the host operations before the kernel region leave in the buffers.

  No host operation writes an argument, so each argument's buffer is as launched. The three arrays the kernel's
  windows read are paddings of the arguments: the 21 x 21 table written at the origin of a 128 x 128 square of
  zeros; the features of the 1444 nodes written at the origin of 1536 rows of zeros; the class words clipped into
  [0, 127] as signed words, written at the origin of 1536 zero words, then given a unit axis in the middle. Each
  writing is a replacing scatter at the start index zero whose update axes are the operand's axes in order, so it is
  the update inside the update's box and the operand (zeros) outside.
-/
import proofs.«408942_j68186900791974_3_alg».proof.Proof.BitsHostPrefix
import proofs.«408942_j68186900791974_3_alg».proof.Proof.Spec
import proofs.«408942_j68186900791974_3_alg».proof.Proof.LibScatterSet
import Idealize.ShloMosaic.Lib.Pipeline.Value
import Idealize.ShloMosaic.PureOps.Ideal.Laws

noncomputable section

namespace Cert.Kernel.Hand

open Cert.Kernel Cert.Kernel.Gen
open Idealize.ShloMosaic Idealize.ShloMosaic.TcCoe
open Idealize.SL Idealize.SL.Sem
open Idealize.ShloMosaic.ValueIdx Idealize.ShloMosaic.ScatterSet

/-! ## The arguments: no host operation writes one -/

theorem V_arg0 {F : FTy → Type} [FloatOps F] (m : (ℓ : Loc nD τ sig) → Buf (Elt F) ℓ) (c : Dev nD) :
    V m c main_arg0 = m ((c : Thread nD τ).loc main_arg0) := by
  dsimp only [V, V₃, V₂, V₁, V₀, hostOps0, hostOps0_1, hostOps0_2]
  after_results

theorem V_arg1 {F : FTy → Type} [FloatOps F] (m : (ℓ : Loc nD τ sig) → Buf (Elt F) ℓ) (c : Dev nD) :
    V m c main_arg1 = m ((c : Thread nD τ).loc main_arg1) := by
  dsimp only [V, V₃, V₂, V₁, V₀, hostOps0, hostOps0_1, hostOps0_2]
  after_results

theorem V_arg2 {F : FTy → Type} [FloatOps F] (m : (ℓ : Loc nD τ sig) → Buf (Elt F) ℓ) (c : Dev nD) :
    V m c main_arg2 = m ((c : Thread nD τ).loc main_arg2) := by
  dsimp only [V, V₃, V₂, V₁, V₀, hostOps0, hostOps0_1, hostOps0_2]
  after_results

/-! ## The three scatters' dimension numbers: the update's axes are the operand's axes, in order -/

theorem tab_window0 (j : S21x21.Idx) : scatter_S128x128_S2_S21x21_01_n_01_0.window j 0 = (j 0).val := by
  rw [window_of_mem _ j 0 (by decide)]
  rfl

theorem tab_window1 (j : S21x21.Idx) : scatter_S128x128_S2_S21x21_01_n_01_0.window j 1 = (j 1).val := by
  rw [window_of_mem _ j 1 (by decide)]
  rfl

theorem cls_window0 (j : S16x1444.Idx) : scatter_S16x1536_S1_S16x1444_01_n_1_0.window j 0 = (j 0).val := by
  rw [window_of_mem _ j 0 (by decide)]
  rfl

theorem cls_window1 (j : S16x1444.Idx) : scatter_S16x1536_S1_S16x1444_01_n_1_0.window j 1 = (j 1).val := by
  rw [window_of_mem _ j 1 (by decide)]
  rfl

theorem feat_window0 (j : S16x1444x128.Idx) :
    scatter_S16x1536x128_S1_S16x1444x128_012_n_1_0.window j 0 = (j 0).val := by
  rw [window_of_mem _ j 0 (by decide)]
  rfl

theorem feat_window1 (j : S16x1444x128.Idx) :
    scatter_S16x1536x128_S1_S16x1444x128_012_n_1_0.window j 1 = (j 1).val := by
  rw [window_of_mem _ j 1 (by decide)]
  rfl

theorem feat_window2 (j : S16x1444x128.Idx) :
    scatter_S16x1536x128_S1_S16x1444x128_012_n_1_0.window j 2 = (j 2).val := by
  rw [window_of_mem _ j 2 (by decide)]
  rfl

/-! ## The scatter indices are zero words -/

/-- The scatter indices of the table's scatter: two zero words, one after the other. -/
theorem tab_idx_zero (k : S2.Idx) :
    ((concatenate S2 0
        [⟨S1, broadcastInDim S1 ![] bcast_S_S1 (constantI S_ 32 0#32)⟩,
          ⟨S1, broadcastInDim S1 ![] bcast_S_S1 (constantI S_ 32 0#32)⟩]
        concatenates_S1_S1_S2_d0 : IVec S2 32) k).toInt = 0 := by
  have hk : (k 0).val < 2 := (k 0).isLt
  by_cases h0 : (k 0).val = 0
  · rw [concatenate_pair_apply_left (0 : Fin S2.rank) _ _ concatenates_S1_S1_S2_d0 k rfl (ix1 0) (fun b => by
      match b with
      | ⟨0, _⟩ => exact h0.symm)]
    rfl
  · rw [concatenate_pair_apply_right (0 : Fin S2.rank) _ _ concatenates_S1_S1_S2_d0 k rfl rfl (ix1 0)
      (fun b hb => by match b with | ⟨0, _⟩ => exact absurd rfl hb)
      (by show (0 : ℕ) + 1 = (k 0).val; omega)]
    rfl

/-- The scatter index of the other two scatters: one zero word. -/
theorem one_idx_zero (k : S1.Idx) :
    ((broadcastInDim S1 ![] bcast_S_S1 (constantI S_ 32 0#32) : IVec S1 32) k).toInt = 0 := by
  show (0#32 : BitVec 32).toInt = 0
  decide

/-! ## The three arrays the kernel's windows read -/

/-- The table: the 21 x 21 entries at the origin of a square of zeros. -/
theorem V_tab (m : (ℓ : Loc nD τ sig) → Buf (Elt Ideal) ℓ) (c : Dev nD) :
    (V m c main_v4 : FVec Ideal S128x128 .f32) = Cert.Proof.Spec.padTab (m ((c : Thread nD τ).loc main_arg0)) := by
  dsimp only [V, V₃, V₂, V₁, V₀, hostOps0, hostOps0_1, hostOps0_2]
  after_results
  funext i
  rw [scatter_set_pad2 _ (by decide) (by decide) _ _ _
    (fun j a => start_eq_zero_of_zero _ j _ tab_idx_zero a) tab_window0 tab_window1 i]
  unfold Cert.Proof.Spec.padTab
  by_cases h : (i 0).val < 21 ∧ (i 1).val < 21
  · rw [dif_pos h, dif_pos h]
  · rw [dif_neg h, dif_neg h]; exact Ideal.ofBits_zero_f32

/-- The features: the 1444 nodes' rows, then rows of zeros. -/
theorem V_feat (m : (ℓ : Loc nD τ sig) → Buf (Elt Ideal) ℓ) (c : Dev nD) :
    (V m c main_v12 : FVec Ideal S16x1536x128 .f32) = Cert.Proof.Spec.padFeat (m ((c : Thread nD τ).loc main_arg1)) := by
  dsimp only [V, V₃, V₂, V₁, V₀, hostOps0, hostOps0_1, hostOps0_2]
  after_results
  funext i
  rw [scatter_set_pad3 _ (by decide) (by decide) (by decide) _ _ _
    (fun j a => start_eq_zero_of_zero _ j _ one_idx_zero a) feat_window0 feat_window1 feat_window2 i]
  unfold Cert.Proof.Spec.padFeat
  by_cases h : (i 1).val < 1444
  · rw [dif_pos ⟨(i 0).isLt, h, (i 2).isLt⟩, dif_pos h]
    rfl
  · rw [dif_neg (fun hh => h hh.2.1), dif_neg h]; exact Ideal.ofBits_zero_f32

/-- The class words: clipped, the 1444 nodes' words then zero words, with a unit axis put in the middle. -/
theorem V_cls (m : (ℓ : Loc nD τ sig) → Buf (Elt Ideal) ℓ) (c : Dev nD) :
    (V m c main_v9 : IVec S16x1x1536 32) = Cert.Proof.Spec.padCls (m ((c : Thread nD τ).loc main_arg2)) := by
  dsimp only [V, V₃, V₂, V₁, V₀, hostOps0, hostOps0_1, hostOps0_2]
  after_results
  simp only [StableHlo.TRef.ofBuf, StableHlo.TRef.toBuf, cast_eq, id_eq]
  funext i
  refine (broadcastInDim_apply (s := S16x1536) _ _ _ i (ix2 (i 0) (i 2)) (fun a => by
    match a with
    | ⟨0, _⟩ => rfl
    | ⟨1, _⟩ => rfl)).trans ?_
  rw [scatter_set_pad2 _ (by decide) (by decide) _ _ _
    (fun j a => start_eq_zero_of_zero _ j _ one_idx_zero a) cls_window0 cls_window1]
  unfold Cert.Proof.Spec.padCls
  by_cases h : (i 2).val < 1444
  · rw [dif_pos ⟨(i 0).isLt, h⟩, dif_pos h]
    rfl
  · rw [dif_neg (fun hh => h hh.2), dif_neg h]
    rfl

end Cert.Kernel.Hand

end
-- ==== Proof.BitsFrameClaim.lean ====
/-
  The frame of the kernel program: it runs to the end, faults nowhere, and leaves its three arguments unchanged - the
  launch applied to the pipeline's proof data, read at the argument buffers, which no window stages and no host operation
  writes.
-/
import proofs.«408942_j68186900791974_3_alg».proof.Proof.BitsLaunch
import proofs.«408942_j68186900791974_3_alg».proof.Proof.BitsFrameData
import proofs.«408942_j68186900791974_3_alg».proof.Proof.BitsHostValues

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- The pipeline's proof data is what the launch asks for. -/
theorem dataOk : DataOk m (dats m) where
  hA := A_eq m
  q0 := q0 m
  q1 := q1 m
  q2 := q2 m
  q3 := q3 m
  howed := fun _ _ => rfl
  hbody := body_obligation m
  hin := hin m
  hout := hout m

/-- The run, at the pipeline's proof data. -/
theorem run_dats : θ_run defs (onTc (τ := τ) (main (F := F))) (s₀ m ρ) (RunPost m (dats m)) :=
  run_main m ρ (dats m) (dataOk m)

/-- THE FRAME, at any float instance: every weakly fair execution of @main terminates, nothing faulting, with the three
    argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
      ⟨((h c).2 main_arg0 (by decide)).trans (V_arg0 m c), ((h c).2 main_arg1 (by decide)).trans (V_arg1 m c),
        ((h c).2 main_arg2 (by decide)).trans (V_arg2 m c)⟩)
    (run_dats m ρ)

end Cert.Kernel.Hand

end
-- ==== Proof.HostPrefix.lean ====
/-
  The TensorCore's buffers when the kernel region is entered: the launch contents after the three stretches of host
  operations that stand before the region (the table padded into a 128 x 128 square; the class words clipped; the
  class words and the features padded to 1536 nodes).
-/
import proofs.«408942_j68186900791974_3_alg».proof.Proof.Gen.KernelIdeal.Launch
import Idealize.ShloMosaic.Lib.StableHlo.Run

noncomputable section

namespace Cert.KernelIdeal.Hand

open Cert.KernelIdeal Cert.KernelIdeal.Gen
open Idealize.ShloMosaic Idealize.ShloMosaic.TcCoe
open Idealize.SL Idealize.SL.Sem

variable {F : FTy → Type} [FloatOps F]

variable (m : (ℓ : Loc nD τ sig) → Buf (Elt F) ℓ)

/-- Core `c`'s buffers at launch, as a valuation; -/
abbrev V₀ (c : Dev nD) : Valuation τ sig (Elt F) := fun b => m (c, b)
/-- after the first stretch (the padded table, the clip's bounds); -/
abbrev V₁ (c : Dev nD) : Valuation τ sig (Elt F) := StableHlo.after hostOps0 (V₀ m c)
/-- after the clip; -/
abbrev V₂ (c : Dev nD) : Valuation τ sig (Elt F) := StableHlo.after hostOps0_1 (V₁ m c)
/-- and when the region is entered (the padded class words and features). -/
abbrev V₃ (c : Dev nD) : Valuation τ sig (Elt F) := StableHlo.after hostOps0_2 (V₂ m c)
/-- The same read at a TensorCore reference. -/
abbrev V (c : Dev nD) (b : Ref sig .tc) : Buf (Elt F) ((c : Thread nD τ).loc b) := V₃ m c (Proc.devRef .tc b)

end Cert.KernelIdeal.Hand

end
-- ==== Proof.Runs.lean ====
/-
  What the four runs of the kernel body and the pipeline's proof data share.

  The grid is 16 x 2 x 2 (batch entry, row tile, column tile), a point's number is 4 b + 2 tr + tc. The body has five
  conditionals on the coordinates: column tile 0 (reset the three scratch accumulators), tr = tc (a diagonal block),
  tr > tc (below it), tr < tc (above it), column tile 1 (project the two folds back, add, and store the output block).
  Over the grid they take four assignments, by the point's number mod 4:
    0: reset, diagonal;   1: above, last;   2: reset, below;   3: diagonal, last.
-/
import proofs.«408942_j68186900791974_3_alg».proof.Proof.Gen.KernelIdeal.Launch
import proofs.«408942_j68186900791974_3_alg».proof.Proof.Gen.KernelIdeal.Skeleton
import proofs.«408942_j68186900791974_3_alg».proof.Proof.Gen.KernelIdeal.Points
import proofs.«408942_j68186900791974_3_alg».proof.Proof.HostPrefix
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The body's five conditions, from the grid coordinates -/

/-- Column tile 0: the scratch accumulators are reset. -/
abbrev cond1 (i : grid0.Coords) : Prop := (Scalar.cmpi .ne (Scalar.extui (Scalar.cmpi .eq (BitVec.ofNat 32 (i 2).val) 0#32)) 0#32) = 1#1
/-- Row tile = column tile: a diagonal block. -/
abbrev cond2 (i : grid0.Coords) : Prop := (Scalar.cmpi .ne (Scalar.extui (Scalar.cmpi .eq (BitVec.ofNat 32 (i 1).val) (BitVec.ofNat 32 (i 2).val))) 0#32) = 1#1
/-- Row tile > column tile: a block below the diagonal. -/
abbrev cond3 (i : grid0.Coords) : Prop := (Scalar.cmpi .ne (Scalar.extui (Scalar.cmpi .sgt (BitVec.ofNat 32 (i 1).val) (BitVec.ofNat 32 (i 2).val))) 0#32) = 1#1
/-- Row tile < column tile: a block above the diagonal. -/
abbrev cond4 (i : grid0.Coords) : Prop := (Scalar.cmpi .ne (Scalar.extui (Scalar.cmpi .slt (BitVec.ofNat 32 (i 1).val) (BitVec.ofNat 32 (i 2).val))) 0#32) = 1#1
/-- Column tile 1: the row tile's last point. -/
abbrev cond5 (i : grid0.Coords) : Prop := k0_cond5 i = 1#1

theorem hcond1 : ∀ t : Fin cfg0.N, cond1 (grid0.coords t) ↔ t.val % 2 = 0 :=
  (by decide +kernel : ∀ t : Fin grid0.N, cond1 (grid0.coords t) ↔ t.val % 2 = 0)
theorem hcond2 : ∀ t : Fin cfg0.N, cond2 (grid0.coords t) ↔ (t.val % 4 = 0 ∨ t.val % 4 = 3) :=
  (by decide +kernel : ∀ t : Fin grid0.N, cond2 (grid0.coords t) ↔ (t.val % 4 = 0 ∨ t.val % 4 = 3))
theorem hcond3 : ∀ t : Fin cfg0.N, cond3 (grid0.coords t) ↔ t.val % 4 = 2 :=
  (by decide +kernel : ∀ t : Fin grid0.N, cond3 (grid0.coords t) ↔ t.val % 4 = 2)
theorem hcond4 : ∀ t : Fin cfg0.N, cond4 (grid0.coords t) ↔ t.val % 4 = 1 :=
  (by decide +kernel : ∀ t : Fin grid0.N, cond4 (grid0.coords t) ↔ t.val % 4 = 1)
theorem hcond5 : ∀ t : Fin cfg0.N, cond5 (grid0.coords t) ↔ t.val % 2 = 1 :=
  (by decide +kernel : ∀ t : Fin grid0.N, cond5 (grid0.coords t) ↔ t.val % 2 = 1)

/-! ## Where the windows are idle -/

theorem liveAt0 : ∀ t : Fin cfg0.N, cfg0.idle 0 (grid0.coords t) = false := by decide +kernel
theorem liveAt1 : ∀ t : Fin cfg0.N, cfg0.idle 1 (grid0.coords t) = false := by decide +kernel
theorem liveAt2 : ∀ t : Fin cfg0.N, cfg0.idle 2 (grid0.coords t) = false := by decide +kernel
theorem liveAt3 : ∀ t : Fin cfg0.N, cfg0.idle 3 (grid0.coords t) = false := by decide +kernel
/-- Where the last condition fails the output window is idle, and the pipeline does not write it back there; -/
theorem idleAt4 : ∀ t : Fin cfg0.N, ¬cond5 (grid0.coords t) → cfg0.idle 4 (grid0.coords t) = true := by decide +kernel
theorem noFlush4 : ∀ t : Fin cfg0.N, ¬cond5 (grid0.coords t) → (cfg0.win 4).flush t = false := by decide +kernel
/-- where it holds the body stores the block. -/
theorem liveAt4 : ∀ t : Fin cfg0.N, cond5 (grid0.coords t) → cfg0.idle 4 (grid0.coords t) = false := by decide +kernel

/-! ## The memrefs the body is called with -/

abbrev ms0 (t : Fin cfg0.N) : Memref sig .tc .vmem S1x768x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x1x768 .i32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x1x768 .i32 := win0_2.stage (cfg0.slots t 2)
abbrev hs2 (t : Fin cfg0.N) : (ms2 t).IsWhole := hstage0_2 ((cfg0.slots t 2).cast nbuf0_2)
abbrev ms3 (t : Fin cfg0.N) : Memref sig .tc .vmem S128x128 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x768x128 .f32 := win0_4.stage (cfg0.slots t 4)
abbrev hs4 (t : Fin cfg0.N) : (ms4 t).IsWhole := hstage0_4 ((cfg0.slots t 4).cast nbuf0_4)
/-- The three scratch accumulators: the row tile's sum, the fold of the tiles below the diagonal, the fold of those above. -/
abbrev scAcc : Memref sig .tc .vmem S768x128 .f32 := Memref.whole cc0_scratch0
abbrev scLow : Memref sig .tc .vmem S128x128 .f32 := Memref.whole cc0_scratch1
abbrev scUp : Memref sig .tc .vmem S128x128 .f32 := Memref.whole cc0_scratch2
/-- Views through which the contents of the output's staging buffer and of the scratch are stated. -/
abbrev VO4 : View sig .tc .vmem S1x768x128 .f32 := (Memref.whole cc0_stg4_0 : Memref sig .tc .vmem S1x768x128 .f32).view
abbrev VSAcc : View sig .tc .vmem S768x128 .f32 := scAcc.view
abbrev VSLow : View sig .tc .vmem S128x128 .f32 := scLow.view
abbrev VSUp : View sig .tc .vmem S128x128 .f32 := scUp.view

/-- The region's invariant where nothing is tracked, with the three scratch accumulators as owned memrefs. -/
theorem PhiA0_eq (c : Dev nD) :
    (Pipeline.ΦA spec0 c : sProp 𝕄)
      = iprop(iprop((∃ d, owns (c : Thread nD τ) scAcc fullShare d) ∗ (∃ d, owns (c : Thread nD τ) scLow fullShare d) ∗ (∃ d, owns (c : Thread nD τ) scUp fullShare d)) ∗ (∃ r, prngReg c r)) := by
  unfold Pipeline.ΦA; rw [scopedRest0_eq]; simp only [scAcc, scLow, scUp, owns_whole]; try rfl

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not: the window is never
    idle and never cut, and where it is not fetched its block index has not moved. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

end Cert.KernelIdeal.Hand

end
-- ==== Proof.Launch.lean ====
/-
  The launch: @main as five segments - three stretches of host operations, the kernel region, one host operation after
  it - composed by the library's theorem for a program given as a list of segments.

  Two of the kernel's windows read ONE array (the padded class words: the row tile's block and the column tile's), so
  the array's ownership is dealt between them, one half each, when the region is entered; every other window's array is
  held whole. The slice after the region needs only the kernel's result and its own result buffer, so the halves ride
  past it untouched. Everything is stated for ANY proof data of the pipeline with the arrays as the region finds them,
  those shares, nothing owed, a body obligation, and an invariant that starts from and returns to the plain one.
-/
import proofs.«408942_j68186900791974_3_alg».proof.Proof.Runs
import Idealize.ShloMosaic.Lib.Pipeline.Regions
import Idealize.ShloMosaic.Lib.Pipeline.Frame

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev 𝒱₀ : Variants := Variants.none
/-- No core owes another anything: no level is assigned. -/
abbrev Lv : GSem nD τ sig → Finset Unit := fun _ => ∅
abbrev lv : GSem nD τ sig → Unit → ℕ := fun _ _ => 0
/-- No prefetched table. -/
abbrev adm : (p : Fin 1) → (pcfgs (F := F) p).Adm := fun p => (cfgs p).toPCfg_adm

/-- What rides beside the buffers through every segment: what the core owes (nothing) and its generator register. -/
abbrev Rd (c : Dev nD) : sProp 𝕄 :=
  iprop((∃ W, owes (c : Thread nD τ) (0 : CellTallies nD τ sig Unit) W) ∗ (∃ r, prngReg c r))

/-! ## The proof data this module is stated for -/

/-- What the launch needs of the pipeline's proof data. -/
structure DataOk (dats : (p : Fin 1) → (c : Dev nD) → Dat τ (Elt F) Unit ℕ (UR sig nD τ) ℕ cfg0 c) : Prop where
  hA : ∀ c w, (dats 0 c).A w = V m c (Pipeline.arrRef spec0 w)
  q0 : ∀ c, (dats 0 c).q 0 = fullShare
  q1 : ∀ c, (dats 0 c).q 1 = fullShare.left
  q2 : ∀ c, (dats 0 c).q 2 = fullShare.right
  q3 : ∀ c, (dats 0 c).q 3 = fullShare
  howed : ∀ c t, (dats 0 c).owed t = 0
  hbody : ∀ c, BodyObligation (dats 0 c) (defs₀ (F := F)) Variants.none () Set.univ
  hin : ∀ c, Pipeline.ΦA spec0 c ⊢ (dats 0 c).Φ 0
  hout : ∀ c, (dats 0 c).Φ (Fin.last cfg0.N) ⊢ Pipeline.ΦA spec0 c

variable (dats : (p : Fin 1) → (c : Dev nD) → Dat τ (Elt F) Unit ℕ (UR sig nD τ) ℕ cfg0 c)

/-- Before the region the core owes nothing and has recorded no wait. -/
abbrev RdE (c : Dev nD) : sProp 𝕄 :=
  iprop(owes (c : Thread nD τ) (0 : CellTallies nD τ sig Unit) ∅ ∗ (∃ r, prngReg c r))

/-! ## The windows' arrays out of the buffers behind them -/

/-- The buffers behind the windows' arrays are four; the array of the padded class words stands behind two windows. -/
theorem arrImage : (Finset.univ.image (Pipeline.arrRef spec0) : Finset (Ref sig .tc)) = [main_v12, main_v9, main_v4, main_v13].toFinset := by decide

variable {m dats} in
theorem share0 (hd : DataOk m dats) (c : Dev nD) : (dats 0 c).share 0 = fullShare := by
  unfold Pipeline.Dat.share; rw [if_neg (by decide)]; exact hd.q0 c
variable {m dats} in
theorem share1 (hd : DataOk m dats) (c : Dev nD) : (dats 0 c).share 1 = fullShare.left := by
  unfold Pipeline.Dat.share; rw [if_neg (by decide)]; exact hd.q1 c
variable {m dats} in
theorem share2 (hd : DataOk m dats) (c : Dev nD) : (dats 0 c).share 2 = fullShare.right := by
  unfold Pipeline.Dat.share; rw [if_neg (by decide)]; exact hd.q2 c
variable {m dats} in
theorem share3 (hd : DataOk m dats) (c : Dev nD) : (dats 0 c).share 3 = fullShare := by
  unfold Pipeline.Dat.share; rw [if_neg (by decide)]; exact hd.q3 c
theorem share4 (c : Dev nD) : (dats 0 c).share 4 = fullShare := by
  unfold Pipeline.Dat.share; rw [if_pos (by decide)]

/-- The windows' arrays at contents `G`, one by one: each a whole buffer, the class words' array at one half per window. -/
theorem arrays_eq5 (hd : DataOk m dats) (c : Dev nD) (G : (w : Fin cfg0.W) → Buf (Elt F) ((cfg0.win w).arr.view.loc (c : Thread nD τ))) :
    ((dats 0 c).arrays G : sProp 𝕄)
      = iprop((((c : Thread nD τ).loc main_v12) ↦{fullShare} G 0) ∗ (((c : Thread nD τ).loc main_v9) ↦{fullShare.left} G 1)
          ∗ (((c : Thread nD τ).loc main_v9) ↦{fullShare.right} G 2) ∗ (((c : Thread nD τ).loc main_v4) ↦{fullShare} G 3)
          ∗ (((c : Thread nD τ).loc main_v13) ↦{fullShare} G 4)) := by
  unfold Pipeline.Dat.arrays
  rw [bigSep_W0, share0 hd c, share1 hd c, share2 hd c, share3 hd c, share4 dats c,
    (arr_whole0 0).set_eq_univ, (arr_whole0 1).set_eq_univ, (arr_whole0 3).set_eq_univ, (arr_whole0 4).set_eq_univ]

/-- The four buffers behind the windows, one by one. -/
theorem arrBufs_eq4 (c : Dev nD) (W : (b : Ref sig .tc) → Buf (Elt F) ((c : Thread nD τ).loc b)) :
    (Pipeline.arrBufs spec0 c W : sProp 𝕄)
      = iprop((((c : Thread nD τ).loc main_v12) ↦{fullShare} W main_v12) ∗ (((c : Thread nD τ).loc main_v9) ↦{fullShare} W main_v9)
          ∗ (((c : Thread nD τ).loc main_v4) ↦{fullShare} W main_v4) ∗ (((c : Thread nD τ).loc main_v13) ↦{fullShare} W main_v13)) := by
  unfold Pipeline.arrBufs
  exact bigSep_eq_bigSepL_of_eq [main_v12, main_v9, main_v4, main_v13] arrImage (by decide) _

theorem arrays_of_arrBufs (hd : DataOk m dats) (c : Dev nD) :
    (Pipeline.arrBufs spec0 c (V m c) : sProp 𝕄) ⊢ (dats 0 c).arrays ((dats 0 c).arrAt · 0) := by
  rw [arrays_eq5 m dats hd c, arrBufs_eq4]
  rw [show (dats 0 c).arrAt 0 0 = V m c main_v12 from hd.hA c 0, show (dats 0 c).arrAt 1 0 = V m c main_v9 from hd.hA c 1,
    show (dats 0 c).arrAt 2 0 = V m c main_v9 from hd.hA c 2, show (dats 0 c).arrAt 3 0 = V m c main_v4 from hd.hA c 3,
    show (dats 0 c).arrAt 4 0 = V m c main_v13 from hd.hA c 4]
  iintro ⟨H12, H9, H4, H13⟩
  ihave H9' := (pointsTo_share (PosShare.mem_left_op_right fullShare)).1 $$ H9
  icases H9' with ⟨H9l, H9r⟩
  isplitl [H12]; · iexact H12
  isplitl [H9l]; · iexact H9l
  isplitl [H9r]; · iexact H9r
  isplitl [H4]; · iexact H4
  iexact H13

/-! ## The host stretches before the region -/

theorem fresh0 : ∀ op ∈ (hostOps0 : List (HloOp τ sig (Elt F))), op.fresh = ∅ := by
  intro _ h; (repeat (cases h with | head => rfl | tail _ h => ?_)); exact nomatch h
theorem fresh0_1 : ∀ op ∈ (hostOps0_1 : List (HloOp τ sig (Elt F))), op.fresh = ∅ := by
  intro _ h; (repeat (cases h with | head => rfl | tail _ h => ?_)); exact nomatch h
theorem fresh0_2 : ∀ op ∈ (hostOps0_2 : List (HloOp τ sig (Elt F))), op.fresh = ∅ := by
  intro _ h; (repeat (cases h with | head => rfl | tail _ h => ?_)); exact nomatch h
theorem fresh1 : ∀ op ∈ (hostOps1 : List (HloOp τ sig (Elt F))), op.fresh = ∅ := by
  intro _ h; (repeat (cases h with | head => rfl | tail _ h => ?_)); exact nomatch h

/-- The three stretches before the region, each over all the unscoped buffers. -/
def segA : Pipeline.HostSeg (Name := ℕ) (U := UR sig nD τ) (pcfgs (F := F)) defs₀ 𝒱₀ Lv lv :=
  Pipeline.HostSeg.ofOps _ _ _ _ _ (Pipeline.ucRefs τ sig) hostOps0
    (fun op h => Pipeline.sub_ucRefs op ((List.forall_iff_forall_mem.mp hostOps0_sub) op h)) fresh0 (V₀ m) RdE
def segB : Pipeline.HostSeg (Name := ℕ) (U := UR sig nD τ) (pcfgs (F := F)) defs₀ 𝒱₀ Lv lv :=
  Pipeline.HostSeg.ofOps _ _ _ _ _ (Pipeline.ucRefs τ sig) hostOps0_1
    (fun op h => Pipeline.sub_ucRefs op ((List.forall_iff_forall_mem.mp hostOps0_1_sub) op h)) fresh0_1 (V₁ m) RdE
def segC : Pipeline.HostSeg (Name := ℕ) (U := UR sig nD τ) (pcfgs (F := F)) defs₀ 𝒱₀ Lv lv :=
  Pipeline.HostSeg.ofOps _ _ _ _ _ (Pipeline.ucRefs τ sig) hostOps0_2
    (fun op h => Pipeline.sub_ucRefs op ((List.forall_iff_forall_mem.mp hostOps0_2_sub) op h)) fresh0_2 (V₂ m) RdE

/-! ## The host operation after the region -/

/-- The two buffers the slice touches: the kernel's result and its own. -/
def tailRefs2 : Finset (DevRef τ sig) := {Proc.devRef .tc main_v13, Proc.devRef .tc main_v14}

/-- The buffers when the slice runs: the kernel's result at what the pipeline left, the others as the region found them. -/
def Vx (c : Dev nD) : Valuation τ sig (Elt F) := fun b =>
  if h : b = Proc.devRef .tc main_v13 then h ▸ ((dats 0 c).arrAt 4 cfg0.N) else V₃ m c b

theorem Vx_result (c : Dev nD) : Vx m dats c (Proc.devRef .tc main_v13) = (dats 0 c).arrAt 4 cfg0.N := by
  unfold Vx; rw [dif_pos rfl]
theorem Vx_of_ne (c : Dev nD) (b : DevRef τ sig) (h : b ≠ Proc.devRef .tc main_v13) : Vx m dats c b = V₃ m c b := by
  unfold Vx; rw [dif_neg h]

/-- Those two buffers held at a valuation, one by one. -/
theorem held_tail (c : Dev nD) (W : Valuation τ sig (Elt F)) :
    (StableHlo.held (c : Thread nD τ) tailRefs2 W : sProp 𝕄)
      = iprop((((c : Thread nD τ).loc main_v13) ↦{fullShare} W (Proc.devRef .tc main_v13)) ∗ (((c : Thread nD τ).loc main_v14) ↦{fullShare} W (Proc.devRef .tc main_v14))) := by
  unfold StableHlo.held tailRefs2
  rw [bigSep_insert (by decide), bigSep_singleton]
  rfl

/-- The unscoped buffers that are no window's array and not the slice's result: they bypass everything. -/
def bypass : Finset (Ref sig .tc) :=
  ((Finset.univ.filter fun b : Ref sig .tc => ¬ b.isScoped) \ Finset.univ.image (Pipeline.arrRef spec0)).erase main_v14

/-- The buffers that are no window's array: the slice's result buffer and the bypassing ones. -/
theorem rest_eq (c : Dev nD) (W : (b : Ref sig .tc) → Buf (Elt F) ((c : Thread nD τ).loc b)) :
    (Pipeline.unscopedRest spec0 c W : sProp 𝕄)
      = iprop((((c : Thread nD τ).loc main_v14) ↦{fullShare} W main_v14) ∗ bigSep bypass fun b => ((c : Thread nD τ).loc b) ↦{fullShare} W b) := by
  unfold Pipeline.unscopedRest bypass
  exact bigSep_erase (by decide)

/-- What rides past the slice: the bypassing buffers at what the region found, and what rides everywhere. (The input
    windows' arrays are let go: nothing after the region reads them through the windows.) -/
def Rtail (c : Dev nD) : sProp 𝕄 :=
  iprop((bigSep bypass fun b => ((c : Thread nD τ).loc b) ↦{fullShare} V m c b) ∗ Rd c)

theorem tail_sub : ∀ op ∈ (hostOps1 : List (HloOp τ sig (Elt F))), op.bufs ⊆ tailRefs2 := by
  intro op h
  simp only [hostOps1, List.mem_cons, List.mem_nil_iff, or_false] at h
  subst h
  exact Finset.Subset.refl _

/-- The slice after the region, over its two buffers. -/
def segT : Pipeline.HostSeg (Name := ℕ) (U := UR sig nD τ) (pcfgs (F := F)) defs₀ 𝒱₀ Lv lv :=
  Pipeline.HostSeg.ofOps _ _ _ _ _ tailRefs2 hostOps1 tail_sub fresh1 (Vx m dats) (Rtail m)

/-! ## The region -/

set_option backward.isDefEq.respectTransparency.types false in
/-- The kernel region, entered from what the third stretch left and left for the slice. -/
def reg (hd : DataOk m dats) : Pipeline.RegionSeg (pcfgs (F := F)) adm dats () defs₀ 𝒱₀ Lv lv 0 where
  win := winFacts₀0
  block_pos := block_pos0
  stage_whole := stage_whole0
  K := PEmpty
  osem := fun k => k.elim
  ho := Pipeline.OwnSemFacts.none _
  hbody c := (hd.hbody c).loose
  hwaits := Pipeline.hwaits_of_owed_zero _ _ _ _ Lv lv 0 hd.howed
  pre c := iprop(StableHlo.held (c : Thread nD τ) (Pipeline.ucRefs τ sig) (V₃ m c) ∗ RdE c)
  post c := iprop(StableHlo.held (c : Thread nD τ) tailRefs2 (Vx m dats c) ∗ Rtail m c)
  X c := iprop(∃ r, prngReg c r)
  Y c := iprop(∃ r, prngReg c r)
  Z c := Pipeline.unscopedRest spec0 c (V m c)
  hentry c := by
    rw [show StableHlo.held (c : Thread nD τ) (Pipeline.ucRefs τ sig) (V₃ m c) = unscopedBufs c (V m c) from (Pipeline.unscopedBufs_held c _).symm,
      Pipeline.unscopedBufs_split₀ cfgs 0 winFacts₀0.arr_unscoped c (V m c)]
    iintro ⟨⟨⟨Ha, Hrest⟩, ⟨HO, Hp⟩⟩, -, -⟩
    imodintro
    isplitl [Ha]
    · iapply (arrays_of_arrBufs m dats hd c); iexact Ha
    isplitr; · unfold Pipeline.prefHeld; rw [show (Finset.univ : Finset (Fin 0)) = ∅ from rfl, BI.bigSep_empty]; iempintro
    isplitl [HO]
    · unfold Pipeline.Dat.owesAt Pipeline.owesWithin
      rw [hd.howed c 0]
      iexists ∅; isplitr; · ipureintro; rw [Finset.coe_empty]; exact Set.empty_subset _
      iexact HO
    isplitl [Hp]; · iexact Hp
    iexact Hrest
  hin c := by
    refine BIBase.Entails.trans ?_ (hd.hin c)
    unfold Pipeline.ΦA
    iintro ⟨Hp, -, Hr⟩
    isplitl [Hr] <;> iassumption
  hout c := by
    refine BIBase.Entails.trans (hd.hout c) ?_
    rw [Pipeline.ownSems0_none]; unfold Pipeline.ΦA
    iintro ⟨Hr, Hp⟩
    isplitl [Hp]; · iexact Hp
    isplitr; · iempintro
    iexact Hr
  hexit c := by
    rw [arrays_eq5 m dats hd c, rest_eq, held_tail, Vx_result, Vx_of_ne m dats c _ (by decide)]
    unfold Rtail Rd
    iintro ⟨⟨-, -, -, -, H13⟩, HO, HY, ⟨H14, Hby⟩⟩
    imodintro
    isplitl [H13 H14]
    · isplitl [H13]; · iexact H13
      iexact H14
    isplitl [Hby]; · iexact Hby
    isplitl [HO]
    · unfold Pipeline.Dat.owesAt Pipeline.owesWithin
      rw [hd.howed c (Fin.last _)]
      icases HO with ⟨%W, -, HO⟩; iexists W; iexact HO
    iexact HY

/-! ## The run -/

/-- @main as the list of its five segments. -/
abbrev segs (hd : DataOk m dats) : List (Pipeline.Seg (pcfgs (F := F)) adm dats () defs₀ 𝒱₀ Lv lv) :=
  [.host (segA m), .host (segB m), .host (segC m), .region (reg m dats hd), .host (segT m dats)]

/-- What is left at the end: the slice's two buffers after it, and the bypassing buffers. -/
abbrev Tend (c : Dev nD) : sProp 𝕄 :=
  iprop(StableHlo.held (c : Thread nD τ) tailRefs2 (StableHlo.after hostOps1 (Vx m dats c))
    ∗ (bigSep bypass fun b => ((c : Thread nD τ).loc b) ↦{fullShare} V m c b) ∗ (∃ r, prngReg c r))

/-- What the run says of a final state: the slice's result buffer holds what the slice computes from what the pipeline left
    in the kernel's result array, and every bypassing buffer is as the region found it. -/
def RunPost (r : PUnit × MemSt nD τ sig (Elt F)) : Prop :=
  ∀ c : Dev nD,
    r.2.mem ((c : Thread nD τ).loc main_v14) = StableHlo.after hostOps1 (Vx m dats c) (Proc.devRef .tc main_v14)
    ∧ ∀ b ∈ bypass, r.2.mem ((c : Thread nD τ).loc b) = V m c b

set_option backward.isDefEq.respectTransparency.types false in
/-- At the compiled mesh, from any memory with zero counters: every weakly fair execution of @main terminates, nothing
    faulting, in a state of which `RunPost` holds. -/
theorem run_main (hd : DataOk m dats) : θ_run defs (onTc (τ := τ) (main (F := F))) (s₀ m ρ) (RunPost m dats) :=
  Pipeline.θ_run_regions_kit (pcfgs (F := F)) adm dats () cellOf_inj emb₁ defs₀ 𝒱₀ Lv lv m ρ main (segs m dats hd)
    (fun c Q => by rw [main_chain, Pipeline.Seg.run_eq_chain]; exact .rfl)
    (by simp only [Pipeline.Seg.pipes_host, Pipeline.Seg.pipes_region, Pipeline.Seg.pipes_nil]; decide) (O₀ := 0) (hL := fun _ _ => rfl) (G := fun _ => iprop(emp))
    (u₀ := initOf (Pipeline.cells (Pipeline.pin (pcfgs (F := F)) adm) cellOf_inj) (Pipeline.launchToks (Pipeline.pin (pcfgs (F := F)) adm) cellOf_inj))
    (hu₀ := by
      iintro Hu; imodintro
      isplitl [Hu]; · iapply (show (ownU _ : sProp 𝕄) ⊢ BI.own (emb₁ (initOf (Pipeline.cells (Pipeline.pin (pcfgs (F := F)) adm) cellOf_inj) (Pipeline.launchToks (Pipeline.pin (pcfgs (F := F)) adm) cellOf_inj))) from .rfl); iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V₀ m c) ∗ RdE c)) (Tₙ := Tend m dats)
    (hch := ⟨fun _ => .rfl, fun _ => .rfl, fun _ => .rfl, fun _ => .rfl, fun _ => .rfl, fun c => by
      show iprop(StableHlo.held (c : Thread nD τ) tailRefs2 (StableHlo.after hostOps1 (Vx m dats c)) ∗ Rtail m c) ⊢ _
      unfold Rtail Rd
      iintro ⟨Hh, Hby, HO, Hp⟩
      isplitr [HO]
      · isplitl [Hh]; · iexact Hh
        isplitl [Hby] <;> iassumption
      · iexact HO⟩)
    (hinit := by
      refine Pipeline.initEach Lv lv fun c => ?_
      rw [show unscopedBufs c (fun b => m ((c : Thread nD τ).loc b)) = StableHlo.held (c : Thread nD τ) (Pipeline.ucRefs τ sig) (V₀ m c) from Pipeline.unscopedBufs_held c (V₀ m c)]
      iintro ⟨⟨Hh, -, HO, -, Hp, -⟩, -⟩
      imodintro
      isplitl [Hh]; · iexact Hh
      isplitl [HO]; · iexact HO
      iexists _; iexact Hp)
    (QY := fun c s => s.mem ((c : Thread nD τ).loc main_v14) = StableHlo.after hostOps1 (Vx m dats c) (Proc.devRef .tc main_v14)
      ∧ ∀ b ∈ bypass, s.mem ((c : Thread nD τ).loc b) = V m c b)
    (hfin := fun c s' => by
      dsimp only [Tend]
      rw [held_tail]
      iintro ⟨⟨⟨-, H14⟩, Hby, -⟩, HSI⟩
      icombine HSI H14 gives %h14
      ihave Hr := (pointsTo_read_all bypass (fun b => (c : Thread nD τ).loc b) (V m c) s') $$ [Hby HSI]
      · isplitl [Hby] <;> iassumption
      icases Hr with ⟨%hby, HSI⟩
      imodintro
      isplitr; · ipureintro; exact ⟨Buf.eq_of_forall_mem_univ h14, hby⟩
      iexact HSI)
    (hQ := fun _ h => h)

end Cert.KernelIdeal.Hand

end
-- ==== Proof.RunA.lean ====
/-
  The body at a point of the first kind (column tile 0 on the diagonal): the three scratch accumulators are reset and the
  diagonal block's product is added to the row tile's sum; nothing is stored into the output block.
-/
import proofs.«408942_j68186900791974_3_alg».proof.Proof.Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the stores leave in the three scratch accumulators, as pieces (last first), with the body's triple on whole memrefs:
    the four input blocks at their contents and the output's buffer at contents handed back untouched. -/
noncomputable def kernelRunA (c : Dev nD) (i : grid0.Coords) (arg3 : Memref sig .tc .vmem S1x768x128 .f32) (harg3 : arg3.IsWhole) (arg4 : Memref sig .tc .vmem S1x1x768 .i32) (harg4 : arg4.IsWhole) (arg5 : Memref sig .tc .vmem S1x1x768 .i32) (harg5 : arg5.IsWhole) (arg6 : Memref sig .tc .vmem S128x128 .f32) (harg6 : arg6.IsWhole) (arg7 : Memref sig .tc .vmem S1x768x128 .f32) (harg7 : arg7.IsWhole) (arg8 : Memref sig .tc .vmem S768x128 .f32) (harg8 : arg8.IsWhole) (arg9 : Memref sig .tc .vmem S128x128 .f32) (harg9 : arg9.IsWhole) (arg10 : Memref sig .tc .vmem S128x128 .f32) (harg10 : arg10.IsWhole) (hc1 : cond1 i) (hc2 : cond2 i) (hc3 : ¬cond3 i) (hc4 : ¬cond4 i) (hc5 : ¬cond5 i)
    (x0 : Vec F S1x768x128 .f32) (x1 : Vec F S1x1x768 .i32) (x2 : Vec F S1x1x768 .i32) (x3 : Vec F S128x128 .f32) :
    Σ' (LAcc : List (View.Piece (Elt F) S768x128 .f32)) (LLow : List (View.Piece (Elt F) S128x128 .f32)), { LUp : List (View.Piece (Elt F) S128x128 .f32) //
      ∀ (xi4 : Vec F S1x768x128 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4
            ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4
                ∗ (∃ f, arg8.view.loc (c : Thread nD τ) ↦[arg8.view.set]{fullShare} arg8.view.writes (Elt F) f LAcc) ∗ (∃ f, arg9.view.loc (c : Thread nD τ) ↦[arg9.view.set]{fullShare} arg9.view.writes (Elt F) f LLow) ∗ (∃ f, arg10.view.loc (c : Thread nD τ) ↦[arg10.view.set]{fullShare} arg10.view.writes (Elt F) f LUp)) -∗ K ⟨⟩))
          ⊢ wp frame (wpE (defs₀ (F := F)) Variants.none c none) E (cc0__kernel i arg3 harg3 arg4 harg4 arg5 harg5 arg6 harg6 arg7 harg7 arg8 harg8 arg9 harg9 arg10 harg10) K } :=
  by
  refine ⟨?_, ?_, ?_, fun xi4 E K => ?run⟩
  case run =>
    simp only [cc0__kernel_eq_skeleton]; unfold cc0__kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, ⟨%ds2, %fs2, -, HS2⟩, Hk⟩
    obtain rfl := harg3.eq_unread hf0; obtain rfl := harg4.eq_unread hf1; obtain rfl := harg5.eq_unread hf2; obtain rfl := harg6.eq_unread hf3; obtain rfl := harg7.eq_unread hf4
    sl_exec (disch := first | exact hc1 | exact hc2 | exact hc3 | exact hc4 | exact hc5)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [HS0]; · iexists _; iexact HS0
    isplitl [HS1]; · iexists _; iexact HS1
    iexists _; iexact HS2

end Cert.KernelIdeal.Hand

end
-- ==== Proof.RunB.lean ====
/-
  The body at a point of the second kind (column tile 1 above the diagonal): the column tile, folded by class, is added to
  the upper fold; then both folds are projected back through the row tile's classes, added to the row tile's sum, and the
  sum is stored as the output block. The lower fold is only read.
-/
import proofs.«408942_j68186900791974_3_alg».proof.Proof.RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the stores leave in the output's buffer, the row tile's sum and the upper fold, as pieces (last first), with the
    body's triple: the scratch enters at the contents the point before left. -/
noncomputable def kernelRunB (c : Dev nD) (i : grid0.Coords) (arg3 : Memref sig .tc .vmem S1x768x128 .f32) (harg3 : arg3.IsWhole) (arg4 : Memref sig .tc .vmem S1x1x768 .i32) (harg4 : arg4.IsWhole) (arg5 : Memref sig .tc .vmem S1x1x768 .i32) (harg5 : arg5.IsWhole) (arg6 : Memref sig .tc .vmem S128x128 .f32) (harg6 : arg6.IsWhole) (arg7 : Memref sig .tc .vmem S1x768x128 .f32) (harg7 : arg7.IsWhole) (arg8 : Memref sig .tc .vmem S768x128 .f32) (harg8 : arg8.IsWhole) (arg9 : Memref sig .tc .vmem S128x128 .f32) (harg9 : arg9.IsWhole) (arg10 : Memref sig .tc .vmem S128x128 .f32) (harg10 : arg10.IsWhole) (hc1 : ¬cond1 i) (hc2 : ¬cond2 i) (hc3 : ¬cond3 i) (hc4 : cond4 i) (hc5 : cond5 i)
    (x0 : Vec F S1x768x128 .f32) (x1 : Vec F S1x1x768 .i32) (x2 : Vec F S1x1x768 .i32) (x3 : Vec F S128x128 .f32) (xsAcc : Vec F S768x128 .f32) (xsLow : Vec F S128x128 .f32) (xsUp : Vec F S128x128 .f32) :
    Σ' (L4 : List (View.Piece (Elt F) S1x768x128 .f32)) (LAcc : List (View.Piece (Elt F) S768x128 .f32)), { LUp : List (View.Piece (Elt F) S128x128 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d)
            ∗ owns (c : Thread nD τ) arg8 fullShare xsAcc ∗ owns (c : Thread nD τ) arg9 fullShare xsLow ∗ owns (c : Thread nD τ) arg10 fullShare xsUp
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4)
                ∗ (∃ f, arg8.view.loc (c : Thread nD τ) ↦[arg8.view.set]{fullShare} arg8.view.writes (Elt F) f LAcc) ∗ owns (c : Thread nD τ) arg9 fullShare xsLow ∗ (∃ f, arg10.view.loc (c : Thread nD τ) ↦[arg10.view.set]{fullShare} arg10.view.writes (Elt F) f LUp)) -∗ K ⟨⟩))
          ⊢ wp frame (wpE (defs₀ (F := F)) Variants.none c none) E (cc0__kernel i arg3 harg3 arg4 harg4 arg5 harg5 arg6 harg6 arg7 harg7 arg8 harg8 arg9 harg9 arg10 harg10) K } :=
  by
  refine ⟨?_, ?_, ?_, fun E K => ?run⟩
  case run =>
    simp only [cc0__kernel_eq_skeleton]; unfold cc0__kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg6.eq_unread hf3
    obtain rfl := harg8.eq_unread hfs0; obtain rfl := harg9.eq_unread hfs1; obtain rfl := harg10.eq_unread hfs2
    sl_exec (disch := first | exact hc1 | exact hc2 | exact hc3 | exact hc4 | exact hc5)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    isplitl [HS0]; · iexists _; iexact HS0
    isplitl [HS1]
    · iexists _; isplitr; · ipureintro; exact harg9.read_unread _
      iexact HS1
    iexists _; iexact HS2

end Cert.KernelIdeal.Hand

end
-- ==== Proof.RunC.lean ====
/-
  The body at a point of the third kind (column tile 0 below the diagonal): the three scratch accumulators are reset and the
  column tile, folded by class, is added to the lower fold; nothing is stored into the output block.
-/
import proofs.«408942_j68186900791974_3_alg».proof.Proof.RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the stores leave in the three scratch accumulators, as pieces (last first), with the body's triple. -/
noncomputable def kernelRunC (c : Dev nD) (i : grid0.Coords) (arg3 : Memref sig .tc .vmem S1x768x128 .f32) (harg3 : arg3.IsWhole) (arg4 : Memref sig .tc .vmem S1x1x768 .i32) (harg4 : arg4.IsWhole) (arg5 : Memref sig .tc .vmem S1x1x768 .i32) (harg5 : arg5.IsWhole) (arg6 : Memref sig .tc .vmem S128x128 .f32) (harg6 : arg6.IsWhole) (arg7 : Memref sig .tc .vmem S1x768x128 .f32) (harg7 : arg7.IsWhole) (arg8 : Memref sig .tc .vmem S768x128 .f32) (harg8 : arg8.IsWhole) (arg9 : Memref sig .tc .vmem S128x128 .f32) (harg9 : arg9.IsWhole) (arg10 : Memref sig .tc .vmem S128x128 .f32) (harg10 : arg10.IsWhole) (hc1 : cond1 i) (hc2 : ¬cond2 i) (hc3 : cond3 i) (hc4 : ¬cond4 i) (hc5 : ¬cond5 i)
    (x0 : Vec F S1x768x128 .f32) (x1 : Vec F S1x1x768 .i32) (x2 : Vec F S1x1x768 .i32) (x3 : Vec F S128x128 .f32) :
    Σ' (LAcc : List (View.Piece (Elt F) S768x128 .f32)) (LLow : List (View.Piece (Elt F) S128x128 .f32)), { LUp : List (View.Piece (Elt F) S128x128 .f32) //
      ∀ (xi4 : Vec F S1x768x128 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4
            ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4
                ∗ (∃ f, arg8.view.loc (c : Thread nD τ) ↦[arg8.view.set]{fullShare} arg8.view.writes (Elt F) f LAcc) ∗ (∃ f, arg9.view.loc (c : Thread nD τ) ↦[arg9.view.set]{fullShare} arg9.view.writes (Elt F) f LLow) ∗ (∃ f, arg10.view.loc (c : Thread nD τ) ↦[arg10.view.set]{fullShare} arg10.view.writes (Elt F) f LUp)) -∗ K ⟨⟩))
          ⊢ wp frame (wpE (defs₀ (F := F)) Variants.none c none) E (cc0__kernel i arg3 harg3 arg4 harg4 arg5 harg5 arg6 harg6 arg7 harg7 arg8 harg8 arg9 harg9 arg10 harg10) K } :=
  by
  refine ⟨?_, ?_, ?_, fun xi4 E K => ?run⟩
  case run =>
    simp only [cc0__kernel_eq_skeleton]; unfold cc0__kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, ⟨%ds2, %fs2, -, HS2⟩, Hk⟩
    obtain rfl := harg3.eq_unread hf0; obtain rfl := harg4.eq_unread hf1; obtain rfl := harg5.eq_unread hf2; obtain rfl := harg6.eq_unread hf3; obtain rfl := harg7.eq_unread hf4
    sl_exec (disch := first | exact hc1 | exact hc2 | exact hc3 | exact hc4 | exact hc5)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [HS0]; · iexists _; iexact HS0
    isplitl [HS1]; · iexists _; iexact HS1
    iexists _; iexact HS2

end Cert.KernelIdeal.Hand

end
-- ==== Proof.RunD.lean ====
/-
  The body at a point of the fourth kind (column tile 1 on the diagonal): the diagonal block's product is added to the row
  tile's sum; then both folds are projected back, added, and the sum is stored as the output block. Both folds are only read.
-/
import proofs.«408942_j68186900791974_3_alg».proof.Proof.RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the stores leave in the output's buffer and the row tile's sum, as pieces (last first), with the body's triple. -/
noncomputable def kernelRunD (c : Dev nD) (i : grid0.Coords) (arg3 : Memref sig .tc .vmem S1x768x128 .f32) (harg3 : arg3.IsWhole) (arg4 : Memref sig .tc .vmem S1x1x768 .i32) (harg4 : arg4.IsWhole) (arg5 : Memref sig .tc .vmem S1x1x768 .i32) (harg5 : arg5.IsWhole) (arg6 : Memref sig .tc .vmem S128x128 .f32) (harg6 : arg6.IsWhole) (arg7 : Memref sig .tc .vmem S1x768x128 .f32) (harg7 : arg7.IsWhole) (arg8 : Memref sig .tc .vmem S768x128 .f32) (harg8 : arg8.IsWhole) (arg9 : Memref sig .tc .vmem S128x128 .f32) (harg9 : arg9.IsWhole) (arg10 : Memref sig .tc .vmem S128x128 .f32) (harg10 : arg10.IsWhole) (hc1 : ¬cond1 i) (hc2 : cond2 i) (hc3 : ¬cond3 i) (hc4 : ¬cond4 i) (hc5 : cond5 i)
    (x0 : Vec F S1x768x128 .f32) (x1 : Vec F S1x1x768 .i32) (x2 : Vec F S1x1x768 .i32) (x3 : Vec F S128x128 .f32) (xsAcc : Vec F S768x128 .f32) (xsLow : Vec F S128x128 .f32) (xsUp : Vec F S128x128 .f32) :
    Σ' (L4 : List (View.Piece (Elt F) S1x768x128 .f32)), { LAcc : List (View.Piece (Elt F) S768x128 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d)
            ∗ owns (c : Thread nD τ) arg8 fullShare xsAcc ∗ owns (c : Thread nD τ) arg9 fullShare xsLow ∗ owns (c : Thread nD τ) arg10 fullShare xsUp
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4)
                ∗ (∃ f, arg8.view.loc (c : Thread nD τ) ↦[arg8.view.set]{fullShare} arg8.view.writes (Elt F) f LAcc) ∗ owns (c : Thread nD τ) arg9 fullShare xsLow ∗ owns (c : Thread nD τ) arg10 fullShare xsUp) -∗ K ⟨⟩))
          ⊢ wp frame (wpE (defs₀ (F := F)) Variants.none c none) E (cc0__kernel i arg3 harg3 arg4 harg4 arg5 harg5 arg6 harg6 arg7 harg7 arg8 harg8 arg9 harg9 arg10 harg10) K } :=
  by
  refine ⟨?_, ?_, fun E K => ?run⟩
  case run =>
    simp only [cc0__kernel_eq_skeleton]; unfold cc0__kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg6.eq_unread hf3
    obtain rfl := harg8.eq_unread hfs0; obtain rfl := harg9.eq_unread hfs1; obtain rfl := harg10.eq_unread hfs2
    sl_exec (disch := first | exact hc1 | exact hc2 | exact hc3 | exact hc4 | exact hc5)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    isplitl [HS0]; · iexists _; iexact HS0
    isplitl [HS1]
    · iexists _; isplitr; · ipureintro; exact harg9.read_unread _
      iexact HS1
    iexists _; isplitr; · ipureintro; exact harg10.read_unread _
    iexact HS2

end Cert.KernelIdeal.Hand

end
-- ==== Proof.FrameData.lean ====
/-
  The pipeline's proof data and the body obligation.

  For each of the four kinds of point: what the body leaves in the output's staging buffer and in the three scratch
  accumulators, as the stored pieces read back. Then, point by point along the grid, what those four buffers hold after
  the body (the accumulators are carried from a point to the next inside a row tile: a point of column tile 1 starts from
  what the point before left); the region's invariant before each point (the three accumulators at those contents); the
  proof data of the pipeline; and the body obligation: at every point the body, called on the staging buffers at the
  windows' blocks, leaves every window and the invariant as the proof data say.
-/
import proofs.«408942_j68186900791974_3_alg».proof.Proof.RunD

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## What each kind of point leaves

Stated on any whole memrefs the body may be called with: the stored pieces of a buffer, written over arbitrary contents
and read back. Where the pieces cover the buffer this does not depend on those contents. -/

section Cases

variable (c : Dev nD) (i : grid0.Coords)
  (a3 : Memref sig .tc .vmem S1x768x128 .f32) (h3 : a3.IsWhole) (a4 : Memref sig .tc .vmem S1x1x768 .i32) (h4 : a4.IsWhole)
  (a5 : Memref sig .tc .vmem S1x1x768 .i32) (h5 : a5.IsWhole) (a6 : Memref sig .tc .vmem S128x128 .f32) (h6 : a6.IsWhole)
  (a7 : Memref sig .tc .vmem S1x768x128 .f32) (h7 : a7.IsWhole) (a8 : Memref sig .tc .vmem S768x128 .f32) (h8 : a8.IsWhole)
  (a9 : Memref sig .tc .vmem S128x128 .f32) (h9 : a9.IsWhole) (a10 : Memref sig .tc .vmem S128x128 .f32) (h10 : a10.IsWhole)
  (x0 : Vec F S1x768x128 .f32) (x1 : Vec F S1x1x768 .i32) (x2 : Vec F S1x1x768 .i32) (x3 : Vec F S128x128 .f32)

/-- At a point of column tile 0 nothing is stored into the output's buffer, the pipeline does not write it back and no
    later point reads it: a placeholder, which nothing consults. -/
def outIdle : Vec F S1x768x128 .f32 := VO4.read (Elt F) VO4.junk

/-! ### First kind (column tile 0, diagonal) -/

/-- The first kind's pieces for the row tile's sum cover it. -/
theorem scoverAAcc (hc1 : cond1 i) (hc2 : cond2 i) (hc3 : ¬cond3 i) (hc4 : ¬cond4 i) (hc5 : ¬cond5 i) (y : S768x128.Idx) :
    ∃ pc ∈ (kernelRunA c i a3 h3 a4 h4 a5 h5 a6 h6 a7 h7 a8 h8 a9 h9 a10 h10 hc1 hc2 hc3 hc4 hc5 x0 x1 x2 x3).1, y ∈ pc.1.set :=
  View.cover_of_tiledL (kernelRunA c i a3 h3 a4 h4 a5 h5 a6 h6 a7 h7 a8 h8 a9 h9 a10 h10 hc1 hc2 hc3 hc4 hc5 x0 x1 x2 x3).1 S768x128.size (by sl_kernel_rfl) y

/-- What the first kind leaves in the row tile's sum. -/
def soutAAcc (hc1 : cond1 i) (hc2 : cond2 i) (hc3 : ¬cond3 i) (hc4 : ¬cond4 i) (hc5 : ¬cond5 i) : Vec F S768x128 .f32 :=
  VSAcc.read (Elt F) (VSAcc.writes (Elt F) VSAcc.junk (kernelRunA c i a3 h3 a4 h4 a5 h5 a6 h6 a7 h7 a8 h8 a9 h9 a10 h10 hc1 hc2 hc3 hc4 hc5 x0 x1 x2 x3).1)

/-- Its pieces for the lower fold cover it. -/
theorem scoverALow (hc1 : cond1 i) (hc2 : cond2 i) (hc3 : ¬cond3 i) (hc4 : ¬cond4 i) (hc5 : ¬cond5 i) (y : S128x128.Idx) :
    ∃ pc ∈ (kernelRunA c i a3 h3 a4 h4 a5 h5 a6 h6 a7 h7 a8 h8 a9 h9 a10 h10 hc1 hc2 hc3 hc4 hc5 x0 x1 x2 x3).2.1, y ∈ pc.1.set :=
  View.cover_of_tiledL (kernelRunA c i a3 h3 a4 h4 a5 h5 a6 h6 a7 h7 a8 h8 a9 h9 a10 h10 hc1 hc2 hc3 hc4 hc5 x0 x1 x2 x3).2.1 S128x128.size (by sl_kernel_rfl) y

/-- What the first kind leaves in the lower fold. -/
def soutALow (hc1 : cond1 i) (hc2 : cond2 i) (hc3 : ¬cond3 i) (hc4 : ¬cond4 i) (hc5 : ¬cond5 i) : Vec F S128x128 .f32 :=
  VSLow.read (Elt F) (VSLow.writes (Elt F) VSLow.junk (kernelRunA c i a3 h3 a4 h4 a5 h5 a6 h6 a7 h7 a8 h8 a9 h9 a10 h10 hc1 hc2 hc3 hc4 hc5 x0 x1 x2 x3).2.1)

/-- Its pieces for the upper fold cover it. -/
theorem scoverAUp (hc1 : cond1 i) (hc2 : cond2 i) (hc3 : ¬cond3 i) (hc4 : ¬cond4 i) (hc5 : ¬cond5 i) (y : S128x128.Idx) :
    ∃ pc ∈ (kernelRunA c i a3 h3 a4 h4 a5 h5 a6 h6 a7 h7 a8 h8 a9 h9 a10 h10 hc1 hc2 hc3 hc4 hc5 x0 x1 x2 x3).2.2.1, y ∈ pc.1.set :=
  View.cover_of_tiledL (kernelRunA c i a3 h3 a4 h4 a5 h5 a6 h6 a7 h7 a8 h8 a9 h9 a10 h10 hc1 hc2 hc3 hc4 hc5 x0 x1 x2 x3).2.2.1 S128x128.size (by sl_kernel_rfl) y

/-- What the first kind leaves in the upper fold. -/
def soutAUp (hc1 : cond1 i) (hc2 : cond2 i) (hc3 : ¬cond3 i) (hc4 : ¬cond4 i) (hc5 : ¬cond5 i) : Vec F S128x128 .f32 :=
  VSUp.read (Elt F) (VSUp.writes (Elt F) VSUp.junk (kernelRunA c i a3 h3 a4 h4 a5 h5 a6 h6 a7 h7 a8 h8 a9 h9 a10 h10 hc1 hc2 hc3 hc4 hc5 x0 x1 x2 x3).2.2.1)

/-- The four buffers after a point of the first kind. -/
def outsA (hc1 : cond1 i) (hc2 : cond2 i) (hc3 : ¬cond3 i) (hc4 : ¬cond4 i) (hc5 : ¬cond5 i) : Vec F S1x768x128 .f32 × Vec F S768x128 .f32 × Vec F S128x128 .f32 × Vec F S128x128 .f32 :=
  (outIdle, soutAAcc c i a3 h3 a4 h4 a5 h5 a6 h6 a7 h7 a8 h8 a9 h9 a10 h10 x0 x1 x2 x3 hc1 hc2 hc3 hc4 hc5, soutALow c i a3 h3 a4 h4 a5 h5 a6 h6 a7 h7 a8 h8 a9 h9 a10 h10 x0 x1 x2 x3 hc1 hc2 hc3 hc4 hc5, soutAUp c i a3 h3 a4 h4 a5 h5 a6 h6 a7 h7 a8 h8 a9 h9 a10 h10 x0 x1 x2 x3 hc1 hc2 hc3 hc4 hc5)

/-! ### Second kind (column tile 1, above the diagonal)

The accumulators enter at what the point before left; the lower fold is only read. -/

/-- The second kind's pieces for the output block cover it. -/
theorem coverB4 (hc1 : ¬cond1 i) (hc2 : ¬cond2 i) (hc3 : ¬cond3 i) (hc4 : cond4 i) (hc5 : cond5 i) (sAcc : Vec F S768x128 .f32) (sLow : Vec F S128x128 .f32) (sUp : Vec F S128x128 .f32) (y : S1x768x128.Idx) :
    ∃ pc ∈ (kernelRunB c i a3 h3 a4 h4 a5 h5 a6 h6 a7 h7 a8 h8 a9 h9 a10 h10 hc1 hc2 hc3 hc4 hc5 x0 x1 x2 x3 sAcc sLow sUp).1, y ∈ pc.1.set :=
  View.cover_of_tiledL (kernelRunB c i a3 h3 a4 h4 a5 h5 a6 h6 a7 h7 a8 h8 a9 h9 a10 h10 hc1 hc2 hc3 hc4 hc5 x0 x1 x2 x3 sAcc sLow sUp).1 S1x768x128.size (by sl_kernel_rfl) y

/-- What the second kind leaves in the output's buffer. -/
def outB4 (hc1 : ¬cond1 i) (hc2 : ¬cond2 i) (hc3 : ¬cond3 i) (hc4 : cond4 i) (hc5 : cond5 i) (sAcc : Vec F S768x128 .f32) (sLow : Vec F S128x128 .f32) (sUp : Vec F S128x128 .f32) : Vec F S1x768x128 .f32 :=
  VO4.read (Elt F) (VO4.writes (Elt F) VO4.junk (kernelRunB c i a3 h3 a4 h4 a5 h5 a6 h6 a7 h7 a8 h8 a9 h9 a10 h10 hc1 hc2 hc3 hc4 hc5 x0 x1 x2 x3 sAcc sLow sUp).1)

/-- Its pieces for the row tile's sum cover it. -/
theorem scoverBAcc (hc1 : ¬cond1 i) (hc2 : ¬cond2 i) (hc3 : ¬cond3 i) (hc4 : cond4 i) (hc5 : cond5 i) (sAcc : Vec F S768x128 .f32) (sLow : Vec F S128x128 .f32) (sUp : Vec F S128x128 .f32) (y : S768x128.Idx) :
    ∃ pc ∈ (kernelRunB c i a3 h3 a4 h4 a5 h5 a6 h6 a7 h7 a8 h8 a9 h9 a10 h10 hc1 hc2 hc3 hc4 hc5 x0 x1 x2 x3 sAcc sLow sUp).2.1, y ∈ pc.1.set :=
  View.cover_of_tiledL (kernelRunB c i a3 h3 a4 h4 a5 h5 a6 h6 a7 h7 a8 h8 a9 h9 a10 h10 hc1 hc2 hc3 hc4 hc5 x0 x1 x2 x3 sAcc sLow sUp).2.1 S768x128.size (by sl_kernel_rfl) y

/-- What the second kind leaves in the row tile's sum. -/
def soutBAcc (hc1 : ¬cond1 i) (hc2 : ¬cond2 i) (hc3 : ¬cond3 i) (hc4 : cond4 i) (hc5 : cond5 i) (sAcc : Vec F S768x128 .f32) (sLow : Vec F S128x128 .f32) (sUp : Vec F S128x128 .f32) : Vec F S768x128 .f32 :=
  VSAcc.read (Elt F) (VSAcc.writes (Elt F) VSAcc.junk (kernelRunB c i a3 h3 a4 h4 a5 h5 a6 h6 a7 h7 a8 h8 a9 h9 a10 h10 hc1 hc2 hc3 hc4 hc5 x0 x1 x2 x3 sAcc sLow sUp).2.1)

/-- Its pieces for the upper fold cover it. -/
theorem scoverBUp (hc1 : ¬cond1 i) (hc2 : ¬cond2 i) (hc3 : ¬cond3 i) (hc4 : cond4 i) (hc5 : cond5 i) (sAcc : Vec F S768x128 .f32) (sLow : Vec F S128x128 .f32) (sUp : Vec F S128x128 .f32) (y : S128x128.Idx) :
    ∃ pc ∈ (kernelRunB c i a3 h3 a4 h4 a5 h5 a6 h6 a7 h7 a8 h8 a9 h9 a10 h10 hc1 hc2 hc3 hc4 hc5 x0 x1 x2 x3 sAcc sLow sUp).2.2.1, y ∈ pc.1.set :=
  View.cover_of_tiledL (kernelRunB c i a3 h3 a4 h4 a5 h5 a6 h6 a7 h7 a8 h8 a9 h9 a10 h10 hc1 hc2 hc3 hc4 hc5 x0 x1 x2 x3 sAcc sLow sUp).2.2.1 S128x128.size (by sl_kernel_rfl) y

/-- What the second kind leaves in the upper fold. -/
def soutBUp (hc1 : ¬cond1 i) (hc2 : ¬cond2 i) (hc3 : ¬cond3 i) (hc4 : cond4 i) (hc5 : cond5 i) (sAcc : Vec F S768x128 .f32) (sLow : Vec F S128x128 .f32) (sUp : Vec F S128x128 .f32) : Vec F S128x128 .f32 :=
  VSUp.read (Elt F) (VSUp.writes (Elt F) VSUp.junk (kernelRunB c i a3 h3 a4 h4 a5 h5 a6 h6 a7 h7 a8 h8 a9 h9 a10 h10 hc1 hc2 hc3 hc4 hc5 x0 x1 x2 x3 sAcc sLow sUp).2.2.1)

/-- The four buffers after a point of the second kind. -/
def outsB (hc1 : ¬cond1 i) (hc2 : ¬cond2 i) (hc3 : ¬cond3 i) (hc4 : cond4 i) (hc5 : cond5 i) (sAcc : Vec F S768x128 .f32) (sLow : Vec F S128x128 .f32) (sUp : Vec F S128x128 .f32) : Vec F S1x768x128 .f32 × Vec F S768x128 .f32 × Vec F S128x128 .f32 × Vec F S128x128 .f32 :=
  (outB4 c i a3 h3 a4 h4 a5 h5 a6 h6 a7 h7 a8 h8 a9 h9 a10 h10 x0 x1 x2 x3 hc1 hc2 hc3 hc4 hc5 sAcc sLow sUp, soutBAcc c i a3 h3 a4 h4 a5 h5 a6 h6 a7 h7 a8 h8 a9 h9 a10 h10 x0 x1 x2 x3 hc1 hc2 hc3 hc4 hc5 sAcc sLow sUp, sLow, soutBUp c i a3 h3 a4 h4 a5 h5 a6 h6 a7 h7 a8 h8 a9 h9 a10 h10 x0 x1 x2 x3 hc1 hc2 hc3 hc4 hc5 sAcc sLow sUp)

/-! ### Third kind (column tile 0, below the diagonal) -/

/-- The third kind's pieces for the row tile's sum cover it. -/
theorem scoverCAcc (hc1 : cond1 i) (hc2 : ¬cond2 i) (hc3 : cond3 i) (hc4 : ¬cond4 i) (hc5 : ¬cond5 i) (y : S768x128.Idx) :
    ∃ pc ∈ (kernelRunC c i a3 h3 a4 h4 a5 h5 a6 h6 a7 h7 a8 h8 a9 h9 a10 h10 hc1 hc2 hc3 hc4 hc5 x0 x1 x2 x3).1, y ∈ pc.1.set :=
  View.cover_of_tiledL (kernelRunC c i a3 h3 a4 h4 a5 h5 a6 h6 a7 h7 a8 h8 a9 h9 a10 h10 hc1 hc2 hc3 hc4 hc5 x0 x1 x2 x3).1 S768x128.size (by sl_kernel_rfl) y

/-- What the third kind leaves in the row tile's sum. -/
def soutCAcc (hc1 : cond1 i) (hc2 : ¬cond2 i) (hc3 : cond3 i) (hc4 : ¬cond4 i) (hc5 : ¬cond5 i) : Vec F S768x128 .f32 :=
  VSAcc.read (Elt F) (VSAcc.writes (Elt F) VSAcc.junk (kernelRunC c i a3 h3 a4 h4 a5 h5 a6 h6 a7 h7 a8 h8 a9 h9 a10 h10 hc1 hc2 hc3 hc4 hc5 x0 x1 x2 x3).1)

/-- Its pieces for the lower fold cover it. -/
theorem scoverCLow (hc1 : cond1 i) (hc2 : ¬cond2 i) (hc3 : cond3 i) (hc4 : ¬cond4 i) (hc5 : ¬cond5 i) (y : S128x128.Idx) :
    ∃ pc ∈ (kernelRunC c i a3 h3 a4 h4 a5 h5 a6 h6 a7 h7 a8 h8 a9 h9 a10 h10 hc1 hc2 hc3 hc4 hc5 x0 x1 x2 x3).2.1, y ∈ pc.1.set :=
  View.cover_of_tiledL (kernelRunC c i a3 h3 a4 h4 a5 h5 a6 h6 a7 h7 a8 h8 a9 h9 a10 h10 hc1 hc2 hc3 hc4 hc5 x0 x1 x2 x3).2.1 S128x128.size (by sl_kernel_rfl) y

/-- What the third kind leaves in the lower fold. -/
def soutCLow (hc1 : cond1 i) (hc2 : ¬cond2 i) (hc3 : cond3 i) (hc4 : ¬cond4 i) (hc5 : ¬cond5 i) : Vec F S128x128 .f32 :=
  VSLow.read (Elt F) (VSLow.writes (Elt F) VSLow.junk (kernelRunC c i a3 h3 a4 h4 a5 h5 a6 h6 a7 h7 a8 h8 a9 h9 a10 h10 hc1 hc2 hc3 hc4 hc5 x0 x1 x2 x3).2.1)

/-- Its pieces for the upper fold cover it. -/
theorem scoverCUp (hc1 : cond1 i) (hc2 : ¬cond2 i) (hc3 : cond3 i) (hc4 : ¬cond4 i) (hc5 : ¬cond5 i) (y : S128x128.Idx) :
    ∃ pc ∈ (kernelRunC c i a3 h3 a4 h4 a5 h5 a6 h6 a7 h7 a8 h8 a9 h9 a10 h10 hc1 hc2 hc3 hc4 hc5 x0 x1 x2 x3).2.2.1, y ∈ pc.1.set :=
  View.cover_of_tiledL (kernelRunC c i a3 h3 a4 h4 a5 h5 a6 h6 a7 h7 a8 h8 a9 h9 a10 h10 hc1 hc2 hc3 hc4 hc5 x0 x1 x2 x3).2.2.1 S128x128.size (by sl_kernel_rfl) y

/-- What the third kind leaves in the upper fold. -/
def soutCUp (hc1 : cond1 i) (hc2 : ¬cond2 i) (hc3 : cond3 i) (hc4 : ¬cond4 i) (hc5 : ¬cond5 i) : Vec F S128x128 .f32 :=
  VSUp.read (Elt F) (VSUp.writes (Elt F) VSUp.junk (kernelRunC c i a3 h3 a4 h4 a5 h5 a6 h6 a7 h7 a8 h8 a9 h9 a10 h10 hc1 hc2 hc3 hc4 hc5 x0 x1 x2 x3).2.2.1)

/-- The four buffers after a point of the third kind. -/
def outsC (hc1 : cond1 i) (hc2 : ¬cond2 i) (hc3 : cond3 i) (hc4 : ¬cond4 i) (hc5 : ¬cond5 i) : Vec F S1x768x128 .f32 × Vec F S768x128 .f32 × Vec F S128x128 .f32 × Vec F S128x128 .f32 :=
  (outIdle, soutCAcc c i a3 h3 a4 h4 a5 h5 a6 h6 a7 h7 a8 h8 a9 h9 a10 h10 x0 x1 x2 x3 hc1 hc2 hc3 hc4 hc5, soutCLow c i a3 h3 a4 h4 a5 h5 a6 h6 a7 h7 a8 h8 a9 h9 a10 h10 x0 x1 x2 x3 hc1 hc2 hc3 hc4 hc5, soutCUp c i a3 h3 a4 h4 a5 h5 a6 h6 a7 h7 a8 h8 a9 h9 a10 h10 x0 x1 x2 x3 hc1 hc2 hc3 hc4 hc5)

/-! ### Fourth kind (column tile 1, diagonal)

The accumulators enter at what the point before left; both folds are only read. -/

/-- The fourth kind's pieces for the output block cover it. -/
theorem coverD4 (hc1 : ¬cond1 i) (hc2 : cond2 i) (hc3 : ¬cond3 i) (hc4 : ¬cond4 i) (hc5 : cond5 i) (sAcc : Vec F S768x128 .f32) (sLow : Vec F S128x128 .f32) (sUp : Vec F S128x128 .f32) (y : S1x768x128.Idx) :
    ∃ pc ∈ (kernelRunD c i a3 h3 a4 h4 a5 h5 a6 h6 a7 h7 a8 h8 a9 h9 a10 h10 hc1 hc2 hc3 hc4 hc5 x0 x1 x2 x3 sAcc sLow sUp).1, y ∈ pc.1.set :=
  View.cover_of_tiledL (kernelRunD c i a3 h3 a4 h4 a5 h5 a6 h6 a7 h7 a8 h8 a9 h9 a10 h10 hc1 hc2 hc3 hc4 hc5 x0 x1 x2 x3 sAcc sLow sUp).1 S1x768x128.size (by sl_kernel_rfl) y

/-- What the fourth kind leaves in the output's buffer. -/
def outD4 (hc1 : ¬cond1 i) (hc2 : cond2 i) (hc3 : ¬cond3 i) (hc4 : ¬cond4 i) (hc5 : cond5 i) (sAcc : Vec F S768x128 .f32) (sLow : Vec F S128x128 .f32) (sUp : Vec F S128x128 .f32) : Vec F S1x768x128 .f32 :=
  VO4.read (Elt F) (VO4.writes (Elt F) VO4.junk (kernelRunD c i a3 h3 a4 h4 a5 h5 a6 h6 a7 h7 a8 h8 a9 h9 a10 h10 hc1 hc2 hc3 hc4 hc5 x0 x1 x2 x3 sAcc sLow sUp).1)

/-- Its pieces for the row tile's sum cover it. -/
theorem scoverDAcc (hc1 : ¬cond1 i) (hc2 : cond2 i) (hc3 : ¬cond3 i) (hc4 : ¬cond4 i) (hc5 : cond5 i) (sAcc : Vec F S768x128 .f32) (sLow : Vec F S128x128 .f32) (sUp : Vec F S128x128 .f32) (y : S768x128.Idx) :
    ∃ pc ∈ (kernelRunD c i a3 h3 a4 h4 a5 h5 a6 h6 a7 h7 a8 h8 a9 h9 a10 h10 hc1 hc2 hc3 hc4 hc5 x0 x1 x2 x3 sAcc sLow sUp).2.1, y ∈ pc.1.set :=
  View.cover_of_tiledL (kernelRunD c i a3 h3 a4 h4 a5 h5 a6 h6 a7 h7 a8 h8 a9 h9 a10 h10 hc1 hc2 hc3 hc4 hc5 x0 x1 x2 x3 sAcc sLow sUp).2.1 S768x128.size (by sl_kernel_rfl) y

/-- What the fourth kind leaves in the row tile's sum. -/
def soutDAcc (hc1 : ¬cond1 i) (hc2 : cond2 i) (hc3 : ¬cond3 i) (hc4 : ¬cond4 i) (hc5 : cond5 i) (sAcc : Vec F S768x128 .f32) (sLow : Vec F S128x128 .f32) (sUp : Vec F S128x128 .f32) : Vec F S768x128 .f32 :=
  VSAcc.read (Elt F) (VSAcc.writes (Elt F) VSAcc.junk (kernelRunD c i a3 h3 a4 h4 a5 h5 a6 h6 a7 h7 a8 h8 a9 h9 a10 h10 hc1 hc2 hc3 hc4 hc5 x0 x1 x2 x3 sAcc sLow sUp).2.1)

/-- The four buffers after a point of the fourth kind. -/
def outsD (hc1 : ¬cond1 i) (hc2 : cond2 i) (hc3 : ¬cond3 i) (hc4 : ¬cond4 i) (hc5 : cond5 i) (sAcc : Vec F S768x128 .f32) (sLow : Vec F S128x128 .f32) (sUp : Vec F S128x128 .f32) : Vec F S1x768x128 .f32 × Vec F S768x128 .f32 × Vec F S128x128 .f32 × Vec F S128x128 .f32 :=
  (outD4 c i a3 h3 a4 h4 a5 h5 a6 h6 a7 h7 a8 h8 a9 h9 a10 h10 x0 x1 x2 x3 hc1 hc2 hc3 hc4 hc5 sAcc sLow sUp, soutDAcc c i a3 h3 a4 h4 a5 h5 a6 h6 a7 h7 a8 h8 a9 h9 a10 h10 x0 x1 x2 x3 hc1 hc2 hc3 hc4 hc5 sAcc sLow sUp, sLow, sUp)

end Cases

/-! ## What the four buffers hold after each point -/

/-- The four buffers after a point of the first kind, at the pipeline's memrefs and the windows' blocks there. -/
def ptA (c : Dev nD) (t : Fin cfg0.N) (h : t.val % 4 = 0) : Vec F S1x768x128 .f32 × Vec F S768x128 .f32 × Vec F S128x128 .f32 × Vec F S128x128 .f32 :=
  outsA c (grid0.coords t) (ms0 t) (hs0 t) (ms1 t) (hs1 t) (ms2 t) (hs2 t) (ms3 t) (hs3 t) (ms4 t) (hs4 t) scAcc (Memref.isWhole_whole _) scLow (Memref.isWhole_whole _) scUp (Memref.isWhole_whole _)
    (iblk m c 0 t) (iblk m c 1 t) (iblk m c 2 t) (iblk m c 3 t)
    ((hcond1 t).mpr (by omega)) ((hcond2 t).mpr (Or.inl h)) (fun h' => absurd ((hcond3 t).mp h') (by omega)) (fun h' => absurd ((hcond4 t).mp h') (by omega)) (fun h' => absurd ((hcond5 t).mp h') (by omega))
/-- After a point of the second kind, over what the point before left in the accumulators. -/
def ptB (c : Dev nD) (t : Fin cfg0.N) (h : t.val % 4 = 1) (sAcc : Vec F S768x128 .f32) (sLow : Vec F S128x128 .f32) (sUp : Vec F S128x128 .f32) : Vec F S1x768x128 .f32 × Vec F S768x128 .f32 × Vec F S128x128 .f32 × Vec F S128x128 .f32 :=
  outsB c (grid0.coords t) (ms0 t) (hs0 t) (ms1 t) (hs1 t) (ms2 t) (hs2 t) (ms3 t) (hs3 t) (ms4 t) (hs4 t) scAcc (Memref.isWhole_whole _) scLow (Memref.isWhole_whole _) scUp (Memref.isWhole_whole _)
    (iblk m c 0 t) (iblk m c 1 t) (iblk m c 2 t) (iblk m c 3 t)
    (fun h' => absurd ((hcond1 t).mp h') (by omega)) (fun h' => absurd ((hcond2 t).mp h') (by omega)) (fun h' => absurd ((hcond3 t).mp h') (by omega)) ((hcond4 t).mpr h) ((hcond5 t).mpr (by omega)) sAcc sLow sUp
/-- After a point of the third kind. -/
def ptC (c : Dev nD) (t : Fin cfg0.N) (h : t.val % 4 = 2) : Vec F S1x768x128 .f32 × Vec F S768x128 .f32 × Vec F S128x128 .f32 × Vec F S128x128 .f32 :=
  outsC c (grid0.coords t) (ms0 t) (hs0 t) (ms1 t) (hs1 t) (ms2 t) (hs2 t) (ms3 t) (hs3 t) (ms4 t) (hs4 t) scAcc (Memref.isWhole_whole _) scLow (Memref.isWhole_whole _) scUp (Memref.isWhole_whole _)
    (iblk m c 0 t) (iblk m c 1 t) (iblk m c 2 t) (iblk m c 3 t)
    ((hcond1 t).mpr (by omega)) (fun h' => absurd ((hcond2 t).mp h') (by omega)) ((hcond3 t).mpr h) (fun h' => absurd ((hcond4 t).mp h') (by omega)) (fun h' => absurd ((hcond5 t).mp h') (by omega))
/-- After a point of the fourth kind, over what the point before left in the accumulators. -/
def ptD (c : Dev nD) (t : Fin cfg0.N) (h : t.val % 4 = 3) (sAcc : Vec F S768x128 .f32) (sLow : Vec F S128x128 .f32) (sUp : Vec F S128x128 .f32) : Vec F S1x768x128 .f32 × Vec F S768x128 .f32 × Vec F S128x128 .f32 × Vec F S128x128 .f32 :=
  outsD c (grid0.coords t) (ms0 t) (hs0 t) (ms1 t) (hs1 t) (ms2 t) (hs2 t) (ms3 t) (hs3 t) (ms4 t) (hs4 t) scAcc (Memref.isWhole_whole _) scLow (Memref.isWhole_whole _) scUp (Memref.isWhole_whole _)
    (iblk m c 0 t) (iblk m c 1 t) (iblk m c 2 t) (iblk m c 3 t)
    (fun h' => absurd ((hcond1 t).mp h') (by omega)) ((hcond2 t).mpr (Or.inr h)) (fun h' => absurd ((hcond3 t).mp h') (by omega)) (fun h' => absurd ((hcond4 t).mp h') (by omega)) ((hcond5 t).mpr (by omega)) sAcc sLow sUp

/-- THE ACCUMULATION. What the output's staging buffer and the three accumulators (row tile's sum, lower fold, upper fold)
    hold after the body at position `n`: the kind is the position's residue mod 4; a point of column tile 1 (residues 1
    and 3) runs over what position `n - 1` left in the accumulators. -/
def outsAt0 (c : Dev nD) : (n : ℕ) → n < cfg0.N → Vec F S1x768x128 .f32 × Vec F S768x128 .f32 × Vec F S128x128 .f32 × Vec F S128x128 .f32
  | 0, hn => ptA m c ⟨0, hn⟩ (Nat.zero_mod 4)
  | n + 1, hn =>
    if h0 : (n + 1) % 4 = 0 then ptA m c ⟨n + 1, hn⟩ h0
    else if h1 : (n + 1) % 4 = 1 then
      ptB m c ⟨n + 1, hn⟩ h1 (outsAt0 c n (Nat.lt_of_succ_lt hn)).2.1 (outsAt0 c n (Nat.lt_of_succ_lt hn)).2.2.1 (outsAt0 c n (Nat.lt_of_succ_lt hn)).2.2.2
    else if h2 : (n + 1) % 4 = 2 then ptC m c ⟨n + 1, hn⟩ h2
    else
      ptD m c ⟨n + 1, hn⟩ (show (n + 1) % 4 = 3 by omega) (outsAt0 c n (Nat.lt_of_succ_lt hn)).2.1 (outsAt0 c n (Nat.lt_of_succ_lt hn)).2.2.1 (outsAt0 c n (Nat.lt_of_succ_lt hn)).2.2.2

/-- The position before a point's, inside the grid. -/
theorem pred_lt (t : Fin cfg0.N) : t.val - 1 < cfg0.N := Nat.lt_of_le_of_lt (Nat.sub_le _ _) t.isLt

/-- At a point of the first kind: that kind's contents. -/
theorem outsAt0_A (c : Dev nD) (t : Fin cfg0.N) (h : t.val % 4 = 0) : outsAt0 m c t.val t.isLt = ptA m c t h := by
  obtain ⟨n, hn⟩ := t
  cases n with
  | zero => rfl
  | succ n => exact dif_pos h

/-- At a point of the second kind: that kind's contents over what the point before left. -/
theorem outsAt0_B (c : Dev nD) (t : Fin cfg0.N) (h : t.val % 4 = 1) :
    outsAt0 m c t.val t.isLt = ptB m c t h (outsAt0 m c (t.val - 1) (pred_lt t)).2.1 (outsAt0 m c (t.val - 1) (pred_lt t)).2.2.1 (outsAt0 m c (t.val - 1) (pred_lt t)).2.2.2 := by
  obtain ⟨n, hn⟩ := t
  cases n with
  | zero => exact absurd (show 0 % 4 = 1 from h) (by decide)
  | succ n =>
    have h' : (n + 1) % 4 = 1 := h
    exact (dif_neg (by omega)).trans (dif_pos h)

/-- At a point of the third kind: that kind's contents. -/
theorem outsAt0_C (c : Dev nD) (t : Fin cfg0.N) (h : t.val % 4 = 2) : outsAt0 m c t.val t.isLt = ptC m c t h := by
  obtain ⟨n, hn⟩ := t
  cases n with
  | zero => exact absurd (show 0 % 4 = 2 from h) (by decide)
  | succ n =>
    have h' : (n + 1) % 4 = 2 := h
    exact (dif_neg (by omega)).trans ((dif_neg (by omega)).trans (dif_pos h))

/-- At a point of the fourth kind: that kind's contents over what the point before left. -/
theorem outsAt0_D (c : Dev nD) (t : Fin cfg0.N) (h : t.val % 4 = 3) :
    outsAt0 m c t.val t.isLt = ptD m c t h (outsAt0 m c (t.val - 1) (pred_lt t)).2.1 (outsAt0 m c (t.val - 1) (pred_lt t)).2.2.1 (outsAt0 m c (t.val - 1) (pred_lt t)).2.2.2 := by
  obtain ⟨n, hn⟩ := t
  cases n with
  | zero => exact absurd (show 0 % 4 = 3 from h) (by decide)
  | succ n =>
    have h' : (n + 1) % 4 = 3 := h
    exact (dif_neg (by omega)).trans ((dif_neg (by omega)).trans (dif_neg (by omega)))

/-! ## The region's invariant along the grid -/

/-- The invariant before position `n`: before the first point what the launch hands the region (the three accumulators
    at anything); afterwards the three accumulators at what the point before left in them, and the generator register at
    some state. -/
def PhiS (c : Dev nD) : (n : ℕ) → n ≤ cfg0.N → sProp 𝕄
  | 0, _ => Pipeline.ΦA spec0 c
  | n + 1, hn => iprop(iprop(owns (c : Thread nD τ) scAcc fullShare (outsAt0 m c n hn).2.1 ∗ owns (c : Thread nD τ) scLow fullShare (outsAt0 m c n hn).2.2.1 ∗ owns (c : Thread nD τ) scUp fullShare (outsAt0 m c n hn).2.2.2) ∗ (∃ r, prngReg c r))

theorem PhiS_zero (c : Dev nD) (n : ℕ) (h : n ≤ cfg0.N) (hz : n = 0) : PhiS m c n h = Pipeline.ΦA spec0 c := by
  subst hz; rfl

/-- After point `n`: the accumulators at that point's contents. -/
theorem PhiS_succ (c : Dev nD) (n : ℕ) (hn : n < cfg0.N) :
    PhiS m c (n + 1) hn = iprop(iprop(owns (c : Thread nD τ) scAcc fullShare (outsAt0 m c n hn).2.1 ∗ owns (c : Thread nD τ) scLow fullShare (outsAt0 m c n hn).2.2.1 ∗ owns (c : Thread nD τ) scUp fullShare (outsAt0 m c n hn).2.2.2) ∗ (∃ r, prngReg c r)) := rfl

/-- Before a point that is not the first: the accumulators at what the point before left. -/
theorem PhiS_pos (c : Dev nD) (n : ℕ) (h : n ≤ cfg0.N) (hz : n ≠ 0) :
    PhiS m c n h = iprop(iprop(owns (c : Thread nD τ) scAcc fullShare (outsAt0 m c (n - 1) (by omega)).2.1 ∗ owns (c : Thread nD τ) scLow fullShare (outsAt0 m c (n - 1) (by omega)).2.2.1 ∗ owns (c : Thread nD τ) scUp fullShare (outsAt0 m c (n - 1) (by omega)).2.2.2) ∗ (∃ r, prngReg c r)) := by
  cases n with
  | zero => exact absurd rfl hz
  | succ n => rfl

/-! ## The pipeline's proof data -/

/-- The proof data of the pipeline on core `c`: the arrays as the region finds them; after the body at a point each
    input's buffer still at its block and the output's at the first of the four buffers above; the invariant the one
    above; nothing owed. The two windows on the class words read one array, so each holds half of it. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t.val t.isLt).1
  Φ t := PhiS m c t.val (Nat.le_of_lt_succ t.isLt)
  q w := match w with
    | ⟨1, _⟩ => fullShare.left
    | ⟨2, _⟩ => fullShare.right
    | _ => fullShare
  owed _ := 0

/-- The proof data's arrays are the region-entry contents. -/
theorem A_eq (c : Dev nD) (w : Fin cfg0.W) : (dats m 0 c).A w = V m c (Pipeline.arrRef spec0 w) := by
  dsimp only [dats]

/-- The shares held of the arrays. -/
theorem q0 (c : Dev nD) : (dats m 0 c).q 0 = fullShare := rfl
theorem q1 (c : Dev nD) : (dats m 0 c).q 1 = fullShare.left := rfl
theorem q2 (c : Dev nD) : (dats m 0 c).q 2 = fullShare.right := rfl
theorem q3 (c : Dev nD) : (dats m 0 c).q 3 = fullShare := rfl
theorem q4 (c : Dev nD) : (dats m 0 c).q 4 = fullShare := rfl

/-- The invariant at a point's start, restated at the point's number. -/
theorem PhiS_castSucc (c : Dev nD) (t : Fin cfg0.N) :
    (dats m 0 c).Φ t.castSucc = PhiS m c t.val (Nat.le_of_lt t.isLt) := by
  dsimp only [dats]; simp only [Fin.coe_castSucc]

/-- What the body leaves, window by window. -/
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = (outsAt0 m c t.val t.isLt).1 := by dsimp only [dats]

/-- Each input's current staging buffer holds its block at every point, fetched there or not. -/
theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d

/-- At any position the invariant gives the three accumulators at some contents (their named contents forgotten) and
    the generator register at some state: what the launch handed the region. -/
theorem PhiS_forget (c : Dev nD) (n : ℕ) (h : n ≤ cfg0.N) :
    PhiS m c n h ⊢ iprop(iprop((∃ d, owns (c : Thread nD τ) scAcc fullShare d) ∗ (∃ d, owns (c : Thread nD τ) scLow fullShare d) ∗ (∃ d, owns (c : Thread nD τ) scUp fullShare d)) ∗ (∃ r, prngReg c r)) := by
  by_cases hz : n = 0
  · rw [PhiS_zero m c n h hz, PhiA0_eq]
  · rw [PhiS_pos m c n h hz]
    iintro ⟨⟨HSA, HSL, HSU⟩, Hg⟩
    isplitr [Hg]
    · isplitl [HSA]; · iexists _; iexact HSA
      isplitl [HSL]; · iexists _; iexact HSL
      iexists _; iexact HSU
    iexact Hg

/-- A buffer into which pieces covering it have been stored is owned at those pieces read back, whatever it held before
    and through whichever view of its shape they are read. -/
theorem owns_of_cover {s : Shape} {e : EltTy} (c : Dev nD) (a : Memref sig .tc .vmem s e) (v' : View sig .tc .vmem s e)
    (L : List (View.Piece (Elt F) s e)) (hL : ∀ y, ∃ p ∈ L, y ∈ p.1.set) :
    (iprop(∃ f, a.view.loc (c : Thread nD τ) ↦[a.view.set]{fullShare} a.view.writes (Elt F) f L) : sProp 𝕄)
      ⊢ owns (c : Thread nD τ) a fullShare (v'.read (Elt F) (v'.writes (Elt F) v'.junk L)) := by
  iintro ⟨%f, H⟩
  unfold owns; iexists _; isplitr
  swap; · iexact H
  ipureintro; exact View.read_writes_of_cover _ _ _ _ _ hL

/-! ## The body obligation, at a generic point -/

/-- What the body is called with at point `t`: the invariant, what the core owes, and the five windows' current buffers, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 4800000 in
/-- The body at any point. The four inputs' buffers hold their blocks; the point's number mod 4 says which kind it is, so
    that kind's run applies. At column tile 0 the invariant hands the accumulators over at anything and the output's
    buffer comes back untouched; at column tile 1 it hands them over at what the point before left and the output's
    buffer comes back at the stored block. Either way the accumulators return at this point's contents (their pieces cover
    them), and the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0 t) fullShare ((dats m 0 c).after 0 t) from by
    unfold Dat.leavesExact; rw [liveAt0 t], after0]
  rw [show (dats m 0 c).leavesExact 1 t = owns (c : Thread nD τ) (ms1 t) fullShare ((dats m 0 c).after 1 t) from by
    unfold Dat.leavesExact; rw [liveAt1 t], after1]
  rw [show (dats m 0 c).leavesExact 2 t = owns (c : Thread nD τ) (ms2 t) fullShare ((dats m 0 c).after 2 t) from by
    unfold Dat.leavesExact; rw [liveAt2 t], after2]
  rw [show (dats m 0 c).leavesExact 3 t = owns (c : Thread nD τ) (ms3 t) fullShare ((dats m 0 c).after 3 t) from by
    unfold Dat.leavesExact; rw [liveAt3 t], after3]
  have hN : t.val < 64 := lt_of_lt_of_eq t.isLt (show cfg0.N = 64 from N_0)
  by_cases h0 : t.val % 4 = 0
  · -- first kind: column tile 0, a diagonal block
    rw [Dat.leavesExact_idle (dats m 0 c) 4 t (idleAt4 t (fun h' => absurd ((hcond5 t).mp h') (by omega))) (noFlush4 t (fun h' => absurd ((hcond5 t).mp h') (by omega)))]
    rw [outsAt0_A m c t h0]
    unfold ptA outsA; dsimp only
    unfold soutAAcc soutALow soutAUp
    rw [PhiS_castSucc m c t]
    iintro ⟨HΦ, Ho, ⟨%d0, H0⟩, ⟨%d1, H1⟩, ⟨%d2, H2⟩, ⟨%d3, H3⟩, ⟨%d4, H4⟩⟩
    ihave HΦ' := (PhiS_forget m c _ _) $$ HΦ
    icases HΦ' with ⟨⟨HSA, HSL, HSU⟩, Hg⟩
    iapply ((kernelRunA c (grid0.coords t) (ms0 t) (hs0 t) (ms1 t) (hs1 t) (ms2 t) (hs2 t) (ms3 t) (hs3 t) (ms4 t) (hs4 t) scAcc (Memref.isWhole_whole _) scLow (Memref.isWhole_whole _) scUp (Memref.isWhole_whole _)
      ((hcond1 t).mpr (by omega)) ((hcond2 t).mpr (Or.inl h0)) (fun h' => absurd ((hcond3 t).mp h') (by omega)) (fun h' => absurd ((hcond4 t).mp h') (by omega)) (fun h' => absurd ((hcond5 t).mp h') (by omega))
      (iblk m c 0 t) (iblk m c 1 t) (iblk m c 2 t) (iblk m c 3 t)).2.2.2 _ Set.univ _)
    isplitl [H0]; · iexact H0
    isplitl [H1]; · iexact H1
    isplitl [H2]; · iexact H2
    isplitl [H3]; · iexact H3
    isplitl [H4]; · iexact H4
    isplitl [HSA]; · iexact HSA
    isplitl [HSL]; · iexact HSL
    isplitl [HSU]; · iexact HSU
    iintro ⟨H0, H1, H2, H3, H4, HSA, HSL, HSU⟩
    isplitl [HSA HSL HSU Hg]
    · isplitl [HSA HSL HSU]
      · isplitl [HSA]; · iapply (owns_of_cover c _ _ _ (scoverAAcc _ _ _ _ _ _ _ _ _ _ _ _ _ _ _ _ _ _ _ _ _ _ _ _ _ _ _)); iexact HSA
        isplitl [HSL]; · iapply (owns_of_cover c _ _ _ (scoverALow _ _ _ _ _ _ _ _ _ _ _ _ _ _ _ _ _ _ _ _ _ _ _ _ _ _ _)); iexact HSL
        iapply (owns_of_cover c _ _ _ (scoverAUp _ _ _ _ _ _ _ _ _ _ _ _ _ _ _ _ _ _ _ _ _ _ _ _ _ _ _)); iexact HSU
      iexact Hg
    isplitl [Ho]; · iexact Ho
    isplitl [H0]; · iexact H0
    isplitl [H1]; · iexact H1
    isplitl [H2]; · iexact H2
    isplitl [H3]; · iexact H3
    iexists _; iexact H4
  · by_cases h1 : t.val % 4 = 1
    · -- second kind: column tile 1, above the diagonal
      rw [show (dats m 0 c).leavesExact 4 t = owns (c : Thread nD τ) (ms4 t) fullShare ((dats m 0 c).after 4 t) from by
        unfold Dat.leavesExact; rw [liveAt4 t ((hcond5 t).mpr (by omega))], after4]
      rw [outsAt0_B m c t h1]
      unfold ptB outsB; dsimp only
      unfold outB4 soutBAcc soutBUp
      rw [PhiS_castSucc m c t, PhiS_pos m c _ _ (by omega)]
      iintro ⟨⟨⟨HSA, HSL, HSU⟩, Hg⟩, Ho, ⟨%d0, H0⟩, ⟨%d1, H1⟩, ⟨%d2, H2⟩, ⟨%d3, H3⟩, ⟨%d4, H4⟩⟩
      iapply ((kernelRunB c (grid0.coords t) (ms0 t) (hs0 t) (ms1 t) (hs1 t) (ms2 t) (hs2 t) (ms3 t) (hs3 t) (ms4 t) (hs4 t) scAcc (Memref.isWhole_whole _) scLow (Memref.isWhole_whole _) scUp (Memref.isWhole_whole _)
        (fun h' => absurd ((hcond1 t).mp h') (by omega)) (fun h' => absurd ((hcond2 t).mp h') (by omega)) (fun h' => absurd ((hcond3 t).mp h') (by omega)) ((hcond4 t).mpr h1) ((hcond5 t).mpr (by omega))
        (iblk m c 0 t) (iblk m c 1 t) (iblk m c 2 t) (iblk m c 3 t) _ _ _).2.2.2 Set.univ _)
      isplitl [H0]; · iexact H0
      isplitl [H1]; · iexact H1
      isplitl [H2]; · iexact H2
      isplitl [H3]; · iexact H3
      isplitl [H4]; · iexists _; iexact H4
      isplitl [HSA]; · iexact HSA
      isplitl [HSL]; · iexact HSL
      isplitl [HSU]; · iexact HSU
      iintro ⟨H0, H1, H2, H3, H4, HSA, HSL, HSU⟩
      isplitl [HSA HSL HSU Hg]
      · isplitl [HSA HSL HSU]
        · isplitl [HSA]; · iapply (owns_of_cover c _ _ _ (scoverBAcc _ _ _ _ _ _ _ _ _ _ _ _ _ _ _ _ _ _ _ _ _ _ _ _ _ _ _ _ _ _)); iexact HSA
          isplitl [HSL]; · iexact HSL
          iapply (owns_of_cover c _ _ _ (scoverBUp _ _ _ _ _ _ _ _ _ _ _ _ _ _ _ _ _ _ _ _ _ _ _ _ _ _ _ _ _ _)); iexact HSU
        iexact Hg
      isplitl [Ho]; · iexact Ho
      isplitl [H0]; · iexact H0
      isplitl [H1]; · iexact H1
      isplitl [H2]; · iexact H2
      isplitl [H3]; · iexact H3
      iapply (owns_of_cover c _ _ _ (coverB4 _ _ _ _ _ _ _ _ _ _ _ _ _ _ _ _ _ _ _ _ _ _ _ _ _ _ _ _ _ _)); iexact H4
    · by_cases h2 : t.val % 4 = 2
      · -- third kind: column tile 0, below the diagonal
        rw [Dat.leavesExact_idle (dats m 0 c) 4 t (idleAt4 t (fun h' => absurd ((hcond5 t).mp h') (by omega))) (noFlush4 t (fun h' => absurd ((hcond5 t).mp h') (by omega)))]
        rw [outsAt0_C m c t h2]
        unfold ptC outsC; dsimp only
        unfold soutCAcc soutCLow soutCUp
        rw [PhiS_castSucc m c t]
        iintro ⟨HΦ, Ho, ⟨%d0, H0⟩, ⟨%d1, H1⟩, ⟨%d2, H2⟩, ⟨%d3, H3⟩, ⟨%d4, H4⟩⟩
        ihave HΦ' := (PhiS_forget m c _ _) $$ HΦ
        icases HΦ' with ⟨⟨HSA, HSL, HSU⟩, Hg⟩
        iapply ((kernelRunC c (grid0.coords t) (ms0 t) (hs0 t) (ms1 t) (hs1 t) (ms2 t) (hs2 t) (ms3 t) (hs3 t) (ms4 t) (hs4 t) scAcc (Memref.isWhole_whole _) scLow (Memref.isWhole_whole _) scUp (Memref.isWhole_whole _)
          ((hcond1 t).mpr (by omega)) (fun h' => absurd ((hcond2 t).mp h') (by omega)) ((hcond3 t).mpr h2) (fun h' => absurd ((hcond4 t).mp h') (by omega)) (fun h' => absurd ((hcond5 t).mp h') (by omega))
          (iblk m c 0 t) (iblk m c 1 t) (iblk m c 2 t) (iblk m c 3 t)).2.2.2 _ Set.univ _)
        isplitl [H0]; · iexact H0
        isplitl [H1]; · iexact H1
        isplitl [H2]; · iexact H2
        isplitl [H3]; · iexact H3
        isplitl [H4]; · iexact H4
        isplitl [HSA]; · iexact HSA
        isplitl [HSL]; · iexact HSL
        isplitl [HSU]; · iexact HSU
        iintro ⟨H0, H1, H2, H3, H4, HSA, HSL, HSU⟩
        isplitl [HSA HSL HSU Hg]
        · isplitl [HSA HSL HSU]
          · isplitl [HSA]; · iapply (owns_of_cover c _ _ _ (scoverCAcc _ _ _ _ _ _ _ _ _ _ _ _ _ _ _ _ _ _ _ _ _ _ _ _ _ _ _)); iexact HSA
            isplitl [HSL]; · iapply (owns_of_cover c _ _ _ (scoverCLow _ _ _ _ _ _ _ _ _ _ _ _ _ _ _ _ _ _ _ _ _ _ _ _ _ _ _)); iexact HSL
            iapply (owns_of_cover c _ _ _ (scoverCUp _ _ _ _ _ _ _ _ _ _ _ _ _ _ _ _ _ _ _ _ _ _ _ _ _ _ _)); iexact HSU
          iexact Hg
        isplitl [Ho]; · iexact Ho
        isplitl [H0]; · iexact H0
        isplitl [H1]; · iexact H1
        isplitl [H2]; · iexact H2
        isplitl [H3]; · iexact H3
        iexists _; iexact H4
      · have h3 : t.val % 4 = 3 := by omega
        -- fourth kind: column tile 1, a diagonal block
        rw [show (dats m 0 c).leavesExact 4 t = owns (c : Thread nD τ) (ms4 t) fullShare ((dats m 0 c).after 4 t) from by
          unfold Dat.leavesExact; rw [liveAt4 t ((hcond5 t).mpr (by omega))], after4]
        rw [outsAt0_D m c t h3]
        unfold ptD outsD; dsimp only
        unfold outD4 soutDAcc
        rw [PhiS_castSucc m c t, PhiS_pos m c _ _ (by omega)]
        iintro ⟨⟨⟨HSA, HSL, HSU⟩, Hg⟩, Ho, ⟨%d0, H0⟩, ⟨%d1, H1⟩, ⟨%d2, H2⟩, ⟨%d3, H3⟩, ⟨%d4, H4⟩⟩
        iapply ((kernelRunD c (grid0.coords t) (ms0 t) (hs0 t) (ms1 t) (hs1 t) (ms2 t) (hs2 t) (ms3 t) (hs3 t) (ms4 t) (hs4 t) scAcc (Memref.isWhole_whole _) scLow (Memref.isWhole_whole _) scUp (Memref.isWhole_whole _)
          (fun h' => absurd ((hcond1 t).mp h') (by omega)) ((hcond2 t).mpr (Or.inr h3)) (fun h' => absurd ((hcond3 t).mp h') (by omega)) (fun h' => absurd ((hcond4 t).mp h') (by omega)) ((hcond5 t).mpr (by omega))
          (iblk m c 0 t) (iblk m c 1 t) (iblk m c 2 t) (iblk m c 3 t) _ _ _).2.2 Set.univ _)
        isplitl [H0]; · iexact H0
        isplitl [H1]; · iexact H1
        isplitl [H2]; · iexact H2
        isplitl [H3]; · iexact H3
        isplitl [H4]; · iexists _; iexact H4
        isplitl [HSA]; · iexact HSA
        isplitl [HSL]; · iexact HSL
        isplitl [HSU]; · iexact HSU
        iintro ⟨H0, H1, H2, H3, H4, HSA, HSL, HSU⟩
        isplitl [HSA HSL HSU Hg]
        · isplitl [HSA HSL HSU]
          · isplitl [HSA]; · iapply (owns_of_cover c _ _ _ (scoverDAcc _ _ _ _ _ _ _ _ _ _ _ _ _ _ _ _ _ _ _ _ _ _ _ _ _ _ _ _ _ _)); iexact HSA
            isplitl [HSL]; · iexact HSL
            iexact HSU
          iexact Hg
        isplitl [Ho]; · iexact Ho
        isplitl [H0]; · iexact H0
        isplitl [H1]; · iexact H1
        isplitl [H2]; · iexact H2
        isplitl [H3]; · iexact H3
        iapply (owns_of_cover c _ _ _ (coverD4 _ _ _ _ _ _ _ _ _ _ _ _ _ _ _ _ _ _ _ _ _ _ _ _ _ _ _ _ _ _)); iexact H4

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives it back. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl, PhiA0_eq]
  exact PhiS_forget m c _ _

end Cert.KernelIdeal.Hand

end
-- ==== Proof.HostValues.lean ====
/-
  What the host operations before the kernel region leave in the buffers.

  No host operation writes an argument, so each argument's buffer is as launched. The three arrays the kernel's
  windows read are paddings of the arguments: the 21 x 21 table written at the origin of a 128 x 128 square of
  zeros; the features of the 1444 nodes written at the origin of 1536 rows of zeros; the class words clipped into
  [0, 127] as signed words, written at the origin of 1536 zero words, then given a unit axis in the middle. Each
  writing is a replacing scatter at the start index zero whose update axes are the operand's axes in order, so it is
  the update inside the update's box and the operand (zeros) outside.
-/
import proofs.«408942_j68186900791974_3_alg».proof.Proof.HostPrefix
import proofs.«408942_j68186900791974_3_alg».proof.Proof.Spec
import proofs.«408942_j68186900791974_3_alg».proof.Proof.LibScatterSet
import Idealize.ShloMosaic.Lib.Pipeline.Value
import Idealize.ShloMosaic.PureOps.Ideal.Laws

noncomputable section

namespace Cert.KernelIdeal.Hand

open Cert.KernelIdeal Cert.KernelIdeal.Gen
open Idealize.ShloMosaic Idealize.ShloMosaic.TcCoe
open Idealize.SL Idealize.SL.Sem
open Idealize.ShloMosaic.ValueIdx Idealize.ShloMosaic.ScatterSet

/-! ## The arguments: no host operation writes one -/

theorem V_arg0 {F : FTy → Type} [FloatOps F] (m : (ℓ : Loc nD τ sig) → Buf (Elt F) ℓ) (c : Dev nD) :
    V m c main_arg0 = m ((c : Thread nD τ).loc main_arg0) := by
  dsimp only [V, V₃, V₂, V₁, V₀, hostOps0, hostOps0_1, hostOps0_2]
  after_results

theorem V_arg1 {F : FTy → Type} [FloatOps F] (m : (ℓ : Loc nD τ sig) → Buf (Elt F) ℓ) (c : Dev nD) :
    V m c main_arg1 = m ((c : Thread nD τ).loc main_arg1) := by
  dsimp only [V, V₃, V₂, V₁, V₀, hostOps0, hostOps0_1, hostOps0_2]
  after_results

theorem V_arg2 {F : FTy → Type} [FloatOps F] (m : (ℓ : Loc nD τ sig) → Buf (Elt F) ℓ) (c : Dev nD) :
    V m c main_arg2 = m ((c : Thread nD τ).loc main_arg2) := by
  dsimp only [V, V₃, V₂, V₁, V₀, hostOps0, hostOps0_1, hostOps0_2]
  after_results

/-! ## The three scatters' dimension numbers: the update's axes are the operand's axes, in order -/

theorem tab_window0 (j : S21x21.Idx) : scatter_S128x128_S2_S21x21_01_n_01_0.window j 0 = (j 0).val := by
  rw [window_of_mem _ j 0 (by decide)]
  rfl

theorem tab_window1 (j : S21x21.Idx) : scatter_S128x128_S2_S21x21_01_n_01_0.window j 1 = (j 1).val := by
  rw [window_of_mem _ j 1 (by decide)]
  rfl

theorem cls_window0 (j : S16x1444.Idx) : scatter_S16x1536_S1_S16x1444_01_n_1_0.window j 0 = (j 0).val := by
  rw [window_of_mem _ j 0 (by decide)]
  rfl

theorem cls_window1 (j : S16x1444.Idx) : scatter_S16x1536_S1_S16x1444_01_n_1_0.window j 1 = (j 1).val := by
  rw [window_of_mem _ j 1 (by decide)]
  rfl

theorem feat_window0 (j : S16x1444x128.Idx) :
    scatter_S16x1536x128_S1_S16x1444x128_012_n_1_0.window j 0 = (j 0).val := by
  rw [window_of_mem _ j 0 (by decide)]
  rfl

theorem feat_window1 (j : S16x1444x128.Idx) :
    scatter_S16x1536x128_S1_S16x1444x128_012_n_1_0.window j 1 = (j 1).val := by
  rw [window_of_mem _ j 1 (by decide)]
  rfl

theorem feat_window2 (j : S16x1444x128.Idx) :
    scatter_S16x1536x128_S1_S16x1444x128_012_n_1_0.window j 2 = (j 2).val := by
  rw [window_of_mem _ j 2 (by decide)]
  rfl

/-! ## The scatter indices are zero words -/

/-- The scatter indices of the table's scatter: two zero words, one after the other. -/
theorem tab_idx_zero (k : S2.Idx) :
    ((concatenate S2 0
        [⟨S1, broadcastInDim S1 ![] bcast_S_S1 (constantI S_ 32 0#32)⟩,
          ⟨S1, broadcastInDim S1 ![] bcast_S_S1 (constantI S_ 32 0#32)⟩]
        concatenates_S1_S1_S2_d0 : IVec S2 32) k).toInt = 0 := by
  have hk : (k 0).val < 2 := (k 0).isLt
  by_cases h0 : (k 0).val = 0
  · rw [concatenate_pair_apply_left (0 : Fin S2.rank) _ _ concatenates_S1_S1_S2_d0 k rfl (ix1 0) (fun b => by
      match b with
      | ⟨0, _⟩ => exact h0.symm)]
    rfl
  · rw [concatenate_pair_apply_right (0 : Fin S2.rank) _ _ concatenates_S1_S1_S2_d0 k rfl rfl (ix1 0)
      (fun b hb => by match b with | ⟨0, _⟩ => exact absurd rfl hb)
      (by show (0 : ℕ) + 1 = (k 0).val; omega)]
    rfl

/-- The scatter index of the other two scatters: one zero word. -/
theorem one_idx_zero (k : S1.Idx) :
    ((broadcastInDim S1 ![] bcast_S_S1 (constantI S_ 32 0#32) : IVec S1 32) k).toInt = 0 := by
  show (0#32 : BitVec 32).toInt = 0
  decide

/-! ## The three arrays the kernel's windows read -/

/-- The table: the 21 x 21 entries at the origin of a square of zeros. -/
theorem V_tab (m : (ℓ : Loc nD τ sig) → Buf (Elt Ideal) ℓ) (c : Dev nD) :
    (V m c main_v4 : FVec Ideal S128x128 .f32) = Cert.Proof.Spec.padTab (m ((c : Thread nD τ).loc main_arg0)) := by
  dsimp only [V, V₃, V₂, V₁, V₀, hostOps0, hostOps0_1, hostOps0_2]
  after_results
  funext i
  rw [scatter_set_pad2 _ (by decide) (by decide) _ _ _
    (fun j a => start_eq_zero_of_zero _ j _ tab_idx_zero a) tab_window0 tab_window1 i]
  unfold Cert.Proof.Spec.padTab
  by_cases h : (i 0).val < 21 ∧ (i 1).val < 21
  · rw [dif_pos h, dif_pos h]
  · rw [dif_neg h, dif_neg h]; exact Ideal.ofBits_zero_f32

/-- The features: the 1444 nodes' rows, then rows of zeros. -/
theorem V_feat (m : (ℓ : Loc nD τ sig) → Buf (Elt Ideal) ℓ) (c : Dev nD) :
    (V m c main_v12 : FVec Ideal S16x1536x128 .f32) = Cert.Proof.Spec.padFeat (m ((c : Thread nD τ).loc main_arg1)) := by
  dsimp only [V, V₃, V₂, V₁, V₀, hostOps0, hostOps0_1, hostOps0_2]
  after_results
  funext i
  rw [scatter_set_pad3 _ (by decide) (by decide) (by decide) _ _ _
    (fun j a => start_eq_zero_of_zero _ j _ one_idx_zero a) feat_window0 feat_window1 feat_window2 i]
  unfold Cert.Proof.Spec.padFeat
  by_cases h : (i 1).val < 1444
  · rw [dif_pos ⟨(i 0).isLt, h, (i 2).isLt⟩, dif_pos h]
    rfl
  · rw [dif_neg (fun hh => h hh.2.1), dif_neg h]; exact Ideal.ofBits_zero_f32

/-- The class words: clipped, the 1444 nodes' words then zero words, with a unit axis put in the middle. -/
theorem V_cls (m : (ℓ : Loc nD τ sig) → Buf (Elt Ideal) ℓ) (c : Dev nD) :
    (V m c main_v9 : IVec S16x1x1536 32) = Cert.Proof.Spec.padCls (m ((c : Thread nD τ).loc main_arg2)) := by
  dsimp only [V, V₃, V₂, V₁, V₀, hostOps0, hostOps0_1, hostOps0_2]
  after_results
  simp only [StableHlo.TRef.ofBuf, StableHlo.TRef.toBuf, cast_eq, id_eq]
  funext i
  refine (broadcastInDim_apply (s := S16x1536) _ _ _ i (ix2 (i 0) (i 2)) (fun a => by
    match a with
    | ⟨0, _⟩ => rfl
    | ⟨1, _⟩ => rfl)).trans ?_
  rw [scatter_set_pad2 _ (by decide) (by decide) _ _ _
    (fun j a => start_eq_zero_of_zero _ j _ one_idx_zero a) cls_window0 cls_window1]
  unfold Cert.Proof.Spec.padCls
  by_cases h : (i 2).val < 1444
  · rw [dif_pos ⟨(i 0).isLt, h⟩, dif_pos h]
    rfl
  · rw [dif_neg (fun hh => h hh.2), dif_neg h]
    rfl

end Cert.KernelIdeal.Hand

end
-- ==== Proof.FrameClaim.lean ====
/-
  The frame of the kernel program: it runs to the end, faults nowhere, and leaves its three arguments unchanged - the
  launch applied to the pipeline's proof data, read at the argument buffers, which no window stages and no host operation
  writes.
-/
import proofs.«408942_j68186900791974_3_alg».proof.Proof.Launch
import proofs.«408942_j68186900791974_3_alg».proof.Proof.FrameData
import proofs.«408942_j68186900791974_3_alg».proof.Proof.HostValues

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- The pipeline's proof data is what the launch asks for. -/
theorem dataOk : DataOk m (dats m) where
  hA := A_eq m
  q0 := q0 m
  q1 := q1 m
  q2 := q2 m
  q3 := q3 m
  howed := fun _ _ => rfl
  hbody := body_obligation m
  hin := hin m
  hout := hout m

/-- The run, at the pipeline's proof data. -/
theorem run_dats : θ_run defs (onTc (τ := τ) (main (F := F))) (s₀ m ρ) (RunPost m (dats m)) :=
  run_main m ρ (dats m) (dataOk m)

/-- THE FRAME, at any float instance: every weakly fair execution of @main terminates, nothing faulting, with the three
    argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
      ⟨((h c).2 main_arg0 (by decide)).trans (V_arg0 m c), ((h c).2 main_arg1 (by decide)).trans (V_arg1 m c),
        ((h c).2 main_arg2 (by decide)).trans (V_arg2 m c)⟩)
    (run_dats m ρ)

end Cert.KernelIdeal.Hand

end
-- ==== Proof.Pieces.lean ====
/-
  What each run's stores read back to: for every kind of point, the contents its pieces leave in the output's buffer and in
  the three scratch accumulators, as the body's payload terms over the blocks the point loads and over the scratch
  contents it enters with. A run's pieces tile the buffer they are stored into, so reading them back over arbitrary
  contents gives the last store's payload; a value the body loads back after its own store is that store's payload.
-/
import proofs.«408942_j68186900791974_3_alg».proof.Proof.RunD
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The zero offsets of a rectangle that is a whole two-axis buffer. -/
theorem hz2 : (![0, 0] : Fin 2 → Nat) = fun _ => 0 := funext fun a => by fin_cases a <;> rfl
/-- The zero offsets of a rectangle that is a whole three-axis buffer. -/
theorem hz3 : (![0, 0, 0] : Fin 3 → Nat) = fun _ => 0 := funext fun a => by fin_cases a <;> rfl

/-- A load of a whole buffer after several stores, the last of which was a store of the whole buffer, reads that last
    store's payload. -/
theorem readCov_cons_unit_zero {Val : EltTy → Type} [∀ e, Nonempty (Val e)] {S : Shape} {e : EltTy} {sg : RefSig} {κ : Kind} {sp : Space}
    (v : View sg κ sp S e) {off : Fin S.rank → Nat} (h : off = fun _ => 0) (inb : ∀ a, off a + S.size a ≤ S.size a)
    (w : S.Idx → Val e) (L : List (View.Piece Val S e)) :
    v.readCov ((⟨Rect.unit off S.size inb, w⟩ : View.Piece Val S e) :: L) (Rect.unit off S.size inb).toLoadRect = w := by
  rw [View.readCov_eq_canon_ld _ _ _ (fun y => ⟨_, List.mem_cons_self, View.mem_set_unit_zero h inb y⟩),
    View.canon_cons_unit_zero h, View.ld_unit_zero h]

/-- The pieces cover the buffer. -/
theorem coverA_acc (c : Dev nD) (i : grid0.Coords) (arg3 : Memref sig .tc .vmem S1x768x128 .f32) (harg3 : arg3.IsWhole) (arg4 : Memref sig .tc .vmem S1x1x768 .i32) (harg4 : arg4.IsWhole) (arg5 : Memref sig .tc .vmem S1x1x768 .i32) (harg5 : arg5.IsWhole) (arg6 : Memref sig .tc .vmem S128x128 .f32) (harg6 : arg6.IsWhole) (arg7 : Memref sig .tc .vmem S1x768x128 .f32) (harg7 : arg7.IsWhole) (arg8 : Memref sig .tc .vmem S768x128 .f32) (harg8 : arg8.IsWhole) (arg9 : Memref sig .tc .vmem S128x128 .f32) (harg9 : arg9.IsWhole) (arg10 : Memref sig .tc .vmem S128x128 .f32) (harg10 : arg10.IsWhole) (hc1 : cond1 i) (hc2 : cond2 i) (hc3 : ¬cond3 i) (hc4 : ¬cond4 i) (hc5 : ¬cond5 i)
    (x0 : Vec F S1x768x128 .f32) (x1 : Vec F S1x1x768 .i32) (x2 : Vec F S1x1x768 .i32) (x3 : Vec F S128x128 .f32) (y : S768x128.Idx) :
    ∃ pc ∈ (kernelRunA c i arg3 harg3 arg4 harg4 arg5 harg5 arg6 harg6 arg7 harg7 arg8 harg8 arg9 harg9 arg10 harg10 hc1 hc2 hc3 hc4 hc5 x0 x1 x2 x3).1, y ∈ pc.1.set :=
  View.cover_of_tiledL (kernelRunA c i arg3 harg3 arg4 harg4 arg5 harg5 arg6 harg6 arg7 harg7 arg8 harg8 arg9 harg9 arg10 harg10 hc1 hc2 hc3 hc4 hc5 x0 x1 x2 x3).1 S768x128.size (by sl_kernel_rfl) y

/-- At a point of the first kind the row tile's sum is the diagonal block's product added to the zero block the reset stored. -/
theorem readA_acc (c : Dev nD) (i : grid0.Coords) (arg3 : Memref sig .tc .vmem S1x768x128 .f32) (harg3 : arg3.IsWhole) (arg4 : Memref sig .tc .vmem S1x1x768 .i32) (harg4 : arg4.IsWhole) (arg5 : Memref sig .tc .vmem S1x1x768 .i32) (harg5 : arg5.IsWhole) (arg6 : Memref sig .tc .vmem S128x128 .f32) (harg6 : arg6.IsWhole) (arg7 : Memref sig .tc .vmem S1x768x128 .f32) (harg7 : arg7.IsWhole) (arg8 : Memref sig .tc .vmem S768x128 .f32) (harg8 : arg8.IsWhole) (arg9 : Memref sig .tc .vmem S128x128 .f32) (harg9 : arg9.IsWhole) (arg10 : Memref sig .tc .vmem S128x128 .f32) (harg10 : arg10.IsWhole) (hc1 : cond1 i) (hc2 : cond2 i) (hc3 : ¬cond3 i) (hc4 : ¬cond4 i) (hc5 : ¬cond5 i)
    (x0 : Vec F S1x768x128 .f32) (x1 : Vec F S1x1x768 .i32) (x2 : Vec F S1x1x768 .i32) (x3 : Vec F S128x128 .f32) :
    VSAcc.read (Elt F) (VSAcc.writes (Elt F) VSAcc.junk (kernelRunA c i arg3 harg3 arg4 harg4 arg5 harg5 arg6 harg6 arg7 harg7 arg8 harg8 arg9 harg9 arg10 harg10 hc1 hc2 hc3 hc4 hc5 x0 x1 x2 x3).1) = k0_pay11 x1 x2 x3 x0 (k0_pay3 (F := F)) := by
  rw [View.read_writes_eq_canon _ _ _ (coverA_acc c i arg3 harg3 arg4 harg4 arg5 harg5 arg6 harg6 arg7 harg7 arg8 harg8 arg9 harg9 arg10 harg10 hc1 hc2 hc3 hc4 hc5 x0 x1 x2 x3)]
  unfold kernelRunA
  dsimp only
  sl_unfold_words
  rw [View.canon_cons_unit_zero (S := S768x128) hz2, View.readCov_unit_zero (S := S768x128) _ hz2]
  simp only [View.readAt_eq_ld, harg3.read_unread, harg4.read_unread, harg5.read_unread, harg6.read_unread, harg8.read_unread, harg9.read_unread, harg10.read_unread,
    View.ld_unit_zero (S := S1x768x128) hz3, View.ld_unit_zero (S := S1x1x768) hz3, View.ld_unit_zero (S := S768x128) hz2, View.ld_unit_zero (S := S128x128) hz2,
    View.readCov_unit_zero (S := S768x128) _ hz2, View.readCov_unit_zero (S := S128x128) _ hz2, readCov_cons_unit_zero (S := S768x128) _ hz2]

/-- The pieces cover the buffer. -/
theorem coverA_low (c : Dev nD) (i : grid0.Coords) (arg3 : Memref sig .tc .vmem S1x768x128 .f32) (harg3 : arg3.IsWhole) (arg4 : Memref sig .tc .vmem S1x1x768 .i32) (harg4 : arg4.IsWhole) (arg5 : Memref sig .tc .vmem S1x1x768 .i32) (harg5 : arg5.IsWhole) (arg6 : Memref sig .tc .vmem S128x128 .f32) (harg6 : arg6.IsWhole) (arg7 : Memref sig .tc .vmem S1x768x128 .f32) (harg7 : arg7.IsWhole) (arg8 : Memref sig .tc .vmem S768x128 .f32) (harg8 : arg8.IsWhole) (arg9 : Memref sig .tc .vmem S128x128 .f32) (harg9 : arg9.IsWhole) (arg10 : Memref sig .tc .vmem S128x128 .f32) (harg10 : arg10.IsWhole) (hc1 : cond1 i) (hc2 : cond2 i) (hc3 : ¬cond3 i) (hc4 : ¬cond4 i) (hc5 : ¬cond5 i)
    (x0 : Vec F S1x768x128 .f32) (x1 : Vec F S1x1x768 .i32) (x2 : Vec F S1x1x768 .i32) (x3 : Vec F S128x128 .f32) (y : S128x128.Idx) :
    ∃ pc ∈ (kernelRunA c i arg3 harg3 arg4 harg4 arg5 harg5 arg6 harg6 arg7 harg7 arg8 harg8 arg9 harg9 arg10 harg10 hc1 hc2 hc3 hc4 hc5 x0 x1 x2 x3).2.1, y ∈ pc.1.set :=
  View.cover_of_tiledL (kernelRunA c i arg3 harg3 arg4 harg4 arg5 harg5 arg6 harg6 arg7 harg7 arg8 harg8 arg9 harg9 arg10 harg10 hc1 hc2 hc3 hc4 hc5 x0 x1 x2 x3).2.1 S128x128.size (by sl_kernel_rfl) y

/-- At a point of the first kind the lower fold is the zero block. -/
theorem readA_low (c : Dev nD) (i : grid0.Coords) (arg3 : Memref sig .tc .vmem S1x768x128 .f32) (harg3 : arg3.IsWhole) (arg4 : Memref sig .tc .vmem S1x1x768 .i32) (harg4 : arg4.IsWhole) (arg5 : Memref sig .tc .vmem S1x1x768 .i32) (harg5 : arg5.IsWhole) (arg6 : Memref sig .tc .vmem S128x128 .f32) (harg6 : arg6.IsWhole) (arg7 : Memref sig .tc .vmem S1x768x128 .f32) (harg7 : arg7.IsWhole) (arg8 : Memref sig .tc .vmem S768x128 .f32) (harg8 : arg8.IsWhole) (arg9 : Memref sig .tc .vmem S128x128 .f32) (harg9 : arg9.IsWhole) (arg10 : Memref sig .tc .vmem S128x128 .f32) (harg10 : arg10.IsWhole) (hc1 : cond1 i) (hc2 : cond2 i) (hc3 : ¬cond3 i) (hc4 : ¬cond4 i) (hc5 : ¬cond5 i)
    (x0 : Vec F S1x768x128 .f32) (x1 : Vec F S1x1x768 .i32) (x2 : Vec F S1x1x768 .i32) (x3 : Vec F S128x128 .f32) :
    VSLow.read (Elt F) (VSLow.writes (Elt F) VSLow.junk (kernelRunA c i arg3 harg3 arg4 harg4 arg5 harg5 arg6 harg6 arg7 harg7 arg8 harg8 arg9 harg9 arg10 harg10 hc1 hc2 hc3 hc4 hc5 x0 x1 x2 x3).2.1) = k0_pay4 (F := F) := by
  rw [View.read_writes_eq_canon _ _ _ (coverA_low c i arg3 harg3 arg4 harg4 arg5 harg5 arg6 harg6 arg7 harg7 arg8 harg8 arg9 harg9 arg10 harg10 hc1 hc2 hc3 hc4 hc5 x0 x1 x2 x3)]
  unfold kernelRunA
  dsimp only
  sl_unfold_words
  rw [View.canon_unit_zero hz2]

/-- The pieces cover the buffer. -/
theorem coverA_up (c : Dev nD) (i : grid0.Coords) (arg3 : Memref sig .tc .vmem S1x768x128 .f32) (harg3 : arg3.IsWhole) (arg4 : Memref sig .tc .vmem S1x1x768 .i32) (harg4 : arg4.IsWhole) (arg5 : Memref sig .tc .vmem S1x1x768 .i32) (harg5 : arg5.IsWhole) (arg6 : Memref sig .tc .vmem S128x128 .f32) (harg6 : arg6.IsWhole) (arg7 : Memref sig .tc .vmem S1x768x128 .f32) (harg7 : arg7.IsWhole) (arg8 : Memref sig .tc .vmem S768x128 .f32) (harg8 : arg8.IsWhole) (arg9 : Memref sig .tc .vmem S128x128 .f32) (harg9 : arg9.IsWhole) (arg10 : Memref sig .tc .vmem S128x128 .f32) (harg10 : arg10.IsWhole) (hc1 : cond1 i) (hc2 : cond2 i) (hc3 : ¬cond3 i) (hc4 : ¬cond4 i) (hc5 : ¬cond5 i)
    (x0 : Vec F S1x768x128 .f32) (x1 : Vec F S1x1x768 .i32) (x2 : Vec F S1x1x768 .i32) (x3 : Vec F S128x128 .f32) (y : S128x128.Idx) :
    ∃ pc ∈ (kernelRunA c i arg3 harg3 arg4 harg4 arg5 harg5 arg6 harg6 arg7 harg7 arg8 harg8 arg9 harg9 arg10 harg10 hc1 hc2 hc3 hc4 hc5 x0 x1 x2 x3).2.2.1, y ∈ pc.1.set :=
  View.cover_of_tiledL (kernelRunA c i arg3 harg3 arg4 harg4 arg5 harg5 arg6 harg6 arg7 harg7 arg8 harg8 arg9 harg9 arg10 harg10 hc1 hc2 hc3 hc4 hc5 x0 x1 x2 x3).2.2.1 S128x128.size (by sl_kernel_rfl) y

/-- At a point of the first kind the upper fold is the zero block. -/
theorem readA_up (c : Dev nD) (i : grid0.Coords) (arg3 : Memref sig .tc .vmem S1x768x128 .f32) (harg3 : arg3.IsWhole) (arg4 : Memref sig .tc .vmem S1x1x768 .i32) (harg4 : arg4.IsWhole) (arg5 : Memref sig .tc .vmem S1x1x768 .i32) (harg5 : arg5.IsWhole) (arg6 : Memref sig .tc .vmem S128x128 .f32) (harg6 : arg6.IsWhole) (arg7 : Memref sig .tc .vmem S1x768x128 .f32) (harg7 : arg7.IsWhole) (arg8 : Memref sig .tc .vmem S768x128 .f32) (harg8 : arg8.IsWhole) (arg9 : Memref sig .tc .vmem S128x128 .f32) (harg9 : arg9.IsWhole) (arg10 : Memref sig .tc .vmem S128x128 .f32) (harg10 : arg10.IsWhole) (hc1 : cond1 i) (hc2 : cond2 i) (hc3 : ¬cond3 i) (hc4 : ¬cond4 i) (hc5 : ¬cond5 i)
    (x0 : Vec F S1x768x128 .f32) (x1 : Vec F S1x1x768 .i32) (x2 : Vec F S1x1x768 .i32) (x3 : Vec F S128x128 .f32) :
    VSUp.read (Elt F) (VSUp.writes (Elt F) VSUp.junk (kernelRunA c i arg3 harg3 arg4 harg4 arg5 harg5 arg6 harg6 arg7 harg7 arg8 harg8 arg9 harg9 arg10 harg10 hc1 hc2 hc3 hc4 hc5 x0 x1 x2 x3).2.2.1) = k0_pay5 (F := F) := by
  rw [View.read_writes_eq_canon _ _ _ (coverA_up c i arg3 harg3 arg4 harg4 arg5 harg5 arg6 harg6 arg7 harg7 arg8 harg8 arg9 harg9 arg10 harg10 hc1 hc2 hc3 hc4 hc5 x0 x1 x2 x3)]
  unfold kernelRunA
  dsimp only
  sl_unfold_words
  rw [View.canon_unit_zero hz2]

/-- The pieces cover the buffer. -/
theorem coverC_acc (c : Dev nD) (i : grid0.Coords) (arg3 : Memref sig .tc .vmem S1x768x128 .f32) (harg3 : arg3.IsWhole) (arg4 : Memref sig .tc .vmem S1x1x768 .i32) (harg4 : arg4.IsWhole) (arg5 : Memref sig .tc .vmem S1x1x768 .i32) (harg5 : arg5.IsWhole) (arg6 : Memref sig .tc .vmem S128x128 .f32) (harg6 : arg6.IsWhole) (arg7 : Memref sig .tc .vmem S1x768x128 .f32) (harg7 : arg7.IsWhole) (arg8 : Memref sig .tc .vmem S768x128 .f32) (harg8 : arg8.IsWhole) (arg9 : Memref sig .tc .vmem S128x128 .f32) (harg9 : arg9.IsWhole) (arg10 : Memref sig .tc .vmem S128x128 .f32) (harg10 : arg10.IsWhole) (hc1 : cond1 i) (hc2 : ¬cond2 i) (hc3 : cond3 i) (hc4 : ¬cond4 i) (hc5 : ¬cond5 i)
    (x0 : Vec F S1x768x128 .f32) (x1 : Vec F S1x1x768 .i32) (x2 : Vec F S1x1x768 .i32) (x3 : Vec F S128x128 .f32) (y : S768x128.Idx) :
    ∃ pc ∈ (kernelRunC c i arg3 harg3 arg4 harg4 arg5 harg5 arg6 harg6 arg7 harg7 arg8 harg8 arg9 harg9 arg10 harg10 hc1 hc2 hc3 hc4 hc5 x0 x1 x2 x3).1, y ∈ pc.1.set :=
  View.cover_of_tiledL (kernelRunC c i arg3 harg3 arg4 harg4 arg5 harg5 arg6 harg6 arg7 harg7 arg8 harg8 arg9 harg9 arg10 harg10 hc1 hc2 hc3 hc4 hc5 x0 x1 x2 x3).1 S768x128.size (by sl_kernel_rfl) y

/-- At a point of the third kind the row tile's sum is the zero block. -/
theorem readC_acc (c : Dev nD) (i : grid0.Coords) (arg3 : Memref sig .tc .vmem S1x768x128 .f32) (harg3 : arg3.IsWhole) (arg4 : Memref sig .tc .vmem S1x1x768 .i32) (harg4 : arg4.IsWhole) (arg5 : Memref sig .tc .vmem S1x1x768 .i32) (harg5 : arg5.IsWhole) (arg6 : Memref sig .tc .vmem S128x128 .f32) (harg6 : arg6.IsWhole) (arg7 : Memref sig .tc .vmem S1x768x128 .f32) (harg7 : arg7.IsWhole) (arg8 : Memref sig .tc .vmem S768x128 .f32) (harg8 : arg8.IsWhole) (arg9 : Memref sig .tc .vmem S128x128 .f32) (harg9 : arg9.IsWhole) (arg10 : Memref sig .tc .vmem S128x128 .f32) (harg10 : arg10.IsWhole) (hc1 : cond1 i) (hc2 : ¬cond2 i) (hc3 : cond3 i) (hc4 : ¬cond4 i) (hc5 : ¬cond5 i)
    (x0 : Vec F S1x768x128 .f32) (x1 : Vec F S1x1x768 .i32) (x2 : Vec F S1x1x768 .i32) (x3 : Vec F S128x128 .f32) :
    VSAcc.read (Elt F) (VSAcc.writes (Elt F) VSAcc.junk (kernelRunC c i arg3 harg3 arg4 harg4 arg5 harg5 arg6 harg6 arg7 harg7 arg8 harg8 arg9 harg9 arg10 harg10 hc1 hc2 hc3 hc4 hc5 x0 x1 x2 x3).1) = k0_pay3 (F := F) := by
  rw [View.read_writes_eq_canon _ _ _ (coverC_acc c i arg3 harg3 arg4 harg4 arg5 harg5 arg6 harg6 arg7 harg7 arg8 harg8 arg9 harg9 arg10 harg10 hc1 hc2 hc3 hc4 hc5 x0 x1 x2 x3)]
  unfold kernelRunC
  dsimp only
  sl_unfold_words
  rw [View.canon_unit_zero hz2]

/-- The pieces cover the buffer. -/
theorem coverC_low (c : Dev nD) (i : grid0.Coords) (arg3 : Memref sig .tc .vmem S1x768x128 .f32) (harg3 : arg3.IsWhole) (arg4 : Memref sig .tc .vmem S1x1x768 .i32) (harg4 : arg4.IsWhole) (arg5 : Memref sig .tc .vmem S1x1x768 .i32) (harg5 : arg5.IsWhole) (arg6 : Memref sig .tc .vmem S128x128 .f32) (harg6 : arg6.IsWhole) (arg7 : Memref sig .tc .vmem S1x768x128 .f32) (harg7 : arg7.IsWhole) (arg8 : Memref sig .tc .vmem S768x128 .f32) (harg8 : arg8.IsWhole) (arg9 : Memref sig .tc .vmem S128x128 .f32) (harg9 : arg9.IsWhole) (arg10 : Memref sig .tc .vmem S128x128 .f32) (harg10 : arg10.IsWhole) (hc1 : cond1 i) (hc2 : ¬cond2 i) (hc3 : cond3 i) (hc4 : ¬cond4 i) (hc5 : ¬cond5 i)
    (x0 : Vec F S1x768x128 .f32) (x1 : Vec F S1x1x768 .i32) (x2 : Vec F S1x1x768 .i32) (x3 : Vec F S128x128 .f32) (y : S128x128.Idx) :
    ∃ pc ∈ (kernelRunC c i arg3 harg3 arg4 harg4 arg5 harg5 arg6 harg6 arg7 harg7 arg8 harg8 arg9 harg9 arg10 harg10 hc1 hc2 hc3 hc4 hc5 x0 x1 x2 x3).2.1, y ∈ pc.1.set :=
  View.cover_of_tiledL (kernelRunC c i arg3 harg3 arg4 harg4 arg5 harg5 arg6 harg6 arg7 harg7 arg8 harg8 arg9 harg9 arg10 harg10 hc1 hc2 hc3 hc4 hc5 x0 x1 x2 x3).2.1 S128x128.size (by sl_kernel_rfl) y

/-- At a point of the third kind the lower fold is the column tile folded by class, added to the zero block the reset stored. -/
theorem readC_low (c : Dev nD) (i : grid0.Coords) (arg3 : Memref sig .tc .vmem S1x768x128 .f32) (harg3 : arg3.IsWhole) (arg4 : Memref sig .tc .vmem S1x1x768 .i32) (harg4 : arg4.IsWhole) (arg5 : Memref sig .tc .vmem S1x1x768 .i32) (harg5 : arg5.IsWhole) (arg6 : Memref sig .tc .vmem S128x128 .f32) (harg6 : arg6.IsWhole) (arg7 : Memref sig .tc .vmem S1x768x128 .f32) (harg7 : arg7.IsWhole) (arg8 : Memref sig .tc .vmem S768x128 .f32) (harg8 : arg8.IsWhole) (arg9 : Memref sig .tc .vmem S128x128 .f32) (harg9 : arg9.IsWhole) (arg10 : Memref sig .tc .vmem S128x128 .f32) (harg10 : arg10.IsWhole) (hc1 : cond1 i) (hc2 : ¬cond2 i) (hc3 : cond3 i) (hc4 : ¬cond4 i) (hc5 : ¬cond5 i)
    (x0 : Vec F S1x768x128 .f32) (x1 : Vec F S1x1x768 .i32) (x2 : Vec F S1x1x768 .i32) (x3 : Vec F S128x128 .f32) :
    VSLow.read (Elt F) (VSLow.writes (Elt F) VSLow.junk (kernelRunC c i arg3 harg3 arg4 harg4 arg5 harg5 arg6 harg6 arg7 harg7 arg8 harg8 arg9 harg9 arg10 harg10 hc1 hc2 hc3 hc4 hc5 x0 x1 x2 x3).2.1) = k0_pay12 x2 x0 (k0_pay4 (F := F)) := by
  rw [View.read_writes_eq_canon _ _ _ (coverC_low c i arg3 harg3 arg4 harg4 arg5 harg5 arg6 harg6 arg7 harg7 arg8 harg8 arg9 harg9 arg10 harg10 hc1 hc2 hc3 hc4 hc5 x0 x1 x2 x3)]
  unfold kernelRunC
  dsimp only
  sl_unfold_words
  rw [View.canon_cons_unit_zero (S := S128x128) hz2, View.readCov_unit_zero (S := S128x128) _ hz2]
  simp only [View.readAt_eq_ld, harg3.read_unread, harg4.read_unread, harg5.read_unread, harg6.read_unread, harg8.read_unread, harg9.read_unread, harg10.read_unread,
    View.ld_unit_zero (S := S1x768x128) hz3, View.ld_unit_zero (S := S1x1x768) hz3, View.ld_unit_zero (S := S768x128) hz2, View.ld_unit_zero (S := S128x128) hz2,
    View.readCov_unit_zero (S := S768x128) _ hz2, View.readCov_unit_zero (S := S128x128) _ hz2, readCov_cons_unit_zero (S := S768x128) _ hz2]

/-- The pieces cover the buffer. -/
theorem coverC_up (c : Dev nD) (i : grid0.Coords) (arg3 : Memref sig .tc .vmem S1x768x128 .f32) (harg3 : arg3.IsWhole) (arg4 : Memref sig .tc .vmem S1x1x768 .i32) (harg4 : arg4.IsWhole) (arg5 : Memref sig .tc .vmem S1x1x768 .i32) (harg5 : arg5.IsWhole) (arg6 : Memref sig .tc .vmem S128x128 .f32) (harg6 : arg6.IsWhole) (arg7 : Memref sig .tc .vmem S1x768x128 .f32) (harg7 : arg7.IsWhole) (arg8 : Memref sig .tc .vmem S768x128 .f32) (harg8 : arg8.IsWhole) (arg9 : Memref sig .tc .vmem S128x128 .f32) (harg9 : arg9.IsWhole) (arg10 : Memref sig .tc .vmem S128x128 .f32) (harg10 : arg10.IsWhole) (hc1 : cond1 i) (hc2 : ¬cond2 i) (hc3 : cond3 i) (hc4 : ¬cond4 i) (hc5 : ¬cond5 i)
    (x0 : Vec F S1x768x128 .f32) (x1 : Vec F S1x1x768 .i32) (x2 : Vec F S1x1x768 .i32) (x3 : Vec F S128x128 .f32) (y : S128x128.Idx) :
    ∃ pc ∈ (kernelRunC c i arg3 harg3 arg4 harg4 arg5 harg5 arg6 harg6 arg7 harg7 arg8 harg8 arg9 harg9 arg10 harg10 hc1 hc2 hc3 hc4 hc5 x0 x1 x2 x3).2.2.1, y ∈ pc.1.set :=
  View.cover_of_tiledL (kernelRunC c i arg3 harg3 arg4 harg4 arg5 harg5 arg6 harg6 arg7 harg7 arg8 harg8 arg9 harg9 arg10 harg10 hc1 hc2 hc3 hc4 hc5 x0 x1 x2 x3).2.2.1 S128x128.size (by sl_kernel_rfl) y

/-- At a point of the third kind the upper fold is the zero block. -/
theorem readC_up (c : Dev nD) (i : grid0.Coords) (arg3 : Memref sig .tc .vmem S1x768x128 .f32) (harg3 : arg3.IsWhole) (arg4 : Memref sig .tc .vmem S1x1x768 .i32) (harg4 : arg4.IsWhole) (arg5 : Memref sig .tc .vmem S1x1x768 .i32) (harg5 : arg5.IsWhole) (arg6 : Memref sig .tc .vmem S128x128 .f32) (harg6 : arg6.IsWhole) (arg7 : Memref sig .tc .vmem S1x768x128 .f32) (harg7 : arg7.IsWhole) (arg8 : Memref sig .tc .vmem S768x128 .f32) (harg8 : arg8.IsWhole) (arg9 : Memref sig .tc .vmem S128x128 .f32) (harg9 : arg9.IsWhole) (arg10 : Memref sig .tc .vmem S128x128 .f32) (harg10 : arg10.IsWhole) (hc1 : cond1 i) (hc2 : ¬cond2 i) (hc3 : cond3 i) (hc4 : ¬cond4 i) (hc5 : ¬cond5 i)
    (x0 : Vec F S1x768x128 .f32) (x1 : Vec F S1x1x768 .i32) (x2 : Vec F S1x1x768 .i32) (x3 : Vec F S128x128 .f32) :
    VSUp.read (Elt F) (VSUp.writes (Elt F) VSUp.junk (kernelRunC c i arg3 harg3 arg4 harg4 arg5 harg5 arg6 harg6 arg7 harg7 arg8 harg8 arg9 harg9 arg10 harg10 hc1 hc2 hc3 hc4 hc5 x0 x1 x2 x3).2.2.1) = k0_pay5 (F := F) := by
  rw [View.read_writes_eq_canon _ _ _ (coverC_up c i arg3 harg3 arg4 harg4 arg5 harg5 arg6 harg6 arg7 harg7 arg8 harg8 arg9 harg9 arg10 harg10 hc1 hc2 hc3 hc4 hc5 x0 x1 x2 x3)]
  unfold kernelRunC
  dsimp only
  sl_unfold_words
  rw [View.canon_unit_zero hz2]

/-- The pieces cover the buffer. -/
theorem coverB_out (c : Dev nD) (i : grid0.Coords) (arg3 : Memref sig .tc .vmem S1x768x128 .f32) (harg3 : arg3.IsWhole) (arg4 : Memref sig .tc .vmem S1x1x768 .i32) (harg4 : arg4.IsWhole) (arg5 : Memref sig .tc .vmem S1x1x768 .i32) (harg5 : arg5.IsWhole) (arg6 : Memref sig .tc .vmem S128x128 .f32) (harg6 : arg6.IsWhole) (arg7 : Memref sig .tc .vmem S1x768x128 .f32) (harg7 : arg7.IsWhole) (arg8 : Memref sig .tc .vmem S768x128 .f32) (harg8 : arg8.IsWhole) (arg9 : Memref sig .tc .vmem S128x128 .f32) (harg9 : arg9.IsWhole) (arg10 : Memref sig .tc .vmem S128x128 .f32) (harg10 : arg10.IsWhole) (hc1 : ¬cond1 i) (hc2 : ¬cond2 i) (hc3 : ¬cond3 i) (hc4 : cond4 i) (hc5 : cond5 i)
    (x0 : Vec F S1x768x128 .f32) (x1 : Vec F S1x1x768 .i32) (x2 : Vec F S1x1x768 .i32) (x3 : Vec F S128x128 .f32) (xsAcc : Vec F S768x128 .f32) (xsLow : Vec F S128x128 .f32) (xsUp : Vec F S128x128 .f32) (y : S1x768x128.Idx) :
    ∃ pc ∈ (kernelRunB c i arg3 harg3 arg4 harg4 arg5 harg5 arg6 harg6 arg7 harg7 arg8 harg8 arg9 harg9 arg10 harg10 hc1 hc2 hc3 hc4 hc5 x0 x1 x2 x3 xsAcc xsLow xsUp).1, y ∈ pc.1.set :=
  View.cover_of_tiledL (kernelRunB c i arg3 harg3 arg4 harg4 arg5 harg5 arg6 harg6 arg7 harg7 arg8 harg8 arg9 harg9 arg10 harg10 hc1 hc2 hc3 hc4 hc5 x0 x1 x2 x3 xsAcc xsLow xsUp).1 S1x768x128.size (by sl_kernel_rfl) y

/-- At a point of the second kind the output block is the row tile's sum after both folds were projected back through the row tile's classes and added to it, the upper fold taken after this point's column tile was folded into it. -/
theorem readB_out (c : Dev nD) (i : grid0.Coords) (arg3 : Memref sig .tc .vmem S1x768x128 .f32) (harg3 : arg3.IsWhole) (arg4 : Memref sig .tc .vmem S1x1x768 .i32) (harg4 : arg4.IsWhole) (arg5 : Memref sig .tc .vmem S1x1x768 .i32) (harg5 : arg5.IsWhole) (arg6 : Memref sig .tc .vmem S128x128 .f32) (harg6 : arg6.IsWhole) (arg7 : Memref sig .tc .vmem S1x768x128 .f32) (harg7 : arg7.IsWhole) (arg8 : Memref sig .tc .vmem S768x128 .f32) (harg8 : arg8.IsWhole) (arg9 : Memref sig .tc .vmem S128x128 .f32) (harg9 : arg9.IsWhole) (arg10 : Memref sig .tc .vmem S128x128 .f32) (harg10 : arg10.IsWhole) (hc1 : ¬cond1 i) (hc2 : ¬cond2 i) (hc3 : ¬cond3 i) (hc4 : cond4 i) (hc5 : cond5 i)
    (x0 : Vec F S1x768x128 .f32) (x1 : Vec F S1x1x768 .i32) (x2 : Vec F S1x1x768 .i32) (x3 : Vec F S128x128 .f32) (xsAcc : Vec F S768x128 .f32) (xsLow : Vec F S128x128 .f32) (xsUp : Vec F S128x128 .f32) :
    VO4.read (Elt F) (VO4.writes (Elt F) VO4.junk (kernelRunB c i arg3 harg3 arg4 harg4 arg5 harg5 arg6 harg6 arg7 harg7 arg8 harg8 arg9 harg9 arg10 harg10 hc1 hc2 hc3 hc4 hc5 x0 x1 x2 x3 xsAcc xsLow xsUp).1) = k0_pay2 (k0_pay1 (k0_pay7 x1) (k0_pay9 x3) xsLow (k0_pay13 x2 x0 xsUp) xsAcc) := by
  rw [View.read_writes_eq_canon _ _ _ (coverB_out c i arg3 harg3 arg4 harg4 arg5 harg5 arg6 harg6 arg7 harg7 arg8 harg8 arg9 harg9 arg10 harg10 hc1 hc2 hc3 hc4 hc5 x0 x1 x2 x3 xsAcc xsLow xsUp)]
  unfold kernelRunB
  dsimp only
  sl_unfold_words
  rw [View.canon_unit_zero hz3]
  simp only [View.readAt_eq_ld, harg3.read_unread, harg4.read_unread, harg5.read_unread, harg6.read_unread, harg8.read_unread, harg9.read_unread, harg10.read_unread,
    View.ld_unit_zero (S := S1x768x128) hz3, View.ld_unit_zero (S := S1x1x768) hz3, View.ld_unit_zero (S := S768x128) hz2, View.ld_unit_zero (S := S128x128) hz2,
    View.readCov_unit_zero (S := S768x128) _ hz2, View.readCov_unit_zero (S := S128x128) _ hz2, readCov_cons_unit_zero (S := S768x128) _ hz2]

/-- The pieces cover the buffer. -/
theorem coverB_acc (c : Dev nD) (i : grid0.Coords) (arg3 : Memref sig .tc .vmem S1x768x128 .f32) (harg3 : arg3.IsWhole) (arg4 : Memref sig .tc .vmem S1x1x768 .i32) (harg4 : arg4.IsWhole) (arg5 : Memref sig .tc .vmem S1x1x768 .i32) (harg5 : arg5.IsWhole) (arg6 : Memref sig .tc .vmem S128x128 .f32) (harg6 : arg6.IsWhole) (arg7 : Memref sig .tc .vmem S1x768x128 .f32) (harg7 : arg7.IsWhole) (arg8 : Memref sig .tc .vmem S768x128 .f32) (harg8 : arg8.IsWhole) (arg9 : Memref sig .tc .vmem S128x128 .f32) (harg9 : arg9.IsWhole) (arg10 : Memref sig .tc .vmem S128x128 .f32) (harg10 : arg10.IsWhole) (hc1 : ¬cond1 i) (hc2 : ¬cond2 i) (hc3 : ¬cond3 i) (hc4 : cond4 i) (hc5 : cond5 i)
    (x0 : Vec F S1x768x128 .f32) (x1 : Vec F S1x1x768 .i32) (x2 : Vec F S1x1x768 .i32) (x3 : Vec F S128x128 .f32) (xsAcc : Vec F S768x128 .f32) (xsLow : Vec F S128x128 .f32) (xsUp : Vec F S128x128 .f32) (y : S768x128.Idx) :
    ∃ pc ∈ (kernelRunB c i arg3 harg3 arg4 harg4 arg5 harg5 arg6 harg6 arg7 harg7 arg8 harg8 arg9 harg9 arg10 harg10 hc1 hc2 hc3 hc4 hc5 x0 x1 x2 x3 xsAcc xsLow xsUp).2.1, y ∈ pc.1.set :=
  View.cover_of_tiledL (kernelRunB c i arg3 harg3 arg4 harg4 arg5 harg5 arg6 harg6 arg7 harg7 arg8 harg8 arg9 harg9 arg10 harg10 hc1 hc2 hc3 hc4 hc5 x0 x1 x2 x3 xsAcc xsLow xsUp).2.1 S768x128.size (by sl_kernel_rfl) y

/-- At a point of the second kind the row tile's sum ends at the same term as the output block, before the change of shape. -/
theorem readB_acc (c : Dev nD) (i : grid0.Coords) (arg3 : Memref sig .tc .vmem S1x768x128 .f32) (harg3 : arg3.IsWhole) (arg4 : Memref sig .tc .vmem S1x1x768 .i32) (harg4 : arg4.IsWhole) (arg5 : Memref sig .tc .vmem S1x1x768 .i32) (harg5 : arg5.IsWhole) (arg6 : Memref sig .tc .vmem S128x128 .f32) (harg6 : arg6.IsWhole) (arg7 : Memref sig .tc .vmem S1x768x128 .f32) (harg7 : arg7.IsWhole) (arg8 : Memref sig .tc .vmem S768x128 .f32) (harg8 : arg8.IsWhole) (arg9 : Memref sig .tc .vmem S128x128 .f32) (harg9 : arg9.IsWhole) (arg10 : Memref sig .tc .vmem S128x128 .f32) (harg10 : arg10.IsWhole) (hc1 : ¬cond1 i) (hc2 : ¬cond2 i) (hc3 : ¬cond3 i) (hc4 : cond4 i) (hc5 : cond5 i)
    (x0 : Vec F S1x768x128 .f32) (x1 : Vec F S1x1x768 .i32) (x2 : Vec F S1x1x768 .i32) (x3 : Vec F S128x128 .f32) (xsAcc : Vec F S768x128 .f32) (xsLow : Vec F S128x128 .f32) (xsUp : Vec F S128x128 .f32) :
    VSAcc.read (Elt F) (VSAcc.writes (Elt F) VSAcc.junk (kernelRunB c i arg3 harg3 arg4 harg4 arg5 harg5 arg6 harg6 arg7 harg7 arg8 harg8 arg9 harg9 arg10 harg10 hc1 hc2 hc3 hc4 hc5 x0 x1 x2 x3 xsAcc xsLow xsUp).2.1) = k0_pay1 (k0_pay7 x1) (k0_pay9 x3) xsLow (k0_pay13 x2 x0 xsUp) xsAcc := by
  rw [View.read_writes_eq_canon _ _ _ (coverB_acc c i arg3 harg3 arg4 harg4 arg5 harg5 arg6 harg6 arg7 harg7 arg8 harg8 arg9 harg9 arg10 harg10 hc1 hc2 hc3 hc4 hc5 x0 x1 x2 x3 xsAcc xsLow xsUp)]
  unfold kernelRunB
  dsimp only
  sl_unfold_words
  rw [View.canon_unit_zero hz2]
  simp only [View.readAt_eq_ld, harg3.read_unread, harg4.read_unread, harg5.read_unread, harg6.read_unread, harg8.read_unread, harg9.read_unread, harg10.read_unread,
    View.ld_unit_zero (S := S1x768x128) hz3, View.ld_unit_zero (S := S1x1x768) hz3, View.ld_unit_zero (S := S768x128) hz2, View.ld_unit_zero (S := S128x128) hz2,
    View.readCov_unit_zero (S := S768x128) _ hz2, View.readCov_unit_zero (S := S128x128) _ hz2, readCov_cons_unit_zero (S := S768x128) _ hz2]

/-- The pieces cover the buffer. -/
theorem coverB_up (c : Dev nD) (i : grid0.Coords) (arg3 : Memref sig .tc .vmem S1x768x128 .f32) (harg3 : arg3.IsWhole) (arg4 : Memref sig .tc .vmem S1x1x768 .i32) (harg4 : arg4.IsWhole) (arg5 : Memref sig .tc .vmem S1x1x768 .i32) (harg5 : arg5.IsWhole) (arg6 : Memref sig .tc .vmem S128x128 .f32) (harg6 : arg6.IsWhole) (arg7 : Memref sig .tc .vmem S1x768x128 .f32) (harg7 : arg7.IsWhole) (arg8 : Memref sig .tc .vmem S768x128 .f32) (harg8 : arg8.IsWhole) (arg9 : Memref sig .tc .vmem S128x128 .f32) (harg9 : arg9.IsWhole) (arg10 : Memref sig .tc .vmem S128x128 .f32) (harg10 : arg10.IsWhole) (hc1 : ¬cond1 i) (hc2 : ¬cond2 i) (hc3 : ¬cond3 i) (hc4 : cond4 i) (hc5 : cond5 i)
    (x0 : Vec F S1x768x128 .f32) (x1 : Vec F S1x1x768 .i32) (x2 : Vec F S1x1x768 .i32) (x3 : Vec F S128x128 .f32) (xsAcc : Vec F S768x128 .f32) (xsLow : Vec F S128x128 .f32) (xsUp : Vec F S128x128 .f32) (y : S128x128.Idx) :
    ∃ pc ∈ (kernelRunB c i arg3 harg3 arg4 harg4 arg5 harg5 arg6 harg6 arg7 harg7 arg8 harg8 arg9 harg9 arg10 harg10 hc1 hc2 hc3 hc4 hc5 x0 x1 x2 x3 xsAcc xsLow xsUp).2.2.1, y ∈ pc.1.set :=
  View.cover_of_tiledL (kernelRunB c i arg3 harg3 arg4 harg4 arg5 harg5 arg6 harg6 arg7 harg7 arg8 harg8 arg9 harg9 arg10 harg10 hc1 hc2 hc3 hc4 hc5 x0 x1 x2 x3 xsAcc xsLow xsUp).2.2.1 S128x128.size (by sl_kernel_rfl) y

/-- At a point of the second kind the upper fold is the entering one plus the column tile folded by class. -/
theorem readB_up (c : Dev nD) (i : grid0.Coords) (arg3 : Memref sig .tc .vmem S1x768x128 .f32) (harg3 : arg3.IsWhole) (arg4 : Memref sig .tc .vmem S1x1x768 .i32) (harg4 : arg4.IsWhole) (arg5 : Memref sig .tc .vmem S1x1x768 .i32) (harg5 : arg5.IsWhole) (arg6 : Memref sig .tc .vmem S128x128 .f32) (harg6 : arg6.IsWhole) (arg7 : Memref sig .tc .vmem S1x768x128 .f32) (harg7 : arg7.IsWhole) (arg8 : Memref sig .tc .vmem S768x128 .f32) (harg8 : arg8.IsWhole) (arg9 : Memref sig .tc .vmem S128x128 .f32) (harg9 : arg9.IsWhole) (arg10 : Memref sig .tc .vmem S128x128 .f32) (harg10 : arg10.IsWhole) (hc1 : ¬cond1 i) (hc2 : ¬cond2 i) (hc3 : ¬cond3 i) (hc4 : cond4 i) (hc5 : cond5 i)
    (x0 : Vec F S1x768x128 .f32) (x1 : Vec F S1x1x768 .i32) (x2 : Vec F S1x1x768 .i32) (x3 : Vec F S128x128 .f32) (xsAcc : Vec F S768x128 .f32) (xsLow : Vec F S128x128 .f32) (xsUp : Vec F S128x128 .f32) :
    VSUp.read (Elt F) (VSUp.writes (Elt F) VSUp.junk (kernelRunB c i arg3 harg3 arg4 harg4 arg5 harg5 arg6 harg6 arg7 harg7 arg8 harg8 arg9 harg9 arg10 harg10 hc1 hc2 hc3 hc4 hc5 x0 x1 x2 x3 xsAcc xsLow xsUp).2.2.1) = k0_pay13 x2 x0 xsUp := by
  rw [View.read_writes_eq_canon _ _ _ (coverB_up c i arg3 harg3 arg4 harg4 arg5 harg5 arg6 harg6 arg7 harg7 arg8 harg8 arg9 harg9 arg10 harg10 hc1 hc2 hc3 hc4 hc5 x0 x1 x2 x3 xsAcc xsLow xsUp)]
  unfold kernelRunB
  dsimp only
  sl_unfold_words
  rw [View.canon_unit_zero hz2]
  simp only [View.readAt_eq_ld, harg3.read_unread, harg4.read_unread, harg5.read_unread, harg6.read_unread, harg8.read_unread, harg9.read_unread, harg10.read_unread,
    View.ld_unit_zero (S := S1x768x128) hz3, View.ld_unit_zero (S := S1x1x768) hz3, View.ld_unit_zero (S := S768x128) hz2, View.ld_unit_zero (S := S128x128) hz2,
    View.readCov_unit_zero (S := S768x128) _ hz2, View.readCov_unit_zero (S := S128x128) _ hz2, readCov_cons_unit_zero (S := S768x128) _ hz2]

/-- The pieces cover the buffer. -/
theorem coverD_out (c : Dev nD) (i : grid0.Coords) (arg3 : Memref sig .tc .vmem S1x768x128 .f32) (harg3 : arg3.IsWhole) (arg4 : Memref sig .tc .vmem S1x1x768 .i32) (harg4 : arg4.IsWhole) (arg5 : Memref sig .tc .vmem S1x1x768 .i32) (harg5 : arg5.IsWhole) (arg6 : Memref sig .tc .vmem S128x128 .f32) (harg6 : arg6.IsWhole) (arg7 : Memref sig .tc .vmem S1x768x128 .f32) (harg7 : arg7.IsWhole) (arg8 : Memref sig .tc .vmem S768x128 .f32) (harg8 : arg8.IsWhole) (arg9 : Memref sig .tc .vmem S128x128 .f32) (harg9 : arg9.IsWhole) (arg10 : Memref sig .tc .vmem S128x128 .f32) (harg10 : arg10.IsWhole) (hc1 : ¬cond1 i) (hc2 : cond2 i) (hc3 : ¬cond3 i) (hc4 : ¬cond4 i) (hc5 : cond5 i)
    (x0 : Vec F S1x768x128 .f32) (x1 : Vec F S1x1x768 .i32) (x2 : Vec F S1x1x768 .i32) (x3 : Vec F S128x128 .f32) (xsAcc : Vec F S768x128 .f32) (xsLow : Vec F S128x128 .f32) (xsUp : Vec F S128x128 .f32) (y : S1x768x128.Idx) :
    ∃ pc ∈ (kernelRunD c i arg3 harg3 arg4 harg4 arg5 harg5 arg6 harg6 arg7 harg7 arg8 harg8 arg9 harg9 arg10 harg10 hc1 hc2 hc3 hc4 hc5 x0 x1 x2 x3 xsAcc xsLow xsUp).1, y ∈ pc.1.set :=
  View.cover_of_tiledL (kernelRunD c i arg3 harg3 arg4 harg4 arg5 harg5 arg6 harg6 arg7 harg7 arg8 harg8 arg9 harg9 arg10 harg10 hc1 hc2 hc3 hc4 hc5 x0 x1 x2 x3 xsAcc xsLow xsUp).1 S1x768x128.size (by sl_kernel_rfl) y

/-- At a point of the fourth kind the output block is the row tile's sum, the diagonal block's product added first, after both folds were projected back through the row tile's classes and added to it. -/
theorem readD_out (c : Dev nD) (i : grid0.Coords) (arg3 : Memref sig .tc .vmem S1x768x128 .f32) (harg3 : arg3.IsWhole) (arg4 : Memref sig .tc .vmem S1x1x768 .i32) (harg4 : arg4.IsWhole) (arg5 : Memref sig .tc .vmem S1x1x768 .i32) (harg5 : arg5.IsWhole) (arg6 : Memref sig .tc .vmem S128x128 .f32) (harg6 : arg6.IsWhole) (arg7 : Memref sig .tc .vmem S1x768x128 .f32) (harg7 : arg7.IsWhole) (arg8 : Memref sig .tc .vmem S768x128 .f32) (harg8 : arg8.IsWhole) (arg9 : Memref sig .tc .vmem S128x128 .f32) (harg9 : arg9.IsWhole) (arg10 : Memref sig .tc .vmem S128x128 .f32) (harg10 : arg10.IsWhole) (hc1 : ¬cond1 i) (hc2 : cond2 i) (hc3 : ¬cond3 i) (hc4 : ¬cond4 i) (hc5 : cond5 i)
    (x0 : Vec F S1x768x128 .f32) (x1 : Vec F S1x1x768 .i32) (x2 : Vec F S1x1x768 .i32) (x3 : Vec F S128x128 .f32) (xsAcc : Vec F S768x128 .f32) (xsLow : Vec F S128x128 .f32) (xsUp : Vec F S128x128 .f32) :
    VO4.read (Elt F) (VO4.writes (Elt F) VO4.junk (kernelRunD c i arg3 harg3 arg4 harg4 arg5 harg5 arg6 harg6 arg7 harg7 arg8 harg8 arg9 harg9 arg10 harg10 hc1 hc2 hc3 hc4 hc5 x0 x1 x2 x3 xsAcc xsLow xsUp).1) = k0_pay2 (k0_pay1 (k0_pay7 x1) (k0_pay9 x3) xsLow xsUp (k0_pay11 x1 x2 x3 x0 xsAcc)) := by
  rw [View.read_writes_eq_canon _ _ _ (coverD_out c i arg3 harg3 arg4 harg4 arg5 harg5 arg6 harg6 arg7 harg7 arg8 harg8 arg9 harg9 arg10 harg10 hc1 hc2 hc3 hc4 hc5 x0 x1 x2 x3 xsAcc xsLow xsUp)]
  unfold kernelRunD
  dsimp only
  sl_unfold_words
  rw [View.canon_unit_zero hz3]
  simp only [View.readAt_eq_ld, harg3.read_unread, harg4.read_unread, harg5.read_unread, harg6.read_unread, harg8.read_unread, harg9.read_unread, harg10.read_unread,
    View.ld_unit_zero (S := S1x768x128) hz3, View.ld_unit_zero (S := S1x1x768) hz3, View.ld_unit_zero (S := S768x128) hz2, View.ld_unit_zero (S := S128x128) hz2,
    View.readCov_unit_zero (S := S768x128) _ hz2, View.readCov_unit_zero (S := S128x128) _ hz2, readCov_cons_unit_zero (S := S768x128) _ hz2]

/-- The pieces cover the buffer. -/
theorem coverD_acc (c : Dev nD) (i : grid0.Coords) (arg3 : Memref sig .tc .vmem S1x768x128 .f32) (harg3 : arg3.IsWhole) (arg4 : Memref sig .tc .vmem S1x1x768 .i32) (harg4 : arg4.IsWhole) (arg5 : Memref sig .tc .vmem S1x1x768 .i32) (harg5 : arg5.IsWhole) (arg6 : Memref sig .tc .vmem S128x128 .f32) (harg6 : arg6.IsWhole) (arg7 : Memref sig .tc .vmem S1x768x128 .f32) (harg7 : arg7.IsWhole) (arg8 : Memref sig .tc .vmem S768x128 .f32) (harg8 : arg8.IsWhole) (arg9 : Memref sig .tc .vmem S128x128 .f32) (harg9 : arg9.IsWhole) (arg10 : Memref sig .tc .vmem S128x128 .f32) (harg10 : arg10.IsWhole) (hc1 : ¬cond1 i) (hc2 : cond2 i) (hc3 : ¬cond3 i) (hc4 : ¬cond4 i) (hc5 : cond5 i)
    (x0 : Vec F S1x768x128 .f32) (x1 : Vec F S1x1x768 .i32) (x2 : Vec F S1x1x768 .i32) (x3 : Vec F S128x128 .f32) (xsAcc : Vec F S768x128 .f32) (xsLow : Vec F S128x128 .f32) (xsUp : Vec F S128x128 .f32) (y : S768x128.Idx) :
    ∃ pc ∈ (kernelRunD c i arg3 harg3 arg4 harg4 arg5 harg5 arg6 harg6 arg7 harg7 arg8 harg8 arg9 harg9 arg10 harg10 hc1 hc2 hc3 hc4 hc5 x0 x1 x2 x3 xsAcc xsLow xsUp).2.1, y ∈ pc.1.set :=
  View.cover_of_tiledL (kernelRunD c i arg3 harg3 arg4 harg4 arg5 harg5 arg6 harg6 arg7 harg7 arg8 harg8 arg9 harg9 arg10 harg10 hc1 hc2 hc3 hc4 hc5 x0 x1 x2 x3 xsAcc xsLow xsUp).2.1 S768x128.size (by sl_kernel_rfl) y

/-- At a point of the fourth kind the row tile's sum ends at the same term as the output block, before the change of shape. -/
theorem readD_acc (c : Dev nD) (i : grid0.Coords) (arg3 : Memref sig .tc .vmem S1x768x128 .f32) (harg3 : arg3.IsWhole) (arg4 : Memref sig .tc .vmem S1x1x768 .i32) (harg4 : arg4.IsWhole) (arg5 : Memref sig .tc .vmem S1x1x768 .i32) (harg5 : arg5.IsWhole) (arg6 : Memref sig .tc .vmem S128x128 .f32) (harg6 : arg6.IsWhole) (arg7 : Memref sig .tc .vmem S1x768x128 .f32) (harg7 : arg7.IsWhole) (arg8 : Memref sig .tc .vmem S768x128 .f32) (harg8 : arg8.IsWhole) (arg9 : Memref sig .tc .vmem S128x128 .f32) (harg9 : arg9.IsWhole) (arg10 : Memref sig .tc .vmem S128x128 .f32) (harg10 : arg10.IsWhole) (hc1 : ¬cond1 i) (hc2 : cond2 i) (hc3 : ¬cond3 i) (hc4 : ¬cond4 i) (hc5 : cond5 i)
    (x0 : Vec F S1x768x128 .f32) (x1 : Vec F S1x1x768 .i32) (x2 : Vec F S1x1x768 .i32) (x3 : Vec F S128x128 .f32) (xsAcc : Vec F S768x128 .f32) (xsLow : Vec F S128x128 .f32) (xsUp : Vec F S128x128 .f32) :
    VSAcc.read (Elt F) (VSAcc.writes (Elt F) VSAcc.junk (kernelRunD c i arg3 harg3 arg4 harg4 arg5 harg5 arg6 harg6 arg7 harg7 arg8 harg8 arg9 harg9 arg10 harg10 hc1 hc2 hc3 hc4 hc5 x0 x1 x2 x3 xsAcc xsLow xsUp).2.1) = k0_pay1 (k0_pay7 x1) (k0_pay9 x3) xsLow xsUp (k0_pay11 x1 x2 x3 x0 xsAcc) := by
  rw [View.read_writes_eq_canon _ _ _ (coverD_acc c i arg3 harg3 arg4 harg4 arg5 harg5 arg6 harg6 arg7 harg7 arg8 harg8 arg9 harg9 arg10 harg10 hc1 hc2 hc3 hc4 hc5 x0 x1 x2 x3 xsAcc xsLow xsUp)]
  unfold kernelRunD
  dsimp only
  sl_unfold_words
  rw [View.canon_cons_unit_zero (S := S768x128) hz2, View.readCov_unit_zero (S := S768x128) _ hz2]
  simp only [View.readAt_eq_ld, harg3.read_unread, harg4.read_unread, harg5.read_unread, harg6.read_unread, harg8.read_unread, harg9.read_unread, harg10.read_unread,
    View.ld_unit_zero (S := S1x768x128) hz3, View.ld_unit_zero (S := S1x1x768) hz3, View.ld_unit_zero (S := S768x128) hz2, View.ld_unit_zero (S := S128x128) hz2,
    View.readCov_unit_zero (S := S768x128) _ hz2, View.readCov_unit_zero (S := S128x128) _ hz2, readCov_cons_unit_zero (S := S768x128) _ hz2]

end Cert.KernelIdeal.Hand

end
-- ==== Proof.KernelTerms.lean ====
/-
  The kernel's two results per batch entry as pure terms over the blocks it loads.

  For batch entry `b` the grid visits (row tile 0, column tile 0), (0, 1), (1, 0), (1, 1). Each row tile resets its three
  scratch accumulators at column tile 0 and writes its output block at column tile 1, so an output block is a
  function of the blocks loaded at its two points only: the two class tiles `c0`, `c1`, the padded table `p` and the
  two feature tiles `xs0`, `xs1`. The terms below compose the body's named payloads in the order the body runs them.
-/
import proofs.«408942_j68186900791974_3_alg».proof.Proof.Gen.KernelIdeal.Skeleton
import Idealize.ShloMosaic.Lib.ValueIdx

noncomputable section

namespace Cert.KernelIdeal.Hand

open Cert.KernelIdeal Cert.KernelIdeal.Gen Idealize.ShloMosaic Idealize.ShloMosaic.ValueIdx

variable {F : FTy → Type} [FloatOps F]

/-- Row tile 0 at column tile 0 (a diagonal block): the accumulator after the reset and the diagonal block's product. -/
def accDiag0 (c0 : Vec F S1x1x768 .i32) (p : Vec F S128x128 .f32) (xs0 : Vec F S1x768x128 .f32) : FVec F S768x128 .f32 :=
  k0_pay11 c0 c0 p xs0 (k0_pay3 (F := F))

/-- Row tile 0 at column tile 1 (above the diagonal): the upper accumulator, column tile 1 folded by class. -/
def upFold (c1 : Vec F S1x1x768 .i32) (xs1 : Vec F S1x768x128 .f32) : FVec F S128x128 .f32 :=
  k0_pay13 c1 xs1 (k0_pay5 (F := F))

/-- Row tile 0's output block, written at column tile 1. -/
def outRow0 (c0 c1 : Vec F S1x1x768 .i32) (p : Vec F S128x128 .f32) (xs0 xs1 : Vec F S1x768x128 .f32) : FVec F S1x768x128 .f32 :=
  k0_pay2 (k0_pay1 (k0_pay7 c0) (k0_pay9 p) (k0_pay4 (F := F)) (upFold c1 xs1) (accDiag0 c0 p xs0))

/-- Row tile 1 at column tile 0 (below the diagonal): the lower accumulator, column tile 0 folded by class. -/
def lowFold (c0 : Vec F S1x1x768 .i32) (xs0 : Vec F S1x768x128 .f32) : FVec F S128x128 .f32 :=
  k0_pay12 c0 xs0 (k0_pay4 (F := F))

/-- Row tile 1 at column tile 1 (a diagonal block): the accumulator, still zero from the reset, plus the diagonal block's product. -/
def accDiag1 (c1 : Vec F S1x1x768 .i32) (p : Vec F S128x128 .f32) (xs1 : Vec F S1x768x128 .f32) : FVec F S768x128 .f32 :=
  k0_pay11 c1 c1 p xs1 (k0_pay3 (F := F))

/-- Row tile 1's output block, written at column tile 1. -/
def outRow1 (c0 c1 : Vec F S1x1x768 .i32) (p : Vec F S128x128 .f32) (xs0 xs1 : Vec F S1x768x128 .f32) : FVec F S1x768x128 .f32 :=
  k0_pay2 (k0_pay1 (k0_pay7 c1) (k0_pay9 p) (lowFold c0 xs0) (k0_pay5 (F := F)) (accDiag1 c1 p xs1))

/-- Tile `k` of batch entry `b`'s padded class words, as the block a class window loads. -/
def clsTile (cip : IVec S16x1x1536 32) (b : Fin 16) (k : Fin 2) : IVec S1x1x768 32 :=
  fun y => cip (ix3 b 0 ⟨768 * k.val + (y 2).val, by have := (y 2).isLt; have := k.isLt; change (y 2).val < 768 at *; omega⟩)

/-- Tile `k` of batch entry `b`'s padded features, as the block the feature window loads. -/
def featTile (srcp : Vec F S16x1536x128 .f32) (b : Fin 16) (k : Fin 2) : Vec F S1x768x128 .f32 :=
  fun y => srcp (ix3 b ⟨768 * k.val + (y 1).val, by have := (y 1).isLt; have := k.isLt; change (y 1).val < 768 at *; omega⟩ (y 2))

end Cert.KernelIdeal.Hand

end
-- ==== Proof.OneHot.lean ====
/-
  The one-hot rows of a class tile, and the other blocks as the body reads them.

  A class tile holds 768 class words. The body compares each word with the lane numbers 0 .. 127 and converts the
  comparison bits to floats: row r of the resulting 768 x 128 matrix has a one in column k exactly when the word of
  row r is k, and zeros elsewhere; a word that is none of 0 .. 127 gives a zero row. Multiplying by such a row and
  summing over the columns therefore selects: the sum over k of [w = k] * f k is f w when w is below 128, and zero
  otherwise, with no hypothesis on w. The relation table and the feature tile enter the products unchanged: at exact
  arithmetic the change of float format is the identity, and the feature tile only loses its leading unit axis.
-/
import proofs.«408942_j68186900791974_3_alg».proof.Proof.Gen.KernelIdeal.Skeleton
import Idealize.ShloMosaic.Lib.ValueIdx
import Idealize.ShloMosaic.Lib.ValueLayout

open scoped BigOperators

namespace Cert.KernelIdeal.Hand

open Cert.KernelIdeal Cert.KernelIdeal.Gen Idealize.ShloMosaic Idealize.ShloMosaic.ValueIdx

/-! ## Three changes of layout read at an entry -/

section Layout
variable {α : Type}

/-- A `[1, 1, a]` array viewed as `[a]` reads, at `i`, the operand at `(0, 0, i)`. -/
theorem shapeCast_11a_a_apply {a : ℕ} (x : (⟨3, ![1, 1, a]⟩ : Shape).Idx → α)
    (h : (⟨3, ![1, 1, a]⟩ : Shape).ShapeCasts ⟨1, ![a]⟩) (i : Fin a) :
    shapeCast ⟨1, ![a]⟩ x h (ix1 i) = x (ix3 (0 : Fin 1) (0 : Fin 1) i) :=
  shapeCast_apply x h _ _ (by
    rw [Shape.rowMajor_val_three, Shape.rowMajor_val_one]
    show (0 * 1 + 0) * a + i.val = i.val
    simp)

/-- An `[a]` array viewed as the column `[a, 1]` reads, at `(i, u)`, the operand at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- A column `[a, 1]` repeated along `b` lanes reads, at `(p, c)`, the column at `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## The class words of a tile and their one-hot rows -/

/-- The class word of row `r` of a class tile. -/
def word (c : IVec S1x1x768 32) (r : Fin 768) : BitVec 32 := c (ix3 (0 : Fin 1) (0 : Fin 1) r)

/-- The tile's words as the body lists them: entry `r` is the word of row `r`. -/
theorem pay6_apply (c : IVec S1x1x768 32) (r : Fin 768) : k0_pay6 (F := Ideal) c (ix1 r) = word c r := by
  unfold k0_pay6
  exact shapeCast_11a_a_apply c _ r

/-- The comparison bit of two words, widened and read as a signed integer, is one when they are equal and zero
    otherwise. -/
theorem eqBit_toInt (x y : BitVec 32) :
    ((((IntOp.cmpi .eq x y).setWidth 32).toInt : ℝ) : EReal) = if x = y then 1 else 0 := by
  by_cases h : x = y
  · have hb : IntOp.cmpi .eq x y = 1#1 := IntOp.cmpi_eq.mpr h
    rw [hb, if_pos h]
    have : ((1#1 : BitVec 1).setWidth 32).toInt = 1 := by decide
    rw [this]; norm_num
  · have hb : IntOp.cmpi .eq x y = 0#1 := eq_zero_of_ne_one fun h1 => h (IntOp.cmpi_eq.mp h1)
    rw [hb, if_neg h]
    have : ((0#1 : BitVec 1).setWidth 32).toInt = 0 := by decide
    rw [this]; norm_num

/-- A word equals lane number `k` below 128 exactly when its value is `k`. -/
theorem word_eq_lane (w : BitVec 32) (k : Fin 128) : w = BitVec.ofNat 32 k.val ↔ w.toNat = k.val := by
  have hk : k.val % 2 ^ 32 = k.val := Nat.mod_eq_of_lt (by have := k.isLt; omega)
  constructor
  · intro h; rw [h, BitVec.toNat_ofNat, hk]
  · intro h; exact BitVec.eq_of_toNat_eq (by rw [BitVec.toNat_ofNat, hk, h])

/-- One entry of a one-hot row: one when the word's value is the column, zero otherwise. -/
noncomputable def hot (w : BitVec 32) (k : Fin 128) : EReal := if w.toNat = k.val then 1 else 0

/-- THE ONE-HOT MATRIX OF THE ROW TILE at `(r, k)`. -/
theorem pay7_apply (c : IVec S1x1x768 32) (r : Fin 768) (k : Fin 128) :
    k0_pay7 (F := Ideal) c (ix2 r k) = hot (word c r) k := by
  have h9 : broadcastTo S768x128 (shapeCast S768x1 (k0_pay6 (F := Ideal) c) shapeCasts_S768_S768x1) broadcasts_S768x1_S768x128 (ix2 r k)
      = word c r :=
    (broadcastTo_a1_ab_apply _ _ r k).trans ((shapeCast_a_a1_apply _ _ r 0).trans (pay6_apply c r))
  have h10 : broadcastTo S768x128 (iota .tc S1x128 32 [1] iota_S1x128_d1_w32) broadcasts_S1x128_S768x128 (ix2 r k)
      = BitVec.ofNat 32 k.val :=
    (broadcastTo_1b_ab_apply _ _ r k).trans (iota_single_apply .tc S1x128 32 1 _ (ix2 (0 : Fin 1) k))
  unfold k0_pay7
  show ((((IntOp.cmpi .eq
      (broadcastTo S768x128 (shapeCast S768x1 (k0_pay6 (F := Ideal) c) shapeCasts_S768_S768x1) broadcasts_S768x1_S768x128 (ix2 r k))
      (broadcastTo S768x128 (iota .tc S1x128 32 [1] iota_S1x128_d1_w32) broadcasts_S1x128_S768x128 (ix2 r k))).setWidth 32).toInt : ℝ) : EReal) = _
  rw [h9, h10, eqBit_toInt]
  unfold hot
  exact if_congr (word_eq_lane _ k) rfl rfl

/-- THE ONE-HOT MATRIX OF THE COLUMN TILE at `(s, k)`: the same function of the column tile's words. -/
theorem pay8_apply (c : IVec S1x1x768 32) (s : Fin 768) (k : Fin 128) :
    k0_pay8 (F := Ideal) c (ix2 s k) = hot (word c s) k := by
  have h9 : broadcastTo S768x128 (shapeCast S768x1 (shapeCast S768 c shapeCasts_S1x1x768_S768) shapeCasts_S768_S768x1) broadcasts_S768x1_S768x128 (ix2 s k)
      = word c s :=
    (broadcastTo_a1_ab_apply _ _ s k).trans ((shapeCast_a_a1_apply _ _ s 0).trans (shapeCast_11a_a_apply c _ s))
  have h10 : broadcastTo S768x128 (iota .tc S1x128 32 [1] iota_S1x128_d1_w32) broadcasts_S1x128_S768x128 (ix2 s k)
      = BitVec.ofNat 32 k.val :=
    (broadcastTo_1b_ab_apply _ _ s k).trans (iota_single_apply .tc S1x128 32 1 _ (ix2 (0 : Fin 1) k))
  unfold k0_pay8
  show ((((IntOp.cmpi .eq
      (broadcastTo S768x128 (shapeCast S768x1 (shapeCast S768 c shapeCasts_S1x1x768_S768) shapeCasts_S768_S768x1) broadcasts_S768x1_S768x128 (ix2 s k))
      (broadcastTo S768x128 (iota .tc S1x128 32 [1] iota_S1x128_d1_w32) broadcasts_S1x128_S768x128 (ix2 s k))).setWidth 32).toInt : ℝ) : EReal) = _
  rw [h9, h10, eqBit_toInt]
  unfold hot
  exact if_congr (word_eq_lane _ k) rfl rfl

/-! ## Summing against a one-hot row selects -/

/-- The sum over the columns of a one-hot row times `f` is `f` at the word when the word is below 128, and zero
    otherwise. -/
theorem hot_sum (w : BitVec 32) (f : Fin 128 → EReal) :
    ∑ k : Fin 128, hot w k * f k = if h : w.toNat < 128 then f ⟨w.toNat, h⟩ else 0 := by
  unfold hot
  by_cases h : w.toNat < 128
  · rw [dif_pos h, Finset.sum_eq_single (⟨w.toNat, h⟩ : Fin 128)]
    · rw [if_pos rfl, one_mul]
    · intro k _ hk
      rw [if_neg (fun e => hk (Fin.ext e.symm)), zero_mul]
    · intro hn; exact absurd (Finset.mem_univ _) hn
  · rw [dif_neg h]
    exact Finset.sum_eq_zero fun k _ => by
      rw [if_neg (show ¬w.toNat = k.val from fun e => h (by rw [e]; exact k.isLt)), zero_mul]

/-- The same with the one-hot entry as the right factor. -/
theorem sum_hot (w : BitVec 32) (f : Fin 128 → EReal) :
    ∑ k : Fin 128, f k * hot w k = if h : w.toNat < 128 then f ⟨w.toNat, h⟩ else 0 := by
  rw [← hot_sum w f]
  exact Finset.sum_congr rfl fun k _ => mul_comm _ _

/-! ## The table and the feature tile as the products read them -/

/-- The relation table enters the products unchanged. -/
theorem pay9_apply (p : FVec Ideal S128x128 .f32) (a b : Fin 128) : k0_pay9 (F := Ideal) p (ix2 a b) = p (ix2 a b) := by
  unfold k0_pay9
  show shapeCast S128x128 p shapeCasts_S128x128_S128x128 (ix2 a b) = _
  rw [shapeCast_self]

/-- The feature tile enters the products without its leading unit axis. -/
theorem pay10_apply (xs : FVec Ideal S1x768x128 .f32) (s : Fin 768) (d : Fin 128) :
    k0_pay10 (F := Ideal) xs (ix2 s d) = xs (ix3 (0 : Fin 1) s d) := by
  unfold k0_pay10
  exact shapeCast_1ab_ab_apply xs _ s d

end Cert.KernelIdeal.Hand
-- ==== Proof.Contractions.lean ====
/-
  The kernel's five matrix products, each read at one entry.

  Every product in the body contracts exactly one axis of each operand and starts from the zero accumulator, so at
  exact arithmetic an entry of the result is a plain finite sum over the contracted coordinate. The five shapes are:
  rows times a square table (one-hot rows against the relation table), rows times the transposed table, rows against
  rows (a 768 x 768 block out of two 768 x 128 operands contracted over their 128 columns), a square block times a
  feature tile, and the fold of a tile by class (two 768-row operands contracted over the rows). For each, the operand
  positions at result entry (p, q) and contraction coordinate k are written out, and the sum is re-indexed over the
  coordinate itself.
-/
import proofs.«408942_j68186900791974_3_alg».proof.Proof.Gen.KernelIdeal
import Idealize.ShloMosaic.PureOps.Ideal.Laws
import Idealize.ShloMosaic.Lib.ValueIdx

open scoped BigOperators

namespace Cert.KernelIdeal.Hand

open Cert.KernelIdeal Cert.KernelIdeal.Gen Idealize.ShloMosaic Idealize.ShloMosaic.ValueIdx

/-! ## Rows times a table: entry (p, q) is the sum over k of l[p, k] * r[k, q] -/

theorem lhs_rowsTable_0 (i : S768x128.Idx) (q : dot_S768x128_S128x128_S768x128_1_0_0_1_n_n.contr.Idx) :
    (dot_S768x128_S128x128_S768x128_1_0_0_1_n_n.lhsIdx i q 0).val = (i 0).val := by
  unfold DotDims.lhsIdx
  rw [dif_neg (show ¬(0 : Fin S768x128.rank) ∈ dot_S768x128_S128x128_S768x128_1_0_0_1_n_n.lhsBatch by decide), dif_pos (show (0 : Fin S768x128.rank) ∈ dot_S768x128_S128x128_S768x128_1_0_0_1_n_n.lhsNonContracting by decide)]
  rfl
theorem lhs_rowsTable_1 (i : S768x128.Idx) (q : dot_S768x128_S128x128_S768x128_1_0_0_1_n_n.contr.Idx) :
    (dot_S768x128_S128x128_S768x128_1_0_0_1_n_n.lhsIdx i q 1).val = (q ⟨0, by decide⟩).val :=
  dot_S768x128_S128x128_S768x128_1_0_0_1_n_n.lhsIdx_val_of_single rfl i q
theorem rhs_rowsTable_0 (i : S768x128.Idx) (q : dot_S768x128_S128x128_S768x128_1_0_0_1_n_n.contr.Idx) :
    (dot_S768x128_S128x128_S768x128_1_0_0_1_n_n.rhsIdx i q 0).val = (q ⟨0, by decide⟩).val :=
  dot_S768x128_S128x128_S768x128_1_0_0_1_n_n.rhsIdx_val_of_single rfl i q
theorem rhs_rowsTable_1 (i : S768x128.Idx) (q : dot_S768x128_S128x128_S768x128_1_0_0_1_n_n.contr.Idx) :
    (dot_S768x128_S128x128_S768x128_1_0_0_1_n_n.rhsIdx i q 1).val = (i 1).val := by
  unfold DotDims.rhsIdx
  rw [dif_neg (show ¬(1 : Fin S128x128.rank) ∈ dot_S768x128_S128x128_S768x128_1_0_0_1_n_n.rhsBatch by decide), dif_pos (show (1 : Fin S128x128.rank) ∈ dot_S768x128_S128x128_S768x128_1_0_0_1_n_n.rhsNonContracting by decide)]
  rfl

/-- A 768 x 128 operand times a 128 x 128 one, from zero: entry (p, q) is the sum over k of l[p, k] * r[k, q]. -/
theorem rowsTable_apply {φ₁ φ₂ : FTy} (l : FVec Ideal S768x128 φ₁) (r : FVec Ideal S128x128 φ₂) (p : Fin 768) (q : Fin 128) :
    matmul dot_S768x128_S128x128_S768x128_1_0_0_1_n_n none l r (constant (F := Ideal) S768x128 .f32 0x00000000#32) (ix2 p q)
      = ∑ k : Fin 128, l (ix2 p k) * r (ix2 k q) := by
  simp only [matmul]
  rw [Ideal.matmul_constant_zero_apply, ← Equiv.sum_comp (contrEquiv1 dot_S768x128_S128x128_S768x128_1_0_0_1_n_n 128 rfl rfl).symm]
  refine Finset.sum_congr rfl fun k _ => ?_
  have hk := contrEquiv1_symm_val dot_S768x128_S128x128_S768x128_1_0_0_1_n_n 128 rfl rfl k
  have el : dot_S768x128_S128x128_S768x128_1_0_0_1_n_n.lhsIdx (ix2 p q) ((contrEquiv1 dot_S768x128_S128x128_S768x128_1_0_0_1_n_n 128 rfl rfl).symm k) = ix2 p k := funext fun a => Fin.ext (by
    match a with
    | ⟨0, _⟩ => exact lhs_rowsTable_0 _ _
    | ⟨1, _⟩ => exact (lhs_rowsTable_1 _ _).trans hk)
  have er : dot_S768x128_S128x128_S768x128_1_0_0_1_n_n.rhsIdx (ix2 p q) ((contrEquiv1 dot_S768x128_S128x128_S768x128_1_0_0_1_n_n 128 rfl rfl).symm k) = ix2 k q := funext fun a => Fin.ext (by
    match a with
    | ⟨0, _⟩ => exact (rhs_rowsTable_0 _ _).trans hk
    | ⟨1, _⟩ => exact rhs_rowsTable_1 _ _)
  rw [el, er]

/-! ## Rows times the transposed table: entry (p, q) is the sum over k of l[p, k] * r[q, k] -/

theorem lhs_rowsTableT_0 (i : S768x128.Idx) (q : dot_S768x128_S128x128_S768x128_1_1_0_0_n_n.contr.Idx) :
    (dot_S768x128_S128x128_S768x128_1_1_0_0_n_n.lhsIdx i q 0).val = (i 0).val := by
  unfold DotDims.lhsIdx
  rw [dif_neg (show ¬(0 : Fin S768x128.rank) ∈ dot_S768x128_S128x128_S768x128_1_1_0_0_n_n.lhsBatch by decide), dif_pos (show (0 : Fin S768x128.rank) ∈ dot_S768x128_S128x128_S768x128_1_1_0_0_n_n.lhsNonContracting by decide)]
  rfl
theorem lhs_rowsTableT_1 (i : S768x128.Idx) (q : dot_S768x128_S128x128_S768x128_1_1_0_0_n_n.contr.Idx) :
    (dot_S768x128_S128x128_S768x128_1_1_0_0_n_n.lhsIdx i q 1).val = (q ⟨0, by decide⟩).val :=
  dot_S768x128_S128x128_S768x128_1_1_0_0_n_n.lhsIdx_val_of_single rfl i q
theorem rhs_rowsTableT_0 (i : S768x128.Idx) (q : dot_S768x128_S128x128_S768x128_1_1_0_0_n_n.contr.Idx) :
    (dot_S768x128_S128x128_S768x128_1_1_0_0_n_n.rhsIdx i q 0).val = (i 1).val := by
  unfold DotDims.rhsIdx
  rw [dif_neg (show ¬(0 : Fin S128x128.rank) ∈ dot_S768x128_S128x128_S768x128_1_1_0_0_n_n.rhsBatch by decide), dif_pos (show (0 : Fin S128x128.rank) ∈ dot_S768x128_S128x128_S768x128_1_1_0_0_n_n.rhsNonContracting by decide)]
  rfl
theorem rhs_rowsTableT_1 (i : S768x128.Idx) (q : dot_S768x128_S128x128_S768x128_1_1_0_0_n_n.contr.Idx) :
    (dot_S768x128_S128x128_S768x128_1_1_0_0_n_n.rhsIdx i q 1).val = (q ⟨0, by decide⟩).val :=
  dot_S768x128_S128x128_S768x128_1_1_0_0_n_n.rhsIdx_val_of_single rfl i q

/-- A 768 x 128 operand against a 128 x 128 one contracted over BOTH operands' second axis, from zero: entry (p, q) is
    the sum over k of l[p, k] * r[q, k]. -/
theorem rowsTableT_apply {φ₁ φ₂ : FTy} (l : FVec Ideal S768x128 φ₁) (r : FVec Ideal S128x128 φ₂) (p : Fin 768) (q : Fin 128) :
    matmul dot_S768x128_S128x128_S768x128_1_1_0_0_n_n none l r (constant (F := Ideal) S768x128 .f32 0x00000000#32) (ix2 p q)
      = ∑ k : Fin 128, l (ix2 p k) * r (ix2 q k) := by
  simp only [matmul]
  rw [Ideal.matmul_constant_zero_apply, ← Equiv.sum_comp (contrEquiv1 dot_S768x128_S128x128_S768x128_1_1_0_0_n_n 128 rfl rfl).symm]
  refine Finset.sum_congr rfl fun k _ => ?_
  have hk := contrEquiv1_symm_val dot_S768x128_S128x128_S768x128_1_1_0_0_n_n 128 rfl rfl k
  have el : dot_S768x128_S128x128_S768x128_1_1_0_0_n_n.lhsIdx (ix2 p q) ((contrEquiv1 dot_S768x128_S128x128_S768x128_1_1_0_0_n_n 128 rfl rfl).symm k) = ix2 p k := funext fun a => Fin.ext (by
    match a with
    | ⟨0, _⟩ => exact lhs_rowsTableT_0 _ _
    | ⟨1, _⟩ => exact (lhs_rowsTableT_1 _ _).trans hk)
  have er : dot_S768x128_S128x128_S768x128_1_1_0_0_n_n.rhsIdx (ix2 p q) ((contrEquiv1 dot_S768x128_S128x128_S768x128_1_1_0_0_n_n 128 rfl rfl).symm k) = ix2 q k := funext fun a => Fin.ext (by
    match a with
    | ⟨0, _⟩ => exact rhs_rowsTableT_0 _ _
    | ⟨1, _⟩ => exact (rhs_rowsTableT_1 _ _).trans hk)
  rw [el, er]

/-! ## Rows against rows: entry (p, q) of the 768 x 768 block is the sum over k of l[p, k] * r[q, k] -/

theorem lhs_rowsRows_0 (i : S768x768.Idx) (q : dot_S768x128_S768x128_S768x768_1_1_0_0_n_n.contr.Idx) :
    (dot_S768x128_S768x128_S768x768_1_1_0_0_n_n.lhsIdx i q 0).val = (i 0).val := by
  unfold DotDims.lhsIdx
  rw [dif_neg (show ¬(0 : Fin S768x128.rank) ∈ dot_S768x128_S768x128_S768x768_1_1_0_0_n_n.lhsBatch by decide), dif_pos (show (0 : Fin S768x128.rank) ∈ dot_S768x128_S768x128_S768x768_1_1_0_0_n_n.lhsNonContracting by decide)]
  rfl
theorem lhs_rowsRows_1 (i : S768x768.Idx) (q : dot_S768x128_S768x128_S768x768_1_1_0_0_n_n.contr.Idx) :
    (dot_S768x128_S768x128_S768x768_1_1_0_0_n_n.lhsIdx i q 1).val = (q ⟨0, by decide⟩).val :=
  dot_S768x128_S768x128_S768x768_1_1_0_0_n_n.lhsIdx_val_of_single rfl i q
theorem rhs_rowsRows_0 (i : S768x768.Idx) (q : dot_S768x128_S768x128_S768x768_1_1_0_0_n_n.contr.Idx) :
    (dot_S768x128_S768x128_S768x768_1_1_0_0_n_n.rhsIdx i q 0).val = (i 1).val := by
  unfold DotDims.rhsIdx
  rw [dif_neg (show ¬(0 : Fin S768x128.rank) ∈ dot_S768x128_S768x128_S768x768_1_1_0_0_n_n.rhsBatch by decide), dif_pos (show (0 : Fin S768x128.rank) ∈ dot_S768x128_S768x128_S768x768_1_1_0_0_n_n.rhsNonContracting by decide)]
  rfl
theorem rhs_rowsRows_1 (i : S768x768.Idx) (q : dot_S768x128_S768x128_S768x768_1_1_0_0_n_n.contr.Idx) :
    (dot_S768x128_S768x128_S768x768_1_1_0_0_n_n.rhsIdx i q 1).val = (q ⟨0, by decide⟩).val :=
  dot_S768x128_S768x128_S768x768_1_1_0_0_n_n.rhsIdx_val_of_single rfl i q

/-- Two 768 x 128 operands contracted over their 128 columns, from zero: entry (p, q) of the 768 x 768 result is the
    sum over k of l[p, k] * r[q, k]. -/
theorem rowsRows_apply {φ₁ φ₂ : FTy} (l : FVec Ideal S768x128 φ₁) (r : FVec Ideal S768x128 φ₂) (p : Fin 768) (q : Fin 768) :
    matmul dot_S768x128_S768x128_S768x768_1_1_0_0_n_n none l r (constant (F := Ideal) S768x768 .f32 0x00000000#32) (ix2 p q)
      = ∑ k : Fin 128, l (ix2 p k) * r (ix2 q k) := by
  simp only [matmul]
  rw [Ideal.matmul_constant_zero_apply, ← Equiv.sum_comp (contrEquiv1 dot_S768x128_S768x128_S768x768_1_1_0_0_n_n 128 rfl rfl).symm]
  refine Finset.sum_congr rfl fun k _ => ?_
  have hk := contrEquiv1_symm_val dot_S768x128_S768x128_S768x768_1_1_0_0_n_n 128 rfl rfl k
  have el : dot_S768x128_S768x128_S768x768_1_1_0_0_n_n.lhsIdx (ix2 p q) ((contrEquiv1 dot_S768x128_S768x128_S768x768_1_1_0_0_n_n 128 rfl rfl).symm k) = ix2 p k := funext fun a => Fin.ext (by
    match a with
    | ⟨0, _⟩ => exact lhs_rowsRows_0 _ _
    | ⟨1, _⟩ => exact (lhs_rowsRows_1 _ _).trans hk)
  have er : dot_S768x128_S768x128_S768x768_1_1_0_0_n_n.rhsIdx (ix2 p q) ((contrEquiv1 dot_S768x128_S768x128_S768x768_1_1_0_0_n_n 128 rfl rfl).symm k) = ix2 q k := funext fun a => Fin.ext (by
    match a with
    | ⟨0, _⟩ => exact rhs_rowsRows_0 _ _
    | ⟨1, _⟩ => exact (rhs_rowsRows_1 _ _).trans hk)
  rw [el, er]

/-! ## A square block times a feature tile: entry (p, q) is the sum over s of l[p, s] * r[s, q] -/

theorem lhs_blockTile_0 (i : S768x128.Idx) (q : dot_S768x768_S768x128_S768x128_1_0_0_1_n_n.contr.Idx) :
    (dot_S768x768_S768x128_S768x128_1_0_0_1_n_n.lhsIdx i q 0).val = (i 0).val := by
  unfold DotDims.lhsIdx
  rw [dif_neg (show ¬(0 : Fin S768x768.rank) ∈ dot_S768x768_S768x128_S768x128_1_0_0_1_n_n.lhsBatch by decide), dif_pos (show (0 : Fin S768x768.rank) ∈ dot_S768x768_S768x128_S768x128_1_0_0_1_n_n.lhsNonContracting by decide)]
  rfl
theorem lhs_blockTile_1 (i : S768x128.Idx) (q : dot_S768x768_S768x128_S768x128_1_0_0_1_n_n.contr.Idx) :
    (dot_S768x768_S768x128_S768x128_1_0_0_1_n_n.lhsIdx i q 1).val = (q ⟨0, by decide⟩).val :=
  dot_S768x768_S768x128_S768x128_1_0_0_1_n_n.lhsIdx_val_of_single rfl i q
theorem rhs_blockTile_0 (i : S768x128.Idx) (q : dot_S768x768_S768x128_S768x128_1_0_0_1_n_n.contr.Idx) :
    (dot_S768x768_S768x128_S768x128_1_0_0_1_n_n.rhsIdx i q 0).val = (q ⟨0, by decide⟩).val :=
  dot_S768x768_S768x128_S768x128_1_0_0_1_n_n.rhsIdx_val_of_single rfl i q
theorem rhs_blockTile_1 (i : S768x128.Idx) (q : dot_S768x768_S768x128_S768x128_1_0_0_1_n_n.contr.Idx) :
    (dot_S768x768_S768x128_S768x128_1_0_0_1_n_n.rhsIdx i q 1).val = (i 1).val := by
  unfold DotDims.rhsIdx
  rw [dif_neg (show ¬(1 : Fin S768x128.rank) ∈ dot_S768x768_S768x128_S768x128_1_0_0_1_n_n.rhsBatch by decide), dif_pos (show (1 : Fin S768x128.rank) ∈ dot_S768x768_S768x128_S768x128_1_0_0_1_n_n.rhsNonContracting by decide)]
  rfl

/-- A 768 x 768 block times a 768 x 128 tile, from zero: entry (p, q) is the sum over s of l[p, s] * r[s, q]. -/
theorem blockTile_apply {φ₁ φ₂ : FTy} (l : FVec Ideal S768x768 φ₁) (r : FVec Ideal S768x128 φ₂) (p : Fin 768) (q : Fin 128) :
    matmul dot_S768x768_S768x128_S768x128_1_0_0_1_n_n none l r (constant (F := Ideal) S768x128 .f32 0x00000000#32) (ix2 p q)
      = ∑ k : Fin 768, l (ix2 p k) * r (ix2 k q) := by
  simp only [matmul]
  rw [Ideal.matmul_constant_zero_apply, ← Equiv.sum_comp (contrEquiv1 dot_S768x768_S768x128_S768x128_1_0_0_1_n_n 768 rfl rfl).symm]
  refine Finset.sum_congr rfl fun k _ => ?_
  have hk := contrEquiv1_symm_val dot_S768x768_S768x128_S768x128_1_0_0_1_n_n 768 rfl rfl k
  have el : dot_S768x768_S768x128_S768x128_1_0_0_1_n_n.lhsIdx (ix2 p q) ((contrEquiv1 dot_S768x768_S768x128_S768x128_1_0_0_1_n_n 768 rfl rfl).symm k) = ix2 p k := funext fun a => Fin.ext (by
    match a with
    | ⟨0, _⟩ => exact lhs_blockTile_0 _ _
    | ⟨1, _⟩ => exact (lhs_blockTile_1 _ _).trans hk)
  have er : dot_S768x768_S768x128_S768x128_1_0_0_1_n_n.rhsIdx (ix2 p q) ((contrEquiv1 dot_S768x768_S768x128_S768x128_1_0_0_1_n_n 768 rfl rfl).symm k) = ix2 k q := funext fun a => Fin.ext (by
    match a with
    | ⟨0, _⟩ => exact (rhs_blockTile_0 _ _).trans hk
    | ⟨1, _⟩ => exact rhs_blockTile_1 _ _)
  rw [el, er]

/-! ## A tile folded by class: entry (p, q) of the 128 x 128 result is the sum over the rows s of l[s, p] * r[s, q] -/

theorem lhs_foldRows_0 (i : S128x128.Idx) (q : dot_S768x128_S768x128_S128x128_0_0_1_1_n_n.contr.Idx) :
    (dot_S768x128_S768x128_S128x128_0_0_1_1_n_n.lhsIdx i q 0).val = (q ⟨0, by decide⟩).val :=
  dot_S768x128_S768x128_S128x128_0_0_1_1_n_n.lhsIdx_val_of_single rfl i q
theorem lhs_foldRows_1 (i : S128x128.Idx) (q : dot_S768x128_S768x128_S128x128_0_0_1_1_n_n.contr.Idx) :
    (dot_S768x128_S768x128_S128x128_0_0_1_1_n_n.lhsIdx i q 1).val = (i 0).val := by
  unfold DotDims.lhsIdx
  rw [dif_neg (show ¬(1 : Fin S768x128.rank) ∈ dot_S768x128_S768x128_S128x128_0_0_1_1_n_n.lhsBatch by decide), dif_pos (show (1 : Fin S768x128.rank) ∈ dot_S768x128_S768x128_S128x128_0_0_1_1_n_n.lhsNonContracting by decide)]
  rfl
theorem rhs_foldRows_0 (i : S128x128.Idx) (q : dot_S768x128_S768x128_S128x128_0_0_1_1_n_n.contr.Idx) :
    (dot_S768x128_S768x128_S128x128_0_0_1_1_n_n.rhsIdx i q 0).val = (q ⟨0, by decide⟩).val :=
  dot_S768x128_S768x128_S128x128_0_0_1_1_n_n.rhsIdx_val_of_single rfl i q
theorem rhs_foldRows_1 (i : S128x128.Idx) (q : dot_S768x128_S768x128_S128x128_0_0_1_1_n_n.contr.Idx) :
    (dot_S768x128_S768x128_S128x128_0_0_1_1_n_n.rhsIdx i q 1).val = (i 1).val := by
  unfold DotDims.rhsIdx
  rw [dif_neg (show ¬(1 : Fin S768x128.rank) ∈ dot_S768x128_S768x128_S128x128_0_0_1_1_n_n.rhsBatch by decide), dif_pos (show (1 : Fin S768x128.rank) ∈ dot_S768x128_S768x128_S128x128_0_0_1_1_n_n.rhsNonContracting by decide)]
  rfl

/-- Two 768 x 128 operands contracted over their 768 rows, from zero: entry (p, q) of the 128 x 128 result is the sum
    over s of l[s, p] * r[s, q]. -/
theorem foldRows_apply {φ₁ φ₂ : FTy} (l : FVec Ideal S768x128 φ₁) (r : FVec Ideal S768x128 φ₂) (p : Fin 128) (q : Fin 128) :
    matmul dot_S768x128_S768x128_S128x128_0_0_1_1_n_n none l r (constant (F := Ideal) S128x128 .f32 0x00000000#32) (ix2 p q)
      = ∑ k : Fin 768, l (ix2 k p) * r (ix2 k q) := by
  simp only [matmul]
  rw [Ideal.matmul_constant_zero_apply, ← Equiv.sum_comp (contrEquiv1 dot_S768x128_S768x128_S128x128_0_0_1_1_n_n 768 rfl rfl).symm]
  refine Finset.sum_congr rfl fun k _ => ?_
  have hk := contrEquiv1_symm_val dot_S768x128_S768x128_S128x128_0_0_1_1_n_n 768 rfl rfl k
  have el : dot_S768x128_S768x128_S128x128_0_0_1_1_n_n.lhsIdx (ix2 p q) ((contrEquiv1 dot_S768x128_S768x128_S128x128_0_0_1_1_n_n 768 rfl rfl).symm k) = ix2 k p := funext fun a => Fin.ext (by
    match a with
    | ⟨0, _⟩ => exact (lhs_foldRows_0 _ _).trans hk
    | ⟨1, _⟩ => exact lhs_foldRows_1 _ _)
  have er : dot_S768x128_S768x128_S128x128_0_0_1_1_n_n.rhsIdx (ix2 p q) ((contrEquiv1 dot_S768x128_S768x128_S128x128_0_0_1_1_n_n 768 rfl rfl).symm k) = ix2 k q := funext fun a => Fin.ext (by
    match a with
    | ⟨0, _⟩ => exact (rhs_foldRows_0 _ _).trans hk
    | ⟨1, _⟩ => exact rhs_foldRows_1 _ _)
  rw [el, er]

end Cert.KernelIdeal.Hand
-- ==== Proof.TableRows.lean ====
/-
  Gathering rows of the relation table by a one-hot product.

  Multiplying the one-hot matrix of a tile by the padded table picks, for row r, the table row of that row's class
  word: entry (r, k) is P[w_r, k] when the word is below 128 and zero otherwise. Against the transposed table it
  picks the table column instead, P[k, w_r]. Contracting such a gathered row once more against a one-hot row of a
  second word lands on a single table entry, which is the padded table's lookup at the two words, zero as soon as
  either word is outside the square.
-/
import proofs.«408942_j68186900791974_3_alg».proof.Proof.OneHot
import proofs.«408942_j68186900791974_3_alg».proof.Proof.Contractions
import proofs.«408942_j68186900791974_3_alg».proof.Proof.Spec

open scoped BigOperators

namespace Cert.KernelIdeal.Hand

open Cert.KernelIdeal Cert.KernelIdeal.Gen Cert.Proof.Spec Idealize.ShloMosaic Idealize.ShloMosaic.ValueIdx

/-- Row `w` of the padded table at column `k`; the zero row when `w` is no row of the square. -/
noncomputable def rowOf (p : FVec Ideal S128x128 .f32) (w : BitVec 32) (k : Fin 128) : EReal :=
  if h : w.toNat < 128 then p (ix2 ⟨w.toNat, h⟩ k) else 0

/-- Column `w` of the padded table at row `k`; the zero column when `w` is no column of the square. -/
noncomputable def colOf (p : FVec Ideal S128x128 .f32) (w : BitVec 32) (k : Fin 128) : EReal :=
  if h : w.toNat < 128 then p (ix2 k ⟨w.toNat, h⟩) else 0

/-- One-hot rows times the table: row `r` of the product is the table row of `r`'s class word. -/
theorem aRow_apply (c : IVec S1x1x768 32) (p : FVec Ideal S128x128 .f32) (r : Fin 768) (k : Fin 128) :
    matmul dot_S768x128_S128x128_S768x128_1_0_0_1_n_n none (k0_pay7 (F := Ideal) c) (k0_pay9 (F := Ideal) p)
        (constant (F := Ideal) S768x128 .f32 0x00000000#32) (ix2 r k)
      = rowOf p (word c r) k := by
  refine (rowsTable_apply _ _ r k).trans ?_
  refine (Finset.sum_congr rfl fun j _ => by rw [pay7_apply, pay9_apply]).trans ?_
  exact hot_sum (word c r) (fun j => p (ix2 j k))

/-- One-hot rows times the transposed table: row `r` of the product is the table column of `r`'s class word. -/
theorem bRow_apply (c : IVec S1x1x768 32) (p : FVec Ideal S128x128 .f32) (r : Fin 768) (k : Fin 128) :
    matmul dot_S768x128_S128x128_S768x128_1_1_0_0_n_n none (k0_pay7 (F := Ideal) c) (k0_pay9 (F := Ideal) p)
        (constant (F := Ideal) S768x128 .f32 0x00000000#32) (ix2 r k)
      = colOf p (word c r) k := by
  refine (rowsTableT_apply _ _ r k).trans ?_
  refine (Finset.sum_congr rfl fun j _ => by rw [pay7_apply, pay9_apply]).trans ?_
  exact hot_sum (word c r) (fun j => p (ix2 k j))

/-- A gathered table row against a one-hot row: the table's entry at the two words. -/
theorem rowOf_dot_hot (p : FVec Ideal S128x128 .f32) (u v : BitVec 32) :
    ∑ k : Fin 128, rowOf p u k * hot v k = tabPad p u v := by
  rw [sum_hot]
  unfold rowOf tabPad
  by_cases hu : u.toNat < 128 <;> by_cases hv : v.toNat < 128
  · rw [dif_pos hv, dif_pos hu, dif_pos ⟨hu, hv⟩]
  · rw [dif_neg hv, dif_neg (fun h => hv h.2)]
  · rw [dif_pos hv, dif_neg hu, dif_neg (fun h => hu h.1)]
  · rw [dif_neg hv, dif_neg (fun h => hv h.2)]

/-- The same with the one-hot entry as the left factor. -/
theorem hot_dot_rowOf (p : FVec Ideal S128x128 .f32) (u v : BitVec 32) :
    ∑ k : Fin 128, hot v k * rowOf p u k = tabPad p u v :=
  (Finset.sum_congr rfl fun _ _ => mul_comm _ _).trans (rowOf_dot_hot p u v)

/-- A gathered table column against a one-hot row: the table's entry with the two words in the other order. -/
theorem colOf_dot_hot (p : FVec Ideal S128x128 .f32) (u v : BitVec 32) :
    ∑ k : Fin 128, colOf p u k * hot v k = tabPad p v u := by
  rw [sum_hot]
  unfold colOf tabPad
  by_cases hu : u.toNat < 128 <;> by_cases hv : v.toNat < 128
  · rw [dif_pos hv, dif_pos hu, dif_pos ⟨hv, hu⟩]
  · rw [dif_neg hv, dif_neg (fun h => hv h.1)]
  · rw [dif_pos hv, dif_neg hu, dif_neg (fun h => hu h.2)]
  · rw [dif_neg hv, dif_neg (fun h => hv h.1)]

/-! ## Every entry involved is a real number when the table's entries are -/

theorem hot_real (w : BitVec 32) (k : Fin 128) : ∃ r : ℝ, hot w k = (r : EReal) := by
  unfold hot
  split
  · exact ⟨1, EReal.coe_one.symm⟩
  · exact ⟨0, EReal.coe_zero.symm⟩

theorem rowOf_real (p : FVec Ideal S128x128 .f32) (hP : ∀ i, ∃ r : ℝ, p i = (r : EReal)) (w : BitVec 32) (k : Fin 128) :
    ∃ r : ℝ, rowOf p w k = (r : EReal) := by
  unfold rowOf
  split
  · exact hP _
  · exact ⟨0, EReal.coe_zero.symm⟩

theorem colOf_real (p : FVec Ideal S128x128 .f32) (hP : ∀ i, ∃ r : ℝ, p i = (r : EReal)) (w : BitVec 32) (k : Fin 128) :
    ∃ r : ℝ, colOf p w k = (r : EReal) := by
  unfold colOf
  split
  · exact hP _
  · exact ⟨0, EReal.coe_zero.symm⟩

theorem tabPad_real (p : FVec Ideal S128x128 .f32) (hP : ∀ i, ∃ r : ℝ, p i = (r : EReal)) (u v : BitVec 32) :
    ∃ r : ℝ, tabPad p u v = (r : EReal) := by
  unfold tabPad
  split
  · exact hP _
  · exact ⟨0, EReal.coe_zero.symm⟩

end Cert.KernelIdeal.Hand
-- ==== Proof.DiagBlock.lean ====
/-
  The diagonal block: the graph of one tile against itself, applied to the tile's features.

  When the row tile and the column tile are the same 768 nodes, the body builds the 768 x 768 block of the graph
  entry by entry. Below the diagonal (s < r) it takes the gathered table rows against the one-hot rows, which is the
  table at the words of r and s; above the diagonal it takes the transposed arrangement, the table at the words of s
  and r; on the diagonal it takes zero, and then adds one there unless the node's word is zero. Since both tiles start
  at the same node, comparing the positions inside the tile is comparing the nodes. The block times the feature tile,
  added to the running accumulator, is the accumulator plus the sum over the tile's nodes s of that entry times the
  features of s.
-/
import proofs.«408942_j68186900791974_3_alg».proof.Proof.TableRows

open scoped BigOperators

namespace Cert.KernelIdeal.Hand

open Cert.KernelIdeal Cert.KernelIdeal.Gen Cert.Proof.Spec Idealize.ShloMosaic Idealize.ShloMosaic.ValueIdx

/-- The graph of a tile against itself at local positions `(r, s)`. -/
noncomputable def diagEntry (p : FVec Ideal S128x128 .f32) (c : IVec S1x1x768 32) (r s : Fin 768) : EReal :=
  if s.val < r.val then tabPad p (word c r) (word c s)
  else if r.val < s.val then tabPad p (word c s) (word c r)
  else if word c r = 0#32 then 0 else 1

/-- A position inside a tile, as a 32-bit word read signed, is the position. -/
theorem lane_toInt (n : Fin 768) : (BitVec.ofNat 32 n.val).toInt = (n.val : Int) := by
  have hn : (BitVec.ofNat 32 n.val).toNat = n.val := by
    rw [BitVec.toNat_ofNat]; exact Nat.mod_eq_of_lt (by have := n.isLt; omega)
  rw [BitVec.toInt_eq_toNat_cond, hn]
  have := n.isLt
  split <;> omega

/-- The comparison bit "not equal", widened and read as a signed integer: zero when the words are equal, else one. -/
theorem neBit_toInt (x y : BitVec 32) :
    ((((IntOp.cmpi .ne x y).setWidth 32).toInt : ℝ) : EReal) = if x = y then 0 else 1 := by
  by_cases h : x = y
  · have hb : IntOp.cmpi .ne x y = 0#1 := eq_zero_of_ne_one fun h1 => (IntOp.cmpi_ne.mp h1) h
    rw [hb, if_pos h]
    have : ((0#1 : BitVec 1).setWidth 32).toInt = 0 := by decide
    rw [this]; norm_num
  · have hb : IntOp.cmpi .ne x y = 1#1 := IntOp.cmpi_ne.mpr h
    rw [hb, if_neg h]
    have : ((1#1 : BitVec 1).setWidth 32).toInt = 1 := by decide
    rw [this]; norm_num

/-- The choice between the two triangular arrangements by the positions' order: `G` strictly below the diagonal,
    `GT` strictly above it, zero on it. -/
theorem triSelect_apply (G GT : FVec Ideal S768x768 .f32) (r s : Fin 768) :
    select (cmpi .sgt (iota .tc S768x768 32 [0] iota_S768x768_d0_w32) (iota .tc S768x768 32 [1] iota_S768x768_d1_w32)) G
        (select (cmpi .slt (iota .tc S768x768 32 [0] iota_S768x768_d0_w32) (iota .tc S768x768 32 [1] iota_S768x768_d1_w32)) GT
          (broadcast S768x768 (Scalar.ofBits (F := Ideal) .f32 0x00000000#32))) (ix2 r s)
      = if s.val < r.val then G (ix2 r s) else if r.val < s.val then GT (ix2 r s) else 0 := by
  have e0 : iota .tc S768x768 32 [0] iota_S768x768_d0_w32 (ix2 r s) = BitVec.ofNat 32 r.val :=
    iota_single_apply .tc S768x768 32 0 _ (ix2 r s)
  have e1 : iota .tc S768x768 32 [1] iota_S768x768_d1_w32 (ix2 r s) = BitVec.ofNat 32 s.val :=
    iota_single_apply .tc S768x768 32 1 _ (ix2 r s)
  show Scalar.select (IntOp.cmpi .sgt (iota .tc S768x768 32 [0] iota_S768x768_d0_w32 (ix2 r s)) (iota .tc S768x768 32 [1] iota_S768x768_d1_w32 (ix2 r s)))
      (G (ix2 r s))
      (Scalar.select (IntOp.cmpi .slt (iota .tc S768x768 32 [0] iota_S768x768_d0_w32 (ix2 r s)) (iota .tc S768x768 32 [1] iota_S768x768_d1_w32 (ix2 r s)))
        (GT (ix2 r s)) (Ideal.ofBits .f32 0x00000000#32)) = _
  rw [e0, e1]
  by_cases h1 : s.val < r.val
  · have hb : IntOp.cmpi .sgt (BitVec.ofNat 32 r.val) (BitVec.ofNat 32 s.val) = 1#1 :=
      IntOp.cmpi_sgt.mpr (by rw [lane_toInt, lane_toInt]; exact_mod_cast h1)
    rw [hb, select_one, if_pos h1]
  · have hb : IntOp.cmpi .sgt (BitVec.ofNat 32 r.val) (BitVec.ofNat 32 s.val) = 0#1 :=
      eq_zero_of_ne_one fun h => h1 (by
        have h' := IntOp.cmpi_sgt.mp h
        rw [lane_toInt, lane_toInt] at h'
        exact_mod_cast h')
    rw [hb, select_zero, if_neg h1]
    by_cases h2 : r.val < s.val
    · have hc : IntOp.cmpi .slt (BitVec.ofNat 32 r.val) (BitVec.ofNat 32 s.val) = 1#1 :=
        IntOp.cmpi_slt.mpr (by rw [lane_toInt, lane_toInt]; exact_mod_cast h2)
      rw [hc, select_one, if_pos h2]
    · have hc : IntOp.cmpi .slt (BitVec.ofNat 32 r.val) (BitVec.ofNat 32 s.val) = 0#1 :=
        eq_zero_of_ne_one fun h => h2 (by
          have h' := IntOp.cmpi_slt.mp h
          rw [lane_toInt, lane_toInt] at h'
          exact_mod_cast h')
      rw [hc, select_zero, if_neg h2, Ideal.ofBits_zero_f32]

/-- The choice of the diagonal: `DV` where the two positions agree, zero elsewhere. -/
theorem diagSelect_apply (DV : FVec Ideal S768x768 .f32) (r s : Fin 768) :
    select (cmpi .eq (iota .tc S768x768 32 [0] iota_S768x768_d0_w32) (iota .tc S768x768 32 [1] iota_S768x768_d1_w32)) DV
        (broadcast S768x768 (Scalar.ofBits (F := Ideal) .f32 0x00000000#32)) (ix2 r s)
      = if r.val = s.val then DV (ix2 r s) else 0 := by
  have e0 : iota .tc S768x768 32 [0] iota_S768x768_d0_w32 (ix2 r s) = BitVec.ofNat 32 r.val :=
    iota_single_apply .tc S768x768 32 0 _ (ix2 r s)
  have e1 : iota .tc S768x768 32 [1] iota_S768x768_d1_w32 (ix2 r s) = BitVec.ofNat 32 s.val :=
    iota_single_apply .tc S768x768 32 1 _ (ix2 r s)
  show Scalar.select (IntOp.cmpi .eq (iota .tc S768x768 32 [0] iota_S768x768_d0_w32 (ix2 r s)) (iota .tc S768x768 32 [1] iota_S768x768_d1_w32 (ix2 r s)))
      (DV (ix2 r s)) (Ideal.ofBits .f32 0x00000000#32) = _
  rw [e0, e1]
  have hiff : BitVec.ofNat 32 r.val = BitVec.ofNat 32 s.val ↔ r.val = s.val := by
    constructor
    · intro h
      have h' := congrArg BitVec.toInt h
      rw [lane_toInt, lane_toInt] at h'
      exact_mod_cast h'
    · intro h; rw [h]
  by_cases h : r.val = s.val
  · have hb : IntOp.cmpi .eq (BitVec.ofNat 32 r.val) (BitVec.ofNat 32 s.val) = 1#1 := IntOp.cmpi_eq.mpr (hiff.mpr h)
    rw [hb, select_one, if_pos h]
  · have hb : IntOp.cmpi .eq (BitVec.ofNat 32 r.val) (BitVec.ofNat 32 s.val) = 0#1 :=
      eq_zero_of_ne_one fun h1 => h (hiff.mp (IntOp.cmpi_eq.mp h1))
    rw [hb, select_zero, if_neg h, Ideal.ofBits_zero_f32]

/-- Gathered rows of the row tile against the one-hot rows of the column tile: the table at the words of `r` and `s`. -/
theorem gBlock_apply (c c' : IVec S1x1x768 32) (p : FVec Ideal S128x128 .f32) (r s : Fin 768) :
    matmul dot_S768x128_S768x128_S768x768_1_1_0_0_n_n none
        (truncf .bf16 (matmul dot_S768x128_S128x128_S768x128_1_0_0_1_n_n none (k0_pay7 (F := Ideal) c) (k0_pay9 (F := Ideal) p)
          (constant (F := Ideal) S768x128 .f32 0x00000000#32)) bitsLt_bf16_f32)
        (k0_pay8 (F := Ideal) c') (constant (F := Ideal) S768x768 .f32 0x00000000#32) (ix2 r s)
      = tabPad p (word c r) (word c' s) := by
  refine (rowsRows_apply _ _ r s).trans ?_
  refine (Finset.sum_congr rfl fun k _ => ?_).trans (rowOf_dot_hot p (word c r) (word c' s))
  exact congrArg₂ (· * ·) ((truncf_apply (ψ := .bf16) _ bitsLt_bf16_f32 _).trans (aRow_apply c p r k)) (pay8_apply c' s k)

/-- The one-hot rows of the row tile against its gathered rows: the table at the words of `s` and `r`. -/
theorem gtBlock_apply (c : IVec S1x1x768 32) (p : FVec Ideal S128x128 .f32) (r s : Fin 768) :
    matmul dot_S768x128_S768x128_S768x768_1_1_0_0_n_n none (k0_pay7 (F := Ideal) c)
        (truncf .bf16 (matmul dot_S768x128_S128x128_S768x128_1_0_0_1_n_n none (k0_pay7 (F := Ideal) c) (k0_pay9 (F := Ideal) p)
          (constant (F := Ideal) S768x128 .f32 0x00000000#32)) bitsLt_bf16_f32)
        (constant (F := Ideal) S768x768 .f32 0x00000000#32) (ix2 r s)
      = tabPad p (word c s) (word c r) := by
  refine (rowsRows_apply _ _ r s).trans ?_
  refine (Finset.sum_congr rfl fun k _ => ?_).trans (hot_dot_rowOf p (word c s) (word c r))
  exact congrArg₂ (· * ·) (pay7_apply c r k) ((truncf_apply (ψ := .bf16) _ bitsLt_bf16_f32 _).trans (aRow_apply c p s k))

/-- The diagonal's value, spread along each row: one unless the row's word is zero. -/
theorem diagVal_apply (c : IVec S1x1x768 32) (r s : Fin 768) :
    broadcastTo S768x768
        (shapeCast S768x1
          (shapeCast S768x1
            (sitofp (F := Ideal) .f32 (extui 32 (cmpi .ne (k0_pay6 (F := Ideal) c) (broadcast S768 0#32)) natLt_1_32))
            shapeCasts_S768_S768x1)
          shapeCasts_S768x1_S768x1)
        broadcasts_S768x1_S768x768 (ix2 r s)
      = if word c r = 0#32 then 0 else 1 := by
  refine (broadcastTo_a1_ab_apply _ _ r s).trans ?_
  rw [shapeCast_self]
  refine (shapeCast_a_a1_apply _ _ r 0).trans ?_
  show ((((IntOp.cmpi .ne (k0_pay6 (F := Ideal) c (ix1 r)) 0#32).setWidth 32).toInt : ℝ) : EReal) = _
  rw [pay6_apply, neBit_toInt]

/-- THE DIAGONAL BLOCK'S PRODUCT at `(r, d)`: the accumulator plus the tile's graph applied to the tile's features. -/
theorem pay11_apply (c : IVec S1x1x768 32) (p : FVec Ideal S128x128 .f32) (xs : FVec Ideal S1x768x128 .f32)
    (acc : FVec Ideal S768x128 .f32) (r : Fin 768) (d : Fin 128) :
    k0_pay11 (F := Ideal) c c p xs acc (ix2 r d)
      = acc (ix2 r d) + ∑ s : Fin 768, diagEntry p c r s * xs (ix3 (0 : Fin 1) s d) := by
  unfold k0_pay11
  refine (congrFun (shapeCast_self _ _) (ix2 r d)).trans ?_
  refine (addf_apply _ _ (ix2 r d)).trans ?_
  refine congrArg (acc (ix2 r d) + ·) ?_
  refine (blockTile_apply _ _ r d).trans ?_
  refine Finset.sum_congr rfl fun s _ => ?_
  refine congrArg₂ (· * ·) ?_ (pay10_apply xs s d)
  refine (truncf_apply (ψ := .bf16) _ bitsLt_bf16_f32 (ix2 r s)).trans ?_
  refine (addf_apply _ _ (ix2 r s)).trans ?_
  refine (congrArg₂ (· + ·) (triSelect_apply _ _ r s) (diagSelect_apply _ r s)).trans ?_
  rw [gBlock_apply, gtBlock_apply, diagVal_apply]
  unfold diagEntry
  by_cases h1 : s.val < r.val
  · rw [if_pos h1, if_pos h1, if_neg (by omega), add_zero]
  · by_cases h2 : r.val < s.val
    · rw [if_neg h1, if_pos h2, if_neg h1, if_pos h2, if_neg (by omega), add_zero]
    · rw [if_neg h1, if_neg h2, if_neg h1, if_neg h2, if_pos (by omega), zero_add]

end Cert.KernelIdeal.Hand
-- ==== Proof.Folds.lean ====
/-
  Off the diagonal: a column tile folded by class, and the fold projected back onto a row tile.

  Off the diagonal every graph entry is a table lookup at the two nodes' class words, so the block's action on the
  features factors through the 128 classes. The body first folds the column tile by class,
  T[k, d] = sum over the tile's nodes s of [w_s = k] * x[s, d], into an accumulator that starts from zero; at the row
  tile's last point it multiplies the gathered table rows (and columns) of the row tile by the folds and adds both
  products to the accumulator. Exchanging the two finite sums,
      sum over k of P[w_r, k] * T[k, d] = sum over s of (sum over k of P[w_r, k] * [w_s = k]) * x[s, d]
                                        = sum over s of P[w_r, w_s] * x[s, d],
  and the same with the table transposed. The exchange moves a factor across a sum, which on the extended reals needs
  every term to be a real number: that is where the finiteness of the table and of the features is used.
-/
import proofs.«408942_j68186900791974_3_alg».proof.Proof.TableRows
import proofs.«408942_j68186900791974_3_alg».proof.Proof.KernelTerms

open scoped BigOperators

namespace Cert.KernelIdeal.Hand

open Cert.KernelIdeal Cert.KernelIdeal.Gen Cert.Proof.Spec Idealize.ShloMosaic Idealize.ShloMosaic.ValueIdx

/-! ## Exchanging two finite sums of products of real numbers -/

/-- The inclusion of the reals in the extended reals carries finite sums to finite sums. -/
theorem coe_finsum {ι : Type*} (s : Finset ι) (f : ι → ℝ) : ((∑ i ∈ s, f i : ℝ) : EReal) = ∑ i ∈ s, (f i : EReal) :=
  map_sum (⟨⟨Real.toEReal, EReal.coe_zero⟩, EReal.coe_add⟩ : ℝ →+ EReal) f s

/-- For real-valued `a`, `h`, `x`: the sum over k of a k * (sum over s of h s k * x s) is the sum over s of
    (sum over k of a k * h s k) * x s. -/
theorem sum_mul_sum_swap {ι κ : Type*} [Fintype ι] [Fintype κ] (a : ι → EReal) (h : κ → ι → EReal) (x : κ → EReal)
    (ha : ∀ k, ∃ r : ℝ, a k = (r : EReal)) (hh : ∀ s k, ∃ r : ℝ, h s k = (r : EReal)) (hx : ∀ s, ∃ r : ℝ, x s = (r : EReal)) :
    ∑ k, a k * ∑ s, h s k * x s = ∑ s, (∑ k, a k * h s k) * x s := by
  choose a' ha' using ha
  choose h' hh' using hh
  choose x' hx' using hx
  simp only [ha', hh', hx', ← EReal.coe_mul, ← coe_finsum]
  refine congrArg Real.toEReal ?_
  simp only [Finset.mul_sum, Finset.sum_mul]
  rw [Finset.sum_comm]
  exact Finset.sum_congr rfl fun s _ => Finset.sum_congr rfl fun k _ => by ring

/-! ## The three accumulators after the reset -/

theorem pay3_apply (i : S768x128.Idx) : k0_pay3 (F := Ideal) i = 0 := by
  unfold k0_pay3
  rw [shapeCast_self]
  exact Ideal.ofBits_zero_f32

theorem pay4_apply (i : S128x128.Idx) : k0_pay4 (F := Ideal) i = 0 := by
  unfold k0_pay4
  rw [shapeCast_self]
  exact Ideal.ofBits_zero_f32

theorem pay5_apply (i : S128x128.Idx) : k0_pay5 (F := Ideal) i = 0 := by
  unfold k0_pay5
  rw [shapeCast_self]
  exact Ideal.ofBits_zero_f32

/-! ## A tile folded by class -/

/-- The features of a tile's nodes summed by class: entry `(k, d)` collects feature `d` of the nodes whose word is `k`. -/
noncomputable def classFold (c : IVec S1x1x768 32) (xs : FVec Ideal S1x768x128 .f32) (k d : Fin 128) : EReal :=
  ∑ s : Fin 768, hot (word c s) k * xs (ix3 (0 : Fin 1) s d)

/-- One fold step at `(k, d)`: the accumulator plus the tile's fold. -/
theorem pay12_apply (c : IVec S1x1x768 32) (xs : FVec Ideal S1x768x128 .f32) (acc : FVec Ideal S128x128 .f32) (k d : Fin 128) :
    k0_pay12 (F := Ideal) c xs acc (ix2 k d) = acc (ix2 k d) + classFold c xs k d := by
  unfold k0_pay12
  refine (congrFun (shapeCast_self _ _) (ix2 k d)).trans ?_
  refine (addf_apply _ _ (ix2 k d)).trans ?_
  refine congrArg (acc (ix2 k d) + ·) ?_
  refine (foldRows_apply _ _ k d).trans ?_
  exact Finset.sum_congr rfl fun s _ => congrArg₂ (· * ·) (pay8_apply c s k) (pay10_apply xs s d)

/-- The fold step of a block above the diagonal is the same function. -/
theorem pay13_apply (c : IVec S1x1x768 32) (xs : FVec Ideal S1x768x128 .f32) (acc : FVec Ideal S128x128 .f32) (k d : Fin 128) :
    k0_pay13 (F := Ideal) c xs acc (ix2 k d) = acc (ix2 k d) + classFold c xs k d := by
  unfold k0_pay13
  refine (congrFun (shapeCast_self _ _) (ix2 k d)).trans ?_
  refine (addf_apply _ _ (ix2 k d)).trans ?_
  refine congrArg (acc (ix2 k d) + ·) ?_
  refine (foldRows_apply _ _ k d).trans ?_
  exact Finset.sum_congr rfl fun s _ => congrArg₂ (· * ·) (pay8_apply c s k) (pay10_apply xs s d)

/-- The lower accumulator after its one step from zero is the tile's fold. -/
theorem lowFold_apply (c : IVec S1x1x768 32) (xs : FVec Ideal S1x768x128 .f32) (k d : Fin 128) :
    lowFold (F := Ideal) c xs (ix2 k d) = classFold c xs k d := by
  unfold lowFold
  rw [pay12_apply, pay4_apply, zero_add]

/-- The upper accumulator after its one step from zero is the tile's fold. -/
theorem upFold_apply (c : IVec S1x1x768 32) (xs : FVec Ideal S1x768x128 .f32) (k d : Fin 128) :
    upFold (F := Ideal) c xs (ix2 k d) = classFold c xs k d := by
  unfold upFold
  rw [pay13_apply, pay5_apply, zero_add]

/-! ## The last point of a row tile: both folds projected back and added -/

/-- The accumulator plus the gathered rows times the lower fold plus the gathered columns times the upper fold. -/
theorem pay1_apply (c : IVec S1x1x768 32) (p : FVec Ideal S128x128 .f32) (tlo thi : FVec Ideal S128x128 .f32)
    (acc : FVec Ideal S768x128 .f32) (r : Fin 768) (d : Fin 128) :
    k0_pay1 (F := Ideal) (k0_pay7 (F := Ideal) c) (k0_pay9 (F := Ideal) p) tlo thi acc (ix2 r d)
      = acc (ix2 r d)
        + (∑ k : Fin 128, rowOf p (word c r) k * tlo (ix2 k d) + ∑ k : Fin 128, colOf p (word c r) k * thi (ix2 k d)) := by
  unfold k0_pay1
  refine (congrFun (shapeCast_self _ _) (ix2 r d)).trans ?_
  refine (addf_apply _ _ (ix2 r d)).trans ?_
  refine congrArg (acc (ix2 r d) + ·) ?_
  refine (addf_apply _ _ (ix2 r d)).trans ?_
  refine congrArg₂ (· + ·) ?_ ?_
  · refine (rowsTable_apply _ _ r d).trans ?_
    exact Finset.sum_congr rfl fun k _ => congrArg₂ (· * ·)
      ((truncf_apply (ψ := .bf16) _ bitsLt_bf16_f32 _).trans (aRow_apply c p r k))
      (truncf_apply (ψ := .bf16) tlo bitsLt_bf16_f32 (ix2 k d))
  · refine (rowsTable_apply _ _ r d).trans ?_
    exact Finset.sum_congr rfl fun k _ => congrArg₂ (· * ·)
      ((truncf_apply (ψ := .bf16) _ bitsLt_bf16_f32 _).trans (bRow_apply c p r k))
      (truncf_apply (ψ := .bf16) thi bitsLt_bf16_f32 (ix2 k d))

/-- A gathered table row against a tile's fold: the table at the row's word and each node's word, applied to the
    tile's features. -/
theorem rowOf_fold (p : FVec Ideal S128x128 .f32) (hP : ∀ i, ∃ r : ℝ, p i = (r : EReal)) (w : BitVec 32)
    (c : IVec S1x1x768 32) (xs : FVec Ideal S1x768x128 .f32) (hX : ∀ i, ∃ r : ℝ, xs i = (r : EReal)) (d : Fin 128) :
    ∑ k : Fin 128, rowOf p w k * classFold c xs k d
      = ∑ s : Fin 768, tabPad p w (word c s) * xs (ix3 (0 : Fin 1) s d) :=
  (sum_mul_sum_swap (fun k => rowOf p w k) (fun s k => hot (word c s) k) (fun s => xs (ix3 (0 : Fin 1) s d))
      (rowOf_real p hP w) (fun s k => hot_real (word c s) k) (fun s => hX _)).trans
    (Finset.sum_congr rfl fun s _ => congrArg (· * xs (ix3 (0 : Fin 1) s d)) (rowOf_dot_hot p w (word c s)))

/-- A gathered table column against a tile's fold: the table at each node's word and the row's word, applied to the
    tile's features. -/
theorem colOf_fold (p : FVec Ideal S128x128 .f32) (hP : ∀ i, ∃ r : ℝ, p i = (r : EReal)) (w : BitVec 32)
    (c : IVec S1x1x768 32) (xs : FVec Ideal S1x768x128 .f32) (hX : ∀ i, ∃ r : ℝ, xs i = (r : EReal)) (d : Fin 128) :
    ∑ k : Fin 128, colOf p w k * classFold c xs k d
      = ∑ s : Fin 768, tabPad p (word c s) w * xs (ix3 (0 : Fin 1) s d) :=
  (sum_mul_sum_swap (fun k => colOf p w k) (fun s k => hot (word c s) k) (fun s => xs (ix3 (0 : Fin 1) s d))
      (colOf_real p hP w) (fun s k => hot_real (word c s) k) (fun s => hX _)).trans
    (Finset.sum_congr rfl fun s _ => congrArg (· * xs (ix3 (0 : Fin 1) s d)) (colOf_dot_hot p w (word c s)))

end Cert.KernelIdeal.Hand
-- ==== Proof.KernelAlgebra.lean ====
/-
  The kernel's two output blocks of one batch entry are the padded graph applied to the padded features.

  The 1536 padded nodes of batch entry b lie in two tiles of 768; node 768 k + s is node s of tile k. Row i of the
  padded result is the sum over all 1536 nodes j of the graph entry at (i, j) times the features of j, and that sum
  splits into the two tiles. For a row of tile 0, tile 0 is the diagonal block (comparing positions inside the tile
  is comparing nodes) and every node of tile 1 comes after the row, so the entry is the table at the later node's word
  and the row's word: the transposed-table projection of tile 1's fold. The lower fold is still zero there and its
  projection vanishes. For a row of tile 1 it is the other way round: every node of tile 0 comes before the row, the
  entry is the table at the row's word and the earlier node's word, the plain projection of tile 0's fold, tile 1 is
  the diagonal block, and the upper fold is zero. The accumulator starts from zero in both.
-/
import proofs.«408942_j68186900791974_3_alg».proof.Proof.DiagBlock
import proofs.«408942_j68186900791974_3_alg».proof.Proof.Folds

open scoped BigOperators

namespace Cert.KernelIdeal.Hand

open Cert.KernelIdeal Cert.KernelIdeal.Gen Cert.Proof.Spec Idealize.ShloMosaic Idealize.ShloMosaic.ValueIdx

/-! ## The two tiles inside the 1536 nodes -/

/-- Node `s` of tile `k` among the 1536 padded nodes. -/
def tileIdx (k : Fin 2) (s : Fin 768) : Fin 1536 :=
  ⟨768 * k.val + s.val, by have := s.isLt; have := k.isLt; omega⟩

theorem tileIdx_zero (s : Fin 768) (h : s.val < 1536) : (⟨s.val, h⟩ : Fin 1536) = tileIdx 0 s :=
  Fin.ext (by show s.val = 768 * 0 + s.val; omega)

theorem tileIdx_one (s : Fin 768) (h : 768 + s.val < 1536) : (⟨768 + s.val, h⟩ : Fin 1536) = tileIdx 1 s :=
  Fin.ext (by show 768 + s.val = 768 * 1 + s.val; omega)

/-- A sum over the 1536 nodes is the sum over tile 0 plus the sum over tile 1. -/
theorem sum_two_tiles (f : Fin 1536 → EReal) :
    ∑ j : Fin 1536, f j = ∑ s : Fin 768, f (tileIdx 0 s) + ∑ s : Fin 768, f (tileIdx 1 s) := by
  have h := Fin.sum_univ_add (a := 768) (b := 768) f
  refine h.trans (congrArg₂ (· + ·) (Finset.sum_congr rfl fun s _ => congrArg f ?_) (Finset.sum_congr rfl fun s _ => congrArg f ?_))
  · exact Fin.ext (by show s.val = 768 * 0 + s.val; omega)
  · exact Fin.ext (by show 768 + s.val = 768 * 1 + s.val; omega)

/-- The word of node `s` of tile `k` is the padded class word of that node. -/
theorem word_tile (cip : IVec S16x1x1536 32) (b : Fin 16) (k : Fin 2) (s : Fin 768) :
    word (clsTile cip b k) s = cip (ix3 b (0 : Fin 1) (tileIdx k s)) := rfl

/-- The features of node `s` of tile `k` are the padded features of that node. -/
theorem feat_tile (srcp : FVec Ideal S16x1536x128 .f32) (b : Fin 16) (k : Fin 2) (s : Fin 768) (d : Fin 128) :
    featTile (F := Ideal) srcp b k (ix3 (0 : Fin 1) s d) = srcp (ix3 b (tileIdx k s) d) := rfl

/-! ## The padded graph between two nodes given by tile and position -/

/-- Inside one tile the padded graph is the tile's own graph. -/
theorem graphPad_diag (Pp : FVec Ideal S128x128 .f32) (cip : IVec S16x1x1536 32) (b : Fin 16) (k : Fin 2) (r s : Fin 768) :
    graphPad Pp cip b (tileIdx k r) (tileIdx k s) = diagEntry Pp (clsTile cip b k) r s := by
  unfold graphPad diagEntry
  rw [word_tile, word_tile]
  have hlt : (tileIdx k s).val < (tileIdx k r).val ↔ s.val < r.val := by
    show 768 * k.val + s.val < 768 * k.val + r.val ↔ _; omega
  have hgt : (tileIdx k r).val < (tileIdx k s).val ↔ r.val < s.val := by
    show 768 * k.val + r.val < 768 * k.val + s.val ↔ _; omega
  by_cases h1 : s.val < r.val
  · rw [if_pos (hlt.mpr h1), if_pos h1]
  · rw [if_neg (fun h => h1 (hlt.mp h)), if_neg h1]
    by_cases h2 : r.val < s.val
    · rw [if_pos (hgt.mpr h2), if_pos h2]
    · rw [if_neg (fun h => h2 (hgt.mp h)), if_neg h2]

/-- A node of tile 1 comes after every node of tile 0: the table at the later node's word and the earlier one's. -/
theorem graphPad_zero_one (Pp : FVec Ideal S128x128 .f32) (cip : IVec S16x1x1536 32) (b : Fin 16) (r s : Fin 768) :
    graphPad Pp cip b (tileIdx 0 r) (tileIdx 1 s) = tabPad Pp (word (clsTile cip b 1) s) (word (clsTile cip b 0) r) := by
  unfold graphPad
  rw [word_tile, word_tile]
  have h1 : ¬(tileIdx 1 s).val < (tileIdx 0 r).val := by
    show ¬768 * 1 + s.val < 768 * 0 + r.val; have := r.isLt; omega
  have h2 : (tileIdx 0 r).val < (tileIdx 1 s).val := by
    show 768 * 0 + r.val < 768 * 1 + s.val; have := r.isLt; omega
  rw [if_neg h1, if_pos h2]

/-- A node of tile 0 comes before every node of tile 1: the table at the later node's word and the earlier one's. -/
theorem graphPad_one_zero (Pp : FVec Ideal S128x128 .f32) (cip : IVec S16x1x1536 32) (b : Fin 16) (r s : Fin 768) :
    graphPad Pp cip b (tileIdx 1 r) (tileIdx 0 s) = tabPad Pp (word (clsTile cip b 1) r) (word (clsTile cip b 0) s) := by
  unfold graphPad
  rw [word_tile, word_tile]
  have h1 : (tileIdx 0 s).val < (tileIdx 1 r).val := by
    show 768 * 0 + s.val < 768 * 1 + r.val; have := s.isLt; omega
  rw [if_pos h1]

/-- The output block is the accumulator with a leading unit axis. -/
theorem pay2_apply (v : FVec Ideal S768x128 .f32) (r : Fin 768) (d : Fin 128) :
    k0_pay2 (F := Ideal) v (ix3 (0 : Fin 1) r d) = v (ix2 r d) := by
  unfold k0_pay2
  exact shapeCast_ab_1ab_apply v _ (0 : Fin 1) r d

/-! ## The two output blocks over any two class tiles and feature tiles -/

/-- Row tile 0's output block: the tile's own graph applied to its features, plus the table at each later node's word
    and the row's word applied to the second tile's features. -/
theorem outRow0_tiles (c0 c1 : IVec S1x1x768 32) (p : FVec Ideal S128x128 .f32) (xs0 xs1 : FVec Ideal S1x768x128 .f32)
    (hP : ∀ i, ∃ r : ℝ, p i = (r : EReal)) (hX1 : ∀ i, ∃ r : ℝ, xs1 i = (r : EReal)) (r : Fin 768) (d : Fin 128) :
    outRow0 (F := Ideal) c0 c1 p xs0 xs1 (ix3 (0 : Fin 1) r d)
      = ∑ s : Fin 768, diagEntry p c0 r s * xs0 (ix3 (0 : Fin 1) s d)
        + ∑ s : Fin 768, tabPad p (word c1 s) (word c0 r) * xs1 (ix3 (0 : Fin 1) s d) := by
  have hlow : ∑ k : Fin 128, rowOf p (word c0 r) k * k0_pay4 (F := Ideal) (ix2 k d) = 0 :=
    Finset.sum_eq_zero fun k _ => by rw [pay4_apply, mul_zero]
  have hup : ∑ k : Fin 128, colOf p (word c0 r) k * upFold (F := Ideal) c1 xs1 (ix2 k d)
      = ∑ s : Fin 768, tabPad p (word c1 s) (word c0 r) * xs1 (ix3 (0 : Fin 1) s d) :=
    (Finset.sum_congr rfl fun k _ => by rw [upFold_apply]).trans (colOf_fold p hP (word c0 r) c1 xs1 hX1 d)
  unfold outRow0
  rw [pay2_apply, pay1_apply, hlow, hup, zero_add]
  unfold accDiag0
  rw [pay11_apply, pay3_apply, zero_add]

/-- Row tile 1's output block: the table at the row's word and each earlier node's word applied to the first tile's
    features, plus the tile's own graph applied to its features. -/
theorem outRow1_tiles (c0 c1 : IVec S1x1x768 32) (p : FVec Ideal S128x128 .f32) (xs0 xs1 : FVec Ideal S1x768x128 .f32)
    (hP : ∀ i, ∃ r : ℝ, p i = (r : EReal)) (hX0 : ∀ i, ∃ r : ℝ, xs0 i = (r : EReal)) (r : Fin 768) (d : Fin 128) :
    outRow1 (F := Ideal) c0 c1 p xs0 xs1 (ix3 (0 : Fin 1) r d)
      = ∑ s : Fin 768, tabPad p (word c1 r) (word c0 s) * xs0 (ix3 (0 : Fin 1) s d)
        + ∑ s : Fin 768, diagEntry p c1 r s * xs1 (ix3 (0 : Fin 1) s d) := by
  have hup : ∑ k : Fin 128, colOf p (word c1 r) k * k0_pay5 (F := Ideal) (ix2 k d) = 0 :=
    Finset.sum_eq_zero fun k _ => by rw [pay5_apply, mul_zero]
  have hlow : ∑ k : Fin 128, rowOf p (word c1 r) k * lowFold (F := Ideal) c0 xs0 (ix2 k d)
      = ∑ s : Fin 768, tabPad p (word c1 r) (word c0 s) * xs0 (ix3 (0 : Fin 1) s d) :=
    (Finset.sum_congr rfl fun k _ => by rw [lowFold_apply]).trans (rowOf_fold p hP (word c1 r) c0 xs0 hX0 d)
  unfold outRow1
  rw [pay2_apply, pay1_apply, hlow, hup, add_zero]
  unfold accDiag1
  rw [pay11_apply, pay3_apply, zero_add, add_comm]

/-! ## The two output blocks of batch entry `b` -/

/-- ROW TILE 0: the kernel's output block is rows 0 .. 767 of the padded graph applied to the padded features. -/
theorem outRow0_eq (Pp : FVec Ideal S128x128 .f32) (srcp : FVec Ideal S16x1536x128 .f32) (cip : IVec S16x1x1536 32) (b : Fin 16)
    (hP : ∀ i, ∃ r : ℝ, Pp i = (r : EReal)) (hS : ∀ i, ∃ r : ℝ, srcp i = (r : EReal)) (r : Fin 768) (d : Fin 128) :
    outRow0 (F := Ideal) (clsTile cip b 0) (clsTile cip b 1) Pp (featTile srcp b 0) (featTile srcp b 1) (ix3 (0 : Fin 1) r d)
      = aggPad Pp srcp cip (ix3 b ⟨r.val, by have := r.isLt; omega⟩ d) := by
  refine (outRow0_tiles (clsTile cip b 0) (clsTile cip b 1) Pp (featTile (F := Ideal) srcp b 0) (featTile (F := Ideal) srcp b 1)
    hP (fun i => hS _) r d).trans ?_
  rw [tileIdx_zero r]
  show _ = ∑ j : Fin 1536, graphPad Pp cip b (tileIdx 0 r) j * srcp (ix3 b j d)
  rw [sum_two_tiles]
  refine congrArg₂ (· + ·) (Finset.sum_congr rfl fun s _ => ?_) (Finset.sum_congr rfl fun s _ => ?_)
  · rw [graphPad_diag, feat_tile]
  · rw [graphPad_zero_one, feat_tile]

/-- ROW TILE 1: the kernel's output block is rows 768 .. 1535 of the padded graph applied to the padded features. -/
theorem outRow1_eq (Pp : FVec Ideal S128x128 .f32) (srcp : FVec Ideal S16x1536x128 .f32) (cip : IVec S16x1x1536 32) (b : Fin 16)
    (hP : ∀ i, ∃ r : ℝ, Pp i = (r : EReal)) (hS : ∀ i, ∃ r : ℝ, srcp i = (r : EReal)) (r : Fin 768) (d : Fin 128) :
    outRow1 (F := Ideal) (clsTile cip b 0) (clsTile cip b 1) Pp (featTile srcp b 0) (featTile srcp b 1) (ix3 (0 : Fin 1) r d)
      = aggPad Pp srcp cip (ix3 b ⟨768 + r.val, by have := r.isLt; omega⟩ d) := by
  refine (outRow1_tiles (clsTile cip b 0) (clsTile cip b 1) Pp (featTile (F := Ideal) srcp b 0) (featTile (F := Ideal) srcp b 1)
    hP (fun i => hS _) r d).trans ?_
  rw [tileIdx_one r]
  show _ = ∑ j : Fin 1536, graphPad Pp cip b (tileIdx 1 r) j * srcp (ix3 b j d)
  rw [sum_two_tiles]
  refine congrArg₂ (· + ·) (Finset.sum_congr rfl fun s _ => ?_) (Finset.sum_congr rfl fun s _ => ?_)
  · rw [graphPad_one_zero, feat_tile]
  · rw [graphPad_diag, feat_tile]

end Cert.KernelIdeal.Hand
-- ==== Proof.BlockValues.lean ====
/-
  From the four runs to the kernel's result array.

  A point's number is 4 b + 2 tr + tc (batch entry, row tile, column tile). First, the blocks the four input windows hold at
  a point are tiles of the arrays the region finds: the features of column tile tc, the class words of row tile tr and of
  column tile tc, the whole table. Second, what the accumulators and the output's buffer hold after a point, as the body's
  payload terms over those blocks: a point of column tile 0 resets all three accumulators, so a point of column tile 1
  depends on the point before it only, and the two output blocks of a batch entry are the two terms of the kernel over the
  batch entry's tiles. Third, at the ideal instance those terms are the rows of the padded graph applied to the padded
  features; every row of the result array is written back by exactly one point, so the array ends holding that function.
-/
import proofs.«408942_j68186900791974_3_alg».proof.Proof.Pieces
import proofs.«408942_j68186900791974_3_alg».proof.Proof.FrameData
import proofs.«408942_j68186900791974_3_alg».proof.Proof.KernelTerms
import proofs.«408942_j68186900791974_3_alg».proof.Proof.KernelAlgebra
import proofs.«408942_j68186900791974_3_alg».proof.Proof.Spec
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ (UR sig nD τ) ℕ
section AnyFloat

variable (m : (ℓ : Loc nD τ sig) → Buf (Elt F) ℓ)

/-! ## The arrays and the blocks, by their literal types -/

/-- The padded features as the region finds them. -/
abbrev featArr (c : Dev nD) : Vec F S16x1536x128 .f32 := V m c main_v12
/-- The padded class words as the region finds them. -/
abbrev clsArr (c : Dev nD) : IVec S16x1x1536 32 := V m c main_v9
/-- The padded table as the region finds it. -/
abbrev tabArr (c : Dev nD) : Vec F S128x128 .f32 := V m c main_v4

/-- The feature block of point `t`. -/
abbrev featBlk (c : Dev nD) (t : Fin cfg0.N) : Vec F S1x768x128 .f32 := iblk m c 0 t
/-- The row tile's class words at point `t`. -/
abbrev rowBlk (c : Dev nD) (t : Fin cfg0.N) : Vec F S1x1x768 .i32 := iblk m c 1 t
/-- The column tile's class words at point `t`. -/
abbrev colBlk (c : Dev nD) (t : Fin cfg0.N) : Vec F S1x1x768 .i32 := iblk m c 2 t
/-- The table block of point `t`. -/
abbrev tabBlk (c : Dev nD) (t : Fin cfg0.N) : Vec F S128x128 .f32 := iblk m c 3 t

/-- The block indices of the five windows at a point number `t = 4 b + 2 tr + tc`: the batch entry is `t / 4`, the row tile
    `t / 2 % 2`, the column tile `t % 2`. -/
theorem idx_facts : ∀ t : Fin cfg0.N,
    (win0_0.index t (0 : Fin 3) = t.val / 4 ∧ win0_0.index t (1 : Fin 3) = t.val % 2 ∧ win0_0.index t (2 : Fin 3) = 0)
  ∧ (win0_1.index t (0 : Fin 3) = t.val / 4 ∧ win0_1.index t (1 : Fin 3) = 0 ∧ win0_1.index t (2 : Fin 3) = t.val / 2 % 2)
  ∧ (win0_2.index t (0 : Fin 3) = t.val / 4 ∧ win0_2.index t (1 : Fin 3) = 0 ∧ win0_2.index t (2 : Fin 3) = t.val % 2)
  ∧ (win0_3.index t (0 : Fin 2) = 0 ∧ win0_3.index t (1 : Fin 2) = 0)
  ∧ (win0_4.index t (0 : Fin 3) = t.val / 4 ∧ win0_4.index t (1 : Fin 3) = t.val / 2 % 2 ∧ win0_4.index t (2 : Fin 3) = 0) :=
  (by decide +kernel : ∀ t : Fin grid0.N, _)

/-- Window 0's block at a point, read off any array of the features' shape, is the column tile of the point's batch entry. -/
theorem featRead (A : Vec F S16x1536x128 .f32) (t : Fin cfg0.N) (b : Fin 16) (k : Fin 2) (hb : t.val / 4 = b.val) (hk : t.val % 2 = k.val) :
    (((cfg0.win 0).blk t).view.read (Elt F) A : Vec F S1x768x128 .f32) = featTile A b k := by
  obtain ⟨⟨e0, e1, e2⟩, -⟩ := idx_facts t
  funext y
  rw [View.read_apply]
  show A (((cfg0.win 0).blk t).view.emb y) = _
  unfold featTile
  refine congrArg A (funext fun a => Fin.ext ?_)
  have h0 : (y 0).val < 1 := (y 0).isLt
  match a with
  | ⟨0, _⟩ => show win0_0.index t (0 : Fin 3) * 1 + 1 * (y 0).val = b.val; omega
  | ⟨1, _⟩ => show win0_0.index t (1 : Fin 3) * 768 + 1 * (y 1).val = 768 * k.val + (y 1).val; omega
  | ⟨2, _⟩ => show win0_0.index t (2 : Fin 3) * 128 + 1 * (y 2).val = (y 2).val; omega

/-- Window 1's block at a point, read off any array of the class words' shape, is the row tile of the point's batch entry. -/
theorem rowRead (A : IVec S16x1x1536 32) (t : Fin cfg0.N) (b : Fin 16) (k : Fin 2) (hb : t.val / 4 = b.val) (hk : t.val / 2 % 2 = k.val) :
    (((cfg0.win 1).blk t).view.read (Elt F) A : IVec S1x1x768 32) = clsTile A b k := by
  obtain ⟨-, ⟨e0, e1, e2⟩, -⟩ := idx_facts t
  funext y
  rw [View.read_apply]
  show A (((cfg0.win 1).blk t).view.emb y) = _
  unfold clsTile
  refine congrArg A (funext fun a => Fin.ext ?_)
  have h0 : (y 0).val < 1 := (y 0).isLt
  have h1 : (y 1).val < 1 := (y 1).isLt
  match a with
  | ⟨0, _⟩ => show win0_1.index t (0 : Fin 3) * 1 + 1 * (y 0).val = b.val; omega
  | ⟨1, _⟩ => show win0_1.index t (1 : Fin 3) * 1 + 1 * (y 1).val = 0; omega
  | ⟨2, _⟩ => show win0_1.index t (2 : Fin 3) * 768 + 1 * (y 2).val = 768 * k.val + (y 2).val; omega

/-- Window 2's block at a point, read off any array of the class words' shape, is the column tile of the point's batch entry. -/
theorem colRead (A : IVec S16x1x1536 32) (t : Fin cfg0.N) (b : Fin 16) (k : Fin 2) (hb : t.val / 4 = b.val) (hk : t.val % 2 = k.val) :
    (((cfg0.win 2).blk t).view.read (Elt F) A : IVec S1x1x768 32) = clsTile A b k := by
  obtain ⟨-, -, ⟨e0, e1, e2⟩, -⟩ := idx_facts t
  funext y
  rw [View.read_apply]
  show A (((cfg0.win 2).blk t).view.emb y) = _
  unfold clsTile
  refine congrArg A (funext fun a => Fin.ext ?_)
  have h0 : (y 0).val < 1 := (y 0).isLt
  have h1 : (y 1).val < 1 := (y 1).isLt
  match a with
  | ⟨0, _⟩ => show win0_2.index t (0 : Fin 3) * 1 + 1 * (y 0).val = b.val; omega
  | ⟨1, _⟩ => show win0_2.index t (1 : Fin 3) * 1 + 1 * (y 1).val = 0; omega
  | ⟨2, _⟩ => show win0_2.index t (2 : Fin 3) * 768 + 1 * (y 2).val = 768 * k.val + (y 2).val; omega

/-- Window 3's block at every point, read off any array of the table's shape, is that array. -/
theorem tabRead (A : Vec F S128x128 .f32) (t : Fin cfg0.N) :
    (((cfg0.win 3).blk t).view.read (Elt F) A : Vec F S128x128 .f32) = A := by
  obtain ⟨-, -, -, ⟨e0, e1⟩, -⟩ := idx_facts t
  funext y
  rw [View.read_apply]
  show A (((cfg0.win 3).blk t).view.emb y) = _
  refine congrArg A (funext fun a => Fin.ext ?_)
  match a with
  | ⟨0, _⟩ => show win0_3.index t (0 : Fin 2) * 128 + 1 * (y 0).val = (y 0).val; omega
  | ⟨1, _⟩ => show win0_3.index t (1 : Fin 2) * 128 + 1 * (y 1).val = (y 1).val; omega

/-- The feature block of a point is the column tile's features of the point's batch entry. -/
theorem featBlk_eq (c : Dev nD) (t : Fin cfg0.N) (b : Fin 16) (k : Fin 2) (hb : t.val / 4 = b.val) (hk : t.val % 2 = k.val) :
    featBlk m c t = featTile (featArr m c) b k :=
  featRead (featArr m c) t b k hb hk

/-- The row tile's class words at a point. -/
theorem rowBlk_eq (c : Dev nD) (t : Fin cfg0.N) (b : Fin 16) (k : Fin 2) (hb : t.val / 4 = b.val) (hk : t.val / 2 % 2 = k.val) :
    rowBlk m c t = clsTile (clsArr m c) b k :=
  rowRead (F := F) (clsArr m c) t b k hb hk

/-- The column tile's class words at a point. -/
theorem colBlk_eq (c : Dev nD) (t : Fin cfg0.N) (b : Fin 16) (k : Fin 2) (hb : t.val / 4 = b.val) (hk : t.val % 2 = k.val) :
    colBlk m c t = clsTile (clsArr m c) b k :=
  colRead (F := F) (clsArr m c) t b k hb hk

/-- The table block of every point is the whole table. -/
theorem tabBlk_eq (c : Dev nD) (t : Fin cfg0.N) : tabBlk m c t = tabArr m c :=
  tabRead (tabArr m c) t

/-! ## What the four buffers hold after a point, over the point's blocks -/

/-- After a point of the first kind the row tile's sum is the diagonal block's product added to the zero block. -/
theorem accAt_A (c : Dev nD) (t : Fin cfg0.N) (h : t.val % 4 = 0) :
    (outsAt0 m c t.val t.isLt).2.1 = k0_pay11 (rowBlk m c t) (colBlk m c t) (tabBlk m c t) (featBlk m c t) (k0_pay3 (F := F)) := by
  rw [outsAt0_A m c t h]
  unfold ptA outsA
  dsimp only
  unfold soutAAcc
  exact readA_acc c (grid0.coords t) (ms0 t) (hs0 t) (ms1 t) (hs1 t) (ms2 t) (hs2 t) (ms3 t) (hs3 t) (ms4 t) (hs4 t) scAcc (Memref.isWhole_whole _) scLow (Memref.isWhole_whole _) scUp (Memref.isWhole_whole _) _ _ _ _ _ (iblk m c 0 t) (iblk m c 1 t) (iblk m c 2 t) (iblk m c 3 t)

/-- After a point of the first kind the lower fold is the zero block. -/
theorem lowAt_A (c : Dev nD) (t : Fin cfg0.N) (h : t.val % 4 = 0) :
    (outsAt0 m c t.val t.isLt).2.2.1 = k0_pay4 (F := F) := by
  rw [outsAt0_A m c t h]
  unfold ptA outsA
  dsimp only
  unfold soutALow
  exact readA_low c (grid0.coords t) (ms0 t) (hs0 t) (ms1 t) (hs1 t) (ms2 t) (hs2 t) (ms3 t) (hs3 t) (ms4 t) (hs4 t) scAcc (Memref.isWhole_whole _) scLow (Memref.isWhole_whole _) scUp (Memref.isWhole_whole _) _ _ _ _ _ (iblk m c 0 t) (iblk m c 1 t) (iblk m c 2 t) (iblk m c 3 t)

/-- After a point of the first kind the upper fold is the zero block. -/
theorem upAt_A (c : Dev nD) (t : Fin cfg0.N) (h : t.val % 4 = 0) :
    (outsAt0 m c t.val t.isLt).2.2.2 = k0_pay5 (F := F) := by
  rw [outsAt0_A m c t h]
  unfold ptA outsA
  dsimp only
  unfold soutAUp
  exact readA_up c (grid0.coords t) (ms0 t) (hs0 t) (ms1 t) (hs1 t) (ms2 t) (hs2 t) (ms3 t) (hs3 t) (ms4 t) (hs4 t) scAcc (Memref.isWhole_whole _) scLow (Memref.isWhole_whole _) scUp (Memref.isWhole_whole _) _ _ _ _ _ (iblk m c 0 t) (iblk m c 1 t) (iblk m c 2 t) (iblk m c 3 t)

/-- After a point of the third kind the row tile's sum is the zero block. -/
theorem accAt_C (c : Dev nD) (t : Fin cfg0.N) (h : t.val % 4 = 2) :
    (outsAt0 m c t.val t.isLt).2.1 = k0_pay3 (F := F) := by
  rw [outsAt0_C m c t h]
  unfold ptC outsC
  dsimp only
  unfold soutCAcc
  exact readC_acc c (grid0.coords t) (ms0 t) (hs0 t) (ms1 t) (hs1 t) (ms2 t) (hs2 t) (ms3 t) (hs3 t) (ms4 t) (hs4 t) scAcc (Memref.isWhole_whole _) scLow (Memref.isWhole_whole _) scUp (Memref.isWhole_whole _) _ _ _ _ _ (iblk m c 0 t) (iblk m c 1 t) (iblk m c 2 t) (iblk m c 3 t)

/-- After a point of the third kind the lower fold is the column tile folded by class, added to the zero block. -/
theorem lowAt_C (c : Dev nD) (t : Fin cfg0.N) (h : t.val % 4 = 2) :
    (outsAt0 m c t.val t.isLt).2.2.1 = k0_pay12 (colBlk m c t) (featBlk m c t) (k0_pay4 (F := F)) := by
  rw [outsAt0_C m c t h]
  unfold ptC outsC
  dsimp only
  unfold soutCLow
  exact readC_low c (grid0.coords t) (ms0 t) (hs0 t) (ms1 t) (hs1 t) (ms2 t) (hs2 t) (ms3 t) (hs3 t) (ms4 t) (hs4 t) scAcc (Memref.isWhole_whole _) scLow (Memref.isWhole_whole _) scUp (Memref.isWhole_whole _) _ _ _ _ _ (iblk m c 0 t) (iblk m c 1 t) (iblk m c 2 t) (iblk m c 3 t)

/-- After a point of the third kind the upper fold is the zero block. -/
theorem upAt_C (c : Dev nD) (t : Fin cfg0.N) (h : t.val % 4 = 2) :
    (outsAt0 m c t.val t.isLt).2.2.2 = k0_pay5 (F := F) := by
  rw [outsAt0_C m c t h]
  unfold ptC outsC
  dsimp only
  unfold soutCUp
  exact readC_up c (grid0.coords t) (ms0 t) (hs0 t) (ms1 t) (hs1 t) (ms2 t) (hs2 t) (ms3 t) (hs3 t) (ms4 t) (hs4 t) scAcc (Memref.isWhole_whole _) scLow (Memref.isWhole_whole _) scUp (Memref.isWhole_whole _) _ _ _ _ _ (iblk m c 0 t) (iblk m c 1 t) (iblk m c 2 t) (iblk m c 3 t)

/-- The output block a point of the second kind stores, over what the point before left in the accumulators. -/
theorem outAt_B (c : Dev nD) (t : Fin cfg0.N) (h : t.val % 4 = 1) :
    (outsAt0 m c t.val t.isLt).1
      = k0_pay2 (k0_pay1 (k0_pay7 (rowBlk m c t)) (k0_pay9 (tabBlk m c t)) (outsAt0 m c (t.val - 1) (pred_lt t)).2.2.1
          (k0_pay13 (colBlk m c t) (featBlk m c t) (outsAt0 m c (t.val - 1) (pred_lt t)).2.2.2) (outsAt0 m c (t.val - 1) (pred_lt t)).2.1) := by
  rw [outsAt0_B m c t h]
  unfold ptB outsB
  dsimp only
  unfold outB4
  exact readB_out c (grid0.coords t) (ms0 t) (hs0 t) (ms1 t) (hs1 t) (ms2 t) (hs2 t) (ms3 t) (hs3 t) (ms4 t) (hs4 t) scAcc (Memref.isWhole_whole _) scLow (Memref.isWhole_whole _) scUp (Memref.isWhole_whole _) _ _ _ _ _ (iblk m c 0 t) (iblk m c 1 t) (iblk m c 2 t) (iblk m c 3 t) (outsAt0 m c (t.val - 1) (pred_lt t)).2.1 (outsAt0 m c (t.val - 1) (pred_lt t)).2.2.1 (outsAt0 m c (t.val - 1) (pred_lt t)).2.2.2

/-- The output block a point of the fourth kind stores, over what the point before left in the accumulators. -/
theorem outAt_D (c : Dev nD) (t : Fin cfg0.N) (h : t.val % 4 = 3) :
    (outsAt0 m c t.val t.isLt).1
      = k0_pay2 (k0_pay1 (k0_pay7 (rowBlk m c t)) (k0_pay9 (tabBlk m c t)) (outsAt0 m c (t.val - 1) (pred_lt t)).2.2.1 (outsAt0 m c (t.val - 1) (pred_lt t)).2.2.2
          (k0_pay11 (rowBlk m c t) (colBlk m c t) (tabBlk m c t) (featBlk m c t) (outsAt0 m c (t.val - 1) (pred_lt t)).2.1)) := by
  rw [outsAt0_D m c t h]
  unfold ptD outsD
  dsimp only
  unfold outD4
  exact readD_out c (grid0.coords t) (ms0 t) (hs0 t) (ms1 t) (hs1 t) (ms2 t) (hs2 t) (ms3 t) (hs3 t) (ms4 t) (hs4 t) scAcc (Memref.isWhole_whole _) scLow (Memref.isWhole_whole _) scUp (Memref.isWhole_whole _) _ _ _ _ _ (iblk m c 0 t) (iblk m c 1 t) (iblk m c 2 t) (iblk m c 3 t) (outsAt0 m c (t.val - 1) (pred_lt t)).2.1 (outsAt0 m c (t.val - 1) (pred_lt t)).2.2.1 (outsAt0 m c (t.val - 1) (pred_lt t)).2.2.2

/-! ## The two output blocks of a batch entry as terms over its tiles -/

/-- ROW TILE 0. The point `4 b + 1` stores row tile 0's output block: the point before it, `4 b`, reset the accumulators
    and added the diagonal block (both its class windows load tile 0), and nothing else touched them between. -/
theorem outAt_row0 (c : Dev nD) (t : Fin cfg0.N) (b : Fin 16) (h : t.val % 4 = 1) (hb : t.val / 4 = b.val) :
    (outsAt0 m c t.val t.isLt).1
      = outRow0 (clsTile (clsArr m c) b 0) (clsTile (clsArr m c) b 1) (tabArr m c) (featTile (featArr m c) b 0) (featTile (featArr m c) b 1) := by
  have h0 : (⟨t.val - 1, pred_lt t⟩ : Fin cfg0.N).val % 4 = 0 := by show (t.val - 1) % 4 = 0; omega
  have hb' : (⟨t.val - 1, pred_lt t⟩ : Fin cfg0.N).val / 4 = b.val := by show (t.val - 1) / 4 = b.val; omega
  rw [outAt_B m c t h,
    show (outsAt0 m c (t.val - 1) (pred_lt t)).2.1 = _ from accAt_A m c (⟨t.val - 1, pred_lt t⟩ : Fin cfg0.N) h0,
    show (outsAt0 m c (t.val - 1) (pred_lt t)).2.2.1 = _ from lowAt_A m c (⟨t.val - 1, pred_lt t⟩ : Fin cfg0.N) h0,
    show (outsAt0 m c (t.val - 1) (pred_lt t)).2.2.2 = _ from upAt_A m c (⟨t.val - 1, pred_lt t⟩ : Fin cfg0.N) h0,
    rowBlk_eq m c t b 0 hb (by show t.val / 2 % 2 = 0; omega), tabBlk_eq m c t,
    colBlk_eq m c t b 1 hb (by show t.val % 2 = 1; omega), featBlk_eq m c t b 1 hb (by show t.val % 2 = 1; omega),
    rowBlk_eq m c (⟨t.val - 1, pred_lt t⟩ : Fin cfg0.N) b 0 hb' (by show (t.val - 1) / 2 % 2 = 0; omega), colBlk_eq m c (⟨t.val - 1, pred_lt t⟩ : Fin cfg0.N) b 0 hb' (by show (t.val - 1) % 2 = 0; omega),
    tabBlk_eq m c (⟨t.val - 1, pred_lt t⟩ : Fin cfg0.N), featBlk_eq m c (⟨t.val - 1, pred_lt t⟩ : Fin cfg0.N) b 0 hb' (by show (t.val - 1) % 2 = 0; omega)]
  rfl

/-- ROW TILE 1. The point `4 b + 3` stores row tile 1's output block: the point before it, `4 b + 2`, reset the accumulators
    and folded column tile 0 into the lower fold. -/
theorem outAt_row1 (c : Dev nD) (t : Fin cfg0.N) (b : Fin 16) (h : t.val % 4 = 3) (hb : t.val / 4 = b.val) :
    (outsAt0 m c t.val t.isLt).1
      = outRow1 (clsTile (clsArr m c) b 0) (clsTile (clsArr m c) b 1) (tabArr m c) (featTile (featArr m c) b 0) (featTile (featArr m c) b 1) := by
  have h2 : (⟨t.val - 1, pred_lt t⟩ : Fin cfg0.N).val % 4 = 2 := by show (t.val - 1) % 4 = 2; omega
  have hb' : (⟨t.val - 1, pred_lt t⟩ : Fin cfg0.N).val / 4 = b.val := by show (t.val - 1) / 4 = b.val; omega
  rw [outAt_D m c t h,
    show (outsAt0 m c (t.val - 1) (pred_lt t)).2.1 = _ from accAt_C m c (⟨t.val - 1, pred_lt t⟩ : Fin cfg0.N) h2,
    show (outsAt0 m c (t.val - 1) (pred_lt t)).2.2.1 = _ from lowAt_C m c (⟨t.val - 1, pred_lt t⟩ : Fin cfg0.N) h2,
    show (outsAt0 m c (t.val - 1) (pred_lt t)).2.2.2 = _ from upAt_C m c (⟨t.val - 1, pred_lt t⟩ : Fin cfg0.N) h2,
    rowBlk_eq m c t b 1 hb (by show t.val / 2 % 2 = 1; omega), tabBlk_eq m c t,
    colBlk_eq m c t b 1 hb (by show t.val % 2 = 1; omega), featBlk_eq m c t b 1 hb (by show t.val % 2 = 1; omega),
    colBlk_eq m c (⟨t.val - 1, pred_lt t⟩ : Fin cfg0.N) b 0 hb' (by show (t.val - 1) % 2 = 0; omega), featBlk_eq m c (⟨t.val - 1, pred_lt t⟩ : Fin cfg0.N) b 0 hb' (by show (t.val - 1) % 2 = 0; omega)]
  rfl

/-! ## From the stored blocks to the result array -/

/-- A stored block whose row `r` is row `768 k + r` of batch entry `b` of a whole-array function `G` is, at a point of that
    batch entry and row tile, the block of `G` the output window writes back there. -/
theorem outRead (G : Vec F S16x1536x128 .f32) (o : Vec F S1x768x128 .f32) (t : Fin cfg0.N) (b : Fin 16) (k : Fin 2)
    (hb : t.val / 4 = b.val) (hk : t.val / 2 % 2 = k.val)
    (h : ∀ (r : Fin 768) (d : Fin 128) (q : Fin 1536), q.val = 768 * k.val + r.val → o (ix3 (0 : Fin 1) r d) = G (ix3 b q d)) :
    (cfg0.win 4).cut (grid0.coords t) o = ((cfg0.win 4).blk t).view.read (Elt F) G := by
  obtain ⟨-, -, -, -, ⟨e0, e1, e2⟩⟩ := idx_facts t
  have hk2 : k.val < 2 := k.isLt
  funext j
  have h0 : (j 0).val < 1 := (j 0).isLt
  have h1 : (j 1).val < 768 := (j 1).isLt
  have h2 : (j 2).val < 128 := (j 2).isLt
  rw [View.read_apply]
  show o ((cfg0.win 4).xinj (grid0.coords t) j) = G (((cfg0.win 4).blk t).view.emb j)
  have ej : (cfg0.win 4).xinj (grid0.coords t) j = ix3 (0 : Fin 1) (⟨(j 1).val, h1⟩ : Fin 768) (⟨(j 2).val, h2⟩ : Fin 128) := by
    funext a; apply Fin.ext
    match a with
    | ⟨0, _⟩ => show (j 0).val = 0; omega
    | ⟨1, _⟩ => rfl
    | ⟨2, _⟩ => rfl
  have eb : ((cfg0.win 4).blk t).view.emb j = ix3 b (⟨768 * k.val + (j 1).val, by omega⟩ : Fin 1536) (⟨(j 2).val, h2⟩ : Fin 128) := by
    funext a; apply Fin.ext
    match a with
    | ⟨0, _⟩ => show win0_4.index t (0 : Fin 3) * 1 + 1 * (j 0).val = b.val; omega
    | ⟨1, _⟩ => show win0_4.index t (1 : Fin 3) * 768 + 1 * (j 1).val = 768 * k.val + (j 1).val; omega
    | ⟨2, _⟩ => show win0_4.index t (2 : Fin 3) * 128 + 1 * (j 2).val = (j 2).val; omega
  rw [ej, eb]
  exact h _ _ _ rfl

/-- An index of the result array is in the output block of point `t` iff each coordinate is in the block's range. -/
theorem mem_outBlk (t : Fin cfg0.N) (i : S16x1536x128.Idx) :
    i ∈ ((cfg0.win 4).blk t).view.set ↔ ∀ a : Fin 3, win0_4.index t a * S1x768x128.size a ≤ (i a).val ∧ (i a).val < win0_4.index t a * S1x768x128.size a + S1x768x128.size a := by
  show i ∈ ((View.whole main_v13).slice (win0_4.rect t)).set ↔ _
  rw [View.set_slice_whole, Rect.mem_set_unit]
  exact Iff.rfl

/-- The write-back point of row tile `k` of batch entry `b`. -/
def flushPt (b : Fin 16) (k : Fin 2) : Fin cfg0.N :=
  ⟨4 * b.val + 2 * k.val + 1, by have := b.isLt; have := k.isLt; rw [show cfg0.N = 64 from N_0]; omega⟩

/-- Every entry of the result array is written back: row `r` of batch entry `b` at the point `4 b + 2 (r / 768) + 1`. -/
theorem out_cover (i : S16x1536x128.Idx) :
    ∃ t : Fin cfg0.N, (cfg0.win 4).flush t = true ∧ i ∈ ((cfg0.win 4).blk t).view.set := by
  have i0 : (i 0).val < 16 := (i 0).isLt
  have i1 : (i 1).val < 1536 := (i 1).isLt
  have i2 : (i 2).val < 128 := (i 2).isLt
  refine ⟨flushPt ⟨(i 0).val, i0⟩ ⟨(i 1).val / 768, by omega⟩, (flush0_4 _).mpr (by show (4 * (i 0).val + 2 * ((i 1).val / 768) + 1) % 2 = 1; omega), ?_⟩
  obtain ⟨-, -, -, -, ⟨e0, e1, e2⟩⟩ := idx_facts (flushPt ⟨(i 0).val, i0⟩ ⟨(i 1).val / 768, by omega⟩)
  have v : (flushPt ⟨(i 0).val, i0⟩ ⟨(i 1).val / 768, by omega⟩).val = 4 * (i 0).val + 2 * ((i 1).val / 768) + 1 := rfl
  rw [mem_outBlk]
  intro a
  match a with
  | ⟨0, _⟩ => show win0_4.index _ (0 : Fin 3) * 1 ≤ (i 0).val ∧ (i 0).val < win0_4.index _ (0 : Fin 3) * 1 + 1; omega
  | ⟨1, _⟩ => show win0_4.index _ (1 : Fin 3) * 768 ≤ (i 1).val ∧ (i 1).val < win0_4.index _ (1 : Fin 3) * 768 + 768; omega
  | ⟨2, _⟩ => show win0_4.index _ (2 : Fin 3) * 128 ≤ (i 2).val ∧ (i 2).val < win0_4.index _ (2 : Fin 3) * 128 + 128; omega

end AnyFloat

/-! ## At the ideal instance: the result array is the padded graph applied to the padded features -/

/-- What a write-back point writes back is the block of the padded aggregation: at `4 b + 1` rows 0 .. 767 of batch
    entry `b`, at `4 b + 3` rows 768 .. 1535. -/
theorem flushed_eq (m : (ℓ : Loc nD τ sig) → Buf (Elt Ideal) ℓ) (c : Dev nD)
    (hP : ∀ i, ∃ r : ℝ, (V m c main_v4 : FVec Ideal S128x128 .f32) i = (r : EReal))
    (hS : ∀ i, ∃ r : ℝ, (V m c main_v12 : FVec Ideal S16x1536x128 .f32) i = (r : EReal))
    (t : Fin cfg0.N) (hf : (cfg0.win 4).flush t = true) :
    (dats m 0 c).flushed 4 t
      = ((cfg0.win 4).blk t).view.read (Elt Ideal) (Cert.Proof.Spec.aggPad (tabArr m c) (featArr m c) (clsArr m c)) := by
  have ht : t.val % 2 = 1 := (flush0_4 t).mp hf
  have hN : t.val < 64 := lt_of_lt_of_eq t.isLt (show cfg0.N = 64 from N_0)
  show (cfg0.win 4).cut (grid0.coords t) ((dats m 0 c).after 4 t) = _
  rw [after4]
  by_cases h1 : t.val % 4 = 1
  · rw [outAt_row0 m c t ⟨t.val / 4, by omega⟩ h1 rfl]
    exact outRead (Cert.Proof.Spec.aggPad (tabArr m c) (featArr m c) (clsArr m c))
      (outRow0 (clsTile (clsArr m c) ⟨t.val / 4, by omega⟩ 0) (clsTile (clsArr m c) ⟨t.val / 4, by omega⟩ 1) (tabArr m c) (featTile (featArr m c) ⟨t.val / 4, by omega⟩ 0) (featTile (featArr m c) ⟨t.val / 4, by omega⟩ 1))
      t ⟨t.val / 4, by omega⟩ 0 rfl (by show t.val / 2 % 2 = 0; omega)
      (fun r d q hq => (outRow0_eq (tabArr m c) (featArr m c) (clsArr m c) ⟨t.val / 4, by omega⟩ hP hS r d).trans
        (congrArg (fun q : Fin 1536 => Cert.Proof.Spec.aggPad (tabArr m c) (featArr m c) (clsArr m c) (ix3 (⟨t.val / 4, by omega⟩ : Fin 16) q d))
          (Fin.ext (by show r.val = q.val; rw [hq]; show r.val = 768 * 0 + r.val; omega))))
  · have h3 : t.val % 4 = 3 := by omega
    rw [outAt_row1 m c t ⟨t.val / 4, by omega⟩ h3 rfl]
    exact outRead (Cert.Proof.Spec.aggPad (tabArr m c) (featArr m c) (clsArr m c))
      (outRow1 (clsTile (clsArr m c) ⟨t.val / 4, by omega⟩ 0) (clsTile (clsArr m c) ⟨t.val / 4, by omega⟩ 1) (tabArr m c) (featTile (featArr m c) ⟨t.val / 4, by omega⟩ 0) (featTile (featArr m c) ⟨t.val / 4, by omega⟩ 1))
      t ⟨t.val / 4, by omega⟩ 1 rfl (by show t.val / 2 % 2 = 1; omega)
      (fun r d q hq => (outRow1_eq (tabArr m c) (featArr m c) (clsArr m c) ⟨t.val / 4, by omega⟩ hP hS r d).trans
        (congrArg (fun q : Fin 1536 => Cert.Proof.Spec.aggPad (tabArr m c) (featArr m c) (clsArr m c) (ix3 (⟨t.val / 4, by omega⟩ : Fin 16) q d))
          (Fin.ext (by show 768 + r.val = q.val; rw [hq]; show 768 + r.val = 768 * 1 + r.val; omega))))

/-- THE RESULT ARRAY. After the region the output array holds, entry by entry, the padded graph applied to the padded
    features: every row is written back exactly where its row tile's last point stores it. -/
theorem final_out (m : (ℓ : Loc nD τ sig) → Buf (Elt Ideal) ℓ) (c : Dev nD)
    (hP : ∀ i, ∃ r : ℝ, (V m c main_v4 : FVec Ideal S128x128 .f32) i = (r : EReal))
    (hS : ∀ i, ∃ r : ℝ, (V m c main_v12 : FVec Ideal S16x1536x128 .f32) i = (r : EReal)) :
    ((dats m 0 c).arrAt 4 cfg0.N : FVec Ideal S16x1536x128 .f32)
      = Cert.Proof.Spec.aggPad (V m c main_v4) (V m c main_v12) (V m c main_v9) :=
  (dats m 0 c).arrAt_eq_of_cover 4 (Cert.Proof.Spec.aggPad (tabArr m c) (featArr m c) (clsArr m c))
    (fun t hf => flushed_eq m c hP hS t hf) out_cover

end Cert.KernelIdeal.Hand

end
-- ==== Proof.CutAgg.lean ====
/-
  The padded statement of the aggregation, cut back to the 1444 real nodes, is the aggregation itself.

  Three observations carry it. A class word below 21 is already inside the signed window [0, 127], so clipping it
  changes nothing. The 128 x 128 square holds the table in its first 21 rows and columns, so at two words below 21 the
  padded table reads the table. And a padded node has a zero feature row, so in the sum over the 1536 padded nodes the
  last 92 terms are a graph entry times zero; what remains is the sum over the 1444 nodes, term by term the same.
-/
import proofs.«408942_j68186900791974_3_alg».proof.Proof.Spec
import Mathlib.Algebra.BigOperators.Fin

noncomputable section

open scoped BigOperators

namespace Cert.Proof.Spec

open Idealize.ShloMosaic Idealize.ShloMosaic.ValueIdx

/-- A word whose unsigned value is below 21 is, as a signed number, between 0 and 127: clipping leaves it alone. -/
theorem clipW_of_lt (w : BitVec 32) (hw : w.toNat < 21) : clipW w = w := by
  have hi : w.toInt = (w.toNat : Int) := BitVec.toInt_eq_toNat_of_lt (by omega)
  have h0 : (0#32 : BitVec 32).toInt = 0 := BitVec.toInt_zero
  have h127 : (127#32 : BitVec 32).toInt = 127 := by decide
  have hmax : IntOp.maxsi 0#32 w = w := by
    unfold IntOp.maxsi
    rw [if_neg]
    rw [BitVec.slt_iff_toInt_lt, hi, h0]
    omega
  unfold clipW
  rw [hmax]
  unfold IntOp.minsi
  rw [if_neg]
  rw [BitVec.slt_iff_toInt_lt, hi, h127]
  omega

/-- At two words below 21 the padded table, read in the square, is the table. -/
theorem tabPad_padTab (P : FVec Ideal STab .f32) (u v : BitVec 32) (hu : u.toNat < 21) (hv : v.toNat < 21) :
    tabPad (padTab P) u v = tab P u v := by
  have h128 : u.toNat < 128 ∧ v.toNat < 128 := ⟨by omega, by omega⟩
  unfold tabPad tab
  rw [dif_pos h128, dif_pos ⟨hu, hv⟩]
  unfold padTab
  exact dif_pos (⟨hu, hv⟩ : u.toNat < 21 ∧ v.toNat < 21)

/-- The padded class word of a real node is the node's class word. -/
theorem padCls_real (ci : IVec SCls 32) (hci : ∀ i, (ci i).toNat < 21) (b : Fin 16) (k : Fin 1444) (k' : Fin 1536)
    (hk : k'.val = k.val) : padCls ci (ix3 b 0 k') = ci (ix2 b k) := by
  obtain ⟨v, hv⟩ := k'
  obtain rfl : v = k.val := hk
  unfold padCls
  rw [dif_pos (show k.val < 1444 from k.isLt)]
  exact clipW_of_lt _ (hci _)

/-- Between two real nodes the padded graph is the graph. -/
theorem graphPad_real (P : FVec Ideal STab .f32) (ci : IVec SCls 32) (hci : ∀ i, (ci i).toNat < 21) (b : Fin 16)
    (i j : Fin 1444) (i' j' : Fin 1536) (hi : i'.val = i.val) (hj : j'.val = j.val) :
    graphPad (padTab P) (padCls ci) b i' j' = graph P ci b i j := by
  unfold graphPad graph
  rw [padCls_real ci hci b i i' hi, padCls_real ci hci b j j' hj, hi, hj,
    tabPad_padTab P _ _ (hci _) (hci _), tabPad_padTab P _ _ (hci _) (hci _)]

/-- The padded features at a real node are the node's features. -/
theorem padFeat_real_node (src : FVec Ideal SFeat .f32) (b : Fin 16) (k : Fin 1444) (k' : Fin 1536) (d : Fin 128)
    (hk : k'.val = k.val) : padFeat src (ix3 b k' d) = src (ix3 b k d) := by
  obtain ⟨v, hv⟩ := k'
  obtain rfl : v = k.val := hk
  unfold padFeat
  exact dif_pos (show k.val < 1444 from k.isLt)

/-- The padded features at a padded node are zero. -/
theorem padFeat_pad_node (src : FVec Ideal SFeat .f32) (b : Fin 16) (k' : Fin 1536) (d : Fin 128)
    (hk : 1444 ≤ k'.val) : padFeat src (ix3 b k' d) = 0 := by
  unfold padFeat
  exact dif_neg (show ¬ k'.val < 1444 by omega)

/-- A sum over the 1536 padded nodes whose terms vanish from node 1444 on is the sum over the 1444 real nodes. -/
theorem sum_cut {M : Type*} [AddCommMonoid M] (f : Fin 1536 → M) (hz : ∀ j : Fin 1536, 1444 ≤ j.val → f j = 0) :
    ∑ j : Fin 1536, f j = ∑ j : Fin 1444, f (Fin.castLE (by decide) j) := by
  have hsplit := Fin.sum_univ_add (a := 1444) (b := 92) f
  have hpad : ∑ j : Fin 92, f (Fin.natAdd 1444 j) = 0 :=
    Finset.sum_eq_zero fun j _ => hz _ (by rw [Fin.val_natAdd]; omega)
  rw [hsplit, hpad, add_zero]
  rfl

/-- At a real node the padded aggregation is the aggregation: the 92 padded nodes contribute a graph entry times a
    zero feature, and over the 1444 real nodes graph and features agree term by term. -/
theorem aggPad_real_node (P : FVec Ideal STab .f32) (src : FVec Ideal SFeat .f32) (ci : IVec SCls 32)
    (hci : ∀ i, (ci i).toNat < 21) (b : Fin 16) (n : Fin 1444) (n' : Fin 1536) (d : Fin 128) (hn : n'.val = n.val) :
    aggPad (padTab P) (padFeat src) (padCls ci) (ix3 b n' d) = agg P src ci (ix3 b n d) := by
  show (∑ j : Fin 1536, graphPad (padTab P) (padCls ci) b n' j * padFeat src (ix3 b j d))
    = ∑ j : Fin 1444, graph P ci b n j * src (ix3 b j d)
  rw [sum_cut _ (fun j hj => by rw [padFeat_pad_node src b j d hj, mul_zero])]
  refine Finset.sum_congr rfl fun j _ => ?_
  rw [graphPad_real P ci hci b n j n' _ hn rfl, padFeat_real_node src b j _ d rfl]

theorem cut_aggPad (P : FVec Ideal STab .f32) (src : FVec Ideal SFeat .f32) (ci : IVec SCls 32)
    (hci : ∀ i, (ci i).toNat < 21) :
    cut (aggPad (padTab P) (padFeat src) (padCls ci)) = agg P src ci := by
  funext i
  obtain ⟨b, n, d, rfl⟩ : ∃ b n d, i = ix3 b n d := ⟨_, _, _, eq_ix3 i⟩
  exact aggPad_real_node P src ci hci b n _ d rfl

theorem padTab_real (P : FVec Ideal STab .f32) (hP : ∀ i, ∃ r : ℝ, P i = (r : EReal)) :
    ∀ i, ∃ r : ℝ, padTab P i = (r : EReal) := by
  intro i
  unfold padTab
  split_ifs with h
  · exact hP _
  · exact ⟨0, EReal.coe_zero.symm⟩

theorem padFeat_real (src : FVec Ideal SFeat .f32) (hS : ∀ i, ∃ r : ℝ, src i = (r : EReal)) :
    ∀ i, ∃ r : ℝ, padFeat src i = (r : EReal) := by
  intro i
  unfold padFeat
  split_ifs with h
  · exact hS _
  · exact ⟨0, EReal.coe_zero.symm⟩

end Cert.Proof.Spec

end
-- ==== Proof.PreFacts.lean ====
/-
  What the precondition says, read back entry by entry: every table entry and every feature is a real number (its
  absolute value lies strictly below +∞), and every class word, read as a signed word, lies in [0, 21), so its
  unsigned value is below 21.
-/
import proofs.«408942_j68186900791974_3_alg».proof.Pre_finite_inputs
import proofs.«408942_j68186900791974_3_alg».proof.Proof.Gen.Pre_finite_inputs
import Idealize.ShloMosaic.Lib.ReduceAll
import Idealize.ShloMosaic.Lib.StableHlo.Predicate
import Idealize.ShloMosaic.PureOps.Ideal
import Idealize.ShloMosaic.Lib.ValueIdx

noncomputable section

namespace Cert.Proof.PreFacts

open Idealize.ShloMosaic

/-- The shape of rank zero has one index. -/
instance : Subsingleton Cert.Pre_finite_inputs.S_.Idx := ⟨fun a b => funext fun d => d.elim0⟩

/-- An extended real whose absolute value max x (-x) is strictly below the value of the pattern of +∞ is a real:
    for x = ⊥ or x = ⊤ the absolute value is ⊤, which is not below ⊤. -/
theorem real_of_abs_lt_inf (x : EReal)
    (hx : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at hx
  induction x using EReal.rec with
  | bot => simp [Ideal.cmp] at hx
  | coe r => exact ⟨r, rfl⟩
  | top => simp [Ideal.cmp] at hx

/-- A word that is at least 0 and below 21 as a signed word has unsigned value below 21: a word whose top bit is
    set reads negative, so the lower bound rules it out, and below 2³¹ the two readings agree. -/
theorem toNat_lt_of_signed (x : BitVec 32) (h0 : IntOp.cmpi .sge x 0#32 = 1#1) (h1 : IntOp.cmpi .slt x 21#32 = 1#1) :
    x.toNat < 21 := by
  simp only [IntOp.cmpi, StableHlo.Predicate.ofBool_eq_one_iff, BitVec.sle, BitVec.slt, decide_eq_true_eq] at h0 h1
  have e0 : (0#32 : BitVec 32).toInt = 0 := by decide
  have e21 : (21#32 : BitVec 32).toInt = 21 := by decide
  rw [e0] at h0
  rw [e21] at h1
  have hx := x.isLt
  rw [BitVec.toInt_eq_toNat_cond] at h0 h1
  split at h0 <;> omega

theorem pre_decode [Cert.Pre_finite_inputs.Facts] (a0 : FVec Ideal Cert.Pre_finite_inputs.S21x21 .f32) (a1 : FVec Ideal Cert.Pre_finite_inputs.S16x1444x128 .f32) (a2 : IVec Cert.Pre_finite_inputs.S16x1444 32)
    (h : Cert.Pre_finite_inputs.fn (F := Ideal) a0 a1 a2 = fun _ => 1#1) :
    (∀ i, ∃ r : ℝ, a0 i = (r : EReal)) ∧ (∀ i, ∃ r : ℝ, a1 i = (r : EReal)) ∧ (∀ i, (a2 i).toNat < 21) := by
  have h0 := congrFun h ValueIdx.ix0
  dsimp only [Cert.Pre_finite_inputs.fn, Cert.Pre_finite_inputs.fn_part1] at h0
  -- the four conjuncts
  obtain ⟨h012, hlt⟩ := IntOp.andi_eq_one.1 h0
  obtain ⟨h01, hge⟩ := IntOp.andi_eq_one.1 h012
  obtain ⟨hT, hS⟩ := IntOp.andi_eq_one.1 h01
  refine ⟨fun i => ?_, fun i => ?_, fun i => ?_⟩
  · exact real_of_abs_lt_inf (a0 i) (Host.reduce_andi_all _ _ _ _ _ hT i)
  · exact real_of_abs_lt_inf (a1 i) (Host.reduce_andi_all _ _ _ _ _ hS i)
  · exact toNat_lt_of_signed (a2 i) (Host.reduce_andi_all _ _ _ _ _ hge i) (Host.reduce_andi_all _ _ _ _ _ hlt i)

end Cert.Proof.PreFacts

end
-- ==== Proof.KernelValue.lean ====
/-
  What the idealized kernel computes: the slice after the region is the first 1444 nodes of the kernel's padded result,
  which is the padded graph applied to the padded features; on padded copies of arguments that are real numbers with
  class words below 21 that is the graph applied to the features.
-/
import proofs.«408942_j68186900791974_3_alg».proof.Proof.FrameClaim
import proofs.«408942_j68186900791974_3_alg».proof.Proof.BlockValues
import proofs.«408942_j68186900791974_3_alg».proof.Proof.CutAgg
import proofs.«408942_j68186900791974_3_alg».proof.Proof.PreFacts
import Idealize.ShloMosaic.Lib.Pipeline.Value

noncomputable section

namespace Cert.KernelIdeal.Hand

open Cert.KernelIdeal Cert.KernelIdeal.Gen Cert.Proof.Spec
open Idealize.ShloMosaic Idealize.ShloMosaic.TcCoe Idealize.ShloMosaic.ValueIdx
open Idealize.SL Idealize.SL.Sem
open Idealize.ShloMosaic.Pipeline (Dat Cfg Window BodyObligation cellOf)

variable (m : (ℓ : Loc nD τ sig) → Buf (Elt Ideal) ℓ) (ρ : Dev nD → PrngReg)

/-- The slice after the region keeps the first 1444 nodes of what the pipeline left in the kernel's result array. -/
theorem tail_value (c : Dev nD) :
    (StableHlo.after hostOps1 (Vx m (dats m) c) (Proc.devRef .tc main_v14) : FVec Ideal S16x1444x128 .f32)
      = cut ((dats m 0 c).arrAt 4 cfg0.N) := by
  after_results
  rw [Vx_result]
  funext j
  refine extractStridedSlice_apply _ _ _ j _ (fun a => ?_)
  match a with
  | ⟨0, _⟩ => simp [cut]
  | ⟨1, _⟩ => simp [cut]
  | ⟨2, _⟩ => simp [cut]

variable [Cert.Pre_finite_inputs.Facts]

/-- THE VALUE of the idealized kernel: under the precondition every weakly fair execution of @main terminates, nothing
    faulting, with the result array at the graph applied to the features and the arguments as launched. -/
theorem value_run
    (hpre : ∀ c : Dev nD, Cert.Pre_finite_inputs.fn (F := Ideal) (m ((c.tc : Thread nD τ).loc main_arg0)) (m ((c.tc : Thread nD τ).loc main_arg1)) (m ((c.tc : Thread nD τ).loc main_arg2)) = fun _ => 1#1) :
    θ_run defs (onTc (τ := τ) (main (F := Ideal))) ⟨m, fun _ => 0, ρ⟩ (fun r => ∀ c : Dev nD,
      r.2.mem ((c.tc : Thread nD τ).loc main_v14)
          = agg (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine (θ_run defs _ _).mono (fun _ h c => ⟨?_, ((h c).2 main_arg0 (by decide)).trans (V_arg0 m c),
    ((h c).2 main_arg1 (by decide)).trans (V_arg1 m c), ((h c).2 main_arg2 (by decide)).trans (V_arg2 m c)⟩) (run_dats m ρ)
  obtain ⟨hP, hS, hci⟩ := Cert.Proof.PreFacts.pre_decode _ _ _ (hpre c)
  have hP' : ∀ i, ∃ r : ℝ, (V m c main_v4 : FVec Ideal S128x128 .f32) i = (r : EReal) := by
    rw [V_tab]; exact padTab_real _ hP
  have hS' : ∀ i, ∃ r : ℝ, (V m c main_v12 : FVec Ideal S16x1536x128 .f32) i = (r : EReal) := by
    rw [V_feat]; exact padFeat_real _ hS
  refine ((h c).1.trans (tail_value m c)).trans ?_
  rw [final_out m c hP' hS', V_tab, V_feat, V_cls]
  exact cut_aggPad _ _ _ hci

end Cert.KernelIdeal.Hand

end
-- ==== Proof.LibGatherPair.lean ====
/-
  THE HOST'S GATHER OF SINGLE ELEMENTS BY A TWO-COMPONENT START INDEX, READ AT AN INDEX: operand [P, Q], start
  indices [A, B, C, 2] with the index vector on axis 3, result [A, B, C]; no offset axes, collapsed slice axes [0, 1],
  start index map [0, 1], slice sizes [1, 1], no batching axes. Result element (a, b, c) is the operand at row
  idx[a, b, c, 0] and column idx[a, b, c, 1], each read signed and clamped into the operand (row into [0, P - 1],
  column into [0, Q - 1]). The extents and the index width are variables; the dimension numbers are known only
  through the equations on their lists.
-/
import Idealize.ShloMosaic.PureOps.ShapeOps
import Idealize.ShloMosaic.Lib.ValueIdx

namespace Idealize.ShloMosaic.GatherPair

open Idealize.ShloMosaic Idealize.ShloMosaic.ValueIdx

/-! ## Entries of a list that is known by an equation -/

/-- An entry of a list equal to another list is the other list's entry at the same position. -/
theorem getElem_of_eq_list {α : Type} {l l' : List α} (h : l = l') {i k : Nat} (hik : i = k) (hi : i < l.length)
    (hk : k < l'.length) : l[i] = l'[k] := by
  subst h
  subst hik
  rfl

/-! ## The general gather: the start-indices index of a result index, axis by axis -/

section General
variable {s si t : Shape} (d : GatherDims s si t)

/-- On the index vector's axis the start-indices index has the component's number. -/
theorem siIdx_val_of_eq (j : t.Idx) (c : Fin d.startIndexMap.length) (b : Fin si.rank)
    (hb : b.val = d.indexVectorDim) : (d.siIdx j c b).val = c.val := by
  unfold GatherDims.siIdx
  rw [dif_pos hb]

/-- Off the index vector's axis, the start-indices index has on its axis b, the k-th of the axes that are not the
    index vector's, the result index's coordinate on the k-th batch axis. -/
theorem siIdx_val_of_ne (j : t.Idx) (c : Fin d.startIndexMap.length) (b : Fin si.rank)
    (hb : ¬ b.val = d.indexVectorDim) (k : Nat) (hk : d.siKept.idxOf b = k) (a : Fin t.rank)
    (ha : ∀ h : k < d.batchDims.length, d.batchDims[k]'h = a) :
    (d.siIdx j c b).val = (j a).val := by
  unfold GatherDims.siIdx
  rw [dif_neg hb]
  unfold GatherDims.siCoord
  have hp : d.siKept.idxOf b < d.batchDims.length := by
    rw [d.batch_length]
    exact List.idxOf_lt_length_iff.2 (List.mem_filter.2 ⟨List.mem_finRange b, by simpa using hb⟩)
  have e : d.batchDims[d.siKept.idxOf b]'hp = a :=
    (getElem_of_eq_list rfl hk hp (hk ▸ hp)).trans (ha _)
  exact congrArg (fun e => (j e).val) e

end General

/-! ## Operand [P, Q], start indices [A, B, C, 2], result [A, B, C] -/

/-- THE GATHER READ AT (a, b, c): the operand at the clamped start row and the clamped start column. -/
theorem gather_pair_apply {α : Type} {P Q A B C w : Nat} (hP : 0 < P) (hQ : 0 < Q)
    (d : GatherDims (⟨2, ![P, Q]⟩ : Shape) (⟨4, ![A, B, C, 2]⟩ : Shape) (⟨3, ![A, B, C]⟩ : Shape))
    (hod : d.offsetDims = []) (hcs : d.collapsedSliceDims = [0, 1]) (hob : d.operandBatchingDims = [])
    (hsm : d.startIndexMap = [0, 1]) (hiv : d.indexVectorDim = 3) (hss : d.sliceSizes = ![1, 1])
    (x : (⟨2, ![P, Q]⟩ : Shape).Idx → α) (idx : IVec (⟨4, ![A, B, C, 2]⟩ : Shape) w)
    (a : Fin A) (b : Fin B) (c : Fin C) :
    Host.gather d x idx (ix3 a b c)
      = x (ix2 (⟨min (idx (ix4 a b c (0 : Fin 2))).toInt.toNat (P - 1), by omega⟩ : Fin P)
               (⟨min (idx (ix4 a b c (1 : Fin 2))).toInt.toNat (Q - 1), by omega⟩ : Fin Q)) := by
  have h10 : ¬ (1 : Fin 2) = 0 := fun h => absurd (congrArg Fin.val h) Nat.one_ne_zero
  -- no operand axis is a batching axis, both are start axes and collapsed
  have hnb : ∀ e : Fin 2, e ∉ d.operandBatchingDims := fun e h => by rw [hob] at h; exact List.not_mem_nil h
  have h0mem : (0 : Fin 2) ∈ d.startIndexMap := by rw [hsm]; exact List.mem_cons_self
  have h1mem : (1 : Fin 2) ∈ d.startIndexMap := by rw [hsm]; exact List.mem_cons_of_mem _ List.mem_cons_self
  have h0k : (0 : Fin 2) ∉ d.sKept := fun h =>
    ((d.mem_sKept 0).1 h).1 (by rw [hcs]; exact List.mem_cons_self)
  have h1k : (1 : Fin 2) ∉ d.sKept := fun h =>
    ((d.mem_sKept 1).1 h).1 (by rw [hcs]; exact List.mem_cons_of_mem _ List.mem_cons_self)
  -- the result's batch axes are all three, in order; so are the start indices' axes but the last
  have hbd : d.batchDims = [0, 1, 2] := by
    show Shape.kept _ d.offsetDims = [0, 1, 2]
    rw [hod]; rfl
  have hsk : d.siKept = [0, 1, 2] := by
    show List.filter _ _ = _
    rw [hiv]; rfl
  -- the start-indices index of (a, b, c) for component k is [a, b, c, k]
  have hsi : ∀ (cc : Fin d.startIndexMap.length) (k : Fin 2), cc.val = k.val →
      d.siIdx (ix3 a b c) cc = ix4 a b c k := by
    intro cc k hcc
    funext e
    refine Fin.ext ?_
    match e with
    | ⟨0, he⟩ =>
      rw [siIdx_val_of_ne d (ix3 a b c) cc ⟨0, he⟩ (by rw [hiv]; show ¬ (0 : Nat) = 3; decide) 0 (by rw [hsk]; rfl) 0
        (fun h => getElem_of_eq_list hbd rfl h (by show (0 : Nat) < 3; decide))]
      rfl
    | ⟨1, he⟩ =>
      rw [siIdx_val_of_ne d (ix3 a b c) cc ⟨1, he⟩ (by rw [hiv]; show ¬ (1 : Nat) = 3; decide) 1 (by rw [hsk]; rfl) 1
        (fun h => getElem_of_eq_list hbd rfl h (by show (1 : Nat) < 3; decide))]
      rfl
    | ⟨2, he⟩ =>
      rw [siIdx_val_of_ne d (ix3 a b c) cc ⟨2, he⟩ (by rw [hiv]; show ¬ (2 : Nat) = 3; decide) 2 (by rw [hsk]; rfl) 2
        (fun h => getElem_of_eq_list hbd rfl h (by show (2 : Nat) < 3; decide))]
      rfl
    | ⟨3, he⟩ =>
      rw [siIdx_val_of_eq d (ix3 a b c) cc ⟨3, he⟩ hiv.symm, hcc]
  unfold Host.gather
  congr 1
  funext e
  refine Fin.ext ?_
  match e with
  | ⟨0, _⟩ =>
    show d.start (ix3 a b c) idx 0 + d.batchCoord (ix3 a b c) 0 + d.offCoord (ix3 a b c) 0
      = min (idx (ix4 a b c (0 : Fin 2))).toInt.toNat (P - 1)
    rw [d.batchCoord_eq_zero _ _ (hnb 0), d.offCoord_eq_zero _ _ h0k]
    simp only [Nat.add_zero]
    unfold GatherDims.start
    rw [dif_pos h0mem, hsi _ 0 (by show d.startIndexMap.idxOf 0 = 0; rw [hsm]; rfl), hss]
    rfl
  | ⟨1, _⟩ =>
    show d.start (ix3 a b c) idx 1 + d.batchCoord (ix3 a b c) 1 + d.offCoord (ix3 a b c) 1
      = min (idx (ix4 a b c (1 : Fin 2))).toInt.toNat (Q - 1)
    rw [d.batchCoord_eq_zero _ _ (hnb 1), d.offCoord_eq_zero _ _ h1k]
    simp only [Nat.add_zero]
    unfold GatherDims.start
    rw [dif_pos h1mem, hsi _ 1 (by show d.startIndexMap.idxOf 1 = 1; rw [hsm]; rfl), hss]
    rfl

end Idealize.ShloMosaic.GatherPair
-- ==== Proof.LibScatterSum.lean ====
/-
  THE HOST'S ACCUMULATING FLOAT SCATTER READ AT AN INDEX, at the ideal instance, for the two
  dimension-number patterns an indexed accumulation with ONE index per update row lowers to.

  The accumulating scatter at the ideal instance (PureOps/Ideal.lean, Ideal.hostScatterAdd) is, at each operand index, the
  operand element plus the sum of the update elements whose result index (ScatterDims.resultIdx?: the start index read
  signed and not clamped, plus the window coordinate, when that lies inside the operand) is that index. Here the scatter
  indices have shape [N, 1] with the index vector on axis 1, so update row n carries the single start index idx[n, 0].

  ROWS pattern: operand [P, C], updates [N, C], update window axes [1], inserted window axes [0], scatter axes to
  operand axes [0], index vector axis 1. Update element (n, ch) lands at (p, ch') exactly when idx[n, 0], read signed,
  is p and ch = ch' (resultIdx_rows); so the scatter at (p, ch) is the operand there plus the sum over the rows n with
  idx[n, 0] = p of the update at (n, ch) (scatterAdd_rows_apply).

  FLAT pattern: operand [P], updates [N], update window axes [], inserted window axes [0], scatter axes to operand axes
  [0], index vector axis 1. Update element n lands at p exactly when idx[n, 0], read signed, is p (resultIdx_flat); so
  the scatter at p is the operand there plus the sum over the n with idx[n, 0] = p of the update at n
  (scatterAdd_flat_apply).

  The extents P, C, N and the index width w are variables: nothing here evaluates a size. The dimension numbers are
  known only through the four equations on their lists. Before the two patterns, the general part: start and window by
  membership of the axis in the lists, the scatter-indices index of an update index by axis, and the result index as
  "start plus window is the coordinate, on every axis" (resultIdx?_eq_some_iff).
-/
import Idealize.ShloMosaic.PureOps.Ideal
import Idealize.ShloMosaic.Lib.ValueIdx
import Mathlib.Algebra.BigOperators.Group.Finset.Basic

noncomputable section

open scoped BigOperators

namespace Idealize.ShloMosaic.ScatterSum

open Idealize.ShloMosaic Idealize.ShloMosaic.ValueIdx

/-! ## A list with one entry -/

/-- Every entry of a one-entry list is that entry. -/
theorem getElem_of_eq_singleton {α : Type*} {l : List α} {a : α} (h : l = [a]) (k : Nat) (hk : k < l.length) :
    l[k] = a := by
  subst h
  have hk0 : k = 0 := by simpa using hk
  subst hk0
  rfl

/-- An axis is kept exactly when it is not among the removed ones. -/
theorem mem_kept {s : Shape} (axes : List (Fin s.rank)) (a : Fin s.rank) : a ∈ s.kept axes ↔ a ∉ axes := by
  unfold Shape.kept
  rw [List.mem_filter]
  constructor
  · intro h; simpa using h.2
  · intro h; exact ⟨List.mem_finRange a, by simpa using h⟩

/-! ## The general scatter: start, window, scatter-indices index and result index -/

section General
variable {s si u : Shape} (d : ScatterDims s si u)

/-- On an operand axis the map names, the start is the scatter index read signed at the update index's
    scatter-indices index. -/
theorem start_of_mem {w : Nat} (j : u.Idx) (idx : IVec si w) (a : Fin s.rank) (ha : a ∈ d.scatterDimsToOperandDims) :
    d.start j idx a
      = (idx (d.siIdx j ⟨d.scatterDimsToOperandDims.idxOf a, List.idxOf_lt_length_iff.2 ha⟩)).toInt := by
  unfold ScatterDims.start
  rw [dif_pos ha]

/-- On an operand axis the map does not name, the start is zero. -/
theorem start_of_not_mem {w : Nat} (j : u.Idx) (idx : IVec si w) (a : Fin s.rank)
    (ha : a ∉ d.scatterDimsToOperandDims) : d.start j idx a = 0 := by
  unfold ScatterDims.start
  rw [dif_neg ha]

/-- On an inserted operand axis the window coordinate is zero. -/
theorem window_of_not_mem (j : u.Idx) (a : Fin s.rank) (ha : a ∉ d.sKept) : d.window j a = 0 := by
  unfold ScatterDims.window
  rw [dif_neg ha]

/-- With one update window axis b, the window coordinate on a kept operand axis is the update index's coordinate
    on b. -/
theorem window_of_singleton (j : u.Idx) (a : Fin s.rank) (ha : a ∈ d.sKept) (b : Fin u.rank)
    (hb : d.updateWindowDims = [b]) : d.window j a = (j b).val := by
  unfold ScatterDims.window
  rw [dif_pos ha]
  exact congrArg (fun e => (j e).val) (getElem_of_eq_singleton hb _ _)

/-- On the index vector's axis the scatter-indices index has the component's number. -/
theorem siIdx_val_of_eq (j : u.Idx) (c : Fin d.scatterDimsToOperandDims.length) (b : Fin si.rank)
    (hb : b.val = d.indexVectorDim) : (d.siIdx j c b).val = c.val := by
  unfold ScatterDims.siIdx
  rw [dif_pos hb]

/-- With one update scatter axis a, the scatter-indices index has, off the index vector's axis, the update index's
    coordinate on a. -/
theorem siIdx_val_of_ne (j : u.Idx) (c : Fin d.scatterDimsToOperandDims.length) (b : Fin si.rank)
    (hb : ¬ b.val = d.indexVectorDim) (a : Fin u.rank) (ha : d.uScatter = [a]) :
    (d.siIdx j c b).val = (j a).val := by
  unfold ScatterDims.siIdx
  rw [dif_neg hb]
  unfold ScatterDims.siCoord
  exact congrArg (fun e => (j e).val) (getElem_of_eq_singleton ha _ _)

/-- The update index j lands at the operand index i exactly when, on every axis, start plus window coordinate is
    i's coordinate. -/
theorem resultIdx?_eq_some_iff {w : Nat} (j : u.Idx) (idx : IVec si w) (i : s.Idx) :
    d.resultIdx? j idx = some i ↔ ∀ a, d.start j idx a + (d.window j a : Int) = ((i a).val : Int) := by
  unfold ScatterDims.resultIdx?
  split_ifs with h
  · rw [Option.some.injEq]
    constructor
    · intro hf a
      have hv : (d.start j idx a + (d.window j a : Int)).toNat = (i a).val :=
        congrArg (fun f : s.Idx => (f a).val) hf
      have h0 := (h a).1
      omega
    · intro hf
      funext a
      refine Fin.ext ?_
      show (d.start j idx a + (d.window j a : Int)).toNat = (i a).val
      have := hf a
      omega
  · constructor
    · intro hn
      exact absurd hn (by simp)
    · intro hf
      exact absurd (fun a => by have := hf a; have := (i a).isLt; omega) h

end General

/-! ## Scatter indices of shape [N, 1], index vector on axis 1: one start index per update row -/

/-- With scatter indices [N, 1], the index vector on axis 1 and one update scatter axis a, the update index j reads
    its start index at [n, 0], n its coordinate on a. -/
theorem siIdx_one {s u : Shape} {N : Nat} (d : ScatterDims s (⟨2, ![N, 1]⟩ : Shape) u) (hiv : d.indexVectorDim = 1)
    (a : Fin u.rank) (ha : d.uScatter = [a]) (j : u.Idx) (c : Fin d.scatterDimsToOperandDims.length) (n : Fin N)
    (hn : (j a).val = n.val) : d.siIdx j c = ix2 n (0 : Fin 1) := by
  funext b
  refine Fin.ext ?_
  match b with
  | ⟨0, hb⟩ =>
    rw [siIdx_val_of_ne d j c ⟨0, hb⟩ (by rw [hiv]; exact Nat.zero_ne_one) a ha, hn]
  | ⟨1, hb⟩ =>
    have h1 : (d.siIdx j c ⟨1, hb⟩).val < 1 := (d.siIdx j c ⟨1, hb⟩).isLt
    show (d.siIdx j c ⟨1, hb⟩).val = 0
    omega

/-! ## The ROWS pattern: operand [P, C], updates [N, C] -/

section Rows
variable {P C N w : Nat}

/-- Update element (n, ch) lands at (p, ch') exactly when the row's start index is p and the channels agree. -/
theorem resultIdx_rows (d : ScatterDims (⟨2, ![P, C]⟩ : Shape) (⟨2, ![N, 1]⟩ : Shape) (⟨2, ![N, C]⟩ : Shape))
    (huw : d.updateWindowDims = [1]) (hiw : d.insertedWindowDims = [0]) (hsd : d.scatterDimsToOperandDims = [0])
    (hiv : d.indexVectorDim = 1) (idx : IVec (⟨2, ![N, 1]⟩ : Shape) w) (n : Fin N) (ch : Fin C) (p : Fin P)
    (ch' : Fin C) :
    d.resultIdx? (ix2 n ch) idx = some (ix2 p ch') ↔ ((idx (ix2 n (0 : Fin 1))).toInt = (p.val : Int) ∧ ch = ch') := by
  have huS : d.uScatter = [0] := by
    show Shape.kept _ d.updateWindowDims = [0]
    rw [huw]; rfl
  have h0mem : (0 : Fin 2) ∈ d.scatterDimsToOperandDims := by rw [hsd]; exact List.mem_singleton.2 rfl
  have h10 : ¬ (1 : Fin 2) = 0 := fun h => absurd (congrArg Fin.val h) Nat.one_ne_zero
  have h1nmem : (1 : Fin 2) ∉ d.scatterDimsToOperandDims := by
    rw [hsd]; exact fun h => h10 (List.mem_singleton.1 h)
  have h0k : (0 : Fin 2) ∉ d.sKept := by
    show _ ∉ Shape.kept _ d.insertedWindowDims
    rw [hiw, mem_kept]; exact fun h => h (List.mem_singleton.2 rfl)
  have h1k : (1 : Fin 2) ∈ d.sKept := by
    show _ ∈ Shape.kept _ d.insertedWindowDims
    rw [hiw, mem_kept]; exact fun h => h10 (List.mem_singleton.1 h)
  have hs0 : d.start (ix2 n ch) idx 0 = (idx (ix2 n (0 : Fin 1))).toInt := by
    rw [start_of_mem d _ _ _ h0mem, siIdx_one d hiv 0 huS (ix2 n ch) _ n rfl]
  have hs1 : d.start (ix2 n ch) idx 1 = 0 := start_of_not_mem d _ _ _ h1nmem
  have hw0 : d.window (ix2 n ch) 0 = 0 := window_of_not_mem d _ _ h0k
  have hw1 : d.window (ix2 n ch) 1 = ch.val := window_of_singleton d _ _ h1k 1 huw
  rw [resultIdx?_eq_some_iff]
  constructor
  · intro h
    have a0 : d.start (ix2 n ch) idx 0 + (d.window (ix2 n ch) 0 : Int) = (p.val : Int) := h 0
    have a1 : d.start (ix2 n ch) idx 1 + (d.window (ix2 n ch) 1 : Int) = (ch'.val : Int) := h 1
    rw [hs0, hw0] at a0
    rw [hs1, hw1] at a1
    refine ⟨by omega, Fin.ext (by omega)⟩
  · rintro ⟨h0, rfl⟩ a
    match a with
    | ⟨0, _⟩ =>
      show d.start (ix2 n ch) idx 0 + (d.window (ix2 n ch) 0 : Int) = (p.val : Int)
      rw [hs0, hw0, h0]; omega
    | ⟨1, _⟩ =>
      show d.start (ix2 n ch) idx 1 + (d.window (ix2 n ch) 1 : Int) = (ch.val : Int)
      rw [hs1, hw1]; omega

/-- THE SCATTER READ AT (p, ch): the operand there plus the updates at channel ch of the rows whose start index is
    p. -/
theorem scatterAdd_rows_apply (d : ScatterDims (⟨2, ![P, C]⟩ : Shape) (⟨2, ![N, 1]⟩ : Shape) (⟨2, ![N, C]⟩ : Shape))
    (huw : d.updateWindowDims = [1]) (hiw : d.insertedWindowDims = [0]) (hsd : d.scatterDimsToOperandDims = [0])
    (hiv : d.indexVectorDim = 1) (x : (⟨2, ![P, C]⟩ : Shape).Idx → EReal) (idx : IVec (⟨2, ![N, 1]⟩ : Shape) w)
    (upd : (⟨2, ![N, C]⟩ : Shape).Idx → EReal) (p : Fin P) (ch : Fin C) :
    Ideal.hostScatterAdd d x idx upd (ix2 p ch)
      = x (ix2 p ch)
        + ∑ n ∈ Finset.univ.filter (fun n : Fin N => (idx (ix2 n (0 : Fin 1))).toInt = (p.val : Int)),
            upd (ix2 n ch) := by
  unfold Ideal.hostScatterAdd
  congr 1
  rw [Finset.sum_filter, Finset.sum_filter, sum_idx2]
  refine Finset.sum_congr rfl fun n _ => ?_
  by_cases hA : (idx (ix2 n (0 : Fin 1))).toInt = (p.val : Int)
  · rw [if_pos hA, Finset.sum_eq_single ch]
    · rw [if_pos ((resultIdx_rows d huw hiw hsd hiv idx n ch p ch).2 ⟨hA, rfl⟩)]
    · intro c _ hc
      exact if_neg fun h => hc ((resultIdx_rows d huw hiw hsd hiv idx n c p ch).1 h).2
    · intro h
      exact absurd (Finset.mem_univ _) h
  · rw [if_neg hA]
    exact Finset.sum_eq_zero fun c _ =>
      if_neg fun h => hA ((resultIdx_rows d huw hiw hsd hiv idx n c p ch).1 h).1

end Rows

/-! ## The FLAT pattern: operand [P], updates [N] -/

section Flat
variable {P N w : Nat}

/-- A rank-1 index set is its coordinate range. -/
def idxEquiv1 {n : Nat} : (⟨1, ![n]⟩ : Shape).Idx ≃ Fin n where
  toFun i := i 0
  invFun a := ix1 a
  left_inv i := (eq_ix1 i).symm
  right_inv _ := rfl

/-- Update element n lands at p exactly when its start index is p. -/
theorem resultIdx_flat (d : ScatterDims (⟨1, ![P]⟩ : Shape) (⟨2, ![N, 1]⟩ : Shape) (⟨1, ![N]⟩ : Shape))
    (huw : d.updateWindowDims = []) (hiw : d.insertedWindowDims = [0]) (hsd : d.scatterDimsToOperandDims = [0])
    (hiv : d.indexVectorDim = 1) (idx : IVec (⟨2, ![N, 1]⟩ : Shape) w) (n : Fin N) (p : Fin P) :
    d.resultIdx? (ix1 n) idx = some (ix1 p) ↔ (idx (ix2 n (0 : Fin 1))).toInt = (p.val : Int) := by
  have huS : d.uScatter = [0] := by
    show Shape.kept _ d.updateWindowDims = [0]
    rw [huw]; rfl
  have h0mem : (0 : Fin 1) ∈ d.scatterDimsToOperandDims := by rw [hsd]; exact List.mem_singleton.2 rfl
  have h0k : (0 : Fin 1) ∉ d.sKept := by
    show _ ∉ Shape.kept _ d.insertedWindowDims
    rw [hiw, mem_kept]; exact fun h => h (List.mem_singleton.2 rfl)
  have hs0 : d.start (ix1 n) idx 0 = (idx (ix2 n (0 : Fin 1))).toInt := by
    rw [start_of_mem d _ _ _ h0mem, siIdx_one d hiv 0 huS (ix1 n) _ n rfl]
  have hw0 : d.window (ix1 n) 0 = 0 := window_of_not_mem d _ _ h0k
  rw [resultIdx?_eq_some_iff]
  constructor
  · intro h
    have a0 : d.start (ix1 n) idx 0 + (d.window (ix1 n) 0 : Int) = (p.val : Int) := h 0
    rw [hs0, hw0] at a0
    omega
  · intro h0 a
    match a with
    | ⟨0, _⟩ =>
      show d.start (ix1 n) idx 0 + (d.window (ix1 n) 0 : Int) = (p.val : Int)
      rw [hs0, hw0, h0]; omega

/-- THE SCATTER READ AT p: the operand there plus the updates whose start index is p. -/
theorem scatterAdd_flat_apply (d : ScatterDims (⟨1, ![P]⟩ : Shape) (⟨2, ![N, 1]⟩ : Shape) (⟨1, ![N]⟩ : Shape))
    (huw : d.updateWindowDims = []) (hiw : d.insertedWindowDims = [0]) (hsd : d.scatterDimsToOperandDims = [0])
    (hiv : d.indexVectorDim = 1) (x : (⟨1, ![P]⟩ : Shape).Idx → EReal) (idx : IVec (⟨2, ![N, 1]⟩ : Shape) w)
    (upd : (⟨1, ![N]⟩ : Shape).Idx → EReal) (p : Fin P) :
    Ideal.hostScatterAdd d x idx upd (ix1 p)
      = x (ix1 p)
        + ∑ n ∈ Finset.univ.filter (fun n : Fin N => (idx (ix2 n (0 : Fin 1))).toInt = (p.val : Int)),
            upd (ix1 n) := by
  unfold Ideal.hostScatterAdd
  congr 1
  rw [Finset.sum_filter, Finset.sum_filter]
  refine Fintype.sum_equiv idxEquiv1 _ _ fun j => ?_
  obtain ⟨n, rfl⟩ : ∃ n, j = ix1 n := ⟨j 0, eq_ix1 j⟩
  show _ = if (idx (ix2 n (0 : Fin 1))).toInt = (p.val : Int) then upd (ix1 n) else 0
  by_cases hA : (idx (ix2 n (0 : Fin 1))).toInt = (p.val : Int)
  · rw [if_pos hA, if_pos ((resultIdx_flat d huw hiw hsd hiv idx n p).2 hA)]
  · rw [if_neg hA, if_neg fun h => hA ((resultIdx_flat d huw hiw hsd hiv idx n p).1 h)]

end Flat

end Idealize.ShloMosaic.ScatterSum

end
-- ==== Proof.LibScatterDiag.lean ====
/-
  THE HOST'S ACCUMULATING FLOAT SCATTER OF ONE ELEMENT PER BATCH ENTRY AND ROW, READ AT AN INDEX, at the ideal
  instance: operand [B, L, M], scatter indices [N, 2] with the index vector on axis 1, updates [B, N]; update window
  axes [0], inserted window axes [1, 2], scatter axes to operand axes [1, 2]. Update element (b, n) lands at
  (b', i, j) exactly when b = b' and the n-th index pair, read signed, is (i, j) (resultIdx_pairs); so the scatter at
  (b, i, j) is the operand there plus the sum over the n whose pair is (i, j) of the update at (b, n)
  (scatterAdd_pairs_apply). When the n-th pair is (n, n) for every n — the indices name the diagonal — the only
  update that can land at (b, i, j) is (b, i), and it does exactly when i = j (scatterAdd_diag_apply; host_scatterAdd_diag_apply
  says the same of the host's accumulating scatter at the ideal float values, which is that sum by definition).

  The extents and the index width are variables; the dimension numbers are known only through the equations on their
  lists.
-/
import proofs.«408942_j68186900791974_3_alg».proof.Proof.LibScatterSum

noncomputable section

open scoped BigOperators

namespace Idealize.ShloMosaic.ScatterDiag

open Idealize.ShloMosaic Idealize.ShloMosaic.ValueIdx Idealize.ShloMosaic.ScatterSum

section Pairs
variable {B L M N w : Nat}

/-- With scatter indices [N, 2], the index vector on axis 1 and one update scatter axis a, the update index j reads
    component k of its start index at [n, k], n its coordinate on a. -/
theorem siIdx_two {s u : Shape} (d : ScatterDims s (⟨2, ![N, 2]⟩ : Shape) u) (hiv : d.indexVectorDim = 1)
    (a : Fin u.rank) (ha : d.uScatter = [a]) (j : u.Idx) (c : Fin d.scatterDimsToOperandDims.length) (n : Fin N)
    (hn : (j a).val = n.val) (k : Fin 2) (hk : c.val = k.val) : d.siIdx j c = ix2 n k := by
  funext b
  refine Fin.ext ?_
  match b with
  | ⟨0, hb⟩ =>
    rw [siIdx_val_of_ne d j c ⟨0, hb⟩ (by rw [hiv]; exact Nat.zero_ne_one) a ha, hn]
  | ⟨1, hb⟩ =>
    rw [siIdx_val_of_eq d j c ⟨1, hb⟩ hiv.symm, hk]

/-- Update element (b, n) lands at (b', i, j) exactly when the batch entries agree and the n-th index pair is (i, j). -/
theorem resultIdx_pairs
    (d : ScatterDims (⟨3, ![B, L, M]⟩ : Shape) (⟨2, ![N, 2]⟩ : Shape) (⟨2, ![B, N]⟩ : Shape))
    (huw : d.updateWindowDims = [0]) (hiw : d.insertedWindowDims = [1, 2])
    (hsd : d.scatterDimsToOperandDims = [1, 2]) (hiv : d.indexVectorDim = 1)
    (idx : IVec (⟨2, ![N, 2]⟩ : Shape) w) (b : Fin B) (n : Fin N) (b' : Fin B) (i : Fin L) (j : Fin M) :
    d.resultIdx? (ix2 b n) idx = some (ix3 b' i j)
      ↔ (b = b' ∧ (idx (ix2 n (0 : Fin 2))).toInt = (i.val : Int) ∧ (idx (ix2 n (1 : Fin 2))).toInt = (j.val : Int)) := by
  have huS : d.uScatter = [1] := by
    show Shape.kept _ d.updateWindowDims = [1]
    rw [huw]; rfl
  have h01 : ¬ (0 : Fin 3) = 1 := fun h => absurd (congrArg Fin.val h) Nat.zero_ne_one
  have h02 : ¬ (0 : Fin 3) = 2 := fun h => absurd (congrArg Fin.val h) (show ¬ (0 : Nat) = 2 by decide)
  have h0n12 : (0 : Fin 3) ∉ ([1, 2] : List (Fin 3)) := fun h => by
    rcases List.mem_cons.1 h with h | h
    · exact h01 h
    · exact h02 (List.mem_singleton.1 h)
  have h1in12 : (1 : Fin 3) ∈ ([1, 2] : List (Fin 3)) := List.mem_cons_self
  have h2in12 : (2 : Fin 3) ∈ ([1, 2] : List (Fin 3)) := List.mem_cons_of_mem _ List.mem_cons_self
  have h0nmem : (0 : Fin 3) ∉ d.scatterDimsToOperandDims := by rw [hsd]; exact h0n12
  have h1mem : (1 : Fin 3) ∈ d.scatterDimsToOperandDims := by rw [hsd]; exact h1in12
  have h2mem : (2 : Fin 3) ∈ d.scatterDimsToOperandDims := by rw [hsd]; exact h2in12
  have h0k : (0 : Fin 3) ∈ d.sKept := by
    show _ ∈ Shape.kept _ d.insertedWindowDims
    rw [hiw, mem_kept]; exact h0n12
  have h1k : (1 : Fin 3) ∉ d.sKept := by
    show _ ∉ Shape.kept _ d.insertedWindowDims
    rw [hiw, mem_kept]; exact fun h => h h1in12
  have h2k : (2 : Fin 3) ∉ d.sKept := by
    show _ ∉ Shape.kept _ d.insertedWindowDims
    rw [hiw, mem_kept]; exact fun h => h h2in12
  have hs0 : d.start (ix2 b n) idx 0 = 0 := start_of_not_mem d _ _ _ h0nmem
  have hs1 : d.start (ix2 b n) idx 1 = (idx (ix2 n (0 : Fin 2))).toInt := by
    rw [start_of_mem d _ _ _ h1mem,
      siIdx_two d hiv 1 huS (ix2 b n) _ n rfl 0 (by show d.scatterDimsToOperandDims.idxOf 1 = 0; rw [hsd]; rfl)]
  have hs2 : d.start (ix2 b n) idx 2 = (idx (ix2 n (1 : Fin 2))).toInt := by
    rw [start_of_mem d _ _ _ h2mem,
      siIdx_two d hiv 1 huS (ix2 b n) _ n rfl 1 (by show d.scatterDimsToOperandDims.idxOf 2 = 1; rw [hsd]; rfl)]
  have hw0 : d.window (ix2 b n) 0 = b.val := window_of_singleton d _ _ h0k 0 huw
  have hw1 : d.window (ix2 b n) 1 = 0 := window_of_not_mem d _ _ h1k
  have hw2 : d.window (ix2 b n) 2 = 0 := window_of_not_mem d _ _ h2k
  rw [resultIdx?_eq_some_iff]
  constructor
  · intro h
    have a0 : d.start (ix2 b n) idx 0 + (d.window (ix2 b n) 0 : Int) = (b'.val : Int) := h 0
    have a1 : d.start (ix2 b n) idx 1 + (d.window (ix2 b n) 1 : Int) = (i.val : Int) := h 1
    have a2 : d.start (ix2 b n) idx 2 + (d.window (ix2 b n) 2 : Int) = (j.val : Int) := h 2
    rw [hs0, hw0] at a0
    rw [hs1, hw1] at a1
    rw [hs2, hw2] at a2
    refine ⟨Fin.ext (by omega), by omega, by omega⟩
  · rintro ⟨rfl, h1, h2⟩ a
    match a with
    | ⟨0, _⟩ =>
      show d.start (ix2 b n) idx 0 + (d.window (ix2 b n) 0 : Int) = (b.val : Int)
      rw [hs0, hw0]; omega
    | ⟨1, _⟩ =>
      show d.start (ix2 b n) idx 1 + (d.window (ix2 b n) 1 : Int) = (i.val : Int)
      rw [hs1, hw1, h1]; omega
    | ⟨2, _⟩ =>
      show d.start (ix2 b n) idx 2 + (d.window (ix2 b n) 2 : Int) = (j.val : Int)
      rw [hs2, hw2, h2]; omega

/-- THE SCATTER READ AT (b, i, j): the operand there plus the updates of batch entry b whose index pair is (i, j). -/
theorem scatterAdd_pairs_apply
    (d : ScatterDims (⟨3, ![B, L, M]⟩ : Shape) (⟨2, ![N, 2]⟩ : Shape) (⟨2, ![B, N]⟩ : Shape))
    (huw : d.updateWindowDims = [0]) (hiw : d.insertedWindowDims = [1, 2])
    (hsd : d.scatterDimsToOperandDims = [1, 2]) (hiv : d.indexVectorDim = 1)
    (x : (⟨3, ![B, L, M]⟩ : Shape).Idx → EReal) (idx : IVec (⟨2, ![N, 2]⟩ : Shape) w)
    (upd : (⟨2, ![B, N]⟩ : Shape).Idx → EReal) (b : Fin B) (i : Fin L) (j : Fin M) :
    Ideal.hostScatterAdd d x idx upd (ix3 b i j)
      = x (ix3 b i j)
        + ∑ n ∈ Finset.univ.filter (fun n : Fin N =>
            (idx (ix2 n (0 : Fin 2))).toInt = (i.val : Int) ∧ (idx (ix2 n (1 : Fin 2))).toInt = (j.val : Int)),
            upd (ix2 b n) := by
  unfold Ideal.hostScatterAdd
  congr 1
  rw [Finset.sum_filter, Finset.sum_filter, sum_idx2, Finset.sum_eq_single b]
  · refine Finset.sum_congr rfl fun n _ => ?_
    by_cases hA : (idx (ix2 n (0 : Fin 2))).toInt = (i.val : Int) ∧ (idx (ix2 n (1 : Fin 2))).toInt = (j.val : Int)
    · rw [if_pos hA, if_pos ((resultIdx_pairs d huw hiw hsd hiv idx b n b i j).2 ⟨rfl, hA⟩)]
    · rw [if_neg hA, if_neg fun h => hA ((resultIdx_pairs d huw hiw hsd hiv idx b n b i j).1 h).2]
  · intro b' _ hb'
    exact Finset.sum_eq_zero fun n _ =>
      if_neg fun h => hb' ((resultIdx_pairs d huw hiw hsd hiv idx b' n b i j).1 h).1
  · intro h
    exact absurd (Finset.mem_univ _) h

end Pairs

section Diag
variable {B N w : Nat}

/-- THE SCATTER ONTO THE DIAGONAL READ AT (b, i, j): when the n-th index pair is (n, n), the operand there plus, on
    the diagonal only, the update at (b, i). -/
theorem scatterAdd_diag_apply
    (d : ScatterDims (⟨3, ![B, N, N]⟩ : Shape) (⟨2, ![N, 2]⟩ : Shape) (⟨2, ![B, N]⟩ : Shape))
    (huw : d.updateWindowDims = [0]) (hiw : d.insertedWindowDims = [1, 2])
    (hsd : d.scatterDimsToOperandDims = [1, 2]) (hiv : d.indexVectorDim = 1)
    (x : (⟨3, ![B, N, N]⟩ : Shape).Idx → EReal) (idx : IVec (⟨2, ![N, 2]⟩ : Shape) w)
    (h0 : ∀ n : Fin N, (idx (ix2 n (0 : Fin 2))).toInt = (n.val : Int))
    (h1 : ∀ n : Fin N, (idx (ix2 n (1 : Fin 2))).toInt = (n.val : Int))
    (upd : (⟨2, ![B, N]⟩ : Shape).Idx → EReal) (b : Fin B) (i j : Fin N) :
    Ideal.hostScatterAdd d x idx upd (ix3 b i j) = x (ix3 b i j) + if i = j then upd (ix2 b i) else 0 := by
  rw [scatterAdd_pairs_apply d huw hiw hsd hiv]
  congr 1
  rw [Finset.sum_filter]
  by_cases hij : i = j
  · subst hij
    rw [if_pos rfl, Finset.sum_eq_single i]
    · rw [if_pos ⟨h0 i, h1 i⟩]
    · intro n _ hn
      exact if_neg fun h => hn (Fin.ext (by have := h.1; rw [h0 n] at this; omega))
    · intro h
      exact absurd (Finset.mem_univ _) h
  · rw [if_neg hij]
    exact Finset.sum_eq_zero fun n _ =>
      if_neg fun h => hij (Fin.ext (by have a := h.1; have c := h.2; rw [h0 n] at a; rw [h1 n] at c; omega))

/-- The same for the host's accumulating scatter at the ideal float values, which is that exact sum. -/
theorem host_scatterAdd_diag_apply {φ : FTy}
    (d : ScatterDims (⟨3, ![B, N, N]⟩ : Shape) (⟨2, ![N, 2]⟩ : Shape) (⟨2, ![B, N]⟩ : Shape))
    (huw : d.updateWindowDims = [0]) (hiw : d.insertedWindowDims = [1, 2])
    (hsd : d.scatterDimsToOperandDims = [1, 2]) (hiv : d.indexVectorDim = 1)
    (x : FVec Ideal (⟨3, ![B, N, N]⟩ : Shape) φ) (idx : IVec (⟨2, ![N, 2]⟩ : Shape) w)
    (h0 : ∀ n : Fin N, (idx (ix2 n (0 : Fin 2))).toInt = (n.val : Int))
    (h1 : ∀ n : Fin N, (idx (ix2 n (1 : Fin 2))).toInt = (n.val : Int))
    (upd : FVec Ideal (⟨2, ![B, N]⟩ : Shape) φ) (b : Fin B) (i j : Fin N) :
    Host.scatterAdd d x idx upd (ix3 b i j) = x (ix3 b i j) + if i = j then upd (ix2 b i) else 0 :=
  scatterAdd_diag_apply d huw hiw hsd hiv x idx h0 h1 upd b i j

end Diag

end Idealize.ShloMosaic.ScatterDiag

end
-- ==== Proof.RefWords.lean ====
/-
  Words and bits the reference's index arithmetic meets, each stated once for any small word: a word that is not
  negative survives the wrap of negative indices; a class word below 21 survives the clamp into the table; "row minus
  one is at least column" as signed words says the column is strictly before the row; and the bit "is not the zero
  word" read as an extended real is zero or one.
-/
import Idealize.ShloMosaic.Lib.StableHlo.Predicate
import Idealize.ShloMosaic.Lib.ValueIdx
import Idealize.ShloMosaic.PureOps.Ideal

noncomputable section

namespace Cert.ReferenceIdeal.RefValue

open Idealize.ShloMosaic Idealize.ShloMosaic.ValueIdx
open Idealize.ShloMosaic.StableHlo.Predicate

/-! ## Words -/

/-- A word that is not negative as a signed number is kept by the wrap of negative indices. -/
theorem select_slt_zero (w c : BitVec 32) (hw : w.toNat < 2 ^ 31) :
    Scalar.select (IntOp.cmpi .slt w 0#32) c w = w := by
  have h : ¬ IntOp.cmpi .slt w 0#32 = 1#1 := fun h =>
    Nat.not_lt_zero _ ((slt_iff_toNat (a := w) (b := 0#32) hw (by decide)).1 h)
  rw [eq_zero_of_ne_one h, select_zero]

/-- A class word below 21 reads the same signed, and the clamp into the table's 21 rows leaves it alone. -/
theorem clampWord (w : BitVec 32) (hw : w.toNat < 21) : min w.toInt.toNat (21 - 1) = w.toNat := by
  rw [toInt_eq_toNat_of_lt (by omega)]
  omega

/-- Adding the all-ones word to a positive small word steps it down by one. -/
theorem addi_neg_one (i : Nat) (hpos : 0 < i) (hi : i < 2 ^ 31) :
    IntOp.addi (BitVec.ofNat 32 i) 4294967295#32 = BitVec.ofNat 32 (i - 1) := by
  unfold IntOp.addi
  apply BitVec.eq_of_toNat_eq
  rw [BitVec.toNat_add, BitVec.toNat_ofNat, BitVec.toNat_ofNat, BitVec.toNat_ofNat]
  omega

/-- The all-ones word, minus one as a signed number, is not at least any small non-negative word. -/
theorem not_sge_neg_one (j : Nat) (hj : j < 2 ^ 31) :
    ¬ IntOp.cmpi .sge (IntOp.addi (BitVec.ofNat 32 0) 4294967295#32) (BitVec.ofNat 32 j) = 1#1 := by
  intro h
  have e : IntOp.addi (BitVec.ofNat 32 0) 4294967295#32 = 4294967295#32 := rfl
  rw [e] at h
  unfold IntOp.cmpi at h
  rw [ofBool_eq_one_iff] at h
  have h' : (BitVec.ofNat 32 j).toInt ≤ (4294967295#32 : BitVec 32).toInt := by
    simpa only [BitVec.sle, decide_eq_true_eq] using h
  rw [toInt_ofNat_small j hj] at h'
  have e2 : (4294967295#32 : BitVec 32).toInt = -1 := rfl
  rw [e2] at h'
  omega

/-- Row index minus one is at least the column index, as signed words, exactly when the column is before the row. -/
theorem tril_bit (i j : Nat) (hi : i < 2 ^ 31) (hj : j < 2 ^ 31) :
    IntOp.cmpi .sge (IntOp.addi (BitVec.ofNat 32 i) 4294967295#32) (BitVec.ofNat 32 j) = 1#1 ↔ j < i := by
  by_cases h0 : i = 0
  · subst h0
    exact ⟨fun h => absurd h (not_sge_neg_one j hj), fun h => absurd h (Nat.not_lt_zero j)⟩
  · have hpos : 0 < i := Nat.pos_of_ne_zero h0
    rw [addi_neg_one i hpos hi, sge_iff_toNat (by rw [BitVec.toNat_ofNat]; omega) (by rw [BitVec.toNat_ofNat]; omega),
      BitVec.toNat_ofNat, BitVec.toNat_ofNat]
    omega

/-- The one-bit answer of "is not the zero word", as an extended real: zero for the zero word, one otherwise. -/
theorem ne_zero_bit (w : BitVec 32) :
    FloatOps.uitofp (F := Ideal) .f32 (IntOp.cmpi .ne w 0#32) = if w = 0#32 then (0 : EReal) else 1 := by
  show (((IntOp.cmpi .ne w 0#32).toNat : ℝ) : EReal) = _
  unfold IntOp.cmpi
  by_cases h : w = 0#32
  · subst h
    simp
  · rw [if_neg h]
    have : (w != 0#32) = true := by simpa using h
    simp [this]

end Cert.ReferenceIdeal.RefValue

end
-- ==== Proof.RefGraph.lean ====
/-
  The reference's graph, entry by entry. Reading the reference one operation at a time at an index (b, i, j):
  the two class words that index the relation table are the class words of nodes i and j (a class word below 21 is
  not negative, so the wrap of negative indices keeps it, and the gather's clamp into the table keeps it too), so
  the gathered entry is the table at those two classes; the strict lower triangle keeps it when j is before i and
  puts zero elsewhere; adding the transpose gives the table at (class of i, class of j) below the diagonal, at
  (class of j, class of i) above it and zero on it; the accumulating scatter, whose n-th index pair is (n, n), adds
  on the diagonal only the update of row i, which is zero for class zero and one otherwise. That is the graph of
  the statement.
-/
import proofs.«408942_j68186900791974_3_alg».proof.Proof.RefRead
import proofs.«408942_j68186900791974_3_alg».proof.Proof.Spec
import proofs.«408942_j68186900791974_3_alg».proof.Proof.LibGatherPair
import proofs.«408942_j68186900791974_3_alg».proof.Proof.LibScatterDiag
import proofs.«408942_j68186900791974_3_alg».proof.Proof.RefWords
import Idealize.ShloMosaic.Lib.StableHlo.Predicate
import Idealize.ShloMosaic.Lib.Pipeline.Value
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.ReadP Idealize.ShloMosaic Idealize.ShloMosaic.ValueIdx
open Idealize.ShloMosaic.StableHlo.Predicate

/-! ## The class words that index the table -/

section Classes
variable (x2 : (⟨S16x1444, .i32⟩ : BufTy).Contents (Elt Ideal)) (hci : ∀ i, (x2 i).toNat < 21)
include hci

/-- The row word after the wrap of negative indices is the class word itself. -/
theorem v6_eq (i : S16x1444x1.Idx) : val_main_v6 (F := Ideal) x2 i = x2 (idx_main_v0 i) := by
  rw [val_main_v6_apply, val_main_v3_apply, val_main_v5_apply, val_main_v0_apply, val_main_v2_apply, val_main_c_apply,
    val_main_v4_apply, val_main_c_0_apply]
  exact select_slt_zero _ _ (by have := hci (idx_main_v0 i); omega)

/-- The column word after the wrap of negative indices is the class word itself. -/
theorem v11_eq (i : S16x1x1444.Idx) : val_main_v11 (F := Ideal) x2 i = x2 (idx_main_v1 i) := by
  rw [val_main_v11_apply, val_main_v8_apply, val_main_v10_apply, val_main_v1_apply, val_main_v7_apply, val_main_c_1_apply,
    val_main_v9_apply, val_main_c_2_apply]
  exact select_slt_zero _ _ (by have := hci (idx_main_v1 i); omega)

/-- Component 0 of the start index at (b, i, j) is the class word of node i. -/
theorem v16_at0 (b : Fin 16) (i j : Fin 1444) :
    val_main_v16 (F := Ideal) x2 (ix4 b i j (0 : Fin 2)) = x2 (ix2 b i) := by
  unfold val_main_v16
  rw [concatenate_pair_apply_left (s₁ := S16x1444x1444x1) (s₂ := S16x1444x1444x1) (3 : Fin 4) _ _ _ (ix4 b i j (0 : Fin 2)) rfl (ix4 b i j (0 : Fin 1))
      (fun a => match a with | ⟨0, _⟩ => rfl | ⟨1, _⟩ => rfl | ⟨2, _⟩ => rfl | ⟨3, _⟩ => rfl),
    val_main_v14_apply, val_main_v12_apply, v6_eq x2 hci]
  refine congrArg x2 (funext fun a => ?_)
  match a with
  | ⟨0, _⟩ => rfl
  | ⟨1, _⟩ => rfl

/-- Component 1 of the start index at (b, i, j) is the class word of node j. -/
theorem v16_at1 (b : Fin 16) (i j : Fin 1444) :
    val_main_v16 (F := Ideal) x2 (ix4 b i j (1 : Fin 2)) = x2 (ix2 b j) := by
  unfold val_main_v16
  rw [concatenate_pair_apply_right (s₁ := S16x1444x1444x1) (s₂ := S16x1444x1444x1) (3 : Fin 4) _ _ _ (ix4 b i j (1 : Fin 2)) rfl rfl (ix4 b i j (0 : Fin 1))
      (fun a hne => match a, hne with
        | ⟨0, _⟩, _ => rfl | ⟨1, _⟩, _ => rfl | ⟨2, _⟩, _ => rfl | ⟨3, _⟩, hne => absurd rfl hne)
      rfl,
    val_main_v15_apply, val_main_v13_apply, v11_eq x2 hci]
  refine congrArg x2 (funext fun a => ?_)
  match a with
  | ⟨0, _⟩ => rfl
  | ⟨1, _⟩ => rfl

end Classes

/-! ## The gathered table entry -/

section Gather
variable (x0 : (⟨S21x21, .f32⟩ : BufTy).Contents (Elt Ideal)) (x2 : (⟨S16x1444, .i32⟩ : BufTy).Contents (Elt Ideal))
  (hci : ∀ i, (x2 i).toNat < 21)
include hci

/-- The gather at (b, i, j) is the table at the classes of nodes i and j. -/
theorem v17_eq (b : Fin 16) (i j : Fin 1444) :
    val_main_v17 (F := Ideal) x0 x2 (ix3 b i j) = Cert.Proof.Spec.tab x0 (x2 (ix2 b i)) (x2 (ix2 b j)) := by
  unfold val_main_v17
  rw [GatherPair.gather_pair_apply (by decide) (by decide)
    gather_S21x21_S16x1444x1444x2_S16x1444x1444_n_01_n_n_01_3_11 rfl rfl rfl rfl rfl rfl]
  unfold Cert.Proof.Spec.tab
  rw [dif_pos ⟨hci (ix2 b i), hci (ix2 b j)⟩]
  refine congrArg x0 (funext fun a => Fin.ext ?_)
  match a with
  | ⟨0, _⟩ =>
    show min (val_main_v16 (F := Ideal) x2 (ix4 b i j (0 : Fin 2))).toInt.toNat (21 - 1) = (x2 (ix2 b i)).toNat
    rw [v16_at0 x2 hci]
    exact clampWord _ (hci _)
  | ⟨1, _⟩ =>
    show min (val_main_v16 (F := Ideal) x2 (ix4 b i j (1 : Fin 2))).toInt.toNat (21 - 1) = (x2 (ix2 b j)).toNat
    rw [v16_at1 x2 hci]
    exact clampWord _ (hci _)

end Gather

/-! ## The strict lower triangle and its transpose -/

/-- The triangle's mask at (b, i, j) is set exactly when j is before i. -/
theorem mask_eq (b : Fin 16) (i j : Fin 1444) :
    val_main_call0_v5 (F := Ideal) (ix3 b i j) = if j.val < i.val then 1#1 else 0#1 := by
  rw [val_main_call0_v5_apply, val_main_call0_v4_apply, val_main_call0_v2_apply, val_main_call0_v0_apply,
    val_main_call0_v1_apply, val_main_call0_c_apply, val_main_call0_v3_apply]
  show IntOp.cmpi .sge (IntOp.addi (BitVec.ofNat 32 i.val) 4294967295#32) (BitVec.ofNat 32 j.val) = _
  have hi : i.val < 2 ^ 31 := by have := i.isLt; omega
  have hj : j.val < 2 ^ 31 := by have := j.isLt; omega
  by_cases h : j.val < i.val
  · rw [if_pos h]
    exact (tril_bit i.val j.val hi hj).2 h
  · rw [if_neg h]
    exact eq_zero_of_ne_one fun h1 => h ((tril_bit i.val j.val hi hj).1 h1)

section Triangle
variable (x0 : (⟨S21x21, .f32⟩ : BufTy).Contents (Elt Ideal)) (x2 : (⟨S16x1444, .i32⟩ : BufTy).Contents (Elt Ideal))
  (hci : ∀ i, (x2 i).toNat < 21)
include hci

/-- The strict lower triangle at (b, i, j): the table entry when j is before i, zero otherwise. -/
theorem v18_eq (b : Fin 16) (i j : Fin 1444) :
    val_main_v18 (F := Ideal) x0 x2 (ix3 b i j)
      = if j.val < i.val then Cert.Proof.Spec.tab x0 (x2 (ix2 b i)) (x2 (ix2 b j)) else 0 := by
  rw [val_main_v18_apply, mask_eq, v17_eq x0 x2 hci, val_main_call0_v6_apply, val_main_call0_cst_apply]
  by_cases h : j.val < i.val
  · rw [if_pos h, if_pos h, select_one]
  · rw [if_neg h, if_neg h, select_zero]
    exact Ideal.ofBits_zero_f32

/-- The symmetrized triangle at (b, i, j). -/
theorem v20_eq (b : Fin 16) (i j : Fin 1444) :
    val_main_v20 (F := Ideal) x0 x2 (ix3 b i j)
      = (if j.val < i.val then Cert.Proof.Spec.tab x0 (x2 (ix2 b i)) (x2 (ix2 b j)) else 0)
        + (if i.val < j.val then Cert.Proof.Spec.tab x0 (x2 (ix2 b j)) (x2 (ix2 b i)) else 0) := by
  have e : idx_main_v19 (ix3 b i j) = ix3 b j i := by
    funext a
    match a with
    | ⟨0, _⟩ => rfl
    | ⟨1, _⟩ => rfl
    | ⟨2, _⟩ => rfl
  rw [val_main_v20_apply, val_main_v19_apply, e, v18_eq x0 x2 hci, v18_eq x0 x2 hci]
  rfl

end Triangle

/-! ## The diagonal -/

/-- The diagonal's update at (b, i): zero for class zero, one otherwise. -/
theorem v24_eq (x2 : (⟨S16x1444, .i32⟩ : BufTy).Contents (Elt Ideal)) (b : Fin 16) (i : Fin 1444) :
    val_main_v24 (F := Ideal) x2 (ix2 b i) = if x2 (ix2 b i) = 0#32 then (0 : EReal) else 1 := by
  rw [val_main_v24_apply, val_main_v23_apply, val_main_v22_apply, val_main_c_3_apply]
  exact ne_zero_bit _

/-- The scatter's n-th row index, read signed, is n. -/
theorem v37_at0 (n : Fin 1444) : (val_main_v37 (F := Ideal) (ix2 n (0 : Fin 2))).toInt = (n.val : Int) := by
  unfold val_main_v37
  rw [concatenate_pair_apply_left (s₁ := S1444x1) (s₂ := S1444x1) (1 : Fin 2) _ _ _ (ix2 n (0 : Fin 2)) rfl (ix2 n (0 : Fin 1))
      (fun a => match a with | ⟨0, _⟩ => rfl | ⟨1, _⟩ => rfl),
    val_main_v35_apply, val_main_v29_apply, val_main_v26_apply, val_main_v28_apply, val_main_v21_apply,
    val_main_v25_apply, val_main_c_4_apply]
  have hn : n.val < 2 ^ 31 := by have := n.isLt; omega
  show (Scalar.select (IntOp.cmpi .slt (BitVec.ofNat 32 n.val) 0#32) _ (BitVec.ofNat 32 n.val)).toInt = _
  rw [select_slt_zero _ _ (by rw [BitVec.toNat_ofNat]; omega), toInt_ofNat_small _ hn]

/-- The scatter's n-th column index, read signed, is n. -/
theorem v37_at1 (n : Fin 1444) : (val_main_v37 (F := Ideal) (ix2 n (1 : Fin 2))).toInt = (n.val : Int) := by
  unfold val_main_v37
  rw [concatenate_pair_apply_right (s₁ := S1444x1) (s₂ := S1444x1) (1 : Fin 2) _ _ _ (ix2 n (1 : Fin 2)) rfl rfl (ix2 n (0 : Fin 1))
      (fun a hne => match a, hne with | ⟨0, _⟩, _ => rfl | ⟨1, _⟩, hne => absurd rfl hne)
      rfl,
    val_main_v36_apply, val_main_v34_apply, val_main_v31_apply, val_main_v33_apply, val_main_v21_apply,
    val_main_v30_apply, val_main_c_6_apply]
  have hn : n.val < 2 ^ 31 := by have := n.isLt; omega
  show (Scalar.select (IntOp.cmpi .slt (BitVec.ofNat 32 n.val) 0#32) _ (BitVec.ofNat 32 n.val)).toInt = _
  rw [select_slt_zero _ _ (by rw [BitVec.toNat_ofNat]; omega), toInt_ofNat_small _ hn]

/-! ## The graph -/

section Graph
variable (x0 : (⟨S21x21, .f32⟩ : BufTy).Contents (Elt Ideal)) (x2 : (⟨S16x1444, .i32⟩ : BufTy).Contents (Elt Ideal))
  (hci : ∀ i, (x2 i).toNat < 21)
include hci

/-- The scattered graph at (b, i, j) is the graph of the statement. -/
theorem v38_eq (b : Fin 16) (i j : Fin 1444) :
    val_main_v38 (F := Ideal) x0 x2 (ix3 b i j) = Cert.Proof.Spec.graph x0 x2 b i j := by
  unfold val_main_v38
  refine (ScatterDiag.host_scatterAdd_diag_apply scatter_S16x1444x1444_S1444x2_S16x1444_0_12_12_1 rfl rfl rfl rfl
    (val_main_v20 (F := Ideal) x0 x2) (val_main_v37 (F := Ideal)) v37_at0 v37_at1 (val_main_v24 (F := Ideal) x2) b i j).trans ?_
  rw [v20_eq x0 x2 hci, v24_eq]
  unfold Cert.Proof.Spec.graph
  rcases Nat.lt_trichotomy j.val i.val with h | h | h
  · have hne : ¬ i = j := fun e => by rw [e] at h; exact Nat.lt_irrefl _ h
    rw [if_pos h, if_neg (Nat.lt_asymm h), if_neg hne, if_pos h, add_zero, add_zero]
  · have he : i = j := Fin.ext h.symm
    subst he
    rw [if_neg (Nat.lt_irrefl _), if_pos rfl, if_neg (Nat.lt_irrefl _), if_neg (Nat.lt_irrefl _), add_zero, zero_add]
  · have hne : ¬ i = j := fun e => by rw [e] at h; exact Nat.lt_irrefl _ h
    rw [if_neg (Nat.lt_asymm h), if_pos h, if_neg hne, if_neg (Nat.lt_asymm h), if_pos h, zero_add, add_zero]

end Graph

end Cert.ReferenceIdeal.RefValue

end
-- ==== Proof.RefValue.lean ====
/-
  The reference's result is the aggregation of the statement. The reference's last operation contracts the graph with
  the node features: at (b, i, d) it is the sum over the nodes j of the graph entry at (b, i, j) times feature d of
  node j; the graph entry is the statement's (shown entry by entry beside this file), so the sum is the statement's
  aggregation term by term. Only sums, products and the coefficients zero and one occur: nothing here needs the
  inputs finite.
-/
import proofs.«408942_j68186900791974_3_alg».proof.Proof.RefGraph

noncomputable section

namespace Cert.ReferenceIdeal.RefValue

open Cert.ReferenceIdeal Cert.ReferenceIdeal.Gen Cert.ReferenceIdeal.ReadP Idealize.ShloMosaic Idealize.ShloMosaic.ValueIdx

/-- THE REFERENCE'S RESULT IS THE AGGREGATION OF THE STATEMENT: at (b, i, d) the contraction is the sum over the nodes
    j of the graph entry at (b, i, j) times the feature d of node j. -/
theorem val_eq_agg (x0 : (⟨S21x21, .f32⟩ : BufTy).Contents (Elt Ideal))
    (x1 : (⟨S16x1444x128, .f32⟩ : BufTy).Contents (Elt Ideal)) (x2 : (⟨S16x1444, .i32⟩ : BufTy).Contents (Elt Ideal))
    (hci : ∀ i, (x2 i).toNat < 21) :
    Cert.ReferenceIdeal.ReadP.val_main_v39 (F := Ideal) x0 x1 x2 = Cert.Proof.Spec.agg x0 x1 x2 := by
  funext idx
  obtain ⟨b, i, d, rfl⟩ : ∃ b i d, idx = ix3 b i d := ⟨idx 0, idx 1, idx 2, eq_ix3 idx⟩
  rw [val_main_v39_apply]
  unfold Cert.Proof.Spec.agg
  refine Finset.sum_congr rfl fun k _ => ?_
  have el : lidx_main_v39 (ix3 b i d) k = ix3 b i k := by
    funext a
    match a with
    | ⟨0, _⟩ => rfl
    | ⟨1, _⟩ => rfl
    | ⟨2, _⟩ => rfl
  have er : ridx_main_v39 (ix3 b i d) k = ix3 b k d := by
    funext a
    match a with
    | ⟨0, _⟩ => rfl
    | ⟨1, _⟩ => rfl
    | ⟨2, _⟩ => rfl
  rw [el, er, v38_eq x0 x2 hci]

end Cert.ReferenceIdeal.RefValue

end
-- ==== Proof.LibSsa.lean ====
/-
  General lemmas about a straight line of host operations in static single assignment: every operation writes one
  buffer of its own, and no buffer is written twice. In such a line the contents a buffer holds at the end are decided
  where it is written: the operation's function applied to what its operands hold AT THE END, since nothing after an
  operand's own writer writes it again. One equation per operation, each about the fold of the whole line, none
  mentioning the rest of the line.
-/
import Idealize.ShloMosaic.Lib.StableHlo.Run

namespace Idealize.ShloMosaic.StableHlo

open Idealize.ShloMosaic Idealize.SL.Sem

variable {τ : Topo} {sig : RefSig} {Val : EltTy → Type}

/-- The line's operations write, one each and in order, exactly the references of the list `W`: the `k`-th operation
    writes the `k`-th reference and nothing else. -/
def WritesAre (ops : List (HloOp τ sig Val)) (W : List (Ref sig .tc)) : Prop :=
  List.Forall₂ (fun op w => op.writes = {(Proc.devRef .tc w : DevRef τ sig)}) ops W

/-- The fold over two lines one after the other is the second line's fold from where the first ends. -/
theorem after_append (l₁ l₂ : List (HloOp τ sig Val)) (V : Valuation τ sig Val) :
    after (l₁ ++ l₂) V = after l₂ (after l₁ V) := by
  induction l₁ generalizing V with
  | nil => rfl
  | cons op l ih => rw [List.cons_append, after_cons, after_cons, ih]

/-- What remains of the line after its first `j` operations writes what remains of the list. -/
theorem WritesAre.drop {ops : List (HloOp τ sig Val)} {W : List (Ref sig .tc)} (hW : WritesAre ops W) (j : ℕ) :
    WritesAre (ops.drop j) (W.drop j) := by
  unfold WritesAre at hW ⊢
  induction hW generalizing j with
  | nil => simp only [List.drop_nil]; exact List.Forall₂.nil
  | cons h t ih =>
    cases j with
    | zero => exact List.Forall₂.cons h t
    | succ j => simpa only [List.drop_succ_cons] using ih j

/-- A reference the line never writes holds at the end what it held at the start. -/
theorem after_keep {ops : List (HloOp τ sig Val)} {W : List (Ref sig .tc)} (hW : WritesAre ops W)
    (F0 : Valuation τ sig Val) {r : Ref sig .tc} (hr : r ∉ W) :
    after ops F0 (Proc.devRef .tc r) = F0 (Proc.devRef .tc r) := by
  unfold WritesAre at hW
  induction hW generalizing F0 with
  | nil => rfl
  | cons h _ ih =>
    rw [after_cons, ih _ fun hm => hr (List.mem_cons_of_mem _ hm), HloOp.result_of_not_mem]
    rw [h, Finset.mem_singleton]
    exact fun e => hr (Proc.devRef_injective _ e ▸ List.mem_cons_self)

/-- A reference no operation from the `k`-th on writes holds at the end what it held after the first `k` operations. -/
theorem after_eq_take {ops : List (HloOp τ sig Val)} {W : List (Ref sig .tc)} (hW : WritesAre ops W)
    (F0 : Valuation τ sig Val) (k : ℕ) {r : Ref sig .tc} (hr : r ∉ W.drop k) :
    after ops F0 (Proc.devRef .tc r) = after (ops.take k) F0 (Proc.devRef .tc r) := by
  conv_lhs => rw [← List.take_append_drop k ops, after_append]
  exact after_keep (hW.drop k) _ hr

/-- The reference the `k`-th operation writes, written by none after it, holds at the end that operation's result over
    what the first `k` operations leave. -/
theorem after_eq_result {ops : List (HloOp τ sig Val)} {W : List (Ref sig .tc)} (hW : WritesAre ops W)
    (F0 : Valuation τ sig Val) (k : ℕ) {op : HloOp τ sig Val} (hk : ops[k]? = some op) {y : Ref sig .tc}
    (hy' : y ∉ W.drop (k + 1)) :
    after ops F0 (Proc.devRef .tc y) = op.result (after (ops.take k) F0) (Proc.devRef .tc y) := by
  obtain ⟨hlt, rfl⟩ := List.getElem?_eq_some_iff.mp hk
  conv_lhs => rw [← List.take_append_drop k ops, after_append, List.drop_eq_getElem_cons hlt, after_cons]
  exact after_keep (hW.drop (k + 1)) _ hy'

/-- A constant: written by the `k`-th operation and by none after it, the reference ends at the constant. -/
theorem ssa_nullary {ops : List (HloOp τ sig Val)} {W : List (Ref sig .tc)} (hW : WritesAre ops W)
    (F0 : Valuation τ sig Val) (k : ℕ) {y : Ref sig .tc} {v : y.ty.Contents Val} {hy}
    (hk : ops[k]? = some (nullary y v hy)) (hy' : y ∉ W.drop (k + 1)) :
    after ops F0 (Proc.devRef .tc y) = v := by
  rw [after_eq_result hW F0 k hk hy']
  exact nullary_result y v hy _

/-- One operand: the result, written by the `k`-th operation and by none after it, ends at the function of what the
    operand ends at, the operand being written by no operation from the `k`-th on. -/
theorem ssa_unary {ops : List (HloOp τ sig Val)} {W : List (Ref sig .tc)} (hW : WritesAre ops W)
    (F0 : Valuation τ sig Val) (k : ℕ) {x y : Ref sig .tc} {f : x.ty.Contents Val → y.ty.Contents Val} {hx hy}
    (hk : ops[k]? = some (unary x y f hx hy)) (hx' : x ∉ W.drop k) (hy' : y ∉ W.drop (k + 1)) :
    after ops F0 (Proc.devRef .tc y) = f (after ops F0 (Proc.devRef .tc x)) := by
  rw [after_eq_result hW F0 k hk hy', after_eq_take hW F0 k hx']
  exact unary_result x y f hx hy _

/-- Two operands: as `ssa_unary`, both operands written by no operation from the `k`-th on. -/
theorem ssa_binary {ops : List (HloOp τ sig Val)} {W : List (Ref sig .tc)} (hW : WritesAre ops W)
    (F0 : Valuation τ sig Val) (k : ℕ) {a b y : Ref sig .tc}
    {f : a.ty.Contents Val → b.ty.Contents Val → y.ty.Contents Val} {ha hb hy}
    (hk : ops[k]? = some (binary a b y f ha hb hy)) (ha' : a ∉ W.drop k) (hb' : b ∉ W.drop k)
    (hy' : y ∉ W.drop (k + 1)) :
    after ops F0 (Proc.devRef .tc y) = f (after ops F0 (Proc.devRef .tc a)) (after ops F0 (Proc.devRef .tc b)) := by
  rw [after_eq_result hW F0 k hk hy', after_eq_take hW F0 k ha', after_eq_take hW F0 k hb']
  exact binary_result a b y f ha hb hy _

/-- Three operands: as `ssa_unary`, the three operands written by no operation from the `k`-th on. -/
theorem ssa_ternary {ops : List (HloOp τ sig Val)} {W : List (Ref sig .tc)} (hW : WritesAre ops W)
    (F0 : Valuation τ sig Val) (k : ℕ) {c a b y : Ref sig .tc}
    {f : c.ty.Contents Val → a.ty.Contents Val → b.ty.Contents Val → y.ty.Contents Val} {hc ha hb hy}
    (hk : ops[k]? = some (ternary c a b y f hc ha hb hy)) (hc' : c ∉ W.drop k) (ha' : a ∉ W.drop k)
    (hb' : b ∉ W.drop k) (hy' : y ∉ W.drop (k + 1)) :
    after ops F0 (Proc.devRef .tc y)
      = f (after ops F0 (Proc.devRef .tc c)) (after ops F0 (Proc.devRef .tc a)) (after ops F0 (Proc.devRef .tc b)) := by
  rw [after_eq_result hW F0 k hk hy', after_eq_take hW F0 k hc', after_eq_take hW F0 k ha', after_eq_take hW F0 k hb']
  exact ternary_result c a b y f hc ha hb hy _

/-- A reshape: the result ends at the operand's final contents, read in row-major order at the result's shape. -/
theorem ssa_reshape {ops : List (HloOp τ sig Val)} {W : List (Ref sig .tc)} (hW : WritesAre ops W)
    (F0 : Valuation τ sig Val) (k : ℕ) {x y : Ref sig .tc} {he : x.ty.elt = y.ty.elt}
    {hn : x.ty.shape.ShapeCasts y.ty.shape} {hx hy}
    (hk : ops[k]? = some (reshape x y he hn hx hy)) (hx' : x ∉ W.drop k) (hy' : y ∉ W.drop (k + 1)) :
    after ops F0 (Proc.devRef .tc y)
      = fun i => he ▸ shapeCast y.ty.shape (after ops F0 (Proc.devRef .tc x)) hn i := by
  rw [after_eq_result hW F0 k hk hy', after_eq_take hW F0 k hx']
  exact reshape_result x y he hn hx hy _

/-- A family of operands: the result ends at the function of the family of what the operands end at, every operand
    written by no operation from the `k`-th on. -/
theorem ssa_nary {n : ℕ} {ops : List (HloOp τ sig Val)} {W : List (Ref sig .tc)} (hW : WritesAre ops W)
    (F0 : Valuation τ sig Val) (k : ℕ) {xs : Fin n → Ref sig .tc} {y : Ref sig .tc}
    {f : ((j : Fin n) → (xs j).ty.Contents Val) → y.ty.Contents Val} {hxs hy}
    (hk : ops[k]? = some (nary xs y f hxs hy)) (hxs' : ∀ j, xs j ∉ W.drop k) (hy' : y ∉ W.drop (k + 1)) :
    after ops F0 (Proc.devRef .tc y) = f (fun j => after ops F0 (Proc.devRef .tc (xs j))) := by
  have hops : (fun j => after ops F0 (Proc.devRef .tc (xs j)))
      = fun j => after (ops.take k) F0 (Proc.devRef .tc (xs j)) :=
    funext fun j => after_eq_take hW F0 k (hxs' j)
  rw [after_eq_result hW F0 k hk hy', hops]
  exact nary_result xs y f hxs hy _

section Test

/- A line of three operations over any four distinct references: a constant into `a`, a function of `x` into `y`, a
   function of `y` and `a` into `z`. The stage equations, in program order, give `z`'s final contents in terms of
   what `x` held at the start. -/
example {x a y z : Ref sig .tc} (hxa : x ≠ a) (hxy : x ≠ y) (hxz : x ≠ z) (hay : a ≠ y) (haz : a ≠ z) (hyz : y ≠ z)
    (v : a.ty.Contents Val) (f : x.ty.Contents Val → y.ty.Contents Val)
    (g : y.ty.Contents Val → a.ty.Contents Val → z.ty.Contents Val) (hx ha hy hz) (F0 : Valuation τ sig Val) :
    after [nullary (τ := τ) a v ha, unary x y f hx hy, binary y a z g hy ha hz] F0 (Proc.devRef .tc z)
      = g (f (F0 (Proc.devRef .tc x))) v := by
  have hW : WritesAre [nullary (τ := τ) a v ha, unary x y f hx hy, binary y a z g hy ha hz] [a, y, z] :=
    .cons rfl (.cons rfl (.cons rfl .nil))
  have e0 := after_keep hW F0 (r := x) (by simp [hxa, hxy, hxz])
  have e1 := ssa_nullary hW F0 0 rfl (by simp [hay, haz])
  have e2 := ssa_unary hW F0 1 rfl (by simp [hxy, hxz]) (by simp [hyz])
  have e3 := ssa_binary hW F0 2 rfl (by simp [hyz]) (by simp [haz]) (by simp)
  rw [e3, e2, e1, e0]

end Test

end Idealize.ShloMosaic.StableHlo
-- ==== Proof.RefStages.lean ====
/-
  The reference program's run, read off one operation at a time.

  The reference's @main is a straight line of 58 host operations in single assignment: each writes one buffer of its
  own and no buffer is written twice. So what a buffer holds when the line has ended is decided at the one operation
  that writes it: that operation's function, applied to what its operands hold at the end. Going through the line in
  program order, each buffer's final contents are the stage function of the arguments' launch contents (the stage
  functions are the ones the reading module states, one per operation). The last stage is the result buffer; the three
  argument buffers are written by nothing and end as they started.
-/
import proofs.«408942_j68186900791974_3_alg».proof.Proof.RefRead
import proofs.«408942_j68186900791974_3_alg».proof.Proof.LibSsa

namespace Cert.ReferenceIdeal.RefStages

open Cert.ReferenceIdeal Cert.ReferenceIdeal.Gen Idealize.ShloMosaic Idealize.ShloMosaic.TcCoe Idealize.SL.Sem Idealize.ShloMosaic.StableHlo

variable {F : FTy → Type} [FloatOps F]

/-- The 58 buffers the line writes, in program order: the k-th operation writes the k-th of them. The ten from
    main_call0_v0 to main_call0_v6 are the called function's own values; main_v18 is what the call returns. -/
abbrev W : List (Ref sig .tc) :=
  [main_v0, main_v1, main_c, main_v2, main_v3, main_c_0, main_v4, main_v5, main_v6,
   main_c_1, main_v7, main_v8, main_c_2, main_v9, main_v10, main_v11,
   main_v12, main_v13, main_v14, main_v15, main_v16, main_v17,
   main_call0_v0, main_call0_c, main_call0_v1, main_call0_v2, main_call0_v3, main_call0_v4, main_call0_v5,
   main_call0_cst, main_call0_v6, main_v18,
   main_v19, main_v20,
   main_v21, main_c_3, main_v22, main_v23, main_v24,
   main_c_4, main_v25, main_v26, main_c_5, main_v27, main_v28, main_v29,
   main_c_6, main_v30, main_v31, main_c_7, main_v32, main_v33, main_v34,
   main_v35, main_v36, main_v37,
   main_v38, main_v39]

set_option maxRecDepth 8192 in
/-- Single assignment: operation by operation, the set of buffers it writes is the one buffer listed for it. -/
theorem hW : WritesAre (ValueP.ops (F := F)) W := by
  unfold WritesAre
  repeat (first | exact List.Forall₂.nil | refine List.Forall₂.cons rfl ?_)

section Stages

variable (m : (ℓ : Loc nD τ sig) → Buf (Elt F) ℓ) (c : Dev nD)

/-! ## The arguments: written by nothing -/

/-- The table of pair scores (21 by 21) ends at its launch contents. -/
theorem keep_arg0 :
    after (ValueP.ops (F := F)) (launchContents m c) (Proc.devRef .tc main_arg0)
      = m ((c.tc : Thread nD τ).loc main_arg0) :=
  after_keep hW _ (by decide)

/-- The right factor of the closing product ends at its launch contents. -/
theorem keep_arg1 :
    after (ValueP.ops (F := F)) (launchContents m c) (Proc.devRef .tc main_arg1)
      = m ((c.tc : Thread nD τ).loc main_arg1) :=
  after_keep hW _ (by decide)

/-- The class indices end at their launch contents. -/
theorem keep_arg2 :
    after (ValueP.ops (F := F)) (launchContents m c) (Proc.devRef .tc main_arg2)
      = m ((c.tc : Thread nD τ).loc main_arg2) :=
  after_keep hW _ (by decide)

/-! ## Operations 0 to 8: the class index down a column, a negative one moved up by 21

The class indices as a column (v0) and as a row (v1); then for the column: is it below zero (v3, against the
spread constant 0), the index plus 21 (v5, against the spread constant 21), and the choice between the two (v6). -/

theorem stage_v0 :
    after (ValueP.ops (F := F)) (launchContents m c) (Proc.devRef .tc main_v0)
      = ReadP.val_main_v0 (F := F) (m ((c.tc : Thread nD τ).loc main_arg2)) := by
  rw [ssa_unary hW _ 0 rfl (by decide) (by decide), keep_arg2]
  rfl

theorem stage_v1 :
    after (ValueP.ops (F := F)) (launchContents m c) (Proc.devRef .tc main_v1)
      = ReadP.val_main_v1 (F := F) (m ((c.tc : Thread nD τ).loc main_arg2)) := by
  rw [ssa_unary hW _ 1 rfl (by decide) (by decide), keep_arg2]
  rfl

theorem stage_c :
    after (ValueP.ops (F := F)) (launchContents m c) (Proc.devRef .tc main_c) = ReadP.val_main_c (F := F) := by
  rw [ssa_nullary hW _ 2 rfl (by decide)]
  rfl

theorem stage_v2 :
    after (ValueP.ops (F := F)) (launchContents m c) (Proc.devRef .tc main_v2) = ReadP.val_main_v2 (F := F) := by
  rw [ssa_unary hW _ 3 rfl (by decide) (by decide), stage_c]
  rfl

theorem stage_v3 :
    after (ValueP.ops (F := F)) (launchContents m c) (Proc.devRef .tc main_v3)
      = ReadP.val_main_v3 (F := F) (m ((c.tc : Thread nD τ).loc main_arg2)) := by
  rw [ssa_binary hW _ 4 rfl (by decide) (by decide) (by decide), stage_v0, stage_v2]
  rfl

theorem stage_c_0 :
    after (ValueP.ops (F := F)) (launchContents m c) (Proc.devRef .tc main_c_0) = ReadP.val_main_c_0 (F := F) := by
  rw [ssa_nullary hW _ 5 rfl (by decide)]
  rfl

theorem stage_v4 :
    after (ValueP.ops (F := F)) (launchContents m c) (Proc.devRef .tc main_v4) = ReadP.val_main_v4 (F := F) := by
  rw [ssa_unary hW _ 6 rfl (by decide) (by decide), stage_c_0]
  rfl

theorem stage_v5 :
    after (ValueP.ops (F := F)) (launchContents m c) (Proc.devRef .tc main_v5)
      = ReadP.val_main_v5 (F := F) (m ((c.tc : Thread nD τ).loc main_arg2)) := by
  rw [ssa_binary hW _ 7 rfl (by decide) (by decide) (by decide), stage_v0, stage_v4]
  rfl

theorem stage_v6 :
    after (ValueP.ops (F := F)) (launchContents m c) (Proc.devRef .tc main_v6)
      = ReadP.val_main_v6 (F := F) (m ((c.tc : Thread nD τ).loc main_arg2)) := by
  rw [ssa_ternary hW _ 8 rfl (by decide) (by decide) (by decide) (by decide), stage_v3, stage_v5, stage_v0]
  rfl

/-! ## Operations 9 to 15: the same along a row

Below zero (v8), plus 21 (v10), the choice (v11), each over the row v1 and constants of their own. -/

theorem stage_c_1 :
    after (ValueP.ops (F := F)) (launchContents m c) (Proc.devRef .tc main_c_1) = ReadP.val_main_c_1 (F := F) := by
  rw [ssa_nullary hW _ 9 rfl (by decide)]
  rfl

theorem stage_v7 :
    after (ValueP.ops (F := F)) (launchContents m c) (Proc.devRef .tc main_v7) = ReadP.val_main_v7 (F := F) := by
  rw [ssa_unary hW _ 10 rfl (by decide) (by decide), stage_c_1]
  rfl

theorem stage_v8 :
    after (ValueP.ops (F := F)) (launchContents m c) (Proc.devRef .tc main_v8)
      = ReadP.val_main_v8 (F := F) (m ((c.tc : Thread nD τ).loc main_arg2)) := by
  rw [ssa_binary hW _ 11 rfl (by decide) (by decide) (by decide), stage_v1, stage_v7]
  rfl

theorem stage_c_2 :
    after (ValueP.ops (F := F)) (launchContents m c) (Proc.devRef .tc main_c_2) = ReadP.val_main_c_2 (F := F) := by
  rw [ssa_nullary hW _ 12 rfl (by decide)]
  rfl

theorem stage_v9 :
    after (ValueP.ops (F := F)) (launchContents m c) (Proc.devRef .tc main_v9) = ReadP.val_main_v9 (F := F) := by
  rw [ssa_unary hW _ 13 rfl (by decide) (by decide), stage_c_2]
  rfl

theorem stage_v10 :
    after (ValueP.ops (F := F)) (launchContents m c) (Proc.devRef .tc main_v10)
      = ReadP.val_main_v10 (F := F) (m ((c.tc : Thread nD τ).loc main_arg2)) := by
  rw [ssa_binary hW _ 14 rfl (by decide) (by decide) (by decide), stage_v1, stage_v9]
  rfl

theorem stage_v11 :
    after (ValueP.ops (F := F)) (launchContents m c) (Proc.devRef .tc main_v11)
      = ReadP.val_main_v11 (F := F) (m ((c.tc : Thread nD τ).loc main_arg2)) := by
  rw [ssa_ternary hW _ 15 rfl (by decide) (by decide) (by decide) (by decide), stage_v8, stage_v10, stage_v1]
  rfl

/-! ## Operations 16 to 21: the pair of indices at every (batch, row, column), and the table read at it

Column index and row index each spread over the full square (v12, v13), given a last axis of length one (v14, v15),
joined along it into a pair (v16); the score table read at the pair (v17). -/

theorem stage_v12 :
    after (ValueP.ops (F := F)) (launchContents m c) (Proc.devRef .tc main_v12)
      = ReadP.val_main_v12 (F := F) (m ((c.tc : Thread nD τ).loc main_arg2)) := by
  rw [ssa_unary hW _ 16 rfl (by decide) (by decide), stage_v6]
  rfl

theorem stage_v13 :
    after (ValueP.ops (F := F)) (launchContents m c) (Proc.devRef .tc main_v13)
      = ReadP.val_main_v13 (F := F) (m ((c.tc : Thread nD τ).loc main_arg2)) := by
  rw [ssa_unary hW _ 17 rfl (by decide) (by decide), stage_v11]
  rfl

theorem stage_v14 :
    after (ValueP.ops (F := F)) (launchContents m c) (Proc.devRef .tc main_v14)
      = ReadP.val_main_v14 (F := F) (m ((c.tc : Thread nD τ).loc main_arg2)) := by
  rw [ssa_unary hW _ 18 rfl (by decide) (by decide), stage_v12]
  rfl

theorem stage_v15 :
    after (ValueP.ops (F := F)) (launchContents m c) (Proc.devRef .tc main_v15)
      = ReadP.val_main_v15 (F := F) (m ((c.tc : Thread nD τ).loc main_arg2)) := by
  rw [ssa_unary hW _ 19 rfl (by decide) (by decide), stage_v13]
  rfl

theorem stage_v16 :
    after (ValueP.ops (F := F)) (launchContents m c) (Proc.devRef .tc main_v16)
      = ReadP.val_main_v16 (F := F) (m ((c.tc : Thread nD τ).loc main_arg2)) := by
  rw [ssa_binary hW _ 20 rfl (by decide) (by decide) (by decide), stage_v14, stage_v15]
  rfl

theorem stage_v17 :
    after (ValueP.ops (F := F)) (launchContents m c) (Proc.devRef .tc main_v17)
      = ReadP.val_main_v17 (F := F) (m ((c.tc : Thread nD τ).loc main_arg0)) (m ((c.tc : Thread nD τ).loc main_arg2)) := by
  rw [ssa_binary hW _ 21 rfl (by decide) (by decide) (by decide), keep_arg0, stage_v16]
  rfl

/-! ## Operations 22 to 31: the called function, the part on and below the diagonal shifted by one

The called function's ten operations stand in the line at the call's place, over the call's own buffers. Its values
are stated at the tensor types the function declares and carried to the buffers' own types, and back, along an
equation of types. Every buffer here is a literal one whose own type is the declared one, so both transports are the
identity: the facts to_… (a value carried to its buffer) and of_… (a buffer's contents read at the declared type),
one per buffer the function writes or reads. With the transports removed an operation of the function reads like one
of @main's. The row number (call0_v0) plus the spread constant minus one (call0_c, call0_v1, call0_v2), compared
at-least against the column number (call0_v3, call0_v4), spread over the batch (call0_v5); a spread float zero
(call0_cst, call0_v6); and the choice between the table read v17 and zero (v18, the call's result). -/

omit m c in
theorem to_call0_v0 (z : (⟨S1444x1444, .i32⟩ : BufTy).Contents (Elt F)) :
    (TRef.of (T := ⟨S1444x1444, .i32⟩) main_call0_v0).toBuf z = z := rfl
omit m c in
theorem of_call0_v0 (z : main_call0_v0.ty.Contents (Elt F)) :
    (TRef.of (T := ⟨S1444x1444, .i32⟩) main_call0_v0).ofBuf z = z := rfl

omit m c in
theorem to_call0_c (z : (⟨S_, .i32⟩ : BufTy).Contents (Elt F)) :
    (TRef.of (T := ⟨S_, .i32⟩) main_call0_c).toBuf z = z := rfl
omit m c in
theorem of_call0_c (z : main_call0_c.ty.Contents (Elt F)) :
    (TRef.of (T := ⟨S_, .i32⟩) main_call0_c).ofBuf z = z := rfl

omit m c in
theorem to_call0_v1 (z : (⟨S1444x1444, .i32⟩ : BufTy).Contents (Elt F)) :
    (TRef.of (T := ⟨S1444x1444, .i32⟩) main_call0_v1).toBuf z = z := rfl
omit m c in
theorem of_call0_v1 (z : main_call0_v1.ty.Contents (Elt F)) :
    (TRef.of (T := ⟨S1444x1444, .i32⟩) main_call0_v1).ofBuf z = z := rfl

omit m c in
theorem to_call0_v2 (z : (⟨S1444x1444, .i32⟩ : BufTy).Contents (Elt F)) :
    (TRef.of (T := ⟨S1444x1444, .i32⟩) main_call0_v2).toBuf z = z := rfl
omit m c in
theorem of_call0_v2 (z : main_call0_v2.ty.Contents (Elt F)) :
    (TRef.of (T := ⟨S1444x1444, .i32⟩) main_call0_v2).ofBuf z = z := rfl

omit m c in
theorem to_call0_v3 (z : (⟨S1444x1444, .i32⟩ : BufTy).Contents (Elt F)) :
    (TRef.of (T := ⟨S1444x1444, .i32⟩) main_call0_v3).toBuf z = z := rfl
omit m c in
theorem of_call0_v3 (z : main_call0_v3.ty.Contents (Elt F)) :
    (TRef.of (T := ⟨S1444x1444, .i32⟩) main_call0_v3).ofBuf z = z := rfl

omit m c in
theorem to_call0_v4 (z : (⟨S1444x1444, .i1⟩ : BufTy).Contents (Elt F)) :
    (TRef.of (T := ⟨S1444x1444, .i1⟩) main_call0_v4).toBuf z = z := rfl
omit m c in
theorem of_call0_v4 (z : main_call0_v4.ty.Contents (Elt F)) :
    (TRef.of (T := ⟨S1444x1444, .i1⟩) main_call0_v4).ofBuf z = z := rfl

omit m c in
theorem to_call0_v5 (z : (⟨S16x1444x1444, .i1⟩ : BufTy).Contents (Elt F)) :
    (TRef.of (T := ⟨S16x1444x1444, .i1⟩) main_call0_v5).toBuf z = z := rfl
omit m c in
theorem of_call0_v5 (z : main_call0_v5.ty.Contents (Elt F)) :
    (TRef.of (T := ⟨S16x1444x1444, .i1⟩) main_call0_v5).ofBuf z = z := rfl

omit m c in
theorem to_call0_cst (z : (⟨S_, .f32⟩ : BufTy).Contents (Elt F)) :
    (TRef.of (T := ⟨S_, .f32⟩) main_call0_cst).toBuf z = z := rfl
omit m c in
theorem of_call0_cst (z : main_call0_cst.ty.Contents (Elt F)) :
    (TRef.of (T := ⟨S_, .f32⟩) main_call0_cst).ofBuf z = z := rfl

omit m c in
theorem to_call0_v6 (z : (⟨S16x1444x1444, .f32⟩ : BufTy).Contents (Elt F)) :
    (TRef.of (T := ⟨S16x1444x1444, .f32⟩) main_call0_v6).toBuf z = z := rfl
omit m c in
theorem of_call0_v6 (z : main_call0_v6.ty.Contents (Elt F)) :
    (TRef.of (T := ⟨S16x1444x1444, .f32⟩) main_call0_v6).ofBuf z = z := rfl

omit m c in
theorem of_v17 (z : main_v17.ty.Contents (Elt F)) :
    (TRef.of (T := ⟨S16x1444x1444, .f32⟩) main_v17).ofBuf z = z := rfl
omit m c in
theorem to_v18 (z : (⟨S16x1444x1444, .f32⟩ : BufTy).Contents (Elt F)) :
    (TRef.of (T := ⟨S16x1444x1444, .f32⟩) main_v18).toBuf z = z := rfl

theorem stage_call0_v0 :
    after (ValueP.ops (F := F)) (launchContents m c) (Proc.devRef .tc main_call0_v0)
      = ReadP.val_main_call0_v0 (F := F) := by
  rewrite [ssa_nullary hW _ 22 rfl (by decide), to_call0_v0]
  rfl

theorem stage_call0_c :
    after (ValueP.ops (F := F)) (launchContents m c) (Proc.devRef .tc main_call0_c)
      = ReadP.val_main_call0_c (F := F) := by
  rewrite [ssa_nullary hW _ 23 rfl (by decide), to_call0_c]
  rfl

theorem stage_call0_v1 :
    after (ValueP.ops (F := F)) (launchContents m c) (Proc.devRef .tc main_call0_v1)
      = ReadP.val_main_call0_v1 (F := F) := by
  rewrite [ssa_unary hW _ 24 rfl (by decide) (by decide), stage_call0_c, to_call0_v1, of_call0_c]
  rfl

theorem stage_call0_v2 :
    after (ValueP.ops (F := F)) (launchContents m c) (Proc.devRef .tc main_call0_v2)
      = ReadP.val_main_call0_v2 (F := F) := by
  rewrite [ssa_binary hW _ 25 rfl (by decide) (by decide) (by decide), stage_call0_v0, stage_call0_v1,
    to_call0_v2, of_call0_v0, of_call0_v1]
  rfl

theorem stage_call0_v3 :
    after (ValueP.ops (F := F)) (launchContents m c) (Proc.devRef .tc main_call0_v3)
      = ReadP.val_main_call0_v3 (F := F) := by
  rewrite [ssa_nullary hW _ 26 rfl (by decide), to_call0_v3]
  rfl

theorem stage_call0_v4 :
    after (ValueP.ops (F := F)) (launchContents m c) (Proc.devRef .tc main_call0_v4)
      = ReadP.val_main_call0_v4 (F := F) := by
  rewrite [ssa_binary hW _ 27 rfl (by decide) (by decide) (by decide), stage_call0_v2, stage_call0_v3,
    to_call0_v4, of_call0_v2, of_call0_v3]
  rfl

theorem stage_call0_v5 :
    after (ValueP.ops (F := F)) (launchContents m c) (Proc.devRef .tc main_call0_v5)
      = ReadP.val_main_call0_v5 (F := F) := by
  rewrite [ssa_unary hW _ 28 rfl (by decide) (by decide), stage_call0_v4, to_call0_v5, of_call0_v4]
  rfl

theorem stage_call0_cst :
    after (ValueP.ops (F := F)) (launchContents m c) (Proc.devRef .tc main_call0_cst)
      = ReadP.val_main_call0_cst (F := F) := by
  rewrite [ssa_nullary hW _ 29 rfl (by decide), to_call0_cst]
  rfl

theorem stage_call0_v6 :
    after (ValueP.ops (F := F)) (launchContents m c) (Proc.devRef .tc main_call0_v6)
      = ReadP.val_main_call0_v6 (F := F) := by
  rewrite [ssa_unary hW _ 30 rfl (by decide) (by decide), stage_call0_cst, to_call0_v6, of_call0_cst]
  rfl

theorem stage_v18 :
    after (ValueP.ops (F := F)) (launchContents m c) (Proc.devRef .tc main_v18)
      = ReadP.val_main_v18 (F := F) (m ((c.tc : Thread nD τ).loc main_arg0)) (m ((c.tc : Thread nD τ).loc main_arg2)) := by
  rewrite [ssa_ternary hW _ 31 rfl (by decide) (by decide) (by decide) (by decide),
    stage_call0_v5, stage_v17, stage_call0_v6, to_v18, of_call0_v5, of_v17, of_call0_v6]
  rfl

/-! ## Operations 32 and 33: made symmetric

The masked square with its last two axes exchanged (v19), added to itself (v20). -/

theorem stage_v19 :
    after (ValueP.ops (F := F)) (launchContents m c) (Proc.devRef .tc main_v19)
      = ReadP.val_main_v19 (F := F) (m ((c.tc : Thread nD τ).loc main_arg0)) (m ((c.tc : Thread nD τ).loc main_arg2)) := by
  rw [ssa_unary hW _ 32 rfl (by decide) (by decide), stage_v18]
  rfl

theorem stage_v20 :
    after (ValueP.ops (F := F)) (launchContents m c) (Proc.devRef .tc main_v20)
      = ReadP.val_main_v20 (F := F) (m ((c.tc : Thread nD τ).loc main_arg0)) (m ((c.tc : Thread nD τ).loc main_arg2)) := by
  rw [ssa_binary hW _ 33 rfl (by decide) (by decide) (by decide), stage_v18, stage_v19]
  rfl

/-! ## Operations 34 to 38: which positions carry a class other than zero

The numbers 0 to 1443 (v21, used again below); the class indices compared unequal to a spread zero (c_3, v22, v23);
the truth value as a float, one or zero (v24). -/

theorem stage_v21 :
    after (ValueP.ops (F := F)) (launchContents m c) (Proc.devRef .tc main_v21) = ReadP.val_main_v21 (F := F) := by
  rw [ssa_nullary hW _ 34 rfl (by decide)]
  rfl

theorem stage_c_3 :
    after (ValueP.ops (F := F)) (launchContents m c) (Proc.devRef .tc main_c_3) = ReadP.val_main_c_3 (F := F) := by
  rw [ssa_nullary hW _ 35 rfl (by decide)]
  rfl

theorem stage_v22 :
    after (ValueP.ops (F := F)) (launchContents m c) (Proc.devRef .tc main_v22) = ReadP.val_main_v22 (F := F) := by
  rw [ssa_unary hW _ 36 rfl (by decide) (by decide), stage_c_3]
  rfl

theorem stage_v23 :
    after (ValueP.ops (F := F)) (launchContents m c) (Proc.devRef .tc main_v23)
      = ReadP.val_main_v23 (F := F) (m ((c.tc : Thread nD τ).loc main_arg2)) := by
  rw [ssa_binary hW _ 37 rfl (by decide) (by decide) (by decide), keep_arg2, stage_v22]
  rfl

theorem stage_v24 :
    after (ValueP.ops (F := F)) (launchContents m c) (Proc.devRef .tc main_v24)
      = ReadP.val_main_v24 (F := F) (m ((c.tc : Thread nD τ).loc main_arg2)) := by
  rw [ssa_unary hW _ 38 rfl (by decide) (by decide), stage_v23]
  rfl

/-! ## Operations 39 to 45: the diagonal's row coordinate

The position number, a negative one moved up by 1444: below zero (c_4, v25, v26), plus 1444 (c_5, v27, v28), the
choice (v29). None of it depends on an argument. -/

theorem stage_c_4 :
    after (ValueP.ops (F := F)) (launchContents m c) (Proc.devRef .tc main_c_4) = ReadP.val_main_c_4 (F := F) := by
  rw [ssa_nullary hW _ 39 rfl (by decide)]
  rfl

theorem stage_v25 :
    after (ValueP.ops (F := F)) (launchContents m c) (Proc.devRef .tc main_v25) = ReadP.val_main_v25 (F := F) := by
  rw [ssa_unary hW _ 40 rfl (by decide) (by decide), stage_c_4]
  rfl

theorem stage_v26 :
    after (ValueP.ops (F := F)) (launchContents m c) (Proc.devRef .tc main_v26) = ReadP.val_main_v26 (F := F) := by
  rw [ssa_binary hW _ 41 rfl (by decide) (by decide) (by decide), stage_v21, stage_v25]
  rfl

theorem stage_c_5 :
    after (ValueP.ops (F := F)) (launchContents m c) (Proc.devRef .tc main_c_5) = ReadP.val_main_c_5 (F := F) := by
  rw [ssa_nullary hW _ 42 rfl (by decide)]
  rfl

theorem stage_v27 :
    after (ValueP.ops (F := F)) (launchContents m c) (Proc.devRef .tc main_v27) = ReadP.val_main_v27 (F := F) := by
  rw [ssa_unary hW _ 43 rfl (by decide) (by decide), stage_c_5]
  rfl

theorem stage_v28 :
    after (ValueP.ops (F := F)) (launchContents m c) (Proc.devRef .tc main_v28) = ReadP.val_main_v28 (F := F) := by
  rw [ssa_binary hW _ 44 rfl (by decide) (by decide) (by decide), stage_v21, stage_v27]
  rfl

theorem stage_v29 :
    after (ValueP.ops (F := F)) (launchContents m c) (Proc.devRef .tc main_v29) = ReadP.val_main_v29 (F := F) := by
  rw [ssa_ternary hW _ 45 rfl (by decide) (by decide) (by decide) (by decide), stage_v26, stage_v28, stage_v21]
  rfl

/-! ## Operations 46 to 52: the diagonal's column coordinate

The same three steps once more, over constants of their own (c_6, v30, v31; c_7, v32, v33; v34). -/

theorem stage_c_6 :
    after (ValueP.ops (F := F)) (launchContents m c) (Proc.devRef .tc main_c_6) = ReadP.val_main_c_6 (F := F) := by
  rw [ssa_nullary hW _ 46 rfl (by decide)]
  rfl

theorem stage_v30 :
    after (ValueP.ops (F := F)) (launchContents m c) (Proc.devRef .tc main_v30) = ReadP.val_main_v30 (F := F) := by
  rw [ssa_unary hW _ 47 rfl (by decide) (by decide), stage_c_6]
  rfl

theorem stage_v31 :
    after (ValueP.ops (F := F)) (launchContents m c) (Proc.devRef .tc main_v31) = ReadP.val_main_v31 (F := F) := by
  rw [ssa_binary hW _ 48 rfl (by decide) (by decide) (by decide), stage_v21, stage_v30]
  rfl

theorem stage_c_7 :
    after (ValueP.ops (F := F)) (launchContents m c) (Proc.devRef .tc main_c_7) = ReadP.val_main_c_7 (F := F) := by
  rw [ssa_nullary hW _ 49 rfl (by decide)]
  rfl

theorem stage_v32 :
    after (ValueP.ops (F := F)) (launchContents m c) (Proc.devRef .tc main_v32) = ReadP.val_main_v32 (F := F) := by
  rw [ssa_unary hW _ 50 rfl (by decide) (by decide), stage_c_7]
  rfl

theorem stage_v33 :
    after (ValueP.ops (F := F)) (launchContents m c) (Proc.devRef .tc main_v33) = ReadP.val_main_v33 (F := F) := by
  rw [ssa_binary hW _ 51 rfl (by decide) (by decide) (by decide), stage_v21, stage_v32]
  rfl

theorem stage_v34 :
    after (ValueP.ops (F := F)) (launchContents m c) (Proc.devRef .tc main_v34) = ReadP.val_main_v34 (F := F) := by
  rw [ssa_ternary hW _ 52 rfl (by decide) (by decide) (by decide) (by decide), stage_v31, stage_v33, stage_v21]
  rfl

/-! ## Operations 53 to 55: the diagonal's positions as pairs

Each coordinate given a last axis of length one (v35, v36), the two joined along it (v37). -/

theorem stage_v35 :
    after (ValueP.ops (F := F)) (launchContents m c) (Proc.devRef .tc main_v35) = ReadP.val_main_v35 (F := F) := by
  rw [ssa_unary hW _ 53 rfl (by decide) (by decide), stage_v29]
  rfl

theorem stage_v36 :
    after (ValueP.ops (F := F)) (launchContents m c) (Proc.devRef .tc main_v36) = ReadP.val_main_v36 (F := F) := by
  rw [ssa_unary hW _ 54 rfl (by decide) (by decide), stage_v34]
  rfl

theorem stage_v37 :
    after (ValueP.ops (F := F)) (launchContents m c) (Proc.devRef .tc main_v37) = ReadP.val_main_v37 (F := F) := by
  rw [ssa_binary hW _ 55 rfl (by decide) (by decide) (by decide), stage_v35, stage_v36]
  rfl

/-! ## Operations 56 and 57: the diagonal added in, and the product

The symmetric square with the float mask v24 added along its diagonal, at the pairs v37 (v38); that square times the
second argument, contracted over the square's last axis, batch by batch (v39, the result). -/

theorem stage_v38 :
    after (ValueP.ops (F := F)) (launchContents m c) (Proc.devRef .tc main_v38)
      = ReadP.val_main_v38 (F := F) (m ((c.tc : Thread nD τ).loc main_arg0)) (m ((c.tc : Thread nD τ).loc main_arg2)) := by
  rw [ssa_ternary hW _ 56 rfl (by decide) (by decide) (by decide) (by decide), stage_v20, stage_v37, stage_v24]
  rfl

theorem stage_v39 :
    after (ValueP.ops (F := F)) (launchContents m c) (Proc.devRef .tc main_v39)
      = ReadP.val_main_v39 (F := F) (m ((c.tc : Thread nD τ).loc main_arg0)) (m ((c.tc : Thread nD τ).loc main_arg1))
          (m ((c.tc : Thread nD τ).loc main_arg2)) := by
  rw [ssa_binary hW _ 57 rfl (by decide) (by decide) (by decide), stage_v38, keep_arg1]
  rfl

end Stages

/-! ## The run -/

/-- On every device, for any float values, from any memory with zero counters: every weakly fair execution of the
    reference's @main terminates with the result buffer at the last stage of the three arguments' launch contents and
    the three arguments unchanged. The run gives every buffer as the fold of the whole line; the result buffer's fold
    is the last stage equation, the arguments' are the three facts at the head of this module. -/
theorem run_val (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v39) = ReadP.val_main_v39 (F := F) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono
    (fun _ h c => ⟨(h c main_v39).trans (stage_v39 m c), (h c main_arg0).trans (keep_arg0 m c),
      (h c main_arg1).trans (keep_arg1 m c), (h c main_arg2).trans (keep_arg2 m c)⟩)
    (ValueP.run_after m ρ)

end Cert.ReferenceIdeal.RefStages
-- ==== Proof.lean ====
/-
  The kernel computes, for each of 16 batch entries, the graph over 1444 nodes applied to the node features:
  `fused[b, i, :] = ∑ j, graph[b, i, j] * source[b, j, :]`, where for `j < i` the graph entry is the relation table at the
  two nodes' classes `P[c_i, c_j]`, for `i < j` the transposed entry `P[c_j, c_i]`, and on the diagonal one unless
  the node's class is zero. The reference gathers the whole 1444 x 1444 graph and contracts it with the features. The
  kernel never forms the graph: it pads the nodes to 1536 and the classes to 128, tiles the nodes in two tiles of 768,
  builds a tile's graph block only on the diagonal, and off the diagonal folds a column tile by class first
  (`T[c, :] = ∑ over the tile's nodes of class c of source`) and projects the folds back through the row tile's
  classes, `∑ c, P[c_i, c] * T[c, :]`.

  Over the extended reals the two agree because (1) a change of float format is the identity and a product with a
  one-hot row is a table lookup; (2) `P[c_i, c] * ∑ ... = ∑ P[c_i, c] * ...` — the one law here that needs the inputs to be
  real numbers, which is what the precondition's finiteness gives; (3) the padded nodes carry zero feature rows, so they
  add nothing; (4) for class words in `[0, 21)` — the range of the table they index, which the precondition states —
  the kernel's clip and the reference's wrap-and-clamp are both the identity and the padded table is the table.

  The frames: the reference is a line of host operations; each kernel program is three stretches of host operations, the
  kernel region, and a slice. Two of the region's windows read one array (the padded class words), whose ownership is
  dealt between them in halves at the region's entry.
-/
import proofs.«408942_j68186900791974_3_alg».proof.Defs
import proofs.«408942_j68186900791974_3_alg».proof.Proof.Gen.Kernel
import proofs.«408942_j68186900791974_3_alg».proof.Proof.Gen.KernelIdeal
import proofs.«408942_j68186900791974_3_alg».proof.Proof.Gen.ReferenceIdeal
import proofs.«408942_j68186900791974_3_alg».proof.Proof.Gen.Pre_finite_inputs
import proofs.«408942_j68186900791974_3_alg».proof.Proof.BitsFrameClaim
import proofs.«408942_j68186900791974_3_alg».proof.Proof.KernelValue
import proofs.«408942_j68186900791974_3_alg».proof.Proof.RefValue
import proofs.«408942_j68186900791974_3_alg».proof.Proof.RefStages
import Idealize.ShloMosaic.Adequacy
import Idealize.ShloMosaic.Init

noncomputable section

namespace Cert.Proof

open Idealize.ShloMosaic Idealize.ShloMosaic.TcCoe Idealize.SL.Sem

attribute [local instance] Cert.Kernel.Gen.facts Cert.KernelIdeal.Gen.facts Cert.ReferenceIdeal.Gen.facts Cert.Pre_finite_inputs.Gen.facts

/-- The word-level kernel program runs to the end, faults nowhere and leaves its arguments unchanged: this holds at every
    float instance and needs nothing of the precondition. -/
theorem frame_k : Cert.frame_Kernel := fun m ρ _ => Cert.Kernel.Hand.frame m ρ

/-- The same for the idealized kernel program. -/
theorem frame_ki : Cert.frame_KernelIdeal := fun m ρ _ => Cert.KernelIdeal.Hand.frame m ρ

/-- The reference is a line of host operations: its run, with the result dropped. -/
theorem frame_ri : Cert.frame_ReferenceIdeal := fun m ρ _ =>
  (θ_run Cert.ReferenceIdeal.defs _ _).mono (fun _ h c => ⟨(h c).2.1, (h c).2.2.1, (h c).2.2.2⟩)
    (Cert.ReferenceIdeal.RefStages.run_val (F := Ideal) m ρ)

/-- From memories agreeing on the arguments, both idealized programs end with the result at the graph applied to the
    features (and the second result, the features themselves, as launched). -/
theorem algebraic : Cert.algebraic_KernelIdeal_ReferenceIdeal := by
  intro m ρ m' ρ' hpre hagree
  refine ⟨fun c => Cert.Proof.Spec.agg (m ((c.tc : Thread _ _).loc Cert.KernelIdeal.main_arg0)) (m ((c.tc : Thread _ _).loc Cert.KernelIdeal.main_arg1)) (m ((c.tc : Thread _ _).loc Cert.KernelIdeal.main_arg2)),
    fun c => m ((c.tc : Thread _ _).loc Cert.KernelIdeal.main_arg1), ?_, ?_⟩
  · exact (θ_run Cert.KernelIdeal.defs _ _).mono (fun _ h c => ⟨(h c).1, (h c).2.2.1, (h c).2.1, (h c).2.2.1, (h c).2.2.2⟩)
      (Cert.KernelIdeal.Hand.value_run m ρ hpre)
  · refine (θ_run Cert.ReferenceIdeal.defs _ _).mono (fun _ h c => ⟨(h c).1.trans ?_, (h c).2.2.1.trans (hagree c).2.1, (h c).2.1, (h c).2.2.1, (h c).2.2.2⟩)
      (Cert.ReferenceIdeal.RefStages.run_val (F := Ideal) m' ρ')
    obtain ⟨-, -, hci⟩ := Cert.Proof.PreFacts.pre_decode _ _ _ (hpre c)
    rw [(hagree c).1, (hagree c).2.1, (hagree c).2.2]
    exact Cert.ReferenceIdeal.RefValue.val_eq_agg _ _ _ hci

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
